-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S10000x64 : Shape := ⟨2, ![10000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x64 : Shape := ⟨2, ![128, 64]⟩
abbrev S64 : Shape := ⟨1, ![64]⟩
abbrev S16x64x32 : Shape := ⟨3, ![16, 64, 32]⟩
abbrev S64x32 : Shape := ⟨2, ![64, 32]⟩
abbrev S64x16 : Shape := ⟨2, ![64, 16]⟩
abbrev S16 : Shape := ⟨1, ![16]⟩
abbrev S4096 : Shape := ⟨1, ![4096]⟩
abbrev S1920000 : Shape := ⟨1, ![1920000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S16x64x32 : S_.BroadcastsInDim S16x64x32 (![] : Fin 0 → Fin S16x64x32.rank)
  reducesTo_S16x64x32_S_d0_1_2 : S16x64x32.ReducesTo [0, 1, 2] S_
  bcast_S_S64x32 : S_.BroadcastsInDim S64x32 (![] : Fin 0 → Fin S64x32.rank)
  reducesTo_S64x32_S_d0_1 : S64x32.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S1920000 : S_.BroadcastsInDim S1920000 (![] : Fin 0 → Fin S1920000.rank)
  reducesTo_S1920000_S_d0 : S1920000.ReducesTo [0] S_

variable [Facts]

def fn_part5 {F : FTy → Type} [FloatOps F] (main_v82 : IVec S_ 1) (main_v84 : IVec S1920000 1) : IVec S_ 1 :=
  let main_c_33 : IVec S_ 1 := constantI S_ 1 1#1
  let main_v85 : IVec S_ 1 := (fun x v => Host.reduce IntOp.andi x v reducesTo_S1920000_S_d0 h_S_) main_v84 main_c_33
  let main_v86 : IVec S_ 1 := andi main_v82 main_v85
  main_v86

def fn_part4 {F : FTy → Type} [FloatOps F] (main_arg14 : FVec F S64x16 .f32) (main_arg15 : FVec F S16 .f32) (main_arg20 : IVec S1920000 32) (main_v63 : IVec S_ 1) (main_v67 : IVec S_ 1) : IVec S_ 1 :=
  let main_v68 : IVec S_ 1 := andi main_v63 main_v67
  let main_v69 : FVec F S64x16 .f32 := Host.absf main_arg14
  let main_cst_26 : FVec F S_ .f32 := constant S_ .f32 0x7F800000#32
  let main_v70 : FVec F S64x16 .f32 := broadcastInDim S64x16 ![] bcast_S_S64x16 main_cst_26
  let main_v71 : IVec S64x16 1 := cmpf .olt main_v69 main_v70
  let main_c_27 : IVec S_ 1 := constantI S_ 1 1#1
  let main_v72 : IVec S_ 1 := (fun x v => Host.reduce IntOp.andi x v reducesTo_S64x16_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_c_30 : IVec S_ 32 := constantI S_ 32 0#32
  let main_v79 : IVec S1920000 32 := broadcastInDim S1920000 ![] bcast_S_S1920000 main_c_30
  let main_v80 : IVec S1920000 1 := cmpi .sge main_arg20 main_v79
  let main_c_31 : IVec S_ 1 := constantI S_ 1 1#1
  let main_v81 : IVec S_ 1 := (fun x v => Host.reduce IntOp.andi x v reducesTo_S1920000_S_d0 h_S_) main_v80 main_c_31
  let main_v82 : IVec S_ 1 := andi main_v78 main_v81
  let main_c_32 : IVec S_ 32 := constantI S_ 32 16#32
  let main_v83 : IVec S1920000 32 := broadcastInDim S1920000 ![] bcast_S_S1920000 main_c_32
  let main_v84 : IVec S1920000 1 := cmpi .slt main_arg20 main_v83
  fn_part5 (F := F) main_v82 main_v84

def fn_part3 {F : FTy → Type} [FloatOps F] (main_arg11 : FVec F S64x32 .f32) (main_arg12 : FVec F S32 .f32) (main_arg13 : FVec F S16x64x32 .f32) (main_arg14 : FVec F S64x16 .f32) (main_arg15 : FVec F S16 .f32) (main_arg20 : IVec S1920000 32) (main_v48 : IVec S_ 1) (main_v49 : FVec F S16x64x32 .f32) (main_v50 : FVec F S16x64x32 .f32) : IVec S_ 1 :=
  let main_v51 : IVec S16x64x32 1 := cmpf .olt main_v49 main_v50
  let main_c_19 : IVec S_ 1 := constantI S_ 1 1#1
  let main_v52 : IVec S_ 1 := (fun x v => Host.reduce IntOp.andi x v reducesTo_S16x64x32_S_d0_1_2 h_S_) main_v51 main_c_19
  let main_v53 : IVec S_ 1 := andi main_v48 main_v52
  let main_v54 : FVec F S64x32 .f32 := Host.absf main_arg11
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S16x64x32 .f32 := Host.absf main_arg13
  let main_cst_24 : FVec F S_ .f32 := constant S_ .f32 0x7F800000#32
  let main_v65 : FVec F S16x64x32 .f32 := broadcastInDim S16x64x32 ![] bcast_S_S16x64x32 main_cst_24
  let main_v66 : IVec S16x64x32 1 := cmpf .olt main_v64 main_v65
  let main_c_25 : IVec S_ 1 := constantI S_ 1 1#1
  let main_v67 : IVec S_ 1 := (fun x v => Host.reduce IntOp.andi x v reducesTo_S16x64x32_S_d0_1_2 h_S_) main_v66 main_c_25
  fn_part4 (F := F) main_arg14 main_arg15 main_arg20 main_v63 main_v67

def fn_part2 {F : FTy → Type} [FloatOps F] (main_arg7 : FVec F S128 .f32) (main_arg8 : FVec F S128x64 .f32) (main_arg9 : FVec F S64 .f32) (main_arg10 : FVec F S16x64x32 .f32) (main_arg11 : FVec F S64x32 .f32) (main_arg12 : FVec F S32 .f32) (main_arg13 : FVec F S16x64x32 .f32) (main_arg14 : FVec F S64x16 .f32) (main_arg15 : FVec F S16 .f32) (main_arg20 : IVec S1920000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S16x64x32 .f32 := Host.absf main_arg10
  let main_cst_18 : FVec F S_ .f32 := constant S_ .f32 0x7F800000#32
  let main_v50 : FVec F S16x64x32 .f32 := broadcastInDim S16x64x32 ![] bcast_S_S16x64x32 main_cst_18
  fn_part3 (F := F) main_arg11 main_arg12 main_arg13 main_arg14 main_arg15 main_arg20 main_v48 main_v49 main_v50

def fn_part1 {F : FTy → Type} [FloatOps F] (main_arg4 : FVec F S128x32 .f32) (main_arg5 : FVec F S32 .f32) (main_arg6 : FVec F S32x128 .f32) (main_arg7 : FVec F S128 .f32) (main_arg8 : FVec F S128x64 .f32) (main_arg9 : FVec F S64 .f32) (main_arg10 : FVec F S16x64x32 .f32) (main_arg11 : FVec F S64x32 .f32) (main_arg12 : FVec F S32 .f32) (main_arg13 : FVec F S16x64x32 .f32) (main_arg14 : FVec F S64x16 .f32) (main_arg15 : FVec F S16 .f32) (main_arg20 : IVec S1920000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x128 .f32 := Host.absf main_arg6
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg20 main_v33

def fn {F : FTy → Type} [FloatOps F] (main_arg0 : FVec F S50000x64 .f32) (main_arg1 : FVec F S10000x64 .f32) (main_arg2 : FVec F S64x128 .f32) (main_arg3 : FVec F S128 .f32) (main_arg4 : FVec F S128x32 .f32) (main_arg5 : FVec F S32 .f32) (main_arg6 : FVec F S32x128 .f32) (main_arg7 : FVec F S128 .f32) (main_arg8 : FVec F S128x64 .f32) (main_arg9 : FVec F S64 .f32) (main_arg10 : FVec F S16x64x32 .f32) (main_arg11 : FVec F S64x32 .f32) (main_arg12 : FVec F S32 .f32) (main_arg13 : FVec F S16x64x32 .f32) (main_arg14 : FVec F S64x16 .f32) (main_arg15 : FVec F S16 .f32) (main_arg16 : IVec S4096 32) (main_arg17 : IVec S4096 32) (main_arg18 : IVec S1920000 32) (main_arg19 : IVec S1920000 32) (main_arg20 : IVec S1920000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg20 main_v13 main_v16
-- ==== Kernel.lean ====
abbrev S50000x64 : Shape := ⟨2, ![50000, 64]⟩
abbrev S10000x64 : Shape := ⟨2, ![10000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x64 : Shape := ⟨2, ![128, 64]⟩
abbrev S64 : Shape := ⟨1, ![64]⟩
abbrev S16x64x32 : Shape := ⟨3, ![16, 64, 32]⟩
abbrev S64x32 : Shape := ⟨2, ![64, 32]⟩
abbrev S64x16 : Shape := ⟨2, ![64, 16]⟩
abbrev S16 : Shape := ⟨1, ![16]⟩
abbrev S4096 : Shape := ⟨1, ![4096]⟩
abbrev S1920000 : Shape := ⟨1, ![1920000]⟩
abbrev S60000x64 : Shape := ⟨2, ![60000, 64]⟩
abbrev S60000x32 : Shape := ⟨2, ![60000, 32]⟩
abbrev S6000x64 : Shape := ⟨2, ![6000, 64]⟩
abbrev S6000x32 : Shape := ⟨2, ![6000, 32]⟩
abbrev S6000x128 : Shape := ⟨2, ![6000, 128]⟩
abbrev S1x128 : Shape := ⟨2, ![1, 128]⟩
abbrev S1x32 : Shape := ⟨2, ![1, 32]⟩
abbrev S1x64 : Shape := ⟨2, ![1, 64]⟩
abbrev S_ : Shape := ⟨0, ![]⟩
abbrev S16x64 : Shape := ⟨2, ![16, 64]⟩
abbrev S1920000x1 : Shape := ⟨2, ![1920000, 1]⟩
abbrev S1920000x32 : Shape := ⟨2, ![1920000, 32]⟩
abbrev S5120x32 : Shape := ⟨2, ![5120, 32]⟩
abbrev S5120 : Shape := ⟨1, ![5120]⟩
abbrev S5120x64 : Shape := ⟨2, ![5120, 64]⟩
abbrev S5120x1 : Shape := ⟨2, ![5120, 1]⟩
abbrev S5120x16 : Shape := ⟨2, ![5120, 16]⟩
abbrev S60000 : Shape := ⟨1, ![60000]⟩
abbrev S60000x1 : Shape := ⟨2, ![60000, 1]⟩
abbrev S60000x16 : Shape := ⟨2, ![60000, 16]⟩
abbrev S6000x16 : Shape := ⟨2, ![6000, 16]⟩
abbrev S1x16 : Shape := ⟨2, ![1, 16]⟩
abbrev S60000x48 : Shape := ⟨2, ![60000, 48]⟩
abbrev S4096x1 : Shape := ⟨2, ![4096, 1]⟩
abbrev S4096x48 : Shape := ⟨2, ![4096, 48]⟩

abbrev nBuf : Space → Nat
  | .hbm => 148
  | .vmem => 51
  | .smem => 0
  | _ => 0

abbrev hbmTy0_0 (i : Nat) : BufTy := match i % 128 with
  | 0 => ⟨S50000x64, .f32⟩
  | 1 => ⟨S10000x64, .f32⟩
  | 2 => ⟨S64x128, .f32⟩
  | 3 => ⟨S128, .f32⟩
  | 4 => ⟨S128x32, .f32⟩
  | 5 => ⟨S32, .f32⟩
  | 6 => ⟨S32x128, .f32⟩
  | 7 => ⟨S128, .f32⟩
  | 8 => ⟨S128x64, .f32⟩
  | 9 => ⟨S64, .f32⟩
  | 10 => ⟨S16x64x32, .f32⟩
  | 11 => ⟨S64x32, .f32⟩
  | 12 => ⟨S32, .f32⟩
  | 13 => ⟨S16x64x32, .f32⟩
  | 14 => ⟨S64x16, .f32⟩
  | 15 => ⟨S16, .f32⟩
  | 16 => ⟨S4096, .i32⟩
  | 17 => ⟨S4096, .i32⟩
  | 18 => ⟨S1920000, .i32⟩
  | 19 => ⟨S1920000, .i32⟩
  | 20 => ⟨S1920000, .i32⟩
  | 21 => ⟨S60000x64, .f32⟩
  | 22 => ⟨S60000x32, .f32⟩
  | 23 => ⟨S60000x64, .f32⟩
  | 24 => ⟨S60000x64, .f32⟩
  | 25 => ⟨S60000x64, .f32⟩
  | 26 => ⟨S_, .f32⟩
  | 27 => ⟨S_, .f32⟩
  | 28 => ⟨S_, .f32⟩
  | 29 => ⟨S_, .f32⟩
  | 30 => ⟨S_, .f32⟩
  | 31 => ⟨S16x64, .f32⟩
  | 32 => ⟨S_, .i32⟩
  | 33 => ⟨S1920000, .i32⟩
  | 34 => ⟨S1920000, .i1⟩
  | 35 => ⟨S_, .i32⟩
  | 36 => ⟨S1920000, .i32⟩
  | 37 => ⟨S1920000, .i32⟩
  | 38 => ⟨S1920000, .i32⟩
  | 39 => ⟨S1920000x1, .i32⟩
  | 40 => ⟨S1920000x32, .f32⟩
  | 41 => ⟨S_, .i32⟩
  | 42 => ⟨S1920000, .i32⟩
  | 43 => ⟨S1920000, .i1⟩
  | 44 => ⟨S_, .i32⟩
  | 45 => ⟨S1920000, .i32⟩
  | 46 => ⟨S1920000, .i32⟩
  | 47 => ⟨S1920000, .i32⟩
  | 48 => ⟨S1920000x1, .i32⟩
  | 49 => ⟨S1920000x32, .f32⟩
  | 50 => ⟨S1920000x32, .f32⟩
  | 51 => ⟨S_, .f32⟩
  | 52 => ⟨S60000x32, .f32⟩
  | 53 => ⟨S1920000x1, .i32⟩
  | 54 => ⟨S60000x32, .f32⟩
  | 55 => ⟨S_, .f32⟩
  | 56 => ⟨S1920000, .f32⟩
  | 57 => ⟨S_, .f32⟩
  | 58 => ⟨S60000, .f32⟩
  | 59 => ⟨S1920000x1, .i32⟩
  | 60 => ⟨S60000, .f32⟩
  | 61 => ⟨S60000x1, .f32⟩
  | 62 => ⟨S_, .f32⟩
  | 63 => ⟨S60000x1, .f32⟩
  | 64 => ⟨S60000x1, .i1⟩
  | 65 => ⟨S60000x1, .f32⟩
  | 66 => ⟨S_, .f32⟩
  | 67 => ⟨S60000x1, .f32⟩
  | 68 => ⟨S60000x1, .f32⟩
  | 69 => ⟨S60000x32, .f32⟩
  | 70 => ⟨S60000x32, .f32⟩
  | 71 => ⟨S_, .f32⟩
  | 72 => ⟨S_, .f32⟩
  | 73 => ⟨S60000x32, .i1⟩
  | 74 => ⟨S60000x32, .f32⟩
  | 75 => ⟨S60000x32, .f32⟩
  | 76 => ⟨S60000x32, .f32⟩
  | 77 => ⟨S_, .f32⟩
  | 78 => ⟨S16x64, .f32⟩
  | 79 => ⟨S_, .i32⟩
  | 80 => ⟨S1920000, .i32⟩
  | 81 => ⟨S1920000, .i1⟩
  | 82 => ⟨S_, .i32⟩
  | 83 => ⟨S1920000, .i32⟩
  | 84 => ⟨S1920000, .i32⟩
  | 85 => ⟨S1920000, .i32⟩
  | 86 => ⟨S1920000x1, .i32⟩
  | 87 => ⟨S1920000x32, .f32⟩
  | 88 => ⟨S_, .i32⟩
  | 89 => ⟨S1920000, .i32⟩
  | 90 => ⟨S1920000, .i1⟩
  | 91 => ⟨S_, .i32⟩
  | 92 => ⟨S1920000, .i32⟩
  | 93 => ⟨S1920000, .i32⟩
  | 94 => ⟨S1920000, .i32⟩
  | 95 => ⟨S1920000x1, .i32⟩
  | 96 => ⟨S1920000x32, .f32⟩
  | 97 => ⟨S1920000x32, .f32⟩
  | 98 => ⟨S_, .f32⟩
  | 99 => ⟨S60000x32, .f32⟩
  | 100 => ⟨S1920000x1, .i32⟩
  | 101 => ⟨S60000x32, .f32⟩
  | 102 => ⟨S_, .f32⟩
  | 103 => ⟨S1920000, .f32⟩
  | 104 => ⟨S_, .f32⟩
  | 105 => ⟨S60000, .f32⟩
  | 106 => ⟨S1920000x1, .i32⟩
  | 107 => ⟨S60000, .f32⟩
  | 108 => ⟨S60000x1, .f32⟩
  | 109 => ⟨S_, .f32⟩
  | 110 => ⟨S60000x1, .f32⟩
  | 111 => ⟨S60000x1, .i1⟩
  | 112 => ⟨S60000x1, .f32⟩
  | 113 => ⟨S_, .f32⟩
  | 114 => ⟨S60000x1, .f32⟩
  | 115 => ⟨S60000x1, .f32⟩
  | 116 => ⟨S60000x32, .f32⟩
  | 117 => ⟨S60000x32, .f32⟩
  | 118 => ⟨S_, .f32⟩
  | 119 => ⟨S_, .f32⟩
  | 120 => ⟨S60000x32, .i1⟩
  | 121 => ⟨S60000x32, .f32⟩
  | 122 => ⟨S60000x32, .f32⟩
  | 123 => ⟨S60000x16, .f32⟩
  | 124 => ⟨S60000x48, .f32⟩
  | 125 => ⟨S_, .i32⟩
  | 126 => ⟨S4096, .i32⟩
  | 127 => ⟨S4096, .i32⟩
  | _ => ⟨S50000x64, .f32⟩

abbrev hbmTy0_1 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S4096x48, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x48, .f32⟩
  | 18 => ⟨S4096x1, .f32⟩
  | 19 => ⟨S4096, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S6000x64, .f32⟩
  | .local _ .vmem, ⟨1, _⟩ => ⟨S6000x64, .f32⟩
  | .local _ .vmem, ⟨2, _⟩ => ⟨S64x128, .f32⟩
  | .local _ .vmem, ⟨3, _⟩ => ⟨S128, .f32⟩
  | .local _ .vmem, ⟨4, _⟩ => ⟨S128x32, .f32⟩
  | .local _ .vmem, ⟨5, _⟩ => ⟨S32, .f32⟩
  | .local _ .vmem, ⟨6, _⟩ => ⟨S32x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S6000x32, .f32⟩
  | .local _ .vmem, ⟨11, _⟩ => ⟨S6000x32, .f32⟩
  | .local _ .vmem, ⟨12, _⟩ => ⟨S6000x64, .f32⟩
  | .local _ .vmem, ⟨13, _⟩ => ⟨S6000x64, .f32⟩
  | .local _ .vmem, ⟨14, _⟩ => ⟨S5120x32, .f32⟩
  | .local _ .vmem, ⟨15, _⟩ => ⟨S5120x32, .f32⟩
  | .local _ .vmem, ⟨16, _⟩ => ⟨S5120x32, .f32⟩
  | .local _ .vmem, ⟨17, _⟩ => ⟨S5120x32, .f32⟩
  | .local _ .vmem, ⟨18, _⟩ => ⟨S5120, .i32⟩
  | .local _ .vmem, ⟨19, _⟩ => ⟨S5120, .i32⟩
  | .local _ .vmem, ⟨20, _⟩ => ⟨S16x64, .f32⟩
  | .local _ .vmem, ⟨21, _⟩ => ⟨S5120x32, .f32⟩
  | .local _ .vmem, ⟨22, _⟩ => ⟨S5120x32, .f32⟩
  | .local _ .vmem, ⟨23, _⟩ => ⟨S6000x32, .f32⟩
  | .local _ .vmem, ⟨24, _⟩ => ⟨S6000x32, .f32⟩
  | .local _ .vmem, ⟨25, _⟩ => ⟨S6000x32, .f32⟩
  | .local _ .vmem, ⟨26, _⟩ => ⟨S6000x32, .f32⟩
  | .local _ .vmem, ⟨27, _⟩ => ⟨S64x32, .f32⟩
  | .local _ .vmem, ⟨28, _⟩ => ⟨S32, .f32⟩
  | .local _ .vmem, ⟨29, _⟩ => ⟨S6000x32, .f32⟩
  | .local _ .vmem, ⟨30, _⟩ => ⟨S6000x32, .f32⟩
  | .local _ .vmem, ⟨31, _⟩ => ⟨S5120x32, .f32⟩
  | .local _ .vmem, ⟨32, _⟩ => ⟨S5120x32, .f32⟩
  | .local _ .vmem, ⟨33, _⟩ => ⟨S5120x32, .f32⟩
  | .local _ .vmem, ⟨34, _⟩ => ⟨S5120x32, .f32⟩
  | .local _ .vmem, ⟨35, _⟩ => ⟨S5120, .i32⟩
  | .local _ .vmem, ⟨36, _⟩ => ⟨S5120, .i32⟩
  | .local _ .vmem, ⟨37, _⟩ => ⟨S16x64, .f32⟩
  | .local _ .vmem, ⟨38, _⟩ => ⟨S5120x32, .f32⟩
  | .local _ .vmem, ⟨39, _⟩ => ⟨S5120x32, .f32⟩
  | .local _ .vmem, ⟨40, _⟩ => ⟨S6000x32, .f32⟩
  | .local _ .vmem, ⟨41, _⟩ => ⟨S6000x32, .f32⟩
  | .local _ .vmem, ⟨42, _⟩ => ⟨S6000x32, .f32⟩
  | .local _ .vmem, ⟨43, _⟩ => ⟨S6000x32, .f32⟩
  | .local _ .vmem, ⟨44, _⟩ => ⟨S64x16, .f32⟩
  | .local _ .vmem, ⟨45, _⟩ => ⟨S16, .f32⟩
  | .local _ .vmem, ⟨46, _⟩ => ⟨S6000x16, .f32⟩
  | .local _ .vmem, ⟨47, _⟩ => ⟨S6000x16, .f32⟩
  | .local _ .vmem, ⟨48, _⟩ => ⟨S4096x48, .f32⟩
  | .local _ .vmem, ⟨49, _⟩ => ⟨S4096x48, .f32⟩
  | .local _ .vmem, ⟨50, _⟩ => ⟨S4096x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1_0 : Ref sig .tc := ⟨.hbm, 22, rfl⟩
abbrev main_v1_1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_cst_1 : Ref sig .tc := ⟨.hbm, 30, rfl⟩
abbrev main_v6 : Ref sig .tc := ⟨.hbm, 31, rfl⟩
abbrev main_c : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_cst_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_10 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v37 : Ref sig .tc := ⟨.hbm, 75, rfl⟩
abbrev main_v38 : Ref sig .tc := ⟨.hbm, 76, rfl⟩
abbrev main_cst_11 : Ref sig .tc := ⟨.hbm, 77, rfl⟩
abbrev main_v39 : Ref sig .tc := ⟨.hbm, 78, rfl⟩
abbrev main_c_12 : Ref sig .tc := ⟨.hbm, 79, rfl⟩
abbrev main_v40 : Ref sig .tc := ⟨.hbm, 80, rfl⟩
abbrev main_v41 : Ref sig .tc := ⟨.hbm, 81, rfl⟩
abbrev main_c_13 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_14 : Ref sig .tc := ⟨.hbm, 88, rfl⟩
abbrev main_v47 : Ref sig .tc := ⟨.hbm, 89, rfl⟩
abbrev main_v48 : Ref sig .tc := ⟨.hbm, 90, rfl⟩
abbrev main_c_15 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_16 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_17 : Ref sig .tc := ⟨.hbm, 102, rfl⟩
abbrev main_v58 : Ref sig .tc := ⟨.hbm, 103, rfl⟩
abbrev main_cst_18 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_19 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_20 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_21 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c_22 : Ref sig .tc := ⟨.hbm, 125, rfl⟩
abbrev main_v73 : Ref sig .tc := ⟨.hbm, 126, rfl⟩
abbrev main_v74 : Ref sig .tc := ⟨.hbm, 127, rfl⟩
abbrev main_c_23 : Ref sig .tc := ⟨.hbm, 128, rfl⟩
abbrev main_v75 : Ref sig .tc := ⟨.hbm, 129, rfl⟩
abbrev main_v76 : Ref sig .tc := ⟨.hbm, 130, rfl⟩
abbrev main_c_24 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_c_25 : Ref sig .tc := ⟨.hbm, 137, rfl⟩
abbrev main_v82 : Ref sig .tc := ⟨.hbm, 138, rfl⟩
abbrev main_v83 : Ref sig .tc := ⟨.hbm, 139, rfl⟩
abbrev main_c_26 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc5_stg0_0 : Ref sig .tc := ⟨.vmem, 48, rfl⟩
abbrev cc5_stg1_0 : Ref sig .tc := ⟨.vmem, 49, rfl⟩
abbrev cc5_stg2_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem4_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc5_sem0_0 : DmaSem sig := 48
abbrev cc5_sem1_0 : DmaSem sig := 49
abbrev cc5_sem2_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S6000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![375], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5120x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5120x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5120 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5120x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![375], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5120x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5120x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5120 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5120x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S6000x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S4096x48 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S4096x48 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S4096x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  concatenates_S50000x64_S10000x64_S60000x64_d0 : Shape.Concatenates [S50000x64, S10000x64] S60000x64 0
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S6000x128 : S1x128.Broadcasts S6000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S6000x32 : S1x32.Broadcasts S6000x32
  inb_S6000x32_S6000x32_0_0 : ∀ a, (![0, 0] : Fin 2 → Nat) a + S6000x32.size a ≤ S6000x32.size a
  h_S6000x32 : 0 < S6000x32.numel
  inb_S32x128_S32x128_0_0 : ∀ a, (![0, 0] : Fin 2 → Nat) a + S32x128.size a ≤ S32x128.size a
  h_S32x128 : 0 < S32x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S6000x64 : S1x64.Broadcasts S6000x64
  reducesTo_S60000x64_S_d0_1 : S60000x64.ReducesTo [0, 1] S_
  h_S_ : 0 < S_.numel
  reducesTo_S16x64x32_S16x64_d2 : S16x64x32.ReducesTo [2] S16x64
  bcast_S_S1920000 : S_.BroadcastsInDim S1920000 (![] : Fin 0 → Fin S1920000.rank)
  bcast_S1920000_S1920000x1_0 : S1920000.BroadcastsInDim S1920000x1 (![0] : Fin 1 → Fin S1920000x1.rank)
  inb_S5120x32_S5120x32_0_0 : ∀ a, (![0, 0] : Fin 2 → Nat) a + S5120x32.size a ≤ S5120x32.size a
  h_S5120x32 : 0 < S5120x32.numel
  shapeCasts_S5120x32_S5120x32 : S5120x32.ShapeCasts S5120x32
  concatenates_S5120x32_S5120x32_S5120x64_d1 : Shape.Concatenates [S5120x32, S5120x32] S5120x64 1
  inb_S5120_S5120_0 : ∀ a, (![0] : Fin 1 → Nat) a + S5120.size a ≤ S5120.size a
  h_S5120 : 0 < S5120.numel
  shapeCasts_S5120_S5120x1 : S5120.ShapeCasts S5120x1
  iota_S5120x16_d1_w32 : S5120x16.Iotas .tc 32 [1]
  broadcasts_S5120x1_S5120x16 : S5120x1.Broadcasts S5120x16
  natLt_1_32 : 1 < 32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  reduces_S5120x64_S5120 : S5120x64.Reduces [1] S5120
  broadcasts_S5120x1_S5120x32 : S5120x1.Broadcasts S5120x32
  bcast_S_S60000x32 : S_.BroadcastsInDim S60000x32 (![] : Fin 0 → Fin S60000x32.rank)
  bcast_S_S60000 : S_.BroadcastsInDim S60000 (![] : Fin 0 → Fin S60000.rank)
  bcast_S60000_S60000x1_0 : S60000.BroadcastsInDim S60000x1 (![0] : Fin 1 → Fin S60000x1.rank)
  bcast_S_S60000x1 : S_.BroadcastsInDim S60000x1 (![] : Fin 0 → Fin S60000x1.rank)
  bcast_S60000x1_S60000x32_0_1 : S60000x1.BroadcastsInDim S60000x32 (![0, 1] : Fin 2 → Fin S60000x32.rank)
  shapeCasts_S6000x32_S6000x32 : S6000x32.ShapeCasts S6000x32
  concatenates_S6000x32_S6000x32_S6000x64_d1 : Shape.Concatenates [S6000x32, S6000x32] S6000x64 1
  inb_S64x32_S64x32_0_0 : ∀ a, (![0, 0] : Fin 2 → Nat) a + S64x32.size a ≤ S64x32.size a
  h_S64x32 : 0 < S64x32.numel
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S6000x16 : S1x16.Broadcasts S6000x16
  inb_S6000x16_S6000x16_0_0 : ∀ a, (![0, 0] : Fin 2 → Nat) a + S6000x16.size a ≤ S6000x16.size a
  h_S6000x16 : 0 < S6000x16.numel
  concatenates_S60000x32_S60000x16_S60000x48_d1 : Shape.Concatenates [S60000x32, S60000x16] S60000x48 1
  bcast_S_S4096 : S_.BroadcastsInDim S4096 (![] : Fin 0 → Fin S4096.rank)
  bcast_S4096_S4096x1_0 : S4096.BroadcastsInDim S4096x1 (![0] : Fin 1 → Fin S4096x1.rank)
  inb_S4096x48_S4096x48_0_0 : ∀ a, (![0, 0] : Fin 2 → Nat) a + S4096x48.size a ≤ S4096x48.size a
  h_S4096x48 : 0 < S4096x48.numel
  shapeCasts_S4096x48_S4096x48 : S4096x48.ShapeCasts S4096x48
  reduces_S4096x48_S4096 : S4096x48.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  dot_S6000x64_S64x128_S6000x128_1_0_0_1_n_n_wf : DotDims.WF S6000x64 S64x128 S6000x128 [1] [0] [0] [1] [] []
  dot_S6000x128_S128x32_S6000x32_1_0_0_1_n_n_wf : DotDims.WF S6000x128 S128x32 S6000x32 [1] [0] [0] [1] [] []
  dot_S6000x32_S32x128_S6000x128_1_0_0_1_n_n_wf : DotDims.WF S6000x32 S32x128 S6000x128 [1] [0] [0] [1] [] []
  dot_S6000x128_S128x64_S6000x64_1_0_0_1_n_n_wf : DotDims.WF S6000x128 S128x64 S6000x64 [1] [0] [0] [1] [] []
  gather_S60000x32_S1920000x1_S1920000x32_1_0_n_n_0_1_132_wf : GatherDims.WF S60000x32 S1920000x1 S1920000x32 [1] [0] [] [0] [] 1 ![1, 32]
  dot_S5120x16_S16x64_S5120x64_1_0_0_1_n_n_wf : DotDims.WF S5120x16 S16x64 S5120x64 [1] [0] [0] [1] [] []
  scatter_S60000x32_S1920000x1_S1920000x32_1_0_0_1_wf : ScatterDims.WF S60000x32 S1920000x1 S1920000x32 [1] [0] [0] 1
  scatter_S60000_S1920000x1_S1920000_n_0_0_1_wf : ScatterDims.WF S60000 S1920000x1 S1920000 [] [0] [0] 1
  dot_S6000x64_S64x32_S6000x32_1_0_0_1_n_n_wf : DotDims.WF S6000x64 S64x32 S6000x32 [1] [0] [0] [1] [] []
  dot_S6000x64_S64x16_S6000x16_1_0_0_1_n_n_wf : DotDims.WF S6000x64 S64x16 S6000x16 [1] [0] [0] [1] [] []
  gather_S60000x48_S4096x1_S4096x48_1_0_n_n_0_1_148_wf : GatherDims.WF S60000x48 S4096x1 S4096x48 [1] [0] [] [0] [] 1 ![1, 48]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S60000x64.size a
  hwx0_0 : ∀ i : grid0.Coords, EltTy.bits .f32 = 32 ∨ (Rect.block (s := S60000x64) S6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6000x32.size a ≤ S60000x32.size a
  hwx0_9 : ∀ i : grid0.Coords, EltTy.bits .f32 = 32 ∨ (Rect.block (s := S60000x32) S6000x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6000x64.size a ≤ S60000x64.size a
  hwx0_10 : ∀ i : grid0.Coords, EltTy.bits .f32 = 32 ∨ (Rect.block (s := S60000x64) S6000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120x32.size a ≤ S1920000x32.size a
  hwx1_0 : ∀ i : grid1.Coords, EltTy.bits .f32 = 32 ∨ (Rect.block (s := S1920000x32) S5120x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x32.size a ≤ S1920000x32.size a
  hwx1_1 : ∀ i : grid1.Coords, EltTy.bits .f32 = 32 ∨ (Rect.block (s := S1920000x32) S5120x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5120.size a ≤ S1920000.size a
  hwx1_2 : ∀ i : grid1.Coords, EltTy.bits .i32 = 32 ∨ (Rect.block (s := S1920000) S5120.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5120x32.size a ≤ S1920000x32.size a
  hwx1_4 : ∀ i : grid1.Coords, EltTy.bits .f32 = 32 ∨ (Rect.block (s := S1920000x32) S5120x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S60000x32.size a
  hwx2_0 : ∀ i : grid2.Coords, EltTy.bits .f32 = 32 ∨ (Rect.block (s := S60000x32) S6000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x32.size a ≤ S60000x32.size a
  hwx2_1 : ∀ i : grid2.Coords, EltTy.bits .f32 = 32 ∨ (Rect.block (s := S60000x32) S6000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x32.size a ≤ S60000x32.size a
  hwx2_4 : ∀ i : grid2.Coords, EltTy.bits .f32 = 32 ∨ (Rect.block (s := S60000x32) S6000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5120x32.size a ≤ S1920000x32.size a
  hwx3_0 : ∀ i : grid3.Coords, EltTy.bits .f32 = 32 ∨ (Rect.block (s := S1920000x32) S5120x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5120x32.size a ≤ S1920000x32.size a
  hwx3_1 : ∀ i : grid3.Coords, EltTy.bits .f32 = 32 ∨ (Rect.block (s := S1920000x32) S5120x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5120.size a ≤ S1920000.size a
  hwx3_2 : ∀ i : grid3.Coords, EltTy.bits .i32 = 32 ∨ (Rect.block (s := S1920000) S5120.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x64.size a ≤ S16x64.size a
  hwx3_3 : ∀ i : grid3.Coords, EltTy.bits .f32 = 32 ∨ (Rect.block (s := S16x64) S16x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5120x32.size a ≤ S1920000x32.size a
  hwx3_4 : ∀ i : grid3.Coords, EltTy.bits .f32 = 32 ∨ (Rect.block (s := S1920000x32) S5120x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x32.size a ≤ S60000x32.size a
  hwx4_0 : ∀ i : grid4.Coords, EltTy.bits .f32 = 32 ∨ (Rect.block (s := S60000x32) S6000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x32.size a ≤ S60000x32.size a
  hwx4_1 : ∀ i : grid4.Coords, EltTy.bits .f32 = 32 ∨ (Rect.block (s := S60000x32) S6000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x16.size a ≤ S64x16.size a
  hwx4_2 : ∀ i : grid4.Coords, EltTy.bits .f32 = 32 ∨ (Rect.block (s := S64x16) S64x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16.size a ≤ S16.size a
  hwx4_3 : ∀ i : grid4.Coords, EltTy.bits .f32 = 32 ∨ (Rect.block (s := S16) S16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S6000x16.size a ≤ S60000x16.size a
  hwx4_4 : ∀ i : grid4.Coords, EltTy.bits .f32 = 32 ∨ (Rect.block (s := S60000x16) S6000x16.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S4096x48.size a ≤ S4096x48.size a
  hwx5_0 : ∀ i : grid5.Coords, EltTy.bits .f32 = 32 ∨ (Rect.block (s := S4096x48) S4096x48.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x48.size a ≤ S4096x48.size a
  hwx5_1 : ∀ i : grid5.Coords, EltTy.bits .f32 = 32 ∨ (Rect.block (s := S4096x48) S4096x48.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4096x1.size a ≤ S4096x1.size a
  hwx5_2 : ∀ i : grid5.Coords, EltTy.bits .f32 = 32 ∨ (Rect.block (s := S4096x1) S4096x1.size (cc5_transform_2 i) (hinb5_2 i)).WholeWords (EltTy.packing .f32)

variable [Facts₀]

def dot_S6000x64_S64x128_S6000x128_1_0_0_1_n_n : DotDims S6000x64 S64x128 S6000x128 where
  lhsContracting := [1]
  rhsContracting := [0]
  lhsNonContracting := [0]
  rhsNonContracting := [1]
  lhsBatch := []
  rhsBatch := []
  wf := dot_S6000x64_S64x128_S6000x128_1_0_0_1_n_n_wf
def dot_S6000x128_S128x32_S6000x32_1_0_0_1_n_n : DotDims S6000x128 S128x32 S6000x32 where
  lhsContracting := [1]
  rhsContracting := [0]
  lhsNonContracting := [0]
  rhsNonContracting := [1]
  lhsBatch := []
  rhsBatch := []
  wf := dot_S6000x128_S128x32_S6000x32_1_0_0_1_n_n_wf
def dot_S6000x32_S32x128_S6000x128_1_0_0_1_n_n : DotDims S6000x32 S32x128 S6000x128 where
  lhsContracting := [1]
  rhsContracting := [0]
  lhsNonContracting := [0]
  rhsNonContracting := [1]
  lhsBatch := []
  rhsBatch := []
  wf := dot_S6000x32_S32x128_S6000x128_1_0_0_1_n_n_wf
def dot_S6000x128_S128x64_S6000x64_1_0_0_1_n_n : DotDims S6000x128 S128x64 S6000x64 where
  lhsContracting := [1]
  rhsContracting := [0]
  lhsNonContracting := [0]
  rhsNonContracting := [1]
  lhsBatch := []
  rhsBatch := []
  wf := dot_S6000x128_S128x64_S6000x64_1_0_0_1_n_n_wf
def gather_S60000x32_S1920000x1_S1920000x32_1_0_n_n_0_1_132 : GatherDims S60000x32 S1920000x1 S1920000x32 where
  offsetDims := [1]
  collapsedSliceDims := [0]
  operandBatchingDims := []
  startIndicesBatchingDims := []
  startIndexMap := [0]
  indexVectorDim := 1
  sliceSizes := ![1, 32]
  wf := gather_S60000x32_S1920000x1_S1920000x32_1_0_n_n_0_1_132_wf
def dot_S5120x16_S16x64_S5120x64_1_0_0_1_n_n : DotDims S5120x16 S16x64 S5120x64 where
  lhsContracting := [1]
  rhsContracting := [0]
  lhsNonContracting := [0]
  rhsNonContracting := [1]
  lhsBatch := []
  rhsBatch := []
  wf := dot_S5120x16_S16x64_S5120x64_1_0_0_1_n_n_wf
def scatter_S60000x32_S1920000x1_S1920000x32_1_0_0_1 : ScatterDims S60000x32 S1920000x1 S1920000x32 where
  updateWindowDims := [1]
  insertedWindowDims := [0]
  scatterDimsToOperandDims := [0]
  indexVectorDim := 1
  wf := scatter_S60000x32_S1920000x1_S1920000x32_1_0_0_1_wf
def scatter_S60000_S1920000x1_S1920000_n_0_0_1 : ScatterDims S60000 S1920000x1 S1920000 where
  updateWindowDims := []
  insertedWindowDims := [0]
  scatterDimsToOperandDims := [0]
  indexVectorDim := 1
  wf := scatter_S60000_S1920000x1_S1920000_n_0_0_1_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def dot_S6000x64_S64x16_S6000x16_1_0_0_1_n_n : DotDims S6000x64 S64x16 S6000x16 where
  lhsContracting := [1]
  rhsContracting := [0]
  lhsNonContracting := [0]
  rhsNonContracting := [1]
  lhsBatch := []
  rhsBatch := []
  wf := dot_S6000x64_S64x16_S6000x16_1_0_0_1_n_n_wf
def gather_S60000x48_S4096x1_S4096x48_1_0_n_n_0_1_148 : GatherDims S60000x48 S4096x1 S4096x48 where
  offsetDims := [1]
  collapsedSliceDims := [0]
  operandBatchingDims := []
  startIndicesBatchingDims := []
  startIndexMap := [0]
  indexVectorDim := 1
  sliceSizes := ![1, 48]
  wf := gather_S60000x48_S4096x1_S4096x48_1_0_n_n_0_1_148_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1_0) S6000x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1_1) S6000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v13) S5120x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5120x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg20) S5120.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5120x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_0) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S6000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S6000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S5120x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5120x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg20) S5120.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S16x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5120x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S6000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S6000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S6000x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v81) S4096x48.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v88) S4096x48.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S4096x1.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S10000x64 : Shape := ⟨2, ![10000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x64 : Shape := ⟨2, ![128, 64]⟩
abbrev S64 : Shape := ⟨1, ![64]⟩
abbrev S16x64x32 : Shape := ⟨3, ![16, 64, 32]⟩
abbrev S64x32 : Shape := ⟨2, ![64, 32]⟩
abbrev S64x16 : Shape := ⟨2, ![64, 16]⟩
abbrev S16 : Shape := ⟨1, ![16]⟩
abbrev S4096 : Shape := ⟨1, ![4096]⟩
abbrev S1920000 : Shape := ⟨1, ![1920000]⟩
abbrev S60000x64 : Shape := ⟨2, ![60000, 64]⟩
abbrev S60000x128 : Shape := ⟨2, ![60000, 128]⟩
abbrev S1x128 : Shape := ⟨2, ![1, 128]⟩
abbrev S_ : Shape := ⟨0, ![]⟩
abbrev S60000x32 : Shape := ⟨2, ![60000, 32]⟩
abbrev S1x32 : Shape := ⟨2, ![1, 32]⟩
abbrev S1x64 : Shape := ⟨2, ![1, 64]⟩
abbrev S16x64 : Shape := ⟨2, ![16, 64]⟩
abbrev S1920000x1 : Shape := ⟨2, ![1920000, 1]⟩
abbrev S1920000x32 : Shape := ⟨2, ![1920000, 32]⟩
abbrev S1920000x64 : Shape := ⟨2, ![1920000, 64]⟩
abbrev S60000x1 : Shape := ⟨2, ![60000, 1]⟩
abbrev S60000x16 : Shape := ⟨2, ![60000, 16]⟩
abbrev S1x16 : Shape := ⟨2, ![1, 16]⟩
abbrev S60000x48 : Shape := ⟨2, ![60000, 48]⟩
abbrev S4096x1 : Shape := ⟨2, ![4096, 1]⟩
abbrev S4096x48 : Shape := ⟨2, ![4096, 48]⟩

abbrev nBuf : Space → Nat
  | .hbm => 235
  | .vmem => 0
  | .smem => 0
  | _ => 0

abbrev hbmTy0_0 (i : Nat) : BufTy := match i % 128 with
  | 0 => ⟨S50000x64, .f32⟩
  | 1 => ⟨S10000x64, .f32⟩
  | 2 => ⟨S64x128, .f32⟩
  | 3 => ⟨S128, .f32⟩
  | 4 => ⟨S128x32, .f32⟩
  | 5 => ⟨S32, .f32⟩
  | 6 => ⟨S32x128, .f32⟩
  | 7 => ⟨S128, .f32⟩
  | 8 => ⟨S128x64, .f32⟩
  | 9 => ⟨S64, .f32⟩
  | 10 => ⟨S16x64x32, .f32⟩
  | 11 => ⟨S64x32, .f32⟩
  | 12 => ⟨S32, .f32⟩
  | 13 => ⟨S16x64x32, .f32⟩
  | 14 => ⟨S64x16, .f32⟩
  | 15 => ⟨S16, .f32⟩
  | 16 => ⟨S4096, .i32⟩
  | 17 => ⟨S4096, .i32⟩
  | 18 => ⟨S1920000, .i32⟩
  | 19 => ⟨S1920000, .i32⟩
  | 20 => ⟨S1920000, .i32⟩
  | 21 => ⟨S60000x64, .f32⟩
  | 22 => ⟨S60000x128, .f32⟩
  | 23 => ⟨S1x128, .f32⟩
  | 24 => ⟨S60000x128, .f32⟩
  | 25 => ⟨S60000x128, .f32⟩
  | 26 => ⟨S_, .f32⟩
  | 27 => ⟨S60000x128, .f32⟩
  | 28 => ⟨S60000x128, .f32⟩
  | 29 => ⟨S60000x32, .f32⟩
  | 30 => ⟨S1x32, .f32⟩
  | 31 => ⟨S60000x32, .f32⟩
  | 32 => ⟨S60000x32, .f32⟩
  | 33 => ⟨S60000x128, .f32⟩
  | 34 => ⟨S1x128, .f32⟩
  | 35 => ⟨S60000x128, .f32⟩
  | 36 => ⟨S60000x128, .f32⟩
  | 37 => ⟨S_, .f32⟩
  | 38 => ⟨S60000x128, .f32⟩
  | 39 => ⟨S60000x128, .f32⟩
  | 40 => ⟨S60000x64, .f32⟩
  | 41 => ⟨S1x64, .f32⟩
  | 42 => ⟨S60000x64, .f32⟩
  | 43 => ⟨S60000x64, .f32⟩
  | 44 => ⟨S60000x64, .f32⟩
  | 45 => ⟨S60000x64, .f32⟩
  | 46 => ⟨S_, .f32⟩
  | 47 => ⟨S_, .f32⟩
  | 48 => ⟨S_, .f32⟩
  | 49 => ⟨S_, .f32⟩
  | 50 => ⟨S_, .f32⟩
  | 51 => ⟨S16x64, .f32⟩
  | 52 => ⟨S_, .i32⟩
  | 53 => ⟨S1920000, .i32⟩
  | 54 => ⟨S1920000, .i1⟩
  | 55 => ⟨S_, .i32⟩
  | 56 => ⟨S1920000, .i32⟩
  | 57 => ⟨S1920000, .i32⟩
  | 58 => ⟨S1920000, .i32⟩
  | 59 => ⟨S1920000x1, .i32⟩
  | 60 => ⟨S1920000x32, .f32⟩
  | 61 => ⟨S_, .i32⟩
  | 62 => ⟨S1920000, .i32⟩
  | 63 => ⟨S1920000, .i1⟩
  | 64 => ⟨S_, .i32⟩
  | 65 => ⟨S1920000, .i32⟩
  | 66 => ⟨S1920000, .i32⟩
  | 67 => ⟨S1920000, .i32⟩
  | 68 => ⟨S1920000x1, .i32⟩
  | 69 => ⟨S1920000x32, .f32⟩
  | 70 => ⟨S1920000x64, .f32⟩
  | 71 => ⟨S_, .i32⟩
  | 72 => ⟨S1920000, .i32⟩
  | 73 => ⟨S1920000, .i1⟩
  | 74 => ⟨S_, .i32⟩
  | 75 => ⟨S1920000, .i32⟩
  | 76 => ⟨S1920000, .i32⟩
  | 77 => ⟨S1920000, .i32⟩
  | 78 => ⟨S1920000x1, .i32⟩
  | 79 => ⟨S1920000x64, .f32⟩
  | 80 => ⟨S1920000x64, .f32⟩
  | 81 => ⟨S_, .f32⟩
  | 82 => ⟨S1920000, .f32⟩
  | 83 => ⟨S1920000x1, .f32⟩
  | 84 => ⟨S1920000x1, .f32⟩
  | 85 => ⟨S1920000x1, .f32⟩
  | 86 => ⟨S_, .f32⟩
  | 87 => ⟨S1920000x1, .f32⟩
  | 88 => ⟨S1920000x1, .f32⟩
  | 89 => ⟨S_, .f32⟩
  | 90 => ⟨S1920000x1, .f32⟩
  | 91 => ⟨S1920000x1, .f32⟩
  | 92 => ⟨S1920000x32, .f32⟩
  | 93 => ⟨S1920000x32, .f32⟩
  | 94 => ⟨S_, .f32⟩
  | 95 => ⟨S60000x32, .f32⟩
  | 96 => ⟨S1920000x1, .i32⟩
  | 97 => ⟨S60000x32, .f32⟩
  | 98 => ⟨S_, .f32⟩
  | 99 => ⟨S1920000x1, .f32⟩
  | 100 => ⟨S_, .f32⟩
  | 101 => ⟨S60000x1, .f32⟩
  | 102 => ⟨S1920000x1, .i32⟩
  | 103 => ⟨S60000x1, .f32⟩
  | 104 => ⟨S_, .f32⟩
  | 105 => ⟨S60000x1, .f32⟩
  | 106 => ⟨S60000x1, .i1⟩
  | 107 => ⟨S_, .f32⟩
  | 108 => ⟨S60000x1, .f32⟩
  | 109 => ⟨S60000x1, .f32⟩
  | 110 => ⟨S60000x32, .f32⟩
  | 111 => ⟨S60000x32, .f32⟩
  | 112 => ⟨S_, .f32⟩
  | 113 => ⟨S_, .f32⟩
  | 114 => ⟨S60000x32, .i1⟩
  | 115 => ⟨S60000x32, .f32⟩
  | 116 => ⟨S60000x32, .f32⟩
  | 117 => ⟨S60000x64, .f32⟩
  | 118 => ⟨S60000x32, .f32⟩
  | 119 => ⟨S1x32, .f32⟩
  | 120 => ⟨S60000x32, .f32⟩
  | 121 => ⟨S60000x32, .f32⟩
  | 122 => ⟨S_, .f32⟩
  | 123 => ⟨S_, .f32⟩
  | 124 => ⟨S60000x32, .f32⟩
  | 125 => ⟨S60000x32, .i1⟩
  | 126 => ⟨S_, .f32⟩
  | 127 => ⟨S60000x32, .f32⟩
  | _ => ⟨S50000x64, .f32⟩

abbrev hbmTy0_1 (i : Nat) : BufTy := match i % 128 with
  | 0 => ⟨S60000x32, .f32⟩
  | 1 => ⟨S60000x32, .f32⟩
  | 2 => ⟨S_, .f32⟩
  | 3 => ⟨S16x64, .f32⟩
  | 4 => ⟨S_, .i32⟩
  | 5 => ⟨S1920000, .i32⟩
  | 6 => ⟨S1920000, .i1⟩
  | 7 => ⟨S_, .i32⟩
  | 8 => ⟨S1920000, .i32⟩
  | 9 => ⟨S1920000, .i32⟩
  | 10 => ⟨S1920000, .i32⟩
  | 11 => ⟨S1920000x1, .i32⟩
  | 12 => ⟨S1920000x32, .f32⟩
  | 13 => ⟨S_, .i32⟩
  | 14 => ⟨S1920000, .i32⟩
  | 15 => ⟨S1920000, .i1⟩
  | 16 => ⟨S_, .i32⟩
  | 17 => ⟨S1920000, .i32⟩
  | 18 => ⟨S1920000, .i32⟩
  | 19 => ⟨S1920000, .i32⟩
  | 20 => ⟨S1920000x1, .i32⟩
  | 21 => ⟨S1920000x32, .f32⟩
  | 22 => ⟨S1920000x64, .f32⟩
  | 23 => ⟨S_, .i32⟩
  | 24 => ⟨S1920000, .i32⟩
  | 25 => ⟨S1920000, .i1⟩
  | 26 => ⟨S_, .i32⟩
  | 27 => ⟨S1920000, .i32⟩
  | 28 => ⟨S1920000, .i32⟩
  | 29 => ⟨S1920000, .i32⟩
  | 30 => ⟨S1920000x1, .i32⟩
  | 31 => ⟨S1920000x64, .f32⟩
  | 32 => ⟨S1920000x64, .f32⟩
  | 33 => ⟨S_, .f32⟩
  | 34 => ⟨S1920000, .f32⟩
  | 35 => ⟨S1920000x1, .f32⟩
  | 36 => ⟨S1920000x1, .f32⟩
  | 37 => ⟨S1920000x1, .f32⟩
  | 38 => ⟨S_, .f32⟩
  | 39 => ⟨S1920000x1, .f32⟩
  | 40 => ⟨S1920000x1, .f32⟩
  | 41 => ⟨S_, .f32⟩
  | 42 => ⟨S1920000x1, .f32⟩
  | 43 => ⟨S1920000x1, .f32⟩
  | 44 => ⟨S1920000x32, .f32⟩
  | 45 => ⟨S1920000x32, .f32⟩
  | 46 => ⟨S_, .f32⟩
  | 47 => ⟨S60000x32, .f32⟩
  | 48 => ⟨S1920000x1, .i32⟩
  | 49 => ⟨S60000x32, .f32⟩
  | 50 => ⟨S_, .f32⟩
  | 51 => ⟨S1920000x1, .f32⟩
  | 52 => ⟨S_, .f32⟩
  | 53 => ⟨S60000x1, .f32⟩
  | 54 => ⟨S1920000x1, .i32⟩
  | 55 => ⟨S60000x1, .f32⟩
  | 56 => ⟨S_, .f32⟩
  | 57 => ⟨S60000x1, .f32⟩
  | 58 => ⟨S60000x1, .i1⟩
  | 59 => ⟨S_, .f32⟩
  | 60 => ⟨S60000x1, .f32⟩
  | 61 => ⟨S60000x1, .f32⟩
  | 62 => ⟨S60000x32, .f32⟩
  | 63 => ⟨S60000x32, .f32⟩
  | 64 => ⟨S_, .f32⟩
  | 65 => ⟨S_, .f32⟩
  | 66 => ⟨S60000x32, .i1⟩
  | 67 => ⟨S60000x32, .f32⟩
  | 68 => ⟨S60000x32, .f32⟩
  | 69 => ⟨S60000x64, .f32⟩
  | 70 => ⟨S60000x16, .f32⟩
  | 71 => ⟨S1x16, .f32⟩
  | 72 => ⟨S60000x16, .f32⟩
  | 73 => ⟨S60000x16, .f32⟩
  | 74 => ⟨S_, .f32⟩
  | 75 => ⟨S_, .f32⟩
  | 76 => ⟨S60000x16, .f32⟩
  | 77 => ⟨S60000x16, .i1⟩
  | 78 => ⟨S_, .f32⟩
  | 79 => ⟨S60000x16, .f32⟩
  | 80 => ⟨S60000x16, .f32⟩
  | 81 => ⟨S60000x16, .f32⟩
  | 82 => ⟨S60000x48, .f32⟩
  | 83 => ⟨S_, .i32⟩
  | 84 => ⟨S4096, .i32⟩
  | 85 => ⟨S4096, .i32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S4096x48, .f32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S4096x48, .f32⟩
  | 104 => ⟨S4096x48, .f32⟩
  | 105 => ⟨S_, .f32⟩
  | 106 => ⟨S4096, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call1_cst : Ref sig .tc := ⟨.hbm, 37, rfl⟩
abbrev main_call1_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_cst_0 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_c : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_5 : Ref sig .tc := ⟨.hbm, 71, rfl⟩
abbrev main_v39 : Ref sig .tc := ⟨.hbm, 72, rfl⟩
abbrev main_v40 : Ref sig .tc := ⟨.hbm, 73, rfl⟩
abbrev main_c_6 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_7 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_cst_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_10 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_11 : Ref sig .tc := ⟨.hbm, 98, rfl⟩
abbrev main_v60 : Ref sig .tc := ⟨.hbm, 99, rfl⟩
abbrev main_cst_12 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_13 : Ref sig .tc := ⟨.hbm, 104, rfl⟩
abbrev main_v64 : Ref sig .tc := ⟨.hbm, 105, rfl⟩
abbrev main_v65 : Ref sig .tc := ⟨.hbm, 106, rfl⟩
abbrev main_cst_14 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_15 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_16 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v76 : Ref sig .tc := ⟨.hbm, 129, rfl⟩
abbrev main_cst_17 : Ref sig .tc := ⟨.hbm, 130, rfl⟩
abbrev main_v77 : Ref sig .tc := ⟨.hbm, 131, rfl⟩
abbrev main_c_18 : Ref sig .tc := ⟨.hbm, 132, rfl⟩
abbrev main_v78 : Ref sig .tc := ⟨.hbm, 133, rfl⟩
abbrev main_v79 : Ref sig .tc := ⟨.hbm, 134, rfl⟩
abbrev main_c_19 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_20 : Ref sig .tc := ⟨.hbm, 141, rfl⟩
abbrev main_v85 : Ref sig .tc := ⟨.hbm, 142, rfl⟩
abbrev main_v86 : Ref sig .tc := ⟨.hbm, 143, rfl⟩
abbrev main_c_21 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_c_22 : Ref sig .tc := ⟨.hbm, 151, rfl⟩
abbrev main_v93 : Ref sig .tc := ⟨.hbm, 152, rfl⟩
abbrev main_v94 : Ref sig .tc := ⟨.hbm, 153, rfl⟩
abbrev main_c_23 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_24 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_25 : Ref sig .tc := ⟨.hbm, 166, rfl⟩
abbrev main_v105 : Ref sig .tc := ⟨.hbm, 167, rfl⟩
abbrev main_v106 : Ref sig .tc := ⟨.hbm, 168, rfl⟩
abbrev main_cst_26 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_cst_27 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_28 : Ref sig .tc := ⟨.hbm, 178, rfl⟩
abbrev main_v114 : Ref sig .tc := ⟨.hbm, 179, rfl⟩
abbrev main_cst_29 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_30 : Ref sig .tc := ⟨.hbm, 184, rfl⟩
abbrev main_v118 : Ref sig .tc := ⟨.hbm, 185, rfl⟩
abbrev main_v119 : Ref sig .tc := ⟨.hbm, 186, rfl⟩
abbrev main_cst_31 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_cst_32 : Ref sig .tc := ⟨.hbm, 192, rfl⟩
abbrev main_call4_v0 : Ref sig .tc := ⟨.hbm, 193, rfl⟩
abbrev main_call4_v1 : Ref sig .tc := ⟨.hbm, 194, rfl⟩
abbrev main_call4_v2 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_cst_33 : Ref sig .tc := ⟨.hbm, 202, rfl⟩
abbrev main_call5_cst : Ref sig .tc := ⟨.hbm, 203, rfl⟩
abbrev main_call5_v0 : Ref sig .tc := ⟨.hbm, 204, rfl⟩
abbrev main_call5_v1 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_v130 : Ref sig .tc := ⟨.hbm, 209, rfl⟩
abbrev main_v131 : Ref sig .tc := ⟨.hbm, 210, rfl⟩
abbrev main_c_34 : Ref sig .tc := ⟨.hbm, 211, rfl⟩
abbrev main_v132 : Ref sig .tc := ⟨.hbm, 212, rfl⟩
abbrev main_v133 : Ref sig .tc := ⟨.hbm, 213, rfl⟩
abbrev main_c_35 : Ref sig .tc := ⟨.hbm, 214, rfl⟩
abbrev main_v134 : Ref sig .tc := ⟨.hbm, 215, rfl⟩
abbrev main_v135 : Ref sig .tc := ⟨.hbm, 216, rfl⟩
abbrev main_c_36 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_c_37 : Ref sig .tc := ⟨.hbm, 223, rfl⟩
abbrev main_v141 : Ref sig .tc := ⟨.hbm, 224, rfl⟩
abbrev main_v142 : Ref sig .tc := ⟨.hbm, 225, rfl⟩
abbrev main_c_38 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_39 : Ref sig .tc := ⟨.hbm, 233, rfl⟩
abbrev main_v149 : Ref sig .tc := ⟨.hbm, 234, rfl⟩

abbrev nD : Nat := 1
abbrev τ : Topo := Topo.v7x

variable {F : FTy → Type} [FloatOps F]

class Facts₀ : Prop where
  concatenates_S50000x64_S10000x64_S60000x64_d0 : Shape.Concatenates [S50000x64, S10000x64] S60000x64 0
  bcast_S128_S1x128_1 : S128.BroadcastsInDim S1x128 (![1] : Fin 1 → Fin S1x128.rank)
  bcast_S1x128_S60000x128_0_1 : S1x128.BroadcastsInDim S60000x128 (![0, 1] : Fin 2 → Fin S60000x128.rank)
  bcast_S_S60000x128 : S_.BroadcastsInDim S60000x128 (![] : Fin 0 → Fin S60000x128.rank)
  bcast_S32_S1x32_1 : S32.BroadcastsInDim S1x32 (![1] : Fin 1 → Fin S1x32.rank)
  bcast_S1x32_S60000x32_0_1 : S1x32.BroadcastsInDim S60000x32 (![0, 1] : Fin 2 → Fin S60000x32.rank)
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  reducesTo_S60000x64_S_d0_1 : S60000x64.ReducesTo [0, 1] S_
  h_S_ : 0 < S_.numel
  reducesTo_S16x64x32_S16x64_d2 : S16x64x32.ReducesTo [2] S16x64
  bcast_S_S1920000 : S_.BroadcastsInDim S1920000 (![] : Fin 0 → Fin S1920000.rank)
  bcast_S1920000_S1920000x1_0 : S1920000.BroadcastsInDim S1920000x1 (![0] : Fin 1 → Fin S1920000x1.rank)
  concatenates_S1920000x32_S1920000x32_S1920000x64_d1 : Shape.Concatenates [S1920000x32, S1920000x32] S1920000x64 1
  reducesTo_S1920000x64_S1920000_d1 : S1920000x64.ReducesTo [1] S1920000
  bcast_S_S1920000x1 : S_.BroadcastsInDim S1920000x1 (![] : Fin 0 → Fin S1920000x1.rank)
  bcast_S1920000x1_S1920000x32_0_1 : S1920000x1.BroadcastsInDim S1920000x32 (![0, 1] : Fin 2 → Fin S1920000x32.rank)
  bcast_S_S60000x32 : S_.BroadcastsInDim S60000x32 (![] : Fin 0 → Fin S60000x32.rank)
  bcast_S_S60000x1 : S_.BroadcastsInDim S60000x1 (![] : Fin 0 → Fin S60000x1.rank)
  bcast_S60000x1_S60000x32_0_1 : S60000x1.BroadcastsInDim S60000x32 (![0, 1] : Fin 2 → Fin S60000x32.rank)
  concatenates_S60000x32_S60000x32_S60000x64_d1 : Shape.Concatenates [S60000x32, S60000x32] S60000x64 1
  bcast_S16_S1x16_1 : S16.BroadcastsInDim S1x16 (![1] : Fin 1 → Fin S1x16.rank)
  bcast_S1x16_S60000x16_0_1 : S1x16.BroadcastsInDim S60000x16 (![0, 1] : Fin 2 → Fin S60000x16.rank)
  bcast_S_S60000x16 : S_.BroadcastsInDim S60000x16 (![] : Fin 0 → Fin S60000x16.rank)
  concatenates_S60000x32_S60000x16_S60000x48_d1 : Shape.Concatenates [S60000x32, S60000x16] S60000x48 1
  bcast_S_S4096 : S_.BroadcastsInDim S4096 (![] : Fin 0 → Fin S4096.rank)
  bcast_S4096_S4096x1_0 : S4096.BroadcastsInDim S4096x1 (![0] : Fin 1 → Fin S4096x1.rank)
  reducesTo_S4096x48_S4096_d1 : S4096x48.ReducesTo [1] S4096
  dot_S60000x64_S64x128_S60000x128_1_0_0_1_n_n_wf : DotDims.WF S60000x64 S64x128 S60000x128 [1] [0] [0] [1] [] []
  dot_S60000x128_S128x32_S60000x32_1_0_0_1_n_n_wf : DotDims.WF S60000x128 S128x32 S60000x32 [1] [0] [0] [1] [] []
  dot_S60000x32_S32x128_S60000x128_1_0_0_1_n_n_wf : DotDims.WF S60000x32 S32x128 S60000x128 [1] [0] [0] [1] [] []
  dot_S60000x128_S128x64_S60000x64_1_0_0_1_n_n_wf : DotDims.WF S60000x128 S128x64 S60000x64 [1] [0] [0] [1] [] []
  gather_S60000x32_S1920000x1_S1920000x32_1_0_n_n_0_1_132_wf : GatherDims.WF S60000x32 S1920000x1 S1920000x32 [1] [0] [] [0] [] 1 ![1, 32]
  gather_S16x64_S1920000x1_S1920000x64_1_0_n_n_0_1_164_wf : GatherDims.WF S16x64 S1920000x1 S1920000x64 [1] [0] [] [0] [] 1 ![1, 64]
  scatter_S60000x32_S1920000x1_S1920000x32_1_0_0_1_wf : ScatterDims.WF S60000x32 S1920000x1 S1920000x32 [1] [0] [0] 1
  scatter_S60000x1_S1920000x1_S1920000x1_1_0_0_1_wf : ScatterDims.WF S60000x1 S1920000x1 S1920000x1 [1] [0] [0] 1
  dot_S60000x64_S64x32_S60000x32_1_0_0_1_n_n_wf : DotDims.WF S60000x64 S64x32 S60000x32 [1] [0] [0] [1] [] []
  dot_S60000x64_S64x16_S60000x16_1_0_0_1_n_n_wf : DotDims.WF S60000x64 S64x16 S60000x16 [1] [0] [0] [1] [] []
  gather_S60000x48_S4096x1_S4096x48_1_0_n_n_0_1_148_wf : GatherDims.WF S60000x48 S4096x1 S4096x48 [1] [0] [] [0] [] 1 ![1, 48]

variable [Facts₀]

def dot_S60000x64_S64x128_S60000x128_1_0_0_1_n_n : DotDims S60000x64 S64x128 S60000x128 where
  lhsContracting := [1]
  rhsContracting := [0]
  lhsNonContracting := [0]
  rhsNonContracting := [1]
  lhsBatch := []
  rhsBatch := []
  wf := dot_S60000x64_S64x128_S60000x128_1_0_0_1_n_n_wf
def dot_S60000x128_S128x32_S60000x32_1_0_0_1_n_n : DotDims S60000x128 S128x32 S60000x32 where
  lhsContracting := [1]
  rhsContracting := [0]
  lhsNonContracting := [0]
  rhsNonContracting := [1]
  lhsBatch := []
  rhsBatch := []
  wf := dot_S60000x128_S128x32_S60000x32_1_0_0_1_n_n_wf
def dot_S60000x32_S32x128_S60000x128_1_0_0_1_n_n : DotDims S60000x32 S32x128 S60000x128 where
  lhsContracting := [1]
  rhsContracting := [0]
  lhsNonContracting := [0]
  rhsNonContracting := [1]
  lhsBatch := []
  rhsBatch := []
  wf := dot_S60000x32_S32x128_S60000x128_1_0_0_1_n_n_wf
def dot_S60000x128_S128x64_S60000x64_1_0_0_1_n_n : DotDims S60000x128 S128x64 S60000x64 where
  lhsContracting := [1]
  rhsContracting := [0]
  lhsNonContracting := [0]
  rhsNonContracting := [1]
  lhsBatch := []
  rhsBatch := []
  wf := dot_S60000x128_S128x64_S60000x64_1_0_0_1_n_n_wf
def gather_S60000x32_S1920000x1_S1920000x32_1_0_n_n_0_1_132 : GatherDims S60000x32 S1920000x1 S1920000x32 where
  offsetDims := [1]
  collapsedSliceDims := [0]
  operandBatchingDims := []
  startIndicesBatchingDims := []
  startIndexMap := [0]
  indexVectorDim := 1
  sliceSizes := ![1, 32]
  wf := gather_S60000x32_S1920000x1_S1920000x32_1_0_n_n_0_1_132_wf
def gather_S16x64_S1920000x1_S1920000x64_1_0_n_n_0_1_164 : GatherDims S16x64 S1920000x1 S1920000x64 where
  offsetDims := [1]
  collapsedSliceDims := [0]
  operandBatchingDims := []
  startIndicesBatchingDims := []
  startIndexMap := [0]
  indexVectorDim := 1
  sliceSizes := ![1, 64]
  wf := gather_S16x64_S1920000x1_S1920000x64_1_0_n_n_0_1_164_wf
def scatter_S60000x32_S1920000x1_S1920000x32_1_0_0_1 : ScatterDims S60000x32 S1920000x1 S1920000x32 where
  updateWindowDims := [1]
  insertedWindowDims := [0]
  scatterDimsToOperandDims := [0]
  indexVectorDim := 1
  wf := scatter_S60000x32_S1920000x1_S1920000x32_1_0_0_1_wf
def scatter_S60000x1_S1920000x1_S1920000x1_1_0_0_1 : ScatterDims S60000x1 S1920000x1 S1920000x1 where
  updateWindowDims := [1]
  insertedWindowDims := [0]
  scatterDimsToOperandDims := [0]
  indexVectorDim := 1
  wf := scatter_S60000x1_S1920000x1_S1920000x1_1_0_0_1_wf
def dot_S60000x64_S64x32_S60000x32_1_0_0_1_n_n : DotDims S60000x64 S64x32 S60000x32 where
  lhsContracting := [1]
  rhsContracting := [0]
  lhsNonContracting := [0]
  rhsNonContracting := [1]
  lhsBatch := []
  rhsBatch := []
  wf := dot_S60000x64_S64x32_S60000x32_1_0_0_1_n_n_wf
def dot_S60000x64_S64x16_S60000x16_1_0_0_1_n_n : DotDims S60000x64 S64x16 S60000x16 where
  lhsContracting := [1]
  rhsContracting := [0]
  lhsNonContracting := [0]
  rhsNonContracting := [1]
  lhsBatch := []
  rhsBatch := []
  wf := dot_S60000x64_S64x16_S60000x16_1_0_0_1_n_n_wf
def gather_S60000x48_S4096x1_S4096x48_1_0_n_n_0_1_148 : GatherDims S60000x48 S4096x1 S4096x48 where
  offsetDims := [1]
  collapsedSliceDims := [0]
  operandBatchingDims := []
  startIndicesBatchingDims := []
  startIndexMap := [0]
  indexVectorDim := 1
  sliceSizes := ![1, 48]
  wf := gather_S60000x48_S4096x1_S4096x48_1_0_n_n_0_1_148_wf

class Facts : Prop extends Facts₀ where

variable [Facts]
-- ==== Proof.Stages.lean ====
/-
  The two programs' common mathematics, stage by stage, as functions of whole arrays: the autoencoder's
  encoder and decoder (two affine maps with a ReLU between), the mean squared reconstruction error, one
  relation-gated graph convolution (rows gathered at the edges' end points, a sigmoid gate from the relation's
  summed weights, the gated source rows averaged per destination node, an affine map of the node's own row beside
  that mean, a leaky ReLU), and the final row-by-row dot product of a user's and an item's features. Each stage is
  written with the host operations the reference computes it by, so the reference's run reads as their composition;
  the kernel's regions are shown equal to the same stages.
-/
import proofs.«429255_j2413771620669_3_alg».proof.Proof.Gen.ReferenceIdeal

noncomputable section

namespace Cert.Stages

open Idealize.ShloMosaic
open Cert.ReferenceIdeal Cert.ReferenceIdeal.Gen

variable {F : FTy → Type} [FloatOps F]

/-- All node embeddings: the entity rows, then the user rows. -/
def allEmb (e : FVec F S50000x64 .f32) (u : FVec F S10000x64 .f32) : FVec F S60000x64 .f32 :=
  concatenate S60000x64 0 [⟨S50000x64, e⟩, ⟨S10000x64, u⟩] concatenates_S50000x64_S10000x64_S60000x64_d0

/-- `max(x, 0)` on a [60000, 128] array. -/
def relu128 (x : FVec F S60000x128 .f32) : FVec F S60000x128 .f32 :=
  maximumf x (broadcastInDim S60000x128 ![] bcast_S_S60000x128 (constant S_ .f32 0x00000000#32))

/-- The encoder: `relu(x · W0 + b0) · W1 + b1`. -/
def encode (x : FVec F S60000x64 .f32) (w0 : FVec F S64x128 .f32) (b0 : FVec F S128 .f32)
    (w1 : FVec F S128x32 .f32) (b1 : FVec F S32 .f32) : FVec F S60000x32 .f32 :=
  addf (Host.dotGeneral dot_S60000x128_S128x32_S60000x32_1_0_0_1_n_n none
      (relu128 (addf (Host.dotGeneral dot_S60000x64_S64x128_S60000x128_1_0_0_1_n_n none x w0)
        (broadcastInDim S60000x128 ![0, 1] bcast_S1x128_S60000x128_0_1 (broadcastInDim S1x128 ![1] bcast_S128_S1x128_1 b0)))) w1)
    (broadcastInDim S60000x32 ![0, 1] bcast_S1x32_S60000x32_0_1 (broadcastInDim S1x32 ![1] bcast_S32_S1x32_1 b1))

/-- The decoder: `relu(z · W0' + b0') · W1' + b1'`. -/
def decode (z : FVec F S60000x32 .f32) (w0 : FVec F S32x128 .f32) (b0 : FVec F S128 .f32)
    (w1 : FVec F S128x64 .f32) (b1 : FVec F S64 .f32) : FVec F S60000x64 .f32 :=
  addf (Host.dotGeneral dot_S60000x128_S128x64_S60000x64_1_0_0_1_n_n none
      (relu128 (addf (Host.dotGeneral dot_S60000x32_S32x128_S60000x128_1_0_0_1_n_n none z w0)
        (broadcastInDim S60000x128 ![0, 1] bcast_S1x128_S60000x128_0_1 (broadcastInDim S1x128 ![1] bcast_S128_S1x128_1 b0)))) w1)
    (broadcastInDim S60000x64 ![0, 1] bcast_S1x64_S60000x64_0_1 (broadcastInDim S1x64 ![1] bcast_S64_S1x64_1 b1))

/-- The mean over all 3,840,000 entries of the squared difference. -/
def meanSq (d : FVec F S60000x64 .f32) (x : FVec F S60000x64 .f32) : FVec F S_ .f32 :=
  Host.divf (Host.reduceAdd (mulf (subf d x) (subf d x)) (constant S_ .f32 0x00000000#32) reducesTo_S60000x64_S_d0_1 h_S_)
    (constant S_ .f32 0x4A6A6000#32)

/-- A relation's weights summed over their last axis. -/
def relSum (w : FVec F S16x64x32 .f32) : FVec F S16x64 .f32 :=
  Host.reduceAdd w (constant S_ .f32 0x00000000#32) reducesTo_S16x64x32_S16x64_d2 h_S_

/-- An index vector over the edges with negative entries wrapped by `n` (numpy's indexing), as a column. -/
def wrapE (n : BitVec 32) (i : IVec S1920000 32) : IVec S1920000x1 32 :=
  broadcastInDim S1920000x1 ![0] bcast_S1920000_S1920000x1_0
    (select (cmpi .slt i (broadcastInDim S1920000 ![] bcast_S_S1920000 (constantI S_ 32 0#32)))
      (addi i (broadcastInDim S1920000 ![] bcast_S_S1920000 (constantI S_ 32 n))) i)

/-- The node rows at the edges' end points. -/
def rowsAt (x : FVec F S60000x32 .f32) (i : IVec S1920000 32) : FVec F S1920000x32 .f32 :=
  Host.gather gather_S60000x32_S1920000x1_S1920000x32_1_0_n_n_0_1_132 x (wrapE 60000#32 i)

/-- The gate of each edge, `sigmoid(Σ_j [h_dst, h_src]_j · wsum[rel]_j)`, as a column. -/
def gate (hd hs : FVec F S1920000x32 .f32) (rel : IVec S1920000 32) (ws : FVec F S16x64 .f32) : FVec F S1920000x1 .f32 :=
  Host.divf (broadcastInDim S1920000x1 ![] bcast_S_S1920000x1 (constant S_ .f32 0x3F800000#32))
    (addf (broadcastInDim S1920000x1 ![] bcast_S_S1920000x1 (constant S_ .f32 0x3F800000#32))
      (Host.exp (Host.negf (broadcastInDim S1920000x1 ![0] bcast_S1920000_S1920000x1_0
        (Host.reduceAdd (mulf
            (concatenate S1920000x64 1 [⟨S1920000x32, hd⟩, ⟨S1920000x32, hs⟩] concatenates_S1920000x32_S1920000x32_S1920000x64_d1)
            (Host.gather gather_S16x64_S1920000x1_S1920000x64_1_0_n_n_0_1_164 ws (wrapE 16#32 rel)))
          (constant S_ .f32 0x00000000#32) reducesTo_S1920000x64_S1920000_d1 h_S_)))))

/-- The gated source rows. -/
def gated (hd hs : FVec F S1920000x32 .f32) (rel : IVec S1920000 32) (ws : FVec F S16x64 .f32) : FVec F S1920000x32 .f32 :=
  mulf hs (broadcastInDim S1920000x32 ![0, 1] bcast_S1920000x1_S1920000x32_0_1 (gate hd hs rel ws))

/-- The destination indices as a column (not wrapped: a scatter drops what falls outside). -/
def colE (i : IVec S1920000 32) : IVec S1920000x1 32 :=
  broadcastInDim S1920000x1 ![0] bcast_S1920000_S1920000x1_0 i

/-- Per node, how many edges end there, as a column. -/
def inDegree (dst : IVec S1920000 32) : FVec F S60000x1 .f32 :=
  Host.scatterAdd scatter_S60000x1_S1920000x1_S1920000x1_1_0_0_1
    (broadcastInDim S60000x1 ![] bcast_S_S60000x1 (constant S_ .f32 0x00000000#32)) (colE dst)
    (broadcastInDim S1920000x1 ![] bcast_S_S1920000x1 (constant S_ .f32 0x3F800000#32))

/-- The mean from the per-node sums `s` and the in-degrees `n`: `s / max(n, 1)` where `n > 0`, else `0`. -/
def meanOf (s : FVec F S60000x32 .f32) (n : FVec F S60000x1 .f32) : FVec F S60000x32 .f32 :=
  select (broadcastInDim S60000x32 ![0, 1] bcast_S60000x1_S60000x32_0_1
      (cmpf .ogt n (broadcastInDim S60000x1 ![] bcast_S_S60000x1 (constant S_ .f32 0x00000000#32))))
    (Host.divf s (broadcastInDim S60000x32 ![0, 1] bcast_S60000x1_S60000x32_0_1
      (maximumf n (broadcastInDim S60000x1 ![] bcast_S_S60000x1 (constant S_ .f32 0x3F800000#32)))))
    (broadcastInDim S60000x32 ![] bcast_S_S60000x32 (id (constant S_ .f32 0x00000000#32)))

/-- The edge rows summed per destination node. -/
def segSum (w : FVec F S1920000x32 .f32) (dst : IVec S1920000 32) : FVec F S60000x32 .f32 :=
  Host.scatterAdd scatter_S60000x32_S1920000x1_S1920000x32_1_0_0_1
    (broadcastInDim S60000x32 ![] bcast_S_S60000x32 (constant S_ .f32 0x00000000#32)) (colE dst) w

/-- The edge rows averaged per destination node. -/
def segMean (w : FVec F S1920000x32 .f32) (dst : IVec S1920000 32) : FVec F S60000x32 .f32 :=
  meanOf (segSum w dst) (inDegree dst)

/-- `leaky_relu([x, a] · W + b)` with slope `0.01` (the f32 nearest it), to 32 columns. -/
def linLeaky32 (x a : FVec F S60000x32 .f32) (w : FVec F S64x32 .f32) (b : FVec F S32 .f32) : FVec F S60000x32 .f32 :=
  let y : FVec F S60000x32 .f32 := addf (Host.dotGeneral dot_S60000x64_S64x32_S60000x32_1_0_0_1_n_n none
      (concatenate S60000x64 1 [⟨S60000x32, x⟩, ⟨S60000x32, a⟩] concatenates_S60000x32_S60000x32_S60000x64_d1) w)
    (broadcastInDim S60000x32 ![0, 1] bcast_S1x32_S60000x32_0_1 (broadcastInDim S1x32 ![1] bcast_S32_S1x32_1 b))
  select (cmpf .oge y (broadcastInDim S60000x32 ![] bcast_S_S60000x32 (constant S_ .f32 0x00000000#32))) y
    (mulf (broadcastInDim S60000x32 ![] bcast_S_S60000x32 (id (constant S_ .f32 0x3C23D70A#32))) y)

/-- The same to 16 columns. -/
def linLeaky16 (x a : FVec F S60000x32 .f32) (w : FVec F S64x16 .f32) (b : FVec F S16 .f32) : FVec F S60000x16 .f32 :=
  let y : FVec F S60000x16 .f32 := addf (Host.dotGeneral dot_S60000x64_S64x16_S60000x16_1_0_0_1_n_n none
      (concatenate S60000x64 1 [⟨S60000x32, x⟩, ⟨S60000x32, a⟩] concatenates_S60000x32_S60000x32_S60000x64_d1) w)
    (broadcastInDim S60000x16 ![0, 1] bcast_S1x16_S60000x16_0_1 (broadcastInDim S1x16 ![1] bcast_S16_S1x16_1 b))
  select (cmpf .oge y (broadcastInDim S60000x16 ![] bcast_S_S60000x16 (constant S_ .f32 0x00000000#32))) y
    (mulf (broadcastInDim S60000x16 ![] bcast_S_S60000x16 (id (constant S_ .f32 0x3C23D70A#32))) y)

/-- The aggregate a convolution feeds its linear layer: the gated rows of `x` at the edges' sources, averaged per destination. -/
def aggOf (x : FVec F S60000x32 .f32) (src dst rel : IVec S1920000 32) (wr : FVec F S16x64x32 .f32) : FVec F S60000x32 .f32 :=
  segMean (gated (rowsAt x dst) (rowsAt x src) rel (relSum wr)) dst

/-- A batch index vector with negative entries wrapped by 60000, as a column. -/
def wrapB (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 60000#32))) i)

/-- The two layers' features side by side. -/
def feats (x1 : FVec F S60000x32 .f32) (x2 : FVec F S60000x16 .f32) : FVec F S60000x48 .f32 :=
  concatenate S60000x48 1 [⟨S60000x32, x1⟩, ⟨S60000x16, x2⟩] concatenates_S60000x32_S60000x16_S60000x48_d1

/-- The user rows (node 50000 + user) of the features. -/
def userRows (f : FVec F S60000x48 .f32) (users : IVec S4096 32) : FVec F S4096x48 .f32 :=
  Host.gather gather_S60000x48_S4096x1_S4096x48_1_0_n_n_0_1_148 f
    (wrapB (addi (broadcastInDim S4096 ![] bcast_S_S4096 (constantI S_ 32 50000#32)) users))

/-- The item rows of the features. -/
def itemRows (f : FVec F S60000x48 .f32) (items : IVec S4096 32) : FVec F S4096x48 .f32 :=
  Host.gather gather_S60000x48_S4096x1_S4096x48_1_0_n_n_0_1_148 f (wrapB items)

/-- Row by row, the dot product of two [4096, 48] arrays. -/
def rowDot (u i : FVec F S4096x48 .f32) : FVec F S4096 .f32 :=
  Host.reduceAdd (mulf u i) (constant S_ .f32 0x00000000#32) reducesTo_S4096x48_S4096_d1 h_S_

/-- The first layer's node features. -/
def layer1 (e : FVec F S50000x64 .f32) (u : FVec F S10000x64 .f32) (w0 : FVec F S64x128 .f32) (b0 : FVec F S128 .f32)
    (w1 : FVec F S128x32 .f32) (b1 : FVec F S32 .f32) (wr1 : FVec F S16x64x32 .f32) (lw1 : FVec F S64x32 .f32) (lb1 : FVec F S32 .f32)
    (src dst rel : IVec S1920000 32) : FVec F S60000x32 .f32 :=
  linLeaky32 (encode (allEmb e u) w0 b0 w1 b1) (aggOf (encode (allEmb e u) w0 b0 w1 b1) src dst rel wr1) lw1 lb1

/-- The second layer's node features, from the first's. -/
def layer2 (x1 : FVec F S60000x32 .f32) (wr2 : FVec F S16x64x32 .f32) (lw2 : FVec F S64x16 .f32) (lb2 : FVec F S16 .f32)
    (src dst rel : IVec S1920000 32) : FVec F S60000x16 .f32 :=
  linLeaky16 x1 (aggOf x1 src dst rel wr2) lw2 lb2

/-- The scores from the first layer's features. -/
def scoresOf (x1 : FVec F S60000x32 .f32) (wr2 : FVec F S16x64x32 .f32) (lw2 : FVec F S64x16 .f32) (lb2 : FVec F S16 .f32)
    (users items : IVec S4096 32) (src dst rel : IVec S1920000 32) : FVec F S4096 .f32 :=
  rowDot (userRows (feats x1 (layer2 x1 wr2 lw2 lb2 src dst rel)) users) (itemRows (feats x1 (layer2 x1 wr2 lw2 lb2 src dst rel)) items)

/-- THE FIRST RESULT: the 4096 scores, as a function of the argument arrays. -/
def scores (e : FVec F S50000x64 .f32) (u : FVec F S10000x64 .f32) (w0 : FVec F S64x128 .f32) (b0 : FVec F S128 .f32)
    (w1 : FVec F S128x32 .f32) (b1 : FVec F S32 .f32) (wr1 : FVec F S16x64x32 .f32) (lw1 : FVec F S64x32 .f32) (lb1 : FVec F S32 .f32)
    (wr2 : FVec F S16x64x32 .f32) (lw2 : FVec F S64x16 .f32) (lb2 : FVec F S16 .f32)
    (users items : IVec S4096 32) (src dst rel : IVec S1920000 32) : FVec F S4096 .f32 :=
  scoresOf (layer1 e u w0 b0 w1 b1 wr1 lw1 lb1 src dst rel) wr2 lw2 lb2 users items src dst rel

/-- THE SECOND RESULT: the autoencoder's mean squared reconstruction error. -/
def loss (e : FVec F S50000x64 .f32) (u : FVec F S10000x64 .f32) (w0 : FVec F S64x128 .f32) (b0 : FVec F S128 .f32)
    (w1 : FVec F S128x32 .f32) (b1 : FVec F S32 .f32) (dw0 : FVec F S32x128 .f32) (db0 : FVec F S128 .f32)
    (dw1 : FVec F S128x64 .f32) (db1 : FVec F S64 .f32) : FVec F S_ .f32 :=
  meanSq (decode (encode (allEmb e u) w0 b0 w1 b1) dw0 db0 dw1 db1) (allEmb e u)

end Cert.Stages

end
-- ==== Proof.KStages.lean ====
/-
  Two host-side shapes only the kernel's program has: it counts the edges ending at each node into a plain
  vector of 60000 entries (the reference counts into a [60000, 1] column) and reads that vector as a column
  afterwards; and its last region leaves the scores as a [4096, 1] column that a final reshape flattens.
-/
import proofs.«429255_j2413771620669_3_alg».proof.Proof.Gen.KernelIdeal
import proofs.«429255_j2413771620669_3_alg».proof.Proof.Stages

noncomputable section

namespace Cert.KStages

open Idealize.ShloMosaic
open Cert.KernelIdeal Cert.KernelIdeal.Gen

variable {F : FTy → Type} [FloatOps F]

/-- Per node, how many edges end there, as a vector. -/
def inDegreeK (dst : IVec S1920000 32) : FVec F S60000 .f32 :=
  Host.scatterAdd scatter_S60000_S1920000x1_S1920000_n_0_0_1
    (broadcastInDim S60000 ![] bcast_S_S60000 (constant S_ .f32 0x00000000#32))
    (broadcastInDim S1920000x1 ![0] bcast_S1920000_S1920000x1_0 dst)
    (broadcastInDim S1920000 ![] bcast_S_S1920000 (constant S_ .f32 0x3F800000#32))

/-- A vector over the nodes as a column. -/
def colN (n : FVec F S60000 .f32) : FVec F S60000x1 .f32 :=
  broadcastInDim S60000x1 ![0] bcast_S60000_S60000x1_0 n

/-- The row-by-row dot products as a [4096, 1] column. -/
def rowDotCol (u i : FVec F S4096x48 .f32) : FVec F S4096x1 .f32 :=
  shapeCast S4096x1 (Cert.Stages.rowDot u i) shapeCasts_S4096_S4096x1

end Cert.KStages

end
-- ==== Proof.KChainDefs.lean ====
import proofs.«429255_j2413771620669_3_alg».proof.Proof.Gen.KernelIdeal.Frame
import Idealize.ShloMosaic.PureOps.Ideal

noncomputable section

namespace Cert.KernelIdeal.KChain

open Cert.KernelIdeal Cert.KernelIdeal.Gen
open Idealize.ShloMosaic Idealize.ShloMosaic.TcCoe Idealize.SL.Sem

variable (m : (ℓ : Loc nD τ sig) → Buf (Elt Ideal) ℓ)

/-- At the buffer contents `W`, the argument arrays the second convolution and the scoring still read are as launched. -/
def ArgsAt (W : Dev nD → Valuation τ sig (Elt Ideal)) (c : Dev nD) : Prop :=
  W c (Proc.devRef .tc main_arg13) = m ((c : Thread nD τ).loc main_arg13)
  ∧ W c (Proc.devRef .tc main_arg14) = m ((c : Thread nD τ).loc main_arg14)
  ∧ W c (Proc.devRef .tc main_arg15) = m ((c : Thread nD τ).loc main_arg15)
  ∧ W c (Proc.devRef .tc main_arg16) = m ((c : Thread nD τ).loc main_arg16)
  ∧ W c (Proc.devRef .tc main_arg17) = m ((c : Thread nD τ).loc main_arg17)
  ∧ W c (Proc.devRef .tc main_arg18) = m ((c : Thread nD τ).loc main_arg18)
  ∧ W c (Proc.devRef .tc main_arg19) = m ((c : Thread nD τ).loc main_arg19)
  ∧ W c (Proc.devRef .tc main_arg20) = m ((c : Thread nD τ).loc main_arg20)

end Cert.KernelIdeal.KChain

end
-- ==== Proof.RegionAE.lean ====
/-
  Region 0, the autoencoder: its two output arrays after all ten row blocks are the encoder of the input rows and the
  decoder of that encoding. Index by index both programs compute, per row, two affine maps with `max(·, 0)` between
  (`mlp`): the kernel by a product accumulated into a zero splat plus the bias row, the host by `dot_general` plus the
  bias broadcast twice. Each output row depends on the same row of the row-tiled input only, so what a grid point writes
  back is its block of the whole-array function, and the ten blocks cover the array.
-/
import proofs.«429255_j2413771620669_3_alg».proof.Proof.Gen.KernelIdeal.Frame
import proofs.«429255_j2413771620669_3_alg».proof.Proof.Stages
import proofs.«429255_j2413771620669_3_alg».proof.Proof.KStages
import Idealize.ShloMosaic.PureOps.Ideal
import Idealize.ShloMosaic.Lib.KernelVsHost

set_option maxRecDepth 16384

noncomputable section

namespace Cert.KernelIdeal.RegionVal

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

namespace AE

section Rows
variable {M K N : Nat}

/-- One affine map at a row: `Σ_l x_l · W(l, k) + b_k`. -/
def aff (xr : Fin K → EReal) (w : (⟨2, ![K, N]⟩ : Shape).Idx → EReal) (b : (⟨1, ![N]⟩ : Shape).Idx → EReal) (k : Fin N) : EReal :=
  (∑ l : Fin K, xr l * w (ix2 l k)) + b (ix1 k)

/-- Two affine maps with `max(·, 0)` between, at a row. -/
def mlp {H : Nat} (xr : Fin K → EReal) (w0 : (⟨2, ![K, H]⟩ : Shape).Idx → EReal) (b0 : (⟨1, ![H]⟩ : Shape).Idx → EReal)
    (w1 : (⟨2, ![H, N]⟩ : Shape).Idx → EReal) (b1 : (⟨1, ![N]⟩ : Shape).Idx → EReal) (q : Fin N) : EReal :=
  aff (fun k => max (aff xr w0 b0 k) (Ideal.ofBits .f32 0x00000000#32)) w1 b1 q

/-- The contraction of an M×K by K×N product at (a, b) is the sum over the K shared coordinates. -/
theorem contr_sum (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (⟨[1], [0], [0], [1], [], [], w⟩ : DotDims ⟨2, ![M, K]⟩ ⟨2, ![K, N]⟩ ⟨2, ![M, N]⟩).contr.Idx,
        A ((⟨[1], [0], [0], [1], [], [], w⟩ : DotDims ⟨2, ![M, K]⟩ ⟨2, ![K, N]⟩ ⟨2, ![M, N]⟩).lhsIdx (ix2 a b) k)
          * B ((⟨[1], [0], [0], [1], [], [], w⟩ : DotDims ⟨2, ![M, K]⟩ ⟨2, ![K, N]⟩ ⟨2, ![M, N]⟩).rhsIdx (ix2 a b) k)
      = ∑ c : Fin K, A (ix2 a c) * B (ix2 c b) := by
  rw [← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A vector cast to one row and laid down the rows reads, at (p, q), its entry q. -/
theorem rowBias_apply {α : Type} (b : (⟨1, ![N]⟩ : Shape).Idx → α)
    (h1 : (⟨1, ![N]⟩ : Shape).ShapeCasts ⟨2, ![1, N]⟩) (hb : (⟨2, ![1, N]⟩ : Shape).Broadcasts ⟨2, ![M, N]⟩) (p : Fin M) (q : Fin N) :
    broadcastTo ⟨2, ![M, N]⟩ (shapeCast ⟨2, ![1, N]⟩ b h1) hb (ix2 p q) = b (ix1 q) := by
  have e1 := broadcastTo_apply (shapeCast ⟨2, ![1, N]⟩ b h1) hb (ix2 p q) (ix2 (0 : Fin 1) q) (by
    intro a
    match a with
    | ⟨0, _⟩ => rfl
    | ⟨1, _⟩ =>
      show q.val = if N = 1 then 0 else q.val
      split
      · have := q.isLt; omega
      · rfl)
  have e2 := shapeCast_apply b h1 (ix2 (0 : Fin 1) q) (ix1 q) (by
    rw [Shape.rowMajor_val_two, Shape.rowMajor_val_one]; show q.val = 0 * N + q.val; omega)
  exact e1.trans e2

/-- The same vector broadcast along axis 1 to one row and that row down the rows. -/
theorem rowBiasHost_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  refine (broadcastInDim_oneRow_apply h2 _ p q).trans ?_
  refine broadcastInDim_apply ![1] h1 b (ix2 (0 : Fin 1) q) (ix1 q) ?_
  intro a
  match a with
  | ⟨0, _⟩ =>
    show q.val = if N = 1 then 0 else q.val
    split
    · have := q.isLt; omega
    · rfl

/-- A kernel's layer — a product accumulated into a zero splat plus the bias row — at (p, q). -/
theorem kLayer_apply {φ₁ φ₂ : FTy} (d : DotDims ⟨2, ![M, K]⟩ ⟨2, ![K, N]⟩ ⟨2, ![M, N]⟩)
    (w : DotDims.WF ⟨2, ![M, K]⟩ ⟨2, ![K, N]⟩ ⟨2, ![M, N]⟩ [1] [0] [0] [1] [] []) (hd : d = ⟨[1], [0], [0], [1], [], [], w⟩)
    (prec : Option ContractPrecision)
    (A : FVec Ideal ⟨2, ![M, K]⟩ φ₁) (W : FVec Ideal ⟨2, ![K, N]⟩ φ₂) (b : FVec Ideal ⟨1, ![N]⟩ .f32)
    (h1 : (⟨1, ![N]⟩ : Shape).ShapeCasts ⟨2, ![1, N]⟩) (hb : (⟨2, ![1, N]⟩ : Shape).Broadcasts ⟨2, ![M, N]⟩) (p : Fin M) (q : Fin N) :
    addf (matmul d prec A W (constant ⟨2, ![M, N]⟩ .f32 0x00000000#32)) (broadcastTo ⟨2, ![M, N]⟩ (shapeCast ⟨2, ![1, N]⟩ b h1) hb) (ix2 p q)
      = aff (fun l => A (ix2 p l)) W b q := by
  subst hd
  rw [addf_apply, rowBias_apply]
  unfold aff
  congr 1
  show FloatOps.matmul _ prec A W (constant _ .f32 0x00000000#32) (ix2 p q) = _
  rw [Ideal.matmul_constant_zero_apply]
  exact contr_sum w A W p q

/-- The host's layer — a `dot_general` plus the bias broadcast twice — at (p, q). -/
theorem hLayer_apply {φ₁ φ₂ : FTy} (d : DotDims ⟨2, ![M, K]⟩ ⟨2, ![K, N]⟩ ⟨2, ![M, N]⟩)
    (w : DotDims.WF ⟨2, ![M, K]⟩ ⟨2, ![K, N]⟩ ⟨2, ![M, N]⟩ [1] [0] [0] [1] [] []) (hd : d = ⟨[1], [0], [0], [1], [], [], w⟩)
    (prec : Option ContractPrecision)
    (A : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (q : Fin N) :
    addf (Host.dotGeneral d prec A W) (broadcastInDim ⟨2, ![M, N]⟩ ![0, 1] h2 (broadcastInDim ⟨2, ![1, N]⟩ ![1] h1 b)) (ix2 p q)
      = aff (fun l => A (ix2 p l)) W b q := by
  subst hd
  rw [addf_apply, rowBiasHost_apply]
  unfold aff
  congr 1
  show FloatOps.dotGeneral _ prec _ A W (ix2 p q) = _
  rw [Ideal.dotGeneral_apply]
  exact contr_sum w A W p q

end Rows

/-! ## The two programs' payloads at an index -/

section Payloads

/-- The encoder block at (p, q): the two-layer map of row p of the input block. -/
theorem pay2_apply (x : FVec Ideal S6000x64 .f32) (w0 : FVec Ideal S64x128 .f32) (b0 : FVec Ideal S128 .f32)
    (w1 : FVec Ideal S128x32 .f32) (b1 : FVec Ideal S32 .f32) (p : Fin 6000) (q : Fin 32) :
    k0_pay2 (F := Ideal) x w0 b0 w1 b1 (ix2 p q) = mlp (fun l => x (ix2 p l)) w0 b0 w1 b1 q := by
  unfold k0_pay2
  simp only [shapeCast_self]
  refine (kLayer_apply dot_S6000x128_S128x32_S6000x32_1_0_0_1_n_n Facts₀.dot_S6000x128_S128x32_S6000x32_1_0_0_1_n_n_wf rfl none _ _ _ _ _ p q).trans ?_
  unfold mlp
  refine congrArg (fun f => aff f w1 b1 q) (funext fun k => ?_)
  rw [truncf_apply, maximumf_apply, broadcast_apply,
    kLayer_apply dot_S6000x64_S64x128_S6000x128_1_0_0_1_n_n Facts₀.dot_S6000x64_S64x128_S6000x128_1_0_0_1_n_n_wf rfl]
  rfl

end Payloads

section Payloads2

/-- The decoder block at (p, q): the two-layer map of row p of the encoder block. -/
theorem pay13_apply (x : FVec Ideal S6000x64 .f32) (w0 : FVec Ideal S64x128 .f32) (b0 : FVec Ideal S128 .f32)
    (w1 : FVec Ideal S128x32 .f32) (b1 : FVec Ideal S32 .f32) (dw0 : FVec Ideal S32x128 .f32) (db0 : FVec Ideal S128 .f32)
    (dw1 : FVec Ideal S128x64 .f32) (db1 : FVec Ideal S64 .f32) (p : Fin 6000) (q : Fin 64) :
    k0_pay1 (F := Ideal) (k0_pay3 x w0 b0 w1 b1 dw0 db0 dw1) db1 (ix2 p q)
      = mlp (fun l => mlp (fun l' => x (ix2 p l')) w0 b0 w1 b1 l) dw0 db0 dw1 db1 q := by
  unfold k0_pay1 k0_pay3
  refine (kLayer_apply dot_S6000x128_S128x64_S6000x64_1_0_0_1_n_n Facts₀.dot_S6000x128_S128x64_S6000x64_1_0_0_1_n_n_wf rfl none _ _ _ _ _ p q).trans ?_
  show _ = aff (fun k => max (aff (fun l => mlp (fun l' => x (ix2 p l')) w0 b0 w1 b1 l) dw0 db0 k) (Ideal.ofBits .f32 0x00000000#32)) dw1 db1 q
  refine congrArg (fun f => aff f dw1 db1 q) (funext fun k => ?_)
  rw [truncf_apply, maximumf_apply, broadcast_apply,
    kLayer_apply dot_S6000x32_S32x128_S6000x128_1_0_0_1_n_n Facts₀.dot_S6000x32_S32x128_S6000x128_1_0_0_1_n_n_wf rfl]
  refine congrArg (fun f => max (aff f dw0 db0 k) (Ideal.ofBits .f32 0x00000000#32)) (funext fun l => ?_)
  exact pay2_apply x w0 b0 w1 b1 p l

/-- The host's encoder at (r, q): the two-layer map of row r of the input. -/
theorem encode_apply (x : FVec Ideal S60000x64 .f32) (w0 : FVec Ideal S64x128 .f32) (b0 : FVec Ideal S128 .f32)
    (w1 : FVec Ideal S128x32 .f32) (b1 : FVec Ideal S32 .f32) (r : Fin 60000) (q : Fin 32) :
    Cert.Stages.encode (F := Ideal) x w0 b0 w1 b1 (ix2 r q) = mlp (fun l => x (ix2 r l)) w0 b0 w1 b1 q := by
  unfold Cert.Stages.encode
  refine (hLayer_apply Cert.ReferenceIdeal.dot_S60000x128_S128x32_S60000x32_1_0_0_1_n_n
    Cert.ReferenceIdeal.Facts₀.dot_S60000x128_S128x32_S60000x32_1_0_0_1_n_n_wf rfl none _ _ _ _ _ r q).trans ?_
  unfold mlp
  refine congrArg (fun f => aff f w1 b1 q) (funext fun k => ?_)
  unfold Cert.Stages.relu128
  rw [maximumf_apply, hLayer_apply Cert.ReferenceIdeal.dot_S60000x64_S64x128_S60000x128_1_0_0_1_n_n
    Cert.ReferenceIdeal.Facts₀.dot_S60000x64_S64x128_S60000x128_1_0_0_1_n_n_wf rfl]
  rfl

/-- The host's decoder at (r, q): the two-layer map of row r of the encoding. -/
theorem decode_apply (z : FVec Ideal S60000x32 .f32) (dw0 : FVec Ideal S32x128 .f32) (db0 : FVec Ideal S128 .f32)
    (dw1 : FVec Ideal S128x64 .f32) (db1 : FVec Ideal S64 .f32) (r : Fin 60000) (q : Fin 64) :
    Cert.Stages.decode (F := Ideal) z dw0 db0 dw1 db1 (ix2 r q) = mlp (fun l => z (ix2 r l)) dw0 db0 dw1 db1 q := by
  unfold Cert.Stages.decode
  refine (hLayer_apply Cert.ReferenceIdeal.dot_S60000x128_S128x64_S60000x64_1_0_0_1_n_n
    Cert.ReferenceIdeal.Facts₀.dot_S60000x128_S128x64_S60000x64_1_0_0_1_n_n_wf rfl none _ _ _ _ _ r q).trans ?_
  unfold mlp
  refine congrArg (fun f => aff f dw1 db1 q) (funext fun k => ?_)
  unfold Cert.Stages.relu128
  rw [maximumf_apply, hLayer_apply Cert.ReferenceIdeal.dot_S60000x32_S32x128_S60000x128_1_0_0_1_n_n
    Cert.ReferenceIdeal.Facts₀.dot_S60000x32_S32x128_S60000x128_1_0_0_1_n_n_wf rfl]
  rfl

end Payloads2

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The grid's index maps, decided over the ten points -/

/-- The row-tiled windows (the input rows, the two outputs) sit at block (t, 0). -/
theorem idx_rows : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 1) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 1) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 1) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 1) = 0 :=
  (by decide +kernel : ∀ t : Fin grid0.N, _)

/-! ## The whole-array windows' blocks are their arrays -/

theorem iblk_w1 (c : Dev nD) (t : Fin cfg0.N) :
    (iblk0 V c 1 t : FVec Ideal S64x128 .f32) = (V c main_arg2 : S64x128.Idx → EReal) := by
  funext y
  show V c main_arg2 (((cfg0.win 1).blk t).view.emb y) = V c main_arg2 y
  refine congrArg (V c main_arg2) (funext fun a => Fin.ext ?_)
  match a with
    | ⟨0, _⟩ => show win0_1.index t (0 : Fin 2) * 64 + 1 * (y 0).val = (y 0).val; rw [(idx_w1 t).1]; omega
    | ⟨1, _⟩ => show win0_1.index t (1 : Fin 2) * 128 + 1 * (y 1).val = (y 1).val; rw [(idx_w1 t).2]; omega

theorem iblk_w2 (c : Dev nD) (t : Fin cfg0.N) :
    (iblk0 V c 2 t : FVec Ideal S128 .f32) = (V c main_arg3 : S128.Idx → EReal) := by
  funext y
  show V c main_arg3 (((cfg0.win 2).blk t).view.emb y) = V c main_arg3 y
  refine congrArg (V c main_arg3) (funext fun a => Fin.ext ?_)
  match a with
    | ⟨0, _⟩ => show win0_2.index t (0 : Fin 1) * 128 + 1 * (y 0).val = (y 0).val; rw [(idx_w2 t)]; omega

theorem iblk_w3 (c : Dev nD) (t : Fin cfg0.N) :
    (iblk0 V c 3 t : FVec Ideal S128x32 .f32) = (V c main_arg4 : S128x32.Idx → EReal) := by
  funext y
  show V c main_arg4 (((cfg0.win 3).blk t).view.emb y) = V c main_arg4 y
  refine congrArg (V c main_arg4) (funext fun a => Fin.ext ?_)
  match a with
    | ⟨0, _⟩ => show win0_3.index t (0 : Fin 2) * 128 + 1 * (y 0).val = (y 0).val; rw [(idx_w3 t).1]; omega
    | ⟨1, _⟩ => show win0_3.index t (1 : Fin 2) * 32 + 1 * (y 1).val = (y 1).val; rw [(idx_w3 t).2]; omega

theorem iblk_w4 (c : Dev nD) (t : Fin cfg0.N) :
    (iblk0 V c 4 t : FVec Ideal S32 .f32) = (V c main_arg5 : S32.Idx → EReal) := by
  funext y
  show V c main_arg5 (((cfg0.win 4).blk t).view.emb y) = V c main_arg5 y
  refine congrArg (V c main_arg5) (funext fun a => Fin.ext ?_)
  match a with
    | ⟨0, _⟩ => show win0_4.index t (0 : Fin 1) * 32 + 1 * (y 0).val = (y 0).val; rw [(idx_w4 t)]; omega

theorem iblk_w5 (c : Dev nD) (t : Fin cfg0.N) :
    (iblk0 V c 5 t : FVec Ideal S32x128 .f32) = (V c main_arg6 : S32x128.Idx → EReal) := by
  funext y
  show V c main_arg6 (((cfg0.win 5).blk t).view.emb y) = V c main_arg6 y
  refine congrArg (V c main_arg6) (funext fun a => Fin.ext ?_)
  match a with
    | ⟨0, _⟩ => show win0_5.index t (0 : Fin 2) * 32 + 1 * (y 0).val = (y 0).val; rw [(idx_w5 t).1]; omega
    | ⟨1, _⟩ => show win0_5.index t (1 : Fin 2) * 128 + 1 * (y 1).val = (y 1).val; rw [(idx_w5 t).2]; omega

theorem iblk_w6 (c : Dev nD) (t : Fin cfg0.N) :
    (iblk0 V c 6 t : FVec Ideal S128 .f32) = (V c main_arg7 : S128.Idx → EReal) := by
  funext y
  show V c main_arg7 (((cfg0.win 6).blk t).view.emb y) = V c main_arg7 y
  refine congrArg (V c main_arg7) (funext fun a => Fin.ext ?_)
  match a with
    | ⟨0, _⟩ => show win0_6.index t (0 : Fin 1) * 128 + 1 * (y 0).val = (y 0).val; rw [(idx_w6 t)]; omega

theorem iblk_w7 (c : Dev nD) (t : Fin cfg0.N) :
    (iblk0 V c 7 t : FVec Ideal S128x64 .f32) = (V c main_arg8 : S128x64.Idx → EReal) := by
  funext y
  show V c main_arg8 (((cfg0.win 7).blk t).view.emb y) = V c main_arg8 y
  refine congrArg (V c main_arg8) (funext fun a => Fin.ext ?_)
  match a with
    | ⟨0, _⟩ => show win0_7.index t (0 : Fin 2) * 128 + 1 * (y 0).val = (y 0).val; rw [(idx_w7 t).1]; omega
    | ⟨1, _⟩ => show win0_7.index t (1 : Fin 2) * 64 + 1 * (y 1).val = (y 1).val; rw [(idx_w7 t).2]; omega

theorem iblk_w8 (c : Dev nD) (t : Fin cfg0.N) :
    (iblk0 V c 8 t : FVec Ideal S64 .f32) = (V c main_arg9 : S64.Idx → EReal) := by
  funext y
  show V c main_arg9 (((cfg0.win 8).blk t).view.emb y) = V c main_arg9 y
  refine congrArg (V c main_arg9) (funext fun a => Fin.ext ?_)
  match a with
    | ⟨0, _⟩ => show win0_8.index t (0 : Fin 1) * 64 + 1 * (y 0).val = (y 0).val; rw [(idx_w8 t)]; omega

/-- The input rows' block at point t is rows 6000·t … 6000·t + 5999 of the array. -/
theorem iblk_rows (c : Dev nD) (t : Fin cfg0.N) (p : Fin 6000) (l : Fin 64) (r : Fin 60000) (hr : r.val = t.val * 6000 + p.val) :
    (iblk0 V c 0 t : FVec Ideal S6000x64 .f32) (ix2 p l) = (V c main_v0 : S60000x64.Idx → EReal) (ix2 r l) := by
  show V c main_v0 (((cfg0.win 0).blk t).view.emb (ix2 p l)) = V c main_v0 (ix2 r l)
  refine congrArg (V c main_v0) (funext fun a => Fin.ext ?_)
  obtain ⟨e0, e1, -⟩ := idx_rows t
  match a with
  | ⟨0, _⟩ => show win0_0.index t (0 : Fin 2) * 6000 + 1 * p.val = r.val; rw [e0, hr]; omega
  | ⟨1, _⟩ => show win0_0.index t (1 : Fin 2) * 64 + 1 * l.val = l.val; rw [e1]; omega

/-- The two-layer map of equal rows and equal weights is equal. -/
theorem mlp_congr {K H N : Nat} {xr xr' : Fin K → EReal} {w0 w0' : (⟨2, ![K, H]⟩ : Shape).Idx → EReal}
    {b0 b0' : (⟨1, ![H]⟩ : Shape).Idx → EReal} {w1 w1' : (⟨2, ![H, N]⟩ : Shape).Idx → EReal} {b1 b1' : (⟨1, ![N]⟩ : Shape).Idx → EReal}
    (hx : xr = xr') (h0 : w0 = w0') (h1 : b0 = b0') (h2 : w1 = w1') (h3 : b1 = b1') (q : Fin N) :
    mlp xr w0 b0 w1 b1 q = mlp xr' w0' b0' w1' b1' q := by
  subst hx h0 h1 h2 h3; rfl

/-! ## What a grid point writes back -/

/-- Point t writes back its block of the encoder of the input arrays. -/
theorem flushed_enc (c : Dev nD) (t : Fin cfg0.N) :
    (dat0 (F := Ideal) V c).flushed 9 t = ((cfg0.win 9).blk t).view.read (Elt Ideal)
      (Cert.Stages.encode (F := Ideal) (V c main_v0) (V c main_arg2) (V c main_arg3) (V c main_arg4) (V c main_arg5)) := by
  show (cfg0.win 9).cut (grid0.coords t) ((dat0 V c).after 9 t) = _
  rw [after0_9]
  unfold out0_9
  rw [View.canon_unit_zero hz2]
  simp only [View.ld_unit_zero (S := S6000x64) hz2, View.ld_unit_zero (S := S64x128) hz2, View.ld_unit_zero (S := S128) hz1,
    View.ld_unit_zero (S := S128x32) hz2, View.ld_unit_zero (S := S32) hz1]
  funext j
  obtain ⟨p, q, rfl⟩ : ∃ (p : Fin 6000) (q : Fin 32), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = Cert.Stages.encode (F := Ideal) (V c main_v0) (V c main_arg2) (V c main_arg3) (V c main_arg4) (V c main_arg5)
        (((cfg0.win 9).blk t).view.emb (ix2 p q))
  obtain ⟨-, -, e0, e1, -⟩ := idx_rows t
  have hN : cfg0.N = 10 := N_0
  have hr : ((cfg0.win 9).blk t).view.emb (ix2 p q)
      = (ix2 (⟨t.val * 6000 + p.val, by have := t.isLt; omega⟩ : Fin 60000) q : S60000x32.Idx) := by
    funext a; apply Fin.ext
    match a with
    | ⟨0, _⟩ => show win0_9.index t (0 : Fin 2) * 6000 + 1 * p.val = t.val * 6000 + p.val; rw [e0]; omega
    | ⟨1, _⟩ => show win0_9.index t (1 : Fin 2) * 32 + 1 * q.val = q.val; rw [e1]; omega
  rw [hr]
  refine (pay2_apply _ _ _ _ _ p q).trans (Eq.trans ?_ (encode_apply _ _ _ _ _ _ q).symm)
  exact mlp_congr (funext fun l => iblk_rows V c t p l _ rfl) (iblk_w1 V c t) (iblk_w2 V c t) (iblk_w3 V c t) (iblk_w4 V c t) q

/-- Point t writes back its block of the decoder of the encoder of the input arrays. -/
theorem flushed_dec (c : Dev nD) (t : Fin cfg0.N) :
    (dat0 (F := Ideal) V c).flushed 10 t = ((cfg0.win 10).blk t).view.read (Elt Ideal)
      (Cert.Stages.decode (F := Ideal)
        (Cert.Stages.encode (F := Ideal) (V c main_v0) (V c main_arg2) (V c main_arg3) (V c main_arg4) (V c main_arg5))
        (V c main_arg6) (V c main_arg7) (V c main_arg8) (V c main_arg9)) := by
  show (cfg0.win 10).cut (grid0.coords t) ((dat0 V c).after 10 t) = _
  rw [after0_10]
  unfold out0_10
  rw [View.canon_unit_zero hz2]
  simp only [View.ld_unit_zero (S := S6000x64) hz2, View.ld_unit_zero (S := S64x128) hz2, View.ld_unit_zero (S := S128) hz1,
    View.ld_unit_zero (S := S128x32) hz2, View.ld_unit_zero (S := S32) hz1, View.ld_unit_zero (S := S32x128) hz2,
    View.ld_unit_zero (S := S128x64) hz2, View.ld_unit_zero (S := S64) hz1]
  funext j
  obtain ⟨p, q, rfl⟩ : ∃ (p : Fin 6000) (q : Fin 64), j = ix2 p q := ⟨j 0, j 1, eq_ix2 j⟩
  show k0_pay1 (F := Ideal) (k0_pay3 (iblk0 V c 0 t) (iblk0 V c 1 t) (iblk0 V c 2 t) (iblk0 V c 3 t) (iblk0 V c 4 t)
        (iblk0 V c 5 t) (iblk0 V c 6 t) (iblk0 V c 7 t)) (iblk0 V c 8 t) (ix2 p q)
    = Cert.Stages.decode (F := Ideal)
        (Cert.Stages.encode (F := Ideal) (V c main_v0) (V c main_arg2) (V c main_arg3) (V c main_arg4) (V c main_arg5))
        (V c main_arg6) (V c main_arg7) (V c main_arg8) (V c main_arg9) (((cfg0.win 10).blk t).view.emb (ix2 p q))
  obtain ⟨-, -, -, -, e0, e1⟩ := idx_rows t
  have hN : cfg0.N = 10 := N_0
  have hr : ((cfg0.win 10).blk t).view.emb (ix2 p q)
      = (ix2 (⟨t.val * 6000 + p.val, by have := t.isLt; omega⟩ : Fin 60000) q : S60000x64.Idx) := by
    funext a; apply Fin.ext
    match a with
    | ⟨0, _⟩ => show win0_10.index t (0 : Fin 2) * 6000 + 1 * p.val = t.val * 6000 + p.val; rw [e0]; omega
    | ⟨1, _⟩ => show win0_10.index t (1 : Fin 2) * 64 + 1 * q.val = q.val; rw [e1]; omega
  rw [hr]
  refine (pay13_apply _ _ _ _ _ _ _ _ _ p q).trans (Eq.trans ?_ (decode_apply _ _ _ _ _ _ q).symm)
  refine mlp_congr (funext fun l => ?_) (iblk_w5 V c t) (iblk_w6 V c t) (iblk_w7 V c t) (iblk_w8 V c t) q
  refine Eq.trans ?_ (encode_apply _ _ _ _ _ _ l).symm
  exact mlp_congr (funext fun l' => iblk_rows V c t p l' _ rfl) (iblk_w1 V c t) (iblk_w2 V c t) (iblk_w3 V c t) (iblk_w4 V c t) l

/-! ## The ten row blocks cover the arrays -/

/-- An index of the encoder's array is in point t's block iff each coordinate is in the block's range. -/
theorem mem_blk9 (t : Fin cfg0.N) (i : S60000x32.Idx) :
    i ∈ ((cfg0.win 9).blk t).view.set ↔ ∀ a : Fin 2, win0_9.index t a * S6000x32.size a ≤ (i a).val ∧ (i a).val < win0_9.index t a * S6000x32.size a + S6000x32.size a := by
  show i ∈ ((View.whole main_v1_0).slice (win0_9.rect t)).set ↔ _
  rw [View.set_slice_whole, Rect.mem_set_unit]
  exact Iff.rfl

/-- Row r of the encoder's array is in the block of point r / 6000. -/
theorem cover_enc (i : S60000x32.Idx) : ∃ t : Fin cfg0.N, (cfg0.win 9).flush t = true ∧ i ∈ ((cfg0.win 9).blk t).view.set := by
  have hi0 : (i 0).val < 60000 := (i 0).isLt
  have hi1 : (i 1).val < 32 := (i 1).isLt
  have hN : cfg0.N = 10 := N_0
  refine ⟨⟨(i 0).val / 6000, by rw [hN]; omega⟩, flush0_9 _, ?_⟩
  rw [mem_blk9]
  obtain ⟨-, -, e0, e1, -⟩ := idx_rows ⟨(i 0).val / 6000, by rw [hN]; omega⟩
  intro a
  match a with
  | ⟨0, _⟩ =>
    show win0_9.index _ (0 : Fin 2) * 6000 ≤ (i 0).val ∧ (i 0).val < win0_9.index _ (0 : Fin 2) * 6000 + 6000
    rw [e0]; show (i 0).val / 6000 * 6000 ≤ (i 0).val ∧ (i 0).val < (i 0).val / 6000 * 6000 + 6000; omega
  | ⟨1, _⟩ =>
    show win0_9.index _ (1 : Fin 2) * 32 ≤ (i 1).val ∧ (i 1).val < win0_9.index _ (1 : Fin 2) * 32 + 32
    rw [e1]; omega

/-- An index of the decoder's array is in point t's block iff each coordinate is in the block's range. -/
theorem mem_blk10 (t : Fin cfg0.N) (i : S60000x64.Idx) :
    i ∈ ((cfg0.win 10).blk t).view.set ↔ ∀ a : Fin 2, win0_10.index t a * S6000x64.size a ≤ (i a).val ∧ (i a).val < win0_10.index t a * S6000x64.size a + S6000x64.size a := by
  show i ∈ ((View.whole main_v1_1).slice (win0_10.rect t)).set ↔ _
  rw [View.set_slice_whole, Rect.mem_set_unit]
  exact Iff.rfl

/-- Row r of the decoder's array is in the block of point r / 6000. -/
theorem cover_dec (i : S60000x64.Idx) : ∃ t : Fin cfg0.N, (cfg0.win 10).flush t = true ∧ i ∈ ((cfg0.win 10).blk t).view.set := by
  have hi0 : (i 0).val < 60000 := (i 0).isLt
  have hi1 : (i 1).val < 64 := (i 1).isLt
  have hN : cfg0.N = 10 := N_0
  refine ⟨⟨(i 0).val / 6000, by rw [hN]; omega⟩, flush0_10 _, ?_⟩
  rw [mem_blk10]
  obtain ⟨-, -, -, -, e0, e1⟩ := idx_rows ⟨(i 0).val / 6000, by rw [hN]; omega⟩
  intro a
  match a with
  | ⟨0, _⟩ =>
    show win0_10.index _ (0 : Fin 2) * 6000 ≤ (i 0).val ∧ (i 0).val < win0_10.index _ (0 : Fin 2) * 6000 + 6000
    rw [e0]; show (i 0).val / 6000 * 6000 ≤ (i 0).val ∧ (i 0).val < (i 0).val / 6000 * 6000 + 6000; omega
  | ⟨1, _⟩ =>
    show win0_10.index _ (1 : Fin 2) * 64 ≤ (i 1).val ∧ (i 1).val < win0_10.index _ (1 : Fin 2) * 64 + 64
    rw [e1]; omega

end AE

/-! ## The arrays after all ten points -/

variable (V : (c : Dev nD) → (b : Ref sig .tc) → Buf (Elt Ideal) ((c : Thread nD τ).loc b))

/-- After region 0 its first output array is the encoder of its input arrays. -/
theorem arr0_enc (c : Dev nD) :
    (dat0 (F := Ideal) V c).arrAt 9 cfg0.N
      = Cert.Stages.encode (F := Ideal) (V c main_v0) (V c main_arg2) (V c main_arg3) (V c main_arg4) (V c main_arg5) :=
  (dat0 (F := Ideal) V c).arrAt_eq_of_cover 9 _ (fun t _ => AE.flushed_enc V c t) AE.cover_enc

/-- After region 0 its second output array is the decoder of that encoding. -/
theorem arr0_dec (c : Dev nD) :
    (dat0 (F := Ideal) V c).arrAt 10 cfg0.N
      = Cert.Stages.decode (F := Ideal)
          (Cert.Stages.encode (F := Ideal) (V c main_v0) (V c main_arg2) (V c main_arg3) (V c main_arg4) (V c main_arg5))
          (V c main_arg6) (V c main_arg7) (V c main_arg8) (V c main_arg9) :=
  (dat0 (F := Ideal) V c).arrAt_eq_of_cover 10 _ (fun t _ => AE.flushed_dec V c t) AE.cover_dec

end Cert.KernelIdeal.RegionVal

end
-- ==== Proof.RegionGate1.lean ====
/-
  Region 1, the edge gate: per edge, a one-hot row of the relation id picks that relation's summed weights by a
  matrix product; the 64 products of the destination and source rows (side by side) with those weights are summed
  along the lanes, the sum goes through the sigmoid, and the source row is scaled by it. The reference gathers the
  same table row and sums the same 64 products. Below: the words (a relation id below 16 passes the clamp and the
  wrap unchanged, and its one-hot row picks its table row), the block's layout operations and its payload read at an
  entry, the reference's stage read at an entry, each window's block as rows of its array, what a point writes back,
  and the cover of the array by the 375 row blocks.
-/
import proofs.«429255_j2413771620669_3_alg».proof.Proof.Gen.KernelIdeal.Frame
import proofs.«429255_j2413771620669_3_alg».proof.Proof.Stages
import proofs.«429255_j2413771620669_3_alg».proof.Proof.KStages
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate
import Idealize.ShloMosaic.PureOps.IdealRules

set_option maxRecDepth 16384

noncomputable section

namespace Cert.KernelIdeal.RegionVal

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Gate1

/-! ## Words and one-hot rows -/

/-- The f32 word of 1.0 denotes the extended real 1. -/
theorem one_f32 : Ideal.ofBits .f32 0x3F800000#32 = 1 := IdealRules.sign_bit.ideal_onePat .f32

/-- A word below 16 is one of the sixteen small words. -/
theorem small_word (ρ : BitVec 32) (h : ρ.toNat < 16) : ∃ n, n < 16 ∧ ρ = BitVec.ofNat 32 n :=
  ⟨ρ.toNat, h, by simp⟩

/-- A relation id below 16 is left alone by the clamp into [0, 15]. -/
theorem clamp_small (ρ : BitVec 32) (h : ρ.toNat < 16) : IntOp.minsi 15#32 (IntOp.maxsi 0#32 ρ) = ρ := by
  obtain ⟨n, hn, rfl⟩ := small_word ρ h
  interval_cases n <;> decide

/-- A relation id below 16 is not negative, so the wrap of negative indices by the table's length leaves it alone. -/
theorem wrap_small (ρ : BitVec 32) (h : ρ.toNat < 16) :
    Scalar.select (IntOp.cmpi .slt ρ 0#32) (IntOp.addi ρ 16#32) ρ = ρ := by
  obtain ⟨n, hn, rfl⟩ := small_word ρ h
  interval_cases n <;> decide

/-- Read signed, a word below 16 is its value, and the clamp into the table's 16 rows does not bind. -/
theorem start_small (ρ : BitVec 32) (h : ρ.toNat < 16) : min ρ.toInt.toNat (16 - 1) = ρ.toNat := by
  obtain ⟨n, hn, rfl⟩ := small_word ρ h
  interval_cases n <;> decide

/-- A bit widened to a word and converted to a float is 1 where the bit is set and 0 where it is not. -/
theorem sitofp_bit (b : BitVec 1) : (FloatOps.sitofp .f32 (b.setWidth 32) : Ideal .f32) = if b = 1#1 then 1 else 0 := by
  rcases BitVec.eq_zero_or_eq_one b with e | e <;> subst e
  · show ((((0#1 : BitVec 1).setWidth 32).toInt : ℝ) : EReal) = _
    rw [show ((0#1 : BitVec 1).setWidth 32).toInt = 0 from by decide, if_neg (by decide)]; simp
  · show ((((1#1 : BitVec 1).setWidth 32).toInt : ℝ) : EReal) = _
    rw [show ((1#1 : BitVec 1).setWidth 32).toInt = 1 from by decide, if_pos rfl]; simp

/-- The one-hot entry of a relation id below 16 at column `j`: 1 at the id's own column and 0 elsewhere. -/
theorem onehot_entry (ρ : BitVec 32) (h : ρ.toNat < 16) (j : Fin 16) :
    (FloatOps.sitofp .f32 ((IntOp.cmpi .eq ρ (BitVec.ofNat 32 j.val)).setWidth 32) : Ideal .f32)
      = if j = ⟨ρ.toNat, h⟩ then 1 else 0 := by
  rw [sitofp_bit]
  refine if_congr ?_ rfl rfl
  rw [StableHlo.Predicate.cmpi_eq_iff]
  constructor
  · intro e; apply Fin.ext; show j.val = ρ.toNat; rw [e]; simp; omega
  · intro e; rw [e]; simp

/-- A one-hot row times a 16-row table picks the table's row. -/
theorem onehot_sum (ρ : BitVec 32) (h : ρ.toNat < 16) (w : Fin 16 → EReal) :
    ∑ j : Fin 16, (FloatOps.sitofp .f32 ((IntOp.cmpi .eq ρ (BitVec.ofNat 32 j.val)).setWidth 32) : Ideal .f32) * w j
      = w ⟨ρ.toNat, h⟩ := by
  rw [Finset.sum_eq_single (⟨ρ.toNat, h⟩ : Fin 16)]
  · rw [onehot_entry ρ h, if_pos rfl, one_mul]
  · intro j _ hj; rw [onehot_entry ρ h, if_neg hj, zero_mul]
  · intro hn; exact absurd (Finset.mem_univ _) hn

/-! ## The layout operations of a row block, read at an index -/

/-- Two [n, 32] arrays side by side, read at row `p` and column `k` of the 64. -/
def catRow {n : Nat} (a b : (⟨2, ![n, 32]⟩ : Shape).Idx → EReal) (p : Fin n) (k : Fin 64) : EReal :=
  if h : k.val < 32 then a (ix2 p ⟨k.val, h⟩) else b (ix2 p ⟨k.val - 32, by have := k.isLt; omega⟩)

/-- The concatenation along the columns reads the left array in its first 32 columns and the right one in the rest. -/
theorem concat_at {n : Nat} (a b : (⟨2, ![n, 32]⟩ : Shape).Idx → EReal)
    (h : Shape.Concatenates [(⟨2, ![n, 32]⟩ : Shape), ⟨2, ![n, 32]⟩] ⟨2, ![n, 64]⟩ 1) (p : Fin n) (k : Fin 64) :
    concatenate (⟨2, ![n, 64]⟩ : Shape) 1 [⟨⟨2, ![n, 32]⟩, a⟩, ⟨⟨2, ![n, 32]⟩, b⟩] h (ix2 p k) = catRow a b p k := by
  unfold catRow
  by_cases hk : k.val < 32
  · rw [dif_pos hk]
    refine concatenate_pair_apply_left 1 a b h (ix2 p k) rfl (ix2 p ⟨k.val, hk⟩) fun c => ?_
    match c with
    | ⟨0, _⟩ => rfl
    | ⟨1, _⟩ => rfl
  · rw [dif_neg hk]
    refine concatenate_pair_apply_right 1 a b h (ix2 p k) rfl rfl (ix2 p ⟨k.val - 32, by have := k.isLt; omega⟩) (fun c hc => ?_) ?_
    · match c with
      | ⟨0, _⟩ => rfl
      | ⟨1, _⟩ => exact absurd rfl hc
    · show (k.val - 32) + 32 = k.val
      omega

/-- A column broadcast along the rows reads the column's entry of the same row. -/
theorem bcast_col_at {α : Type} {n m : Nat} (v : (⟨2, ![n, 1]⟩ : Shape).Idx → α) (hn : n ≠ 1)
    (h : (⟨2, ![n, 1]⟩ : Shape).Broadcasts ⟨2, ![n, m]⟩) (p : Fin n) (q : Fin m) :
    broadcastTo (⟨2, ![n, m]⟩ : Shape) v h (ix2 p q) = v (ix2 p (0 : Fin 1)) :=
  broadcastTo_apply v h (ix2 p q) (ix2 p (0 : Fin 1)) fun a => by
    match a with
    | ⟨0, _⟩ => show p.val = if n = 1 then 0 else p.val; rw [if_neg hn]
    | ⟨1, _⟩ => rfl

/-- A vector viewed as a column reads the vector's entry of the same row. -/
theorem cast_col_at {α : Type} {n : Nat} (v : (⟨1, ![n]⟩ : Shape).Idx → α)
    (h : (⟨1, ![n]⟩ : Shape).ShapeCasts ⟨2, ![n, 1]⟩) (p : Fin n) :
    shapeCast (⟨2, ![n, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The column index of a [5120, 16] block. -/
theorem iota_col_at (p : Fin 5120) (j : Fin 16) :
    iota .tc S5120x16 32 [1] iota_S5120x16_d1_w32 (ix2 p j) = BitVec.ofNat 32 j.val :=
  iota_single_apply .tc S5120x16 32 1 iota_S5120x16_d1_w32 (ix2 p j)

/-- A lane sum over the 64 columns of a [5120, 64] block. -/
theorem lane_sum_at (src : FVec Ideal S5120x64 .f32) (p : Fin 5120) :
    multiReduction .add [1] S5120 src 0x00000000#32 reduces_S5120x64_S5120 (.inl rfl) rfl (ix1 p)
      = ∑ k : Fin 64, src (ix2 p k) := by
  refine (Ideal.multiReduction_add_single src 0x00000000#32 reduces_S5120x64_S5120 (.inl rfl) rfl (ix1 p)).trans ?_
  refine Finset.sum_congr rfl fun k _ => congrArg src ?_
  funext a; apply Fin.ext
  match a with
  | ⟨0, _⟩ => rfl
  | ⟨1, _⟩ => rfl

/-- The block's matrix product into a zero accumulator, at an entry: the sum over the 16 table rows. -/
theorem matmul_at {φ₁ φ₂ : FTy} (A : FVec Ideal S5120x16 φ₁) (B : FVec Ideal S16x64 φ₂) (p : Fin 5120) (k : Fin 64) :
    matmul dot_S5120x16_S16x64_S5120x64_1_0_0_1_n_n none A B (constant S5120x64 .f32 0x00000000#32) (ix2 p k)
      = ∑ j : Fin 16, A (ix2 p j) * B (ix2 j k) := by
  show FloatOps.matmul _ none A B _ (ix2 p k) = _
  rw [Ideal.matmul_constant_zero_apply,
    ← Equiv.sum_comp (contrEquiv1 dot_S5120x16_S16x64_S5120x64_1_0_0_1_n_n 16 rfl rfl).symm]
  refine Finset.sum_congr rfl fun j _ => ?_
  have cj := contrEquiv1_symm_val dot_S5120x16_S16x64_S5120x64_1_0_0_1_n_n 16 rfl rfl j
  have l2 : dot_S5120x16_S16x64_S5120x64_1_0_0_1_n_n.lhsIdx (ix2 p k) ((contrEquiv1 _ 16 rfl rfl).symm j) = ix2 p j := by
    funext ax; apply Fin.ext
    match ax with
    | ⟨0, _⟩ => simp [DotDims.lhsIdx, dot_S5120x16_S16x64_S5120x64_1_0_0_1_n_n]; rfl
    | ⟨1, _⟩ => simp [DotDims.lhsIdx, dot_S5120x16_S16x64_S5120x64_1_0_0_1_n_n]; exact cj
  have r2 : dot_S5120x16_S16x64_S5120x64_1_0_0_1_n_n.rhsIdx (ix2 p k) ((contrEquiv1 _ 16 rfl rfl).symm j) = ix2 j k := by
    funext ax; apply Fin.ext
    match ax with
    | ⟨0, _⟩ => simp [DotDims.rhsIdx, dot_S5120x16_S16x64_S5120x64_1_0_0_1_n_n]; exact cj
    | ⟨1, _⟩ => simp [DotDims.rhsIdx, dot_S5120x16_S16x64_S5120x64_1_0_0_1_n_n]; rfl
  rw [l2, r2]

/-! ## The block's payload at an entry -/

/-- The gate kernel's block at row `p` and column `q`: the source row's entry times the sigmoid of the row's 64
    products with the summed weights of the row's relation. -/
theorem gate_pay_at (x0 x1 : Vec Ideal S5120x32 .f32) (x2 : Vec Ideal S5120 .i32) (x3 : Vec Ideal S16x64 .f32)
    (p : Fin 5120) (q : Fin 32) (h : ((x2 : IVec S5120 32) (ix1 p)).toNat < 16) :
    k1_pay1 x0 x1 x2 x3 (ix2 p q)
      = (x1 (ix2 p q) : EReal) * Ideal.logistic (∑ k : Fin 64, catRow x0 x1 p k * (x3 (ix2 ⟨((x2 : IVec S5120 32) (ix1 p)).toNat, h⟩ k) : EReal)) := by
  unfold k1_pay1
  dsimp only
  simp only [shapeCast_self]
  rw [mulf_apply, bcast_col_at _ (by decide) _ p q]
  show (x1 (ix2 p q) : EReal) * Ideal.logistic (shapeCast S5120x1 _ shapeCasts_S5120_S5120x1 (ix2 p (0 : Fin 1))) = _
  rw [cast_col_at, lane_sum_at]
  refine congrArg (fun s => (x1 (ix2 p q) : EReal) * Ideal.logistic s) (Finset.sum_congr rfl fun k _ => ?_)
  rw [mulf_apply, concat_at, matmul_at, shapeCast_self x0, shapeCast_self x1]
  refine congrArg (fun s => catRow x0 x1 p k * s) ?_
  refine Eq.trans (Finset.sum_congr rfl fun j _ => ?_) (onehot_sum _ h (fun j => (x3 (ix2 j k) : EReal)))
  show (FloatOps.sitofp .f32 ((IntOp.cmpi .eq (broadcastTo S5120x16 _ broadcasts_S5120x1_S5120x16 (ix2 p j))
      (iota .tc S5120x16 32 [1] iota_S5120x16_d1_w32 (ix2 p j))).setWidth 32) : Ideal .f32) * (x3 (ix2 j k) : EReal) = _
  rw [bcast_col_at _ (by decide) _ p j, cast_col_at, iota_col_at]
  show (FloatOps.sitofp .f32 ((IntOp.cmpi .eq (IntOp.minsi 15#32 (IntOp.maxsi 0#32 (x2 (ix1 p)))) (BitVec.ofNat 32 j.val)).setWidth 32) : Ideal .f32) * (x3 (ix2 j k) : EReal) = _
  rw [clamp_small _ h]

/-! ## The reference's stage at an entry -/

/-- The host's quotient, exponential and negation at an index are the extended reals'. -/
theorem hostDivf_at {s : Shape} (A B : FVec Ideal s .f32) (i : s.Idx) : Host.divf A B i = Ideal.div (A i) (B i) := rfl
theorem hostExp_at {s : Shape} (A : FVec Ideal s .f32) (i : s.Idx) : Host.exp A i = Ideal.exp (A i) := rfl
theorem hostNegf_at {s : Shape} (A : FVec Ideal s .f32) (i : s.Idx) : Host.negf A i = -(A i) := rfl

/-- A scalar constant broadcast to any shape reads the constant everywhere. -/
theorem splat_at {t : Shape} (h : (⟨0, ![]⟩ : Shape).BroadcastsInDim t (![] : Fin 0 → Fin t.rank)) (b : BitVec 32) (j : t.Idx) :
    broadcastInDim t ![] h (constant (F := Ideal) (⟨0, ![]⟩ : Shape) .f32 b) j = Ideal.ofBits .f32 b := rfl

/-- The [1920000, 64] products reduce over their 64 columns. -/
theorem redLanes : (⟨2, ![1920000, 64]⟩ : Shape).Reduces [1] ⟨1, ![1920000]⟩ := by decide

/-- The host's sum over the 64 columns from a constant initial value, at an edge: the constant plus the sum of the row. -/
theorem hostLaneSum_at (x : FVec Ideal (⟨2, ![1920000, 64]⟩ : Shape) .f32) (b : BitVec 32)
    (h' : (⟨2, ![1920000, 64]⟩ : Shape).ReducesTo [1] ⟨1, ![1920000]⟩) (hu : 0 < (⟨0, ![]⟩ : Shape).numel) (e : Fin 1920000) :
    Host.reduceAdd x (constant (F := Ideal) (⟨0, ![]⟩ : Shape) .f32 b) h' hu (ix1 e)
      = Ideal.ofBits .f32 b + ∑ k : Fin 64, x (ix2 e k) := by
  refine (Ideal.hostReduceAdd_single h' redLanes x _ (ix1 e)).trans ?_
  refine congrArg (Ideal.ofBits .f32 b + ·) (Finset.sum_congr rfl fun k _ => congrArg x ?_)
  funext a; apply Fin.ext
  match a with
  | ⟨0, _⟩ => rfl
  | ⟨1, _⟩ => rfl

/-- The dimension numbers by which the reference gathers the summed weights at the edges' relation ids. -/
abbrev gatherWs := Cert.ReferenceIdeal.gather_S16x64_S1920000x1_S1920000x64_1_0_n_n_0_1_164

/-- The summed weights gathered at the edges' relation ids: an entry is the table's in the same column, at the row the
    edge's start index names, read signed and clamped into the 16 rows. -/
theorem gather_rows_at (ws : S16x64.Idx → EReal) (idx : IVec S1920000x1 32) (e : Fin 1920000) (k : Fin 64) :
    Host.gather gatherWs ws idx (ix2 e k)
      = ws (ix2 (⟨min (idx (ix2 e (0 : Fin 1))).toInt.toNat (16 - 1), by omega⟩ : Fin 16) k) := by
  unfold Host.gather
  refine congrArg ws ?_
  funext a; apply Fin.ext
  match a with
  | ⟨0, _⟩ =>
    show gatherWs.start (ix2 e k) idx 0 + gatherWs.batchCoord (ix2 e k) 0 + gatherWs.offCoord (ix2 e k) 0 = min _ (16 - 1)
    rw [GatherDims.batchCoord_eq_zero _ _ _ (by decide), GatherDims.offCoord_eq_zero _ _ _ (by decide)]
    unfold GatherDims.start
    rw [dif_pos (show (0 : Fin 2) ∈ gatherWs.startIndexMap by decide)]
    show min (idx (gatherWs.siIdx (ix2 e k) _)).toInt.toNat (16 - 1) = _
    refine congrArg (fun i => min (idx i).toInt.toNat (16 - 1)) ?_
    funext b; apply Fin.ext
    match b with
    | ⟨0, _⟩ => rfl
    | ⟨1, _⟩ => rfl
  | ⟨1, _⟩ =>
    show gatherWs.start (ix2 e k) idx 1 + gatherWs.batchCoord (ix2 e k) 1 + gatherWs.offCoord (ix2 e k) 1 = k.val
    rw [GatherDims.batchCoord_eq_zero _ _ _ (by decide)]
    unfold GatherDims.start GatherDims.offCoord
    rw [dif_neg (by decide), dif_pos (by decide)]
    show 0 + 0 + k.val = k.val
    omega

/-- An edge's relation id below 16, wrapped, as the column the gather reads. -/
theorem wrap_at (rel : IVec S1920000 32) (e : Fin 1920000) (h : (rel (ix1 e)).toNat < 16) :
    Cert.Stages.wrapE 16#32 rel (ix2 e (0 : Fin 1)) = rel (ix1 e) := by
  unfold Cert.Stages.wrapE
  refine (broadcastInDim_apply _ _ _ (ix2 e (0 : Fin 1)) (ix1 e) (fun a => ?_)).trans (wrap_small _ h)
  match a with
  | ⟨0, _⟩ => rfl

/-- The reference's gated source rows at edge `e` and column `q`: the source row's entry times the sigmoid of the
    row's 64 products with the summed weights of the edge's relation. -/
theorem gated_at (hd hs : FVec Ideal S1920000x32 .f32) (rel : IVec S1920000 32) (ws : FVec Ideal S16x64 .f32)
    (e : Fin 1920000) (q : Fin 32) (h : (rel (ix1 e)).toNat < 16) :
    Cert.Stages.gated (F := Ideal) hd hs rel ws (ix2 e q)
      = (hs (ix2 e q) : EReal) * Ideal.logistic (∑ k : Fin 64, catRow hd hs e k * (ws (ix2 ⟨(rel (ix1 e)).toNat, h⟩ k) : EReal)) := by
  unfold Cert.Stages.gated
  rw [mulf_apply]
  refine congrArg (fun s => (hs (ix2 e q) : EReal) * s) ?_
  refine (broadcastInDim_apply _ _ _ (ix2 e q) (ix2 e (0 : Fin 1)) (fun a => ?_)).trans ?_
  · match a with
    | ⟨0, _⟩ => rfl
    | ⟨1, _⟩ => rfl
  unfold Cert.Stages.gate
  rw [hostDivf_at, addf_apply, hostExp_at, hostNegf_at, splat_at, one_f32]
  unfold Ideal.logistic
  refine congrArg (fun s => Ideal.div 1 (1 + Ideal.exp (-s))) ?_
  refine (broadcastInDim_apply _ _ _ (ix2 e (0 : Fin 1)) (ix1 e) (fun a => ?_)).trans ?_
  · match a with
    | ⟨0, _⟩ => rfl
  rw [hostLaneSum_at, Ideal.ofBits_zero_f32, zero_add]
  refine Finset.sum_congr rfl fun k _ => ?_
  rw [mulf_apply, concat_at]
  refine congrArg (fun s => catRow hd hs e k * s) ?_
  refine (gather_rows_at ws _ e k).trans (congrArg ws ?_)
  funext a; apply Fin.ext
  match a with
  | ⟨0, _⟩ =>
    show min (Cert.Stages.wrapE 16#32 rel (ix2 e (0 : Fin 1))).toInt.toNat (16 - 1) = (rel (ix1 e)).toNat
    rw [wrap_at rel e h]
    exact start_small _ h
  | ⟨1, _⟩ => rfl

/-! ## From the row blocks to the array -/

theorem hz1 : (![0] : Fin 1 → Nat) = fun _ => 0 := funext fun a => by fin_cases a; rfl
theorem hz2 : (![0, 0] : Fin 2 → Nat) = fun _ => 0 := funext fun a => by fin_cases a <;> rfl

/-- The index maps over the grid: the three edge windows and the output move one row block per point, the table stays. -/
theorem gate_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = t.val
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has 375 points. -/
theorem point_lt (t : Fin cfg1.N) : t.val < 375 := by
  exact Nat.lt_of_lt_of_eq t.isLt N_1

/-- The destination rows' block at point `t` is rows 5120 t … 5120 t + 5119 of the array. -/
theorem dstBlock_at (c : Dev nD) (t : Fin cfg1.N) (p : Fin 5120) (k : Fin 32) (hr : 5120 * t.val + p.val < 1920000) :
    (iblk1 V c 0 t : Vec Ideal S5120x32 .f32) (ix2 p k)
      = (V c main_v13 : S1920000x32.Idx → EReal) (ix2 (⟨5120 * t.val + p.val, hr⟩ : Fin 1920000) k) := by
  obtain ⟨e0, e1, -⟩ := gate_idx_facts t
  unfold iblk1
  rw [View.read_apply]
  show (V c main_v13 : S1920000x32.Idx → EReal) _ = _
  refine congrArg _ (funext fun a => Fin.ext ?_)
  match a with
  | ⟨0, _⟩ => show win1_0.index t 0 * 5120 + 1 * p.val = 5120 * t.val + p.val; rw [e0]; omega
  | ⟨1, _⟩ => show win1_0.index t 1 * 32 + 1 * k.val = k.val; rw [e1]; omega

/-- The source rows' block likewise. -/
theorem srcBlock_at (c : Dev nD) (t : Fin cfg1.N) (p : Fin 5120) (k : Fin 32) (hr : 5120 * t.val + p.val < 1920000) :
    (iblk1 V c 1 t : Vec Ideal S5120x32 .f32) (ix2 p k)
      = (V c main_v20 : S1920000x32.Idx → EReal) (ix2 (⟨5120 * t.val + p.val, hr⟩ : Fin 1920000) k) := by
  obtain ⟨-, -, e0, e1, -⟩ := gate_idx_facts t
  unfold iblk1
  rw [View.read_apply]
  show (V c main_v20 : S1920000x32.Idx → EReal) _ = _
  refine congrArg _ (funext fun a => Fin.ext ?_)
  match a with
  | ⟨0, _⟩ => show win1_1.index t 0 * 5120 + 1 * p.val = 5120 * t.val + p.val; rw [e0]; omega
  | ⟨1, _⟩ => show win1_1.index t 1 * 32 + 1 * k.val = k.val; rw [e1]; omega

/-- The relation ids' block likewise. -/
theorem relBlock_at (c : Dev nD) (t : Fin cfg1.N) (p : Fin 5120) (hr : 5120 * t.val + p.val < 1920000) :
    (iblk1 V c 2 t : IVec S5120 32) (ix1 p)
      = (V c main_arg20 : IVec S1920000 32) (ix1 (⟨5120 * t.val + p.val, hr⟩ : Fin 1920000)) := by
  obtain ⟨-, -, -, -, e0, -⟩ := gate_idx_facts t
  unfold iblk1
  rw [View.read_apply]
  show (V c main_arg20 : IVec S1920000 32) _ = _
  refine congrArg _ (funext fun a => Fin.ext ?_)
  match a with
  | ⟨0, _⟩ => show win1_2.index t 0 * 5120 + 1 * p.val = 5120 * t.val + p.val; rw [e0]; omega

/-- The summed weights' window is the whole table at every point. -/
theorem wsBlock_at (c : Dev nD) (t : Fin cfg1.N) (r r' : Fin 16) (hrr : r.val = r'.val) (k : Fin 64) :
    (iblk1 V c 3 t : Vec Ideal S16x64 .f32) (ix2 r k) = (V c main_v6 : S16x64.Idx → EReal) (ix2 r' k) := by
  obtain ⟨-, -, -, -, -, e0, e1, -⟩ := gate_idx_facts t
  unfold iblk1
  rw [View.read_apply]
  show (V c main_v6 : S16x64.Idx → EReal) _ = _
  refine congrArg _ (funext fun a => Fin.ext ?_)
  match a with
  | ⟨0, _⟩ => show win1_3.index t 0 * 16 + 1 * r.val = r'.val; rw [e0, hrr]; omega
  | ⟨1, _⟩ => show win1_3.index t 1 * 64 + 1 * k.val = k.val; rw [e1]; omega

/-- Two pairs of arrays that agree on a row agree side by side on it. -/
theorem catRow_congr {n m : Nat} (a b : (⟨2, ![n, 32]⟩ : Shape).Idx → EReal) (a' b' : (⟨2, ![m, 32]⟩ : Shape).Idx → EReal)
    (p : Fin n) (p' : Fin m) (ha : ∀ k : Fin 32, a (ix2 p k) = a' (ix2 p' k)) (hb : ∀ k : Fin 32, b (ix2 p k) = b' (ix2 p' k))
    (k : Fin 64) : catRow a b p k = catRow a' b' p' k := by
  unfold catRow
  by_cases hk : k.val < 32
  · rw [dif_pos hk, dif_pos hk]; exact ha _
  · rw [dif_neg hk, dif_neg hk]; exact hb _

/-- A block's entry against the arrays' entry: when the four blocks read the arrays at edge `e` where the block has row
    `p`, the kernel's payload at (p, q) is the reference's gated row at (e, q). -/
theorem gate_point (x0 x1 : Vec Ideal S5120x32 .f32) (x2 : Vec Ideal S5120 .i32) (x3 : Vec Ideal S16x64 .f32)
    (hd hs : FVec Ideal S1920000x32 .f32) (rel : IVec S1920000 32) (ws : FVec Ideal S16x64 .f32)
    (p : Fin 5120) (q : Fin 32) (e : Fin 1920000)
    (h0 : ∀ k : Fin 32, (x0 (ix2 p k) : EReal) = hd (ix2 e k)) (h1 : ∀ k : Fin 32, (x1 (ix2 p k) : EReal) = hs (ix2 e k))
    (h2 : (x2 : IVec S5120 32) (ix1 p) = rel (ix1 e))
    (h3 : ∀ r r' : Fin 16, r.val = r'.val → ∀ k : Fin 64, (x3 (ix2 r k) : EReal) = ws (ix2 r' k))
    (hrel : (rel (ix1 e)).toNat < 16) :
    k1_pay1 x0 x1 x2 x3 (ix2 p q) = Cert.Stages.gated (F := Ideal) hd hs rel ws (ix2 e q) := by
  have hρ : ((x2 : IVec S5120 32) (ix1 p)).toNat < 16 := by rw [h2]; exact hrel
  rw [gate_pay_at x0 x1 x2 x3 p q hρ, gated_at hd hs rel ws e q hrel, h1 q]
  refine congrArg (fun s => (hs (ix2 e q) : EReal) * Ideal.logistic s) (Finset.sum_congr rfl fun k _ => ?_)
  rw [catRow_congr x0 x1 hd hs p e h0 h1 k, h3 _ ⟨_, hrel⟩ (congrArg BitVec.toNat h2) k]

/-- The gated source rows of the arrays the region finds. -/
abbrev gatedArr (c : Dev nD) : S1920000x32.Idx → EReal :=
  Cert.Stages.gated (F := Ideal) (V c main_v13) (V c main_v20) (V c main_arg20) (V c main_v6)

/-- A block whose every entry is the array's entry at the same column of row 5120 t + p is block `t` of the array. -/
theorem block_of_point (t : Fin cfg1.N) (G : S1920000x32.Idx → EReal) (X : Vec Ideal S5120x32 .f32)
    (h : ∀ (p : Fin 5120) (q : Fin 32) (hr : 5120 * t.val + p.val < 1920000),
      (X (ix2 p q) : EReal) = G (ix2 (⟨5120 * t.val + p.val, hr⟩ : Fin 1920000) q)) :
    (cfg1.win 4).cut (grid1.coords t) X = ((cfg1.win 4).blk t).view.read (Elt Ideal) G := by
  have hN := point_lt t
  obtain ⟨-, -, -, -, -, -, -, e7, e8⟩ := gate_idx_facts t
  refine funext fun (j : S5120x32.Idx) => ?_
  obtain ⟨p, q, rfl⟩ : ∃ (p : Fin 5120) (q : Fin 32), j = ix2 p q := ⟨j 0, j 1, eq_ix2 j⟩
  have hr : 5120 * t.val + p.val < 1920000 := by have := p.isLt; omega
  show (X (ix2 p q) : EReal) = G (((cfg1.win 4).blk t).view.emb (ix2 p q))
  rw [h p q hr]
  refine congrArg G (funext fun a => Fin.ext ?_)
  match a with
  | ⟨0, _⟩ => show 5120 * t.val + p.val = win1_4.index t 0 * 5120 + 1 * p.val; rw [e7]; omega
  | ⟨1, _⟩ => show q.val = win1_4.index t 1 * 32 + 1 * q.val; rw [e8]; omega

/-- What point `t` writes back is block `t` of the gated source rows. -/
theorem flushed_gated (c : Dev nD) (hrel : ∀ e : S1920000.Idx, ((V c main_arg20 : IVec S1920000 32) e).toNat < 16)
    (t : Fin cfg1.N) :
    (dat1 (F := Ideal) V c).flushed 4 t = ((cfg1.win 4).blk t).view.read (Elt Ideal) (gatedArr V c) := by
  show (cfg1.win 4).cut (grid1.coords t) ((dat1 V c).after 4 t) = _
  rw [after1_4]
  unfold out1_4
  rw [View.canon_unit_zero hz2]
  simp only [View.ld_unit_zero (S := S5120x32) hz2, View.ld_unit_zero (S := S5120) hz1, View.ld_unit_zero (S := S16x64) hz2]
  exact block_of_point t _ _ fun p q hr =>
    gate_point _ _ _ _ _ _ _ _ p q ⟨_, hr⟩ (fun k => dstBlock_at V c t p k hr) (fun k => srcBlock_at V c t p k hr)
      (relBlock_at V c t p hr) (fun r r' hrr k => wsBlock_at V c t r r' hrr k) (hrel _)

/-- An index of the array lies in point `t`'s block iff each coordinate lies in the block's range on its axis. -/
theorem mem_gateBlock (t : Fin cfg1.N) (i : S1920000x32.Idx) :
    i ∈ ((cfg1.win 4).blk t).view.set ↔ ∀ a : Fin 2, win1_4.index t a * S5120x32.size a ≤ (i a).val
      ∧ (i a).val < win1_4.index t a * S5120x32.size a + S5120x32.size a := by
  show i ∈ ((View.whole main_v21).slice (win1_4.rect t)).set ↔ _
  rw [View.set_slice_whole, Rect.mem_set_unit]
  exact Iff.rfl

end Gate1

open Gate1

/-- After region 1 its output array is the gated source rows, when every relation id is one of the 16 relations. -/
theorem arr1_gated (c : Dev nD) (hrel : ∀ e : S1920000.Idx, ((V c main_arg20 : IVec S1920000 32) e).toNat < 16) :
    (dat1 (F := Ideal) V c).arrAt 4 cfg1.N
      = Cert.Stages.gated (F := Ideal) (V c main_v13) (V c main_v20) (V c main_arg20) (V c main_v6) := by
  refine (dat1 V c).arrAt_eq_of_cover 4 (gatedArr V c) (fun t _ => flushed_gated V c hrel t) fun i => ?_
  have hi0 : (i 0).val < 1920000 := (i 0).isLt
  have hi1 : (i 1).val < 32 := (i 1).isLt
  have hlt : (i 0).val / 5120 < cfg1.N := by rw [show cfg1.N = 375 from N_1]; omega
  obtain ⟨-, -, -, -, -, -, -, e7, e8⟩ := gate_idx_facts ⟨(i 0).val / 5120, hlt⟩
  refine ⟨⟨(i 0).val / 5120, hlt⟩, flush1_4 _, ?_⟩
  rw [mem_gateBlock]
  intro a
  match a with
  | ⟨0, _⟩ =>
    show win1_4.index ⟨(i 0).val / 5120, hlt⟩ 0 * 5120 ≤ (i 0).val ∧ (i 0).val < win1_4.index ⟨(i 0).val / 5120, hlt⟩ 0 * 5120 + 5120
    rw [e7]; show (i 0).val / 5120 * 5120 ≤ (i 0).val ∧ (i 0).val < (i 0).val / 5120 * 5120 + 5120; omega
  | ⟨1, _⟩ =>
    show win1_4.index ⟨(i 0).val / 5120, hlt⟩ 1 * 32 ≤ (i 1).val ∧ (i 1).val < win1_4.index ⟨(i 0).val / 5120, hlt⟩ 1 * 32 + 32
    rw [e8]; omega

end Cert.KernelIdeal.RegionVal

end
-- ==== Proof.RegionLin2.lean ====
/-
  Region 2 of the kernel's program: one leaky linear layer over 10 row blocks of 6000 rows. Each output row
  depends only on the same row of the two row-tiled inputs (laid side by side into 64 columns), on the whole
  weight matrix and on the whole bias, so the value the body leaves for a row block is the whole-array layer
  restricted to that block; the blocks tile the rows, hence the array after the region is the whole-array layer.
  The body selects on `y > 0` where the whole-array form selects on `y ≥ 0`: the two agree, since at `y = 0`
  the slope times `y` is `0`.
-/
import proofs.«429255_j2413771620669_3_alg».proof.Proof.Gen.KernelIdeal.Frame
import proofs.«429255_j2413771620669_3_alg».proof.Proof.Stages
import proofs.«429255_j2413771620669_3_alg».proof.Proof.KStages
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

set_option maxRecDepth 16384

noncomputable section

namespace Cert.KernelIdeal.RegionVal

open Cert.KernelIdeal Cert.KernelIdeal.Gen
open Idealize.ShloMosaic Idealize.ShloMosaic.TcCoe Idealize.SL.Sem
open Idealize.ShloMosaic.Pipeline (Dat)
open Idealize.ShloMosaic.ValueIdx

namespace Lin2

/-! ## The two products at an index -/

/-- The kernel's product reads its left operand's row coordinate from the output's. -/
theorem lhs_k32_0 (i : S6000x32.Idx) (q : dot_S6000x64_S64x32_S6000x32_1_0_0_1_n_n.contr.Idx) :
    (dot_S6000x64_S64x32_S6000x32_1_0_0_1_n_n.lhsIdx i q 0).val = (i 0).val := by
  unfold DotDims.lhsIdx
  rw [dif_neg (show ¬(0 : Fin S6000x64.rank) ∈ dot_S6000x64_S64x32_S6000x32_1_0_0_1_n_n.lhsBatch by decide), dif_pos (show (0 : Fin S6000x64.rank) ∈ dot_S6000x64_S64x32_S6000x32_1_0_0_1_n_n.lhsNonContracting by decide)]
  rfl
theorem lhs_k32_1 (i : S6000x32.Idx) (q : dot_S6000x64_S64x32_S6000x32_1_0_0_1_n_n.contr.Idx) :
    (dot_S6000x64_S64x32_S6000x32_1_0_0_1_n_n.lhsIdx i q 1).val = (q ⟨0, by decide⟩).val :=
  dot_S6000x64_S64x32_S6000x32_1_0_0_1_n_n.lhsIdx_val_of_single rfl i q
theorem rhs_k32_0 (i : S6000x32.Idx) (q : dot_S6000x64_S64x32_S6000x32_1_0_0_1_n_n.contr.Idx) :
    (dot_S6000x64_S64x32_S6000x32_1_0_0_1_n_n.rhsIdx i q 0).val = (q ⟨0, by decide⟩).val :=
  dot_S6000x64_S64x32_S6000x32_1_0_0_1_n_n.rhsIdx_val_of_single rfl i q
theorem rhs_k32_1 (i : S6000x32.Idx) (q : dot_S6000x64_S64x32_S6000x32_1_0_0_1_n_n.contr.Idx) :
    (dot_S6000x64_S64x32_S6000x32_1_0_0_1_n_n.rhsIdx i q 1).val = (i 1).val := by
  unfold DotDims.rhsIdx
  rw [dif_neg (show ¬(1 : Fin S64x32.rank) ∈ dot_S6000x64_S64x32_S6000x32_1_0_0_1_n_n.rhsBatch by decide), dif_pos (show (1 : Fin S64x32.rank) ∈ dot_S6000x64_S64x32_S6000x32_1_0_0_1_n_n.rhsNonContracting by decide)]
  rfl

/-- The kernel's matrix product into zero, at row `p` and column `q`: the sum over the 64 contracted positions. -/
theorem matmul_k32_apply (l : FVec Ideal S6000x64 .bf16) (r : FVec Ideal S64x32 .bf16) (p : Fin 6000) (q : Fin 32) :
    matmul dot_S6000x64_S64x32_S6000x32_1_0_0_1_n_n none l r (constant S6000x32 .f32 0x00000000#32) (ix2 p q)
      = ∑ k : Fin 64, l (ix2 p k) * r (ix2 k q) := by
  simp only [matmul]
  rw [Ideal.matmul_constant_zero_apply, ← Equiv.sum_comp (contrEquiv1 dot_S6000x64_S64x32_S6000x32_1_0_0_1_n_n 64 rfl rfl).symm]
  refine Finset.sum_congr rfl fun k _ => ?_
  have hk := contrEquiv1_symm_val dot_S6000x64_S64x32_S6000x32_1_0_0_1_n_n 64 rfl rfl k
  have el : dot_S6000x64_S64x32_S6000x32_1_0_0_1_n_n.lhsIdx (ix2 p q) ((contrEquiv1 dot_S6000x64_S64x32_S6000x32_1_0_0_1_n_n 64 rfl rfl).symm k) = ix2 p k := funext fun a => Fin.ext (by
    match a with
    | ⟨0, _⟩ => exact lhs_k32_0 _ _
    | ⟨1, _⟩ => exact (lhs_k32_1 _ _).trans hk)
  have er : dot_S6000x64_S64x32_S6000x32_1_0_0_1_n_n.rhsIdx (ix2 p q) ((contrEquiv1 dot_S6000x64_S64x32_S6000x32_1_0_0_1_n_n 64 rfl rfl).symm k) = ix2 k q := funext fun a => Fin.ext (by
    match a with
    | ⟨0, _⟩ => exact (rhs_k32_0 _ _).trans hk
    | ⟨1, _⟩ => exact rhs_k32_1 _ _)
  rw [el, er]

/-- The whole-array product reads its left operand's row coordinate from the output's. -/
theorem lhs_r32_0 (i : S60000x32.Idx) (q : Cert.ReferenceIdeal.dot_S60000x64_S64x32_S60000x32_1_0_0_1_n_n.contr.Idx) :
    (Cert.ReferenceIdeal.dot_S60000x64_S64x32_S60000x32_1_0_0_1_n_n.lhsIdx i q 0).val = (i 0).val := by
  unfold DotDims.lhsIdx
  rw [dif_neg (show ¬(0 : Fin S60000x64.rank) ∈ Cert.ReferenceIdeal.dot_S60000x64_S64x32_S60000x32_1_0_0_1_n_n.lhsBatch by decide), dif_pos (show (0 : Fin S60000x64.rank) ∈ Cert.ReferenceIdeal.dot_S60000x64_S64x32_S60000x32_1_0_0_1_n_n.lhsNonContracting by decide)]
  rfl
theorem lhs_r32_1 (i : S60000x32.Idx) (q : Cert.ReferenceIdeal.dot_S60000x64_S64x32_S60000x32_1_0_0_1_n_n.contr.Idx) :
    (Cert.ReferenceIdeal.dot_S60000x64_S64x32_S60000x32_1_0_0_1_n_n.lhsIdx i q 1).val = (q ⟨0, by decide⟩).val :=
  Cert.ReferenceIdeal.dot_S60000x64_S64x32_S60000x32_1_0_0_1_n_n.lhsIdx_val_of_single rfl i q
theorem rhs_r32_0 (i : S60000x32.Idx) (q : Cert.ReferenceIdeal.dot_S60000x64_S64x32_S60000x32_1_0_0_1_n_n.contr.Idx) :
    (Cert.ReferenceIdeal.dot_S60000x64_S64x32_S60000x32_1_0_0_1_n_n.rhsIdx i q 0).val = (q ⟨0, by decide⟩).val :=
  Cert.ReferenceIdeal.dot_S60000x64_S64x32_S60000x32_1_0_0_1_n_n.rhsIdx_val_of_single rfl i q
theorem rhs_r32_1 (i : S60000x32.Idx) (q : Cert.ReferenceIdeal.dot_S60000x64_S64x32_S60000x32_1_0_0_1_n_n.contr.Idx) :
    (Cert.ReferenceIdeal.dot_S60000x64_S64x32_S60000x32_1_0_0_1_n_n.rhsIdx i q 1).val = (i 1).val := by
  unfold DotDims.rhsIdx
  rw [dif_neg (show ¬(1 : Fin S64x32.rank) ∈ Cert.ReferenceIdeal.dot_S60000x64_S64x32_S60000x32_1_0_0_1_n_n.rhsBatch by decide), dif_pos (show (1 : Fin S64x32.rank) ∈ Cert.ReferenceIdeal.dot_S60000x64_S64x32_S60000x32_1_0_0_1_n_n.rhsNonContracting by decide)]
  rfl

/-- The whole-array product at row `r` and column `q`: the same sum. -/
theorem dot_r32_apply (l : FVec Ideal S60000x64 .f32) (w : FVec Ideal S64x32 .f32) (r : Fin 60000) (q : Fin 32) :
    Host.dotGeneral Cert.ReferenceIdeal.dot_S60000x64_S64x32_S60000x32_1_0_0_1_n_n none l w (ix2 r q)
      = ∑ k : Fin 64, l (ix2 r k) * w (ix2 k q) := by
  simp only [Host.dotGeneral]
  rw [Ideal.dotGeneral_apply, ← Equiv.sum_comp (contrEquiv1 Cert.ReferenceIdeal.dot_S60000x64_S64x32_S60000x32_1_0_0_1_n_n 64 rfl rfl).symm]
  refine Finset.sum_congr rfl fun k _ => ?_
  have hk := contrEquiv1_symm_val Cert.ReferenceIdeal.dot_S60000x64_S64x32_S60000x32_1_0_0_1_n_n 64 rfl rfl k
  have el : Cert.ReferenceIdeal.dot_S60000x64_S64x32_S60000x32_1_0_0_1_n_n.lhsIdx (ix2 r q) ((contrEquiv1 Cert.ReferenceIdeal.dot_S60000x64_S64x32_S60000x32_1_0_0_1_n_n 64 rfl rfl).symm k) = ix2 r k := funext fun a => Fin.ext (by
    match a with
    | ⟨0, _⟩ => exact lhs_r32_0 _ _
    | ⟨1, _⟩ => exact (lhs_r32_1 _ _).trans hk)
  have er : Cert.ReferenceIdeal.dot_S60000x64_S64x32_S60000x32_1_0_0_1_n_n.rhsIdx (ix2 r q) ((contrEquiv1 Cert.ReferenceIdeal.dot_S60000x64_S64x32_S60000x32_1_0_0_1_n_n 64 rfl rfl).symm k) = ix2 k q := funext fun a => Fin.ext (by
    match a with
    | ⟨0, _⟩ => exact (rhs_r32_0 _ _).trans hk
    | ⟨1, _⟩ => exact rhs_r32_1 _ _)
  rw [el, er]

/-! ## The bias at an index -/

/-- The kernel lays the bias along every row of a block. -/
theorem bias_k32_apply (b : FVec Ideal S32 .f32) (p : Fin 6000) (q : Fin 32) :
    broadcastTo S6000x32 (shapeCast S1x32 b shapeCasts_S32_S1x32) broadcasts_S1x32_S6000x32 (ix2 p q) = b (ix1 q) :=
  (broadcastTo_1b_ab_apply _ broadcasts_S1x32_S6000x32 p q).trans (shapeCast_a_1a_apply b shapeCasts_S32_S1x32 0 q)

/-- So does the whole-array form, by two broadcasts. -/
theorem bias_r32_apply (b : FVec Ideal S32 .f32) (r : Fin 60000) (q : Fin 32) :
    broadcastInDim S60000x32 ![0, 1] Cert.ReferenceIdeal.Facts₀.bcast_S1x32_S60000x32_0_1
      (broadcastInDim S1x32 ![1] Cert.ReferenceIdeal.Facts₀.bcast_S32_S1x32_1 b) (ix2 r q) = b (ix1 q) := by
  refine (broadcastInDim_oneRow_apply Cert.ReferenceIdeal.Facts₀.bcast_S1x32_S60000x32_0_1 _ r q).trans ?_
  refine broadcastInDim_apply ![1] Cert.ReferenceIdeal.Facts₀.bcast_S32_S1x32_1 b (ix2 (0 : Fin 1) q) (ix1 q) fun a => ?_
  match a with
  | ⟨0, _⟩ => rfl

/-! ## The two inputs side by side, a block against the whole array -/

/-- Row `p` of the blocks side by side is row `r` of the arrays side by side when the blocks' rows `p` are the arrays' rows `r`. -/
theorem cat32_blk (x0 x1 : FVec Ideal S6000x32 .f32) (X A : FVec Ideal S60000x32 .f32) (p : Fin 6000) (r : Fin 60000)
    (hx : ∀ s : Fin 32, x0 (ix2 p s) = X (ix2 r s)) (ha : ∀ s : Fin 32, x1 (ix2 p s) = A (ix2 r s)) (k : Fin 64) :
    concatenate S6000x64 1 [⟨S6000x32, x0⟩, ⟨S6000x32, x1⟩] concatenates_S6000x32_S6000x32_S6000x64_d1 (ix2 p k)
      = concatenate S60000x64 1 [⟨S60000x32, X⟩, ⟨S60000x32, A⟩] Cert.ReferenceIdeal.Facts₀.concatenates_S60000x32_S60000x32_S60000x64_d1 (ix2 r k) := by
  by_cases hk : k.val < 32
  · rw [concatenate_pair_apply_left (1 : Fin S6000x64.rank) x0 x1 concatenates_S6000x32_S6000x32_S6000x64_d1 (ix2 p k) rfl (ix2 p ⟨k.val, hk⟩)
        (fun b => by match b with | ⟨0, _⟩ => rfl | ⟨1, _⟩ => rfl),
      concatenate_pair_apply_left (1 : Fin S60000x64.rank) X A Cert.ReferenceIdeal.Facts₀.concatenates_S60000x32_S60000x32_S60000x64_d1 (ix2 r k) rfl (ix2 r ⟨k.val, hk⟩)
        (fun b => by match b with | ⟨0, _⟩ => rfl | ⟨1, _⟩ => rfl)]
    exact hx _
  · have hk' : k.val - 32 < 32 := by have := k.isLt; omega
    rw [concatenate_pair_apply_right (1 : Fin S6000x64.rank) x0 x1 concatenates_S6000x32_S6000x32_S6000x64_d1 (ix2 p k) rfl rfl (ix2 p ⟨k.val - 32, hk'⟩)
        (fun b hb => by match b with | ⟨0, _⟩ => rfl | ⟨1, _⟩ => exact absurd rfl hb)
        (by show k.val - 32 + 32 = k.val; omega),
      concatenate_pair_apply_right (1 : Fin S60000x64.rank) X A Cert.ReferenceIdeal.Facts₀.concatenates_S60000x32_S60000x32_S60000x64_d1 (ix2 r k) rfl rfl (ix2 r ⟨k.val - 32, hk'⟩)
        (fun b hb => by match b with | ⟨0, _⟩ => rfl | ⟨1, _⟩ => exact absurd rfl hb)
        (by show k.val - 32 + 32 = k.val; omega)]
    exact ha _

/-! ## The leaky rectifier -/

/-- `y` where it is positive, else the small slope times `y`. -/
def leaky (y : EReal) : EReal := if 0 < y then y else Ideal.ofBits .f32 0x3C23D70A#32 * y

/-- The kernel's select on `y > 0`. -/
theorem leaky_ogt (y : EReal) :
    Scalar.select (FloatOps.cmpf (F := Ideal) (φ := .f32) .ogt y (Ideal.ofBits .f32 0x00000000#32)) y (Ideal.ofBits .f32 0x3C23D70A#32 * y) = leaky y := by
  rw [Ideal.cmpf_def, Ideal.ofBits_zero_f32]
  unfold leaky Ideal.cmp Scalar.select
  by_cases h : (0 : EReal) < y
  · simp [h]
  · simp [h]

/-- The whole-array form selects on `y ≥ 0`; the two differ only at `y = 0`, where both give `0`. -/
theorem leaky_oge (y : EReal) :
    Scalar.select (FloatOps.cmpf (F := Ideal) (φ := .f32) .oge y (Ideal.ofBits .f32 0x00000000#32)) y (Ideal.ofBits .f32 0x3C23D70A#32 * y) = leaky y := by
  rw [Ideal.cmpf_def, Ideal.ofBits_zero_f32]
  unfold leaky Ideal.cmp Scalar.select
  by_cases h : (0 : EReal) < y
  · simp [h, le_of_lt h]
  · by_cases h0 : y = 0
    · subst h0; simp
    · have hn : ¬ (0 : EReal) ≤ y := fun hle => h (lt_of_le_of_ne hle (Ne.symm h0))
      simp [h, hn]

/-! ## Both forms of the layer at an index -/

/-- One row's affine image at column `q`. -/
def rowLin32 (u : Fin 64 → EReal) (w : FVec Ideal S64x32 .f32) (b : FVec Ideal S32 .f32) (q : Fin 32) : EReal :=
  (∑ k : Fin 64, u k * w (ix2 k q)) + b (ix1 q)

/-- The kernel's payload at row `p`, column `q` of a block. -/
theorem pay32_apply (x0 x1 : Vec Ideal S6000x32 .f32) (w : Vec Ideal S64x32 .f32) (b : Vec Ideal S32 .f32) (p : Fin 6000) (q : Fin 32) :
    k2_pay1 x0 x1 w b (ix2 p q)
      = leaky (rowLin32 (fun k => concatenate S6000x64 1 [⟨S6000x32, x0⟩, ⟨S6000x32, x1⟩] concatenates_S6000x32_S6000x32_S6000x64_d1 (ix2 p k)) w b q) := by
  unfold k2_pay1
  rw [shapeCast_self x0, shapeCast_self x1]
  rw [select_apply, cmpf_apply, mulf_apply, addf_apply, broadcast_apply, broadcast_apply, matmul_k32_apply, bias_k32_apply]
  simp only [truncf_apply]
  exact leaky_ogt _

/-- The whole-array layer at row `r`, column `q`. -/
theorem lin32_apply (X A : FVec Ideal S60000x32 .f32) (w : FVec Ideal S64x32 .f32) (b : FVec Ideal S32 .f32) (r : Fin 60000) (q : Fin 32) :
    Cert.Stages.linLeaky32 (F := Ideal) X A w b (ix2 r q)
      = leaky (rowLin32 (fun k => concatenate S60000x64 1 [⟨S60000x32, X⟩, ⟨S60000x32, A⟩] Cert.ReferenceIdeal.Facts₀.concatenates_S60000x32_S60000x32_S60000x64_d1 (ix2 r k)) w b q) := by
  unfold Cert.Stages.linLeaky32
  dsimp only
  rw [select_apply, cmpf_apply, mulf_apply, addf_apply, dot_r32_apply, bias_r32_apply]
  exact leaky_oge _

/-! ## From the row blocks to the array -/

/-- The payload of row blocks is the layer of the arrays the blocks are cut from: block row `y` against array row `T · 6000 + y`. -/
theorem point32 (x0 x1 : Vec Ideal S6000x32 .f32) (w : Vec Ideal S64x32 .f32) (b : Vec Ideal S32 .f32)
    (X A : Vec Ideal S60000x32 .f32) (T : Nat)
    (hx : ∀ (y : S6000x32.Idx) (z : S60000x32.Idx), (z 0).val = T * 6000 + (y 0).val → (z 1).val = (y 1).val → x0 y = X z)
    (ha : ∀ (y : S6000x32.Idx) (z : S60000x32.Idx), (z 0).val = T * 6000 + (y 0).val → (z 1).val = (y 1).val → x1 y = A z)
    (j : S6000x32.Idx) (i : S60000x32.Idx) (h0 : (i 0).val = T * 6000 + (j 0).val) (h1 : (i 1).val = (j 1).val) :
    k2_pay1 x0 x1 w b j = Cert.Stages.linLeaky32 (F := Ideal) X A w b i := by
  obtain ⟨p, q, rfl⟩ : ∃ (p : Fin 6000) (q : Fin 32), j = ix2 p q := ⟨j 0, j 1, eq_ix2 j⟩
  obtain ⟨r, q', rfl⟩ : ∃ (r : Fin 60000) (q' : Fin 32), i = ix2 r q' := ⟨i 0, i 1, eq_ix2 i⟩
  obtain rfl : q' = q := Fin.ext h1
  rw [pay32_apply, lin32_apply]
  exact congrArg (fun u => leaky (rowLin32 u w b q'))
    (funext fun k => cat32_blk x0 x1 X A p r (fun s => hx _ _ h0 rfl) (fun s => ha _ _ h0 rfl) k)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-tiled inputs and the output sit at row block `t`, the weights and the bias at their whole arrays. -/
theorem idx_lin2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- The first input's block at point `t` is rows `6000 t …` of its array. -/
theorem xblk2 (c : Dev nD) (t : Fin cfg2.N) (y : S6000x32.Idx) (z : S60000x32.Idx)
    (h0 : (z 0).val = t.val * 6000 + (y 0).val) (h1 : (z 1).val = (y 1).val) :
    (iblk2 V c 0 t : Vec Ideal S6000x32 .f32) y = (V c main_v1_0 : Vec Ideal S60000x32 .f32) z := by
  obtain ⟨e0, e1, -⟩ := idx_lin2 t
  unfold iblk2
  rw [View.read_apply]
  show V c main_v1_0 _ = V c main_v1_0 z
  congr 1
  funext a
  apply Fin.ext
  match a with
  | ⟨0, _⟩ => show win2_0.index t (0 : Fin 2) * 6000 + 1 * (y 0).val = (z 0).val; rw [e0, h0]; omega
  | ⟨1, _⟩ => show win2_0.index t (1 : Fin 2) * 32 + 1 * (y 1).val = (z 1).val; rw [e1, h1]; omega

/-- The second input's likewise. -/
theorem ablk2 (c : Dev nD) (t : Fin cfg2.N) (y : S6000x32.Idx) (z : S60000x32.Idx)
    (h0 : (z 0).val = t.val * 6000 + (y 0).val) (h1 : (z 1).val = (y 1).val) :
    (iblk2 V c 1 t : Vec Ideal S6000x32 .f32) y = (V c main_v37 : Vec Ideal S60000x32 .f32) z := by
  obtain ⟨-, -, e0, e1, -⟩ := idx_lin2 t
  unfold iblk2
  rw [View.read_apply]
  show V c main_v37 _ = V c main_v37 z
  congr 1
  funext a
  apply Fin.ext
  match a with
  | ⟨0, _⟩ => show win2_1.index t (0 : Fin 2) * 6000 + 1 * (y 0).val = (z 0).val; rw [e0, h0]; omega
  | ⟨1, _⟩ => show win2_1.index t (1 : Fin 2) * 32 + 1 * (y 1).val = (z 1).val; rw [e1, h1]; omega

/-- The weights' block is the whole array at every point. -/
theorem wblk2 (c : Dev nD) (t : Fin cfg2.N) :
    (iblk2 V c 2 t : Vec Ideal S64x32 .f32) = (V c main_arg11 : Vec Ideal S64x32 .f32) := by
  obtain ⟨-, -, -, -, e0, e1, -⟩ := idx_lin2 t
  funext y
  unfold iblk2
  rw [View.read_apply]
  show V c main_arg11 _ = V c main_arg11 y
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 32 + 1 * (y 1).val = (y 1).val; rw [e1]; omega

/-- The bias's likewise. -/
theorem bblk2 (c : Dev nD) (t : Fin cfg2.N) :
    (iblk2 V c 3 t : Vec Ideal S32 .f32) = (V c main_arg12 : Vec Ideal S32 .f32) := by
  obtain ⟨-, -, -, -, -, -, e0, -⟩ := idx_lin2 t
  funext y
  unfold iblk2
  rw [View.read_apply]
  show V c main_arg12 _ = V c main_arg12 y
  congr 1
  funext a
  apply Fin.ext
  match a with
  | ⟨0, _⟩ => show win2_3.index t (0 : Fin 1) * 32 + 1 * (y 0).val = (y 0).val; rw [e0]; omega

/-- What point `t` writes back is block `t` of the layer of the whole arrays. -/
theorem flushed_lin2 (c : Dev nD) (t : Fin cfg2.N) :
    (dat2 (F := Ideal) V c).flushed 4 t = ((cfg2.win 4).blk t).view.read (Elt Ideal)
      (Cert.Stages.linLeaky32 (F := Ideal) (V c main_v1_0) (V c main_v37) (V c main_arg11) (V c main_arg12)) := by
  show (cfg2.win 4).cut (grid2.coords t) ((dat2 V c).after 4 t) = _
  rw [after2_4]
  unfold out2_4
  rw [View.canon_unit_zero hz2]
  simp only [View.ld_unit_zero (S := S6000x32) hz2, View.ld_unit_zero (S := S64x32) hz2, View.ld_unit_zero (S := S32) hz1]
  rw [wblk2 V c t, bblk2 V c t]
  obtain ⟨-, -, -, -, -, -, -, e0, e1⟩ := idx_lin2 t
  funext j
  show k2_pay1 (iblk2 V c 0 t) (iblk2 V c 1 t) (V c main_arg11) (V c main_arg12) j
    = Cert.Stages.linLeaky32 (F := Ideal) (V c main_v1_0) (V c main_v37) (V c main_arg11) (V c main_arg12) (((cfg2.win 4).blk t).view.emb j)
  refine point32 (iblk2 V c 0 t) (iblk2 V c 1 t) (V c main_arg11) (V c main_arg12) (V c main_v1_0) (V c main_v37) t.val
    (xblk2 V c t) (ablk2 V c t) j (((cfg2.win 4).blk t).view.emb j) ?_ ?_
  · show win2_4.index t (0 : Fin 2) * 6000 + 1 * (j 0).val = t.val * 6000 + (j 0).val
    rw [e0]; omega
  · show win2_4.index t (1 : Fin 2) * 32 + 1 * (j 1).val = (j 1).val
    rw [e1]; omega

/-- An index of the array is in point `t`'s block iff each coordinate is in the block's range on its axis. -/
theorem mem_blk_lin2 (t : Fin cfg2.N) (i : S60000x32.Idx) :
    i ∈ ((cfg2.win 4).blk t).view.set ↔ ∀ a : Fin 2, win2_4.index t a * S6000x32.size a ≤ (i a).val ∧ (i a).val < win2_4.index t a * S6000x32.size a + S6000x32.size a := by
  show i ∈ ((View.whole main_v38).slice (win2_4.rect t)).set ↔ _
  rw [View.set_slice_whole, Rect.mem_set_unit]
  exact Iff.rfl

/-- Row `r` lies in the block of point `r / 6000`. -/
theorem cover_lin2 (i : S60000x32.Idx) :
    ∃ t : Fin cfg2.N, (cfg2.win 4).flush t = true ∧ i ∈ ((cfg2.win 4).blk t).view.set := by
  have hN : cfg2.N = 10 := N_2
  have hi0 : (i 0).val < 60000 := (i 0).isLt
  have hi1 : (i 1).val < 32 := (i 1).isLt
  have ht : (i 0).val / 6000 < cfg2.N := by rw [hN]; omega
  refine ⟨⟨(i 0).val / 6000, ht⟩, flush2_4 _, ?_⟩
  rw [mem_blk_lin2]
  obtain ⟨-, -, -, -, -, -, -, e0, e1⟩ := idx_lin2 ⟨(i 0).val / 6000, ht⟩
  have e0' : win2_4.index ⟨(i 0).val / 6000, ht⟩ (0 : Fin 2) = (i 0).val / 6000 := e0
  intro a
  match a with
  | ⟨0, _⟩ =>
    show win2_4.index ⟨(i 0).val / 6000, ht⟩ (0 : Fin 2) * 6000 ≤ (i 0).val ∧ (i 0).val < win2_4.index ⟨(i 0).val / 6000, ht⟩ (0 : Fin 2) * 6000 + 6000
    rw [e0']; omega
  | ⟨1, _⟩ =>
    show win2_4.index ⟨(i 0).val / 6000, ht⟩ (1 : Fin 2) * 32 ≤ (i 1).val ∧ (i 1).val < win2_4.index ⟨(i 0).val / 6000, ht⟩ (1 : Fin 2) * 32 + 32
    rw [e1]; omega

end Lin2

variable (V : (c : Dev nD) → (b : Ref sig .tc) → Buf (Elt Ideal) ((c : Thread nD τ).loc b))

/-- After region 2 its output array is the leaky linear layer of its input arrays. -/
theorem arr2_lin (c : Dev nD) :
    (dat2 (F := Ideal) V c).arrAt 4 cfg2.N
      = Cert.Stages.linLeaky32 (F := Ideal) (V c main_v1_0) (V c main_v37) (V c main_arg11) (V c main_arg12) :=
  (dat2 (F := Ideal) V c).arrAt_eq_of_cover 4 _ (fun t _ => Lin2.flushed_lin2 V c t) Lin2.cover_lin2

end Cert.KernelIdeal.RegionVal

end
-- ==== Proof.Counts.lean ====
import proofs.«429255_j2413771620669_3_alg».proof.Proof.Stages
import proofs.«429255_j2413771620669_3_alg».proof.Proof.KStages
import Idealize.ShloMosaic.PureOps.Ideal
import Idealize.ShloMosaic.Lib.ValueIdx

noncomputable section

namespace Cert.Counts

open Idealize.ShloMosaic Idealize.ShloMosaic.ValueIdx

/-- An update lands at the operand index `i` exactly when, on every operand axis, its start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h2 := congrArg Fin.val (congrFun (Option.some.inj h) a)
      simp only at h2
      have := hb a
      omega
    · cases h
  · intro h
    have hb : ∀ a, 0 ≤ d.start j idx a + (d.window j a : Int) ∧ d.start j idx a + (d.window j a : Int) < s.size a := by
      intro a; rw [h a]; have := (i a).isLt; omega
    rw [dif_pos hb]
    refine congrArg some (funext fun a => Fin.ext ?_)
    simp only
    rw [h a]; exact Int.toNat_natCast _

/-- The kernel's scatter: updates a vector over the edges, into a vector over the nodes. -/
abbrev dK := Cert.KernelIdeal.scatter_S60000_S1920000x1_S1920000_n_0_0_1
/-- The reference's scatter: updates a column over the edges, into a column over the nodes. -/
abbrev dR := Cert.ReferenceIdeal.scatter_S60000x1_S1920000x1_S1920000x1_1_0_0_1

theorem dK_start (j : Cert.KernelIdeal.S1920000.Idx) (idx : IVec Cert.KernelIdeal.S1920000x1 32) :
    dK.start j idx 0 = (idx (ix2 (j 0) 0)).toInt := by
  unfold ScatterDims.start
  rw [dif_pos (by decide)]
  refine congrArg (fun k => (idx k).toInt) (funext fun b => ?_)
  match b with
  | ⟨0, _⟩ => rfl
  | ⟨1, _⟩ => rfl

theorem dK_window (j : Cert.KernelIdeal.S1920000.Idx) : dK.window j 0 = 0 := rfl

theorem dR_start0 (j : Cert.ReferenceIdeal.S1920000x1.Idx) (idx : IVec Cert.ReferenceIdeal.S1920000x1 32) :
    dR.start j idx 0 = (idx (ix2 (j 0) 0)).toInt := by
  unfold ScatterDims.start
  rw [dif_pos (by decide)]
  refine congrArg (fun k => (idx k).toInt) (funext fun b => ?_)
  match b with
  | ⟨0, _⟩ => rfl
  | ⟨1, _⟩ => rfl

theorem dR_start1 (j : Cert.ReferenceIdeal.S1920000x1.Idx) (idx : IVec Cert.ReferenceIdeal.S1920000x1 32) :
    dR.start j idx 1 = 0 := rfl

theorem dR_window0 (j : Cert.ReferenceIdeal.S1920000x1.Idx) : dR.window j 0 = 0 := rfl

theorem dR_window1 (j : Cert.ReferenceIdeal.S1920000x1.Idx) : dR.window j 1 = (j 1).val := rfl

/-- The kernel's update `j` lands at node `k` exactly when the destination read for `j` is `k`. -/
theorem dK_lands (j : Cert.KernelIdeal.S1920000.Idx) (idx : IVec Cert.KernelIdeal.S1920000x1 32)
    (k : Cert.KernelIdeal.S60000.Idx) :
    dK.resultIdx? j idx = some k ↔ (idx (ix2 (j 0) 0)).toInt = ((k 0).val : Int) := by
  rw [resultIdx?_eq_some_iff]
  constructor
  · intro h
    have h0 := h 0
    rw [dK_start, dK_window] at h0
    simpa using h0
  · intro h a
    match a with
    | ⟨0, _⟩ =>
      show dK.start j idx 0 + ((dK.window j 0 : Nat) : Int) = ((k 0).val : Int)
      rw [dK_start, dK_window]
      simpa using h

/-- The reference's update `j` lands at `i` exactly when the destination read for `j`'s row is `i`'s row:
    the second axis has one entry on both sides. -/
theorem dR_lands (j : Cert.ReferenceIdeal.S1920000x1.Idx) (idx : IVec Cert.ReferenceIdeal.S1920000x1 32)
    (i : Cert.ReferenceIdeal.S60000x1.Idx) :
    dR.resultIdx? j idx = some i ↔ (idx (ix2 (j 0) 0)).toInt = ((i 0).val : Int) := by
  rw [resultIdx?_eq_some_iff]
  constructor
  · intro h
    have h0 := h 0
    rw [dR_start0, dR_window0] at h0
    simpa using h0
  · intro h a
    match a with
    | ⟨0, _⟩ =>
      show dR.start j idx 0 + ((dR.window j 0 : Nat) : Int) = ((i 0).val : Int)
      rw [dR_start0, dR_window0]
      simpa using h
    | ⟨1, _⟩ =>
      show dR.start j idx 1 + ((dR.window j 1 : Nat) : Int) = ((i 1).val : Int)
      rw [dR_start1, dR_window1]
      have h1 := idx2_lt1 j
      have h2 := idx2_lt1 i
      omega

/-- The two scatters agree entry by entry once their operands and updates do: an edge's update lands at a node's
    entry of the vector exactly when the edge's update in the column lands at that node's entry of the column. -/
theorem scatter_col (x : FVec Ideal Cert.KernelIdeal.S60000 .f32) (x' : FVec Ideal Cert.ReferenceIdeal.S60000x1 .f32)
    (idx : IVec Cert.ReferenceIdeal.S1920000x1 32)
    (upd : FVec Ideal Cert.KernelIdeal.S1920000 .f32) (upd' : FVec Ideal Cert.ReferenceIdeal.S1920000x1 .f32)
    (i : Cert.ReferenceIdeal.S60000x1.Idx)
    (hx : x (ix1 (i 0)) = x' i) (hu : ∀ j, upd j = upd' (ix2 (j 0) 0)) :
    Host.scatterAdd (F := Ideal) dK x idx upd (ix1 (i 0)) = Host.scatterAdd (F := Ideal) dR x' idx upd' i := by
  unfold Host.scatterAdd
  rw [Ideal.hostScatterAdd_def, Ideal.hostScatterAdd_def]
  unfold Ideal.hostScatterAdd
  rw [hx]
  refine congrArg (fun t => x' i + t) ?_
  refine Finset.sum_nbij' (fun j => ix2 (j 0) 0) (fun j' => ix1 (j' 0)) ?_ ?_ ?_ ?_ ?_
  · intro j hj
    rw [Finset.mem_filter] at hj ⊢
    exact ⟨Finset.mem_univ _, (dR_lands _ _ _).2 ((dK_lands _ _ _).1 hj.2)⟩
  · intro j' hj
    rw [Finset.mem_filter] at hj ⊢
    exact ⟨Finset.mem_univ _, (dK_lands _ _ _).2 ((dR_lands _ _ _).1 hj.2)⟩
  · intro j _
    exact (eq_ix1 j).symm
  · intro j' _
    refine funext fun a => ?_
    match a with
    | ⟨0, _⟩ => rfl
    | ⟨1, _⟩ =>
      refine Fin.ext ?_
      show ((0 : Fin 1)).val = (j' 1).val
      have h1 := idx2_lt1 j'
      simp only [Fin.val_zero]
      omega
  · intro j _
    exact hu j

/-- Counting the edges that end at each node into a vector and reading it as a column gives the column the
    reference counts directly: both are, at node `n`, the number of edges whose destination is `n`. -/
theorem inDegree_eq (dst : IVec Cert.ReferenceIdeal.S1920000 32) :
    Cert.KStages.colN (F := Ideal) (Cert.KStages.inDegreeK (F := Ideal) dst) = Cert.Stages.inDegree (F := Ideal) dst := by
  funext i
  have hcol : ∀ n : FVec Ideal Cert.KernelIdeal.S60000 .f32, Cert.KStages.colN (F := Ideal) n i = n (ix1 (i 0)) := by
    intro n
    unfold Cert.KStages.colN broadcastInDim
    exact congrArg n (funext fun a => match a with | ⟨0, _⟩ => rfl)
  rw [hcol]
  unfold Cert.KStages.inDegreeK Cert.Stages.inDegree Cert.Stages.colE
  exact scatter_col _ _ _ _ _ i rfl (fun _ => rfl)

end Cert.Counts

end
-- ==== Proof.KChainA.lean ====
import proofs.«429255_j2413771620669_3_alg».proof.Proof.Gen.KernelIdeal.Frame
import proofs.«429255_j2413771620669_3_alg».proof.Proof.Stages
import proofs.«429255_j2413771620669_3_alg».proof.Proof.KStages
import proofs.«429255_j2413771620669_3_alg».proof.Proof.KChainDefs
import proofs.«429255_j2413771620669_3_alg».proof.Proof.RegionAE
import proofs.«429255_j2413771620669_3_alg».proof.Proof.RegionGate1
import proofs.«429255_j2413771620669_3_alg».proof.Proof.RegionLin2
import proofs.«429255_j2413771620669_3_alg».proof.Proof.Counts
import Idealize.ShloMosaic.PureOps.Ideal
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What each host stretch writes, and what it therefore leaves alone -/

/-- The references the stretch before region 0 writes. -/
def wr0 : List (Ref sig .tc) := [main_v0]

/-- The references the stretch between regions 0 and 1 writes. -/
def wr1 : List (Ref sig .tc) :=
  [main_v2, main_v3, main_cst, main_v4, main_cst_0, main_v5, main_cst_1, main_v6, main_c, main_v7, main_v8, main_c_2, main_v9,
   main_v10, main_v11, main_v12, main_v13, main_c_3, main_v14, main_v15, main_c_4, main_v16, main_v17, main_v18, main_v19, main_v20]

/-- The references the first stretch between regions 1 and 2 writes. -/
def wr2 : List (Ref sig .tc) :=
  [main_cst_5, main_v22, main_v23, main_v24, main_cst_6, main_v25, main_cst_7, main_v26, main_v27, main_v28, main_v29, main_cst_8,
   main_v30, main_v31, main_v32, main_cst_9, main_v33, main_v34, main_v35, main_v36, main_cst_10]

/-- The references the second stretch between regions 1 and 2 (the called selection) writes. -/
def wr2' : List (Ref sig .tc) := [main_call0_v0, main_call0_v1, main_call0_v2, main_v37]

theorem wr0_sub : (hostOps0 (F := Ideal)).Forall fun op => op.writes ⊆ (wr0.map (Proc.devRef (τ := τ) .tc)).toFinset := by
  simp only [hostOps0, List.Forall, StableHlo.binary_writes, Finset.singleton_subset_iff, List.mem_toFinset]
  exact List.mem_map.mpr ⟨_, by decide, rfl⟩

theorem wr1_sub : (hostOps1 (F := Ideal)).Forall fun op => op.writes ⊆ (wr1.map (Proc.devRef (τ := τ) .tc)).toFinset := by
  simp only [hostOps1, List.Forall, StableHlo.nullary_writes, StableHlo.unary_writes, StableHlo.binary_writes, StableHlo.ternary_writes,
    Finset.singleton_subset_iff, List.mem_toFinset]
  repeat' apply And.intro
  all_goals exact List.mem_map.mpr ⟨_, by decide, rfl⟩

theorem wr2_sub : (hostOps2 (F := Ideal)).Forall fun op => op.writes ⊆ (wr2.map (Proc.devRef (τ := τ) .tc)).toFinset := by
  simp only [hostOps2, List.Forall, StableHlo.nullary_writes, StableHlo.unary_writes, StableHlo.binary_writes, StableHlo.ternary_writes,
    Finset.singleton_subset_iff, List.mem_toFinset]
  repeat' apply And.intro
  all_goals exact List.mem_map.mpr ⟨_, by decide, rfl⟩

theorem wr2'_sub : (hostOps2_1 (F := Ideal)).Forall fun op => op.writes ⊆ (wr2'.map (Proc.devRef (τ := τ) .tc)).toFinset := by
  simp only [hostOps2_1, List.Forall, StableHlo.nullary_writes, StableHlo.unary_writes, StableHlo.binary_writes, StableHlo.ternary_writes,
    Finset.singleton_subset_iff, List.mem_toFinset]
  repeat' apply And.intro
  all_goals exact List.mem_map.mpr ⟨_, by decide, rfl⟩

/-- A buffer that nothing up to region 1's entry writes and that is no array of region 0. -/
abbrev Free3 (b : Ref sig .tc) : Prop := b ∉ wr0 ∧ (∀ w, Pipeline.arrRef spec0 w ≠ b) ∧ b ∉ wr1
/-- … and that nothing up to region 2's entry writes, and that is no array of region 1. -/
abbrev Free6 (b : Ref sig .tc) : Prop := Free3 b ∧ (∀ w, Pipeline.arrRef spec1 w ≠ b) ∧ b ∉ wr2 ∧ b ∉ wr2'
/-- … and that is no array of region 2. -/
abbrev Free7 (b : Ref sig .tc) : Prop := Free6 b ∧ ∀ w, Pipeline.arrRef spec2 w ≠ b

section
variable (c : Dev nD) (b : Ref sig .tc)

theorem keep1 (hb : b ∉ wr0) : W1 (F := Ideal) m ρ c (Proc.devRef .tc b) = W0 (F := Ideal) m ρ c (Proc.devRef .tc b) :=
  StableHlo.after_of_writes_sub _ _ wr0_sub hb
theorem keep3 (hb : b ∉ wr1) : W3 (F := Ideal) m ρ c (Proc.devRef .tc b) = W2 (F := Ideal) m ρ c (Proc.devRef .tc b) :=
  StableHlo.after_of_writes_sub _ _ wr1_sub hb
theorem keep5 (hb : b ∉ wr2) : W5 (F := Ideal) m ρ c (Proc.devRef .tc b) = W4 (F := Ideal) m ρ c (Proc.devRef .tc b) :=
  StableHlo.after_of_writes_sub _ _ wr2_sub hb
theorem keep6 (hb : b ∉ wr2') : W6 (F := Ideal) m ρ c (Proc.devRef .tc b) = W5 (F := Ideal) m ρ c (Proc.devRef .tc b) :=
  StableHlo.after_of_writes_sub _ _ wr2'_sub hb

/-! ## A buffer nothing has touched holds what it was launched with -/

theorem at1 (h : b ∉ wr0) : W1 (F := Ideal) m ρ c (Proc.devRef .tc b) = m ((c : Thread nD τ).loc b) :=
  (keep1 m ρ c b h).trans rfl
theorem at2 (h : b ∉ wr0 ∧ ∀ w, Pipeline.arrRef spec0 w ≠ b) :
    W2 (F := Ideal) m ρ c (Proc.devRef .tc b) = m ((c : Thread nD τ).loc b) :=
  (W2_of_ne m ρ c b h.2).trans (at1 m ρ c b h.1)
theorem at3 (h : Free3 b) : W3 (F := Ideal) m ρ c (Proc.devRef .tc b) = m ((c : Thread nD τ).loc b) :=
  (keep3 m ρ c b h.2.2).trans (at2 m ρ c b ⟨h.1, h.2.1⟩)
theorem at4 (h : Free3 b ∧ ∀ w, Pipeline.arrRef spec1 w ≠ b) :
    W4 (F := Ideal) m ρ c (Proc.devRef .tc b) = m ((c : Thread nD τ).loc b) :=
  (W4_of_ne m ρ c b h.2).trans (at3 m ρ c b h.1)
theorem at6 (h : Free6 b) : W6 (F := Ideal) m ρ c (Proc.devRef .tc b) = m ((c : Thread nD τ).loc b) :=
  (keep6 m ρ c b h.2.2.2).trans ((keep5 m ρ c b h.2.2.1).trans (at4 m ρ c b ⟨h.1, h.2.1⟩))
theorem at7 (h : Free7 b) : W7 (F := Ideal) m ρ c (Proc.devRef .tc b) = m ((c : Thread nD τ).loc b) :=
  (W7_of_ne m ρ c b h.2).trans (at6 m ρ c b h.1)

end

/-! ## The host stretches' results, as functions of the contents they start from -/

section
variable (X : Valuation τ sig (Elt Ideal))

/-- The first stretch stacks the entity rows on the user rows. -/
theorem host0_emb :
    StableHlo.after (hostOps0 (F := Ideal)) X (Proc.devRef .tc main_v0)
      = Cert.Stages.allEmb (F := Ideal) (X (Proc.devRef .tc main_arg0)) (X (Proc.devRef .tc main_arg1)) := by
  after_results
  rfl

/-- The reconstruction error of the decoder's output against the embeddings. -/
theorem host1_loss :
    StableHlo.after (hostOps1 (F := Ideal)) X (Proc.devRef .tc main_v5)
      = Cert.Stages.meanSq (F := Ideal) (X (Proc.devRef .tc main_v1_1)) (X (Proc.devRef .tc main_v0)) := by
  after_results
  rfl

/-- The first relation weights summed over their last axis. -/
theorem host1_relSum :
    StableHlo.after (hostOps1 (F := Ideal)) X (Proc.devRef .tc main_v6)
      = Cert.Stages.relSum (F := Ideal) (X (Proc.devRef .tc main_arg10)) := by
  after_results
  rfl

/-- The encoded rows at the edges' destinations. -/
theorem host1_rowsDst :
    StableHlo.after (hostOps1 (F := Ideal)) X (Proc.devRef .tc main_v13)
      = Cert.Stages.rowsAt (F := Ideal) (X (Proc.devRef .tc main_v1_0)) (X (Proc.devRef .tc main_arg19)) := by
  after_results_simp
  rfl

/-- The encoded rows at the edges' sources. -/
theorem host1_rowsSrc :
    StableHlo.after (hostOps1 (F := Ideal)) X (Proc.devRef .tc main_v20)
      = Cert.Stages.rowsAt (F := Ideal) (X (Proc.devRef .tc main_v1_0)) (X (Proc.devRef .tc main_arg18)) := by
  after_results_simp
  rfl

/-- The called selection: where the flag holds the quotient, elsewhere the constant. -/
theorem host2'_select :
    StableHlo.after (hostOps2_1 (F := Ideal)) X (Proc.devRef .tc main_v37)
      = select (broadcastInDim S60000x32 ![0, 1] bcast_S60000x1_S60000x32_0_1 (X (Proc.devRef .tc main_v31)))
          (X (Proc.devRef .tc main_v36))
          (broadcastInDim S60000x32 ![] bcast_S_S60000x32 (id (X (Proc.devRef .tc main_cst_10)))) := by
  after_results
  simp only [TRef.ofBuf, TRef.toBuf, cast_eq]

/-- Which nodes have an incoming edge, the in-degrees counted into a vector and read as a column. -/
theorem host2_flag :
    StableHlo.after (hostOps2 (F := Ideal)) X (Proc.devRef .tc main_v31)
      = cmpf .ogt (Cert.KStages.colN (F := Ideal) (Cert.KStages.inDegreeK (F := Ideal) (X (Proc.devRef .tc main_arg19))))
          (broadcastInDim S60000x1 ![] bcast_S_S60000x1 (constant (F := Ideal) S_ .f32 0x00000000#32)) := by
  after_results_simp
  rfl

/-- The per-node sums of the gated rows over the in-degrees (at least one). -/
theorem host2_quot :
    StableHlo.after (hostOps2 (F := Ideal)) X (Proc.devRef .tc main_v36)
      = Host.divf (Cert.Stages.segSum (F := Ideal) (X (Proc.devRef .tc main_v21)) (X (Proc.devRef .tc main_arg19)))
          (broadcastInDim S60000x32 ![0, 1] bcast_S60000x1_S60000x32_0_1
            (maximumf (Cert.KStages.colN (F := Ideal) (Cert.KStages.inDegreeK (F := Ideal) (X (Proc.devRef .tc main_arg19))))
              (broadcastInDim S60000x1 ![] bcast_S_S60000x1 (constant (F := Ideal) S_ .f32 0x3F800000#32)))) := by
  after_results_simp
  rfl

theorem host2_zero :
    StableHlo.after (hostOps2 (F := Ideal)) X (Proc.devRef .tc main_cst_10) = constant (F := Ideal) S_ .f32 0x00000000#32 := by
  after_results

/-- The two stretches before region 2 average the gated rows per destination node, the in-degrees counted into a
    vector and read as a column. -/
theorem host2_mean :
    StableHlo.after (hostOps2_1 (F := Ideal)) (StableHlo.after (hostOps2 (F := Ideal)) X) (Proc.devRef .tc main_v37)
      = Cert.Stages.meanOf (F := Ideal)
          (Cert.Stages.segSum (F := Ideal) (X (Proc.devRef .tc main_v21)) (X (Proc.devRef .tc main_arg19)))
          (Cert.KStages.colN (F := Ideal) (Cert.KStages.inDegreeK (F := Ideal) (X (Proc.devRef .tc main_arg19)))) := by
  rw [host2'_select, host2_flag, host2_quot, host2_zero]
  rfl

/-- The same with the in-degrees as the reference counts them. -/
theorem host2_segMean :
    StableHlo.after (hostOps2_1 (F := Ideal)) (StableHlo.after (hostOps2 (F := Ideal)) X) (Proc.devRef .tc main_v37)
      = Cert.Stages.segMean (F := Ideal) (X (Proc.devRef .tc main_v21)) (X (Proc.devRef .tc main_arg19)) :=
  (host2_mean X).trans (congrArg (Cert.Stages.meanOf (F := Ideal) _) (Cert.Counts.inDegree_eq _))

end

/-! ## Boundary by boundary -/

section
variable (c : Dev nD)

/-- The encoder's output on the launch arrays. -/
abbrev enc0 :=
  Cert.Stages.encode (F := Ideal)
    (Cert.Stages.allEmb (F := Ideal) (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5))

/-- At region 0's entry the embeddings buffer holds the stacked rows. -/
theorem emb_at1 :
    W1 (F := Ideal) m ρ c (Proc.devRef .tc main_v0)
      = Cert.Stages.allEmb (F := Ideal) (m ((c : Thread nD τ).loc main_arg0)) (m ((c : Thread nD τ).loc main_arg1)) :=
  host0_emb (W0 (F := Ideal) m ρ c)

/-- Region 0 only reads the embeddings. -/
theorem emb_at2 :
    W2 (F := Ideal) m ρ c (Proc.devRef .tc main_v0)
      = Cert.Stages.allEmb (F := Ideal) (m ((c : Thread nD τ).loc main_arg0)) (m ((c : Thread nD τ).loc main_arg1)) :=
  (W2_arr m ρ c 0).trans (((dat0 (V1 (F := Ideal) m ρ) c).arrAt_in 0 rfl _).trans ((A_eq0 (V1 (F := Ideal) m ρ) c 0).trans (emb_at1 m ρ c)))

/-- At region 0's exit its first output holds the encoding. -/
theorem enc_at2 : W2 (F := Ideal) m ρ c (Proc.devRef .tc main_v1_0) = enc0 m c := by
  refine (W2_arr m ρ c 9).trans ((RegionVal.arr0_enc (V1 (F := Ideal) m ρ) c).trans ?_)
  rw [show V1 (F := Ideal) m ρ c main_v0 = _ from emb_at1 m ρ c,
    show V1 (F := Ideal) m ρ c main_arg2 = _ from at1 m ρ c main_arg2 (by decide),
    show V1 (F := Ideal) m ρ c main_arg3 = _ from at1 m ρ c main_arg3 (by decide),
    show V1 (F := Ideal) m ρ c main_arg4 = _ from at1 m ρ c main_arg4 (by decide),
    show V1 (F := Ideal) m ρ c main_arg5 = _ from at1 m ρ c main_arg5 (by decide)]

/-- At region 0's exit its second output holds the decoding of that encoding. -/
theorem dec_at2 :
    W2 (F := Ideal) m ρ c (Proc.devRef .tc main_v1_1)
      = Cert.Stages.decode (F := Ideal) (enc0 m c) (m ((c : Thread nD τ).loc main_arg6)) (m ((c : Thread nD τ).loc main_arg7))
          (m ((c : Thread nD τ).loc main_arg8)) (m ((c : Thread nD τ).loc main_arg9)) := by
  refine (W2_arr m ρ c 10).trans ((RegionVal.arr0_dec (V1 (F := Ideal) m ρ) c).trans ?_)
  rw [show V1 (F := Ideal) m ρ c main_v0 = _ from emb_at1 m ρ c,
    show V1 (F := Ideal) m ρ c main_arg2 = _ from at1 m ρ c main_arg2 (by decide),
    show V1 (F := Ideal) m ρ c main_arg3 = _ from at1 m ρ c main_arg3 (by decide),
    show V1 (F := Ideal) m ρ c main_arg4 = _ from at1 m ρ c main_arg4 (by decide),
    show V1 (F := Ideal) m ρ c main_arg5 = _ from at1 m ρ c main_arg5 (by decide),
    show V1 (F := Ideal) m ρ c main_arg6 = _ from at1 m ρ c main_arg6 (by decide),
    show V1 (F := Ideal) m ρ c main_arg7 = _ from at1 m ρ c main_arg7 (by decide),
    show V1 (F := Ideal) m ρ c main_arg8 = _ from at1 m ρ c main_arg8 (by decide),
    show V1 (F := Ideal) m ρ c main_arg9 = _ from at1 m ρ c main_arg9 (by decide)]

/-- At region 1's entry the loss buffer holds the reconstruction error. -/
theorem loss_at3 :
    W3 (F := Ideal) m ρ c (Proc.devRef .tc main_v5)
      = Cert.Stages.loss (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  refine (host1_loss (W2 (F := Ideal) m ρ c)).trans ?_
  rw [dec_at2 m ρ c, emb_at2 m ρ c]
  rfl

/-- At region 1's entry: the encoded rows at the edges' destinations, -/
theorem rowsDst_at3 :
    W3 (F := Ideal) m ρ c (Proc.devRef .tc main_v13)
      = Cert.Stages.rowsAt (F := Ideal) (enc0 m c) (m ((c : Thread nD τ).loc main_arg19)) := by
  refine (host1_rowsDst (W2 (F := Ideal) m ρ c)).trans ?_
  rw [enc_at2 m ρ c, at2 m ρ c main_arg19 (by decide)]

/-- at their sources, -/
theorem rowsSrc_at3 :
    W3 (F := Ideal) m ρ c (Proc.devRef .tc main_v20)
      = Cert.Stages.rowsAt (F := Ideal) (enc0 m c) (m ((c : Thread nD τ).loc main_arg18)) := by
  refine (host1_rowsSrc (W2 (F := Ideal) m ρ c)).trans ?_
  rw [enc_at2 m ρ c, at2 m ρ c main_arg18 (by decide)]

/-- and the summed relation weights. -/
theorem relSum_at3 :
    W3 (F := Ideal) m ρ c (Proc.devRef .tc main_v6)
      = Cert.Stages.relSum (F := Ideal) (m ((c : Thread nD τ).loc main_arg10)) := by
  refine (host1_relSum (W2 (F := Ideal) m ρ c)).trans ?_
  rw [at2 m ρ c main_arg10 (by decide)]

/-- The relation ids pass region 1, which only reads them. -/
theorem rel_at4 : W4 (F := Ideal) m ρ c (Proc.devRef .tc main_arg20) = m ((c : Thread nD τ).loc main_arg20) :=
  (W4_arr m ρ c 2).trans (((dat1 (V3 (F := Ideal) m ρ) c).arrAt_in 2 rfl _).trans
    ((A_eq1 (V3 (F := Ideal) m ρ) c 2).trans (at3 m ρ c main_arg20 (by decide))))

theorem rel_at7 : W7 (F := Ideal) m ρ c (Proc.devRef .tc main_arg20) = m ((c : Thread nD τ).loc main_arg20) :=
  (W7_of_ne m ρ c main_arg20 (by decide)).trans ((keep6 m ρ c main_arg20 (by decide)).trans
    ((keep5 m ρ c main_arg20 (by decide)).trans (rel_at4 m ρ c)))

/-- At region 1's exit its output holds the gated source rows. -/
theorem gated_at4 (hrel : ∀ e : S1920000.Idx, ((m ((c : Thread nD τ).loc main_arg20) : IVec S1920000 32) e).toNat < 16) :
    W4 (F := Ideal) m ρ c (Proc.devRef .tc main_v21)
      = Cert.Stages.gated (F := Ideal)
          (Cert.Stages.rowsAt (F := Ideal) (enc0 m c) (m ((c : Thread nD τ).loc main_arg19)))
          (Cert.Stages.rowsAt (F := Ideal) (enc0 m c) (m ((c : Thread nD τ).loc main_arg18)))
          (m ((c : Thread nD τ).loc main_arg20)) (Cert.Stages.relSum (F := Ideal) (m ((c : Thread nD τ).loc main_arg10))) := by
  have h20 : V3 (F := Ideal) m ρ c main_arg20 = m ((c : Thread nD τ).loc main_arg20) := at3 m ρ c main_arg20 (by decide)
  refine (W4_arr m ρ c 4).trans ((RegionVal.arr1_gated (V3 (F := Ideal) m ρ) c (by rw [h20]; exact hrel)).trans ?_)
  rw [show V3 (F := Ideal) m ρ c main_v13 = _ from rowsDst_at3 m ρ c,
    show V3 (F := Ideal) m ρ c main_v20 = _ from rowsSrc_at3 m ρ c, h20,
    show V3 (F := Ideal) m ρ c main_v6 = _ from relSum_at3 m ρ c]

/-- The encoding is still in its buffer at region 2's entry. -/
theorem enc_at6 : W6 (F := Ideal) m ρ c (Proc.devRef .tc main_v1_0) = enc0 m c :=
  (keep6 m ρ c main_v1_0 (by decide)).trans ((keep5 m ρ c main_v1_0 (by decide)).trans
    ((W4_of_ne m ρ c main_v1_0 (by decide)).trans ((keep3 m ρ c main_v1_0 (by decide)).trans (enc_at2 m ρ c))))

/-- At region 2's entry the aggregate buffer holds the gated rows averaged per destination node. -/
theorem agg_at6 (hrel : ∀ e : S1920000.Idx, ((m ((c : Thread nD τ).loc main_arg20) : IVec S1920000 32) e).toNat < 16) :
    W6 (F := Ideal) m ρ c (Proc.devRef .tc main_v37)
      = Cert.Stages.aggOf (F := Ideal) (enc0 m c) (m ((c : Thread nD τ).loc main_arg18)) (m ((c : Thread nD τ).loc main_arg19))
          (m ((c : Thread nD τ).loc main_arg20)) (m ((c : Thread nD τ).loc main_arg10)) := by
  refine (host2_segMean (W4 (F := Ideal) m ρ c)).trans ?_
  rw [gated_at4 m ρ c hrel, at4 m ρ c main_arg19 (by decide)]
  rfl

/-- The loss is still in its buffer at region 2's exit. -/
theorem loss_at7 :
    W7 (F := Ideal) m ρ c (Proc.devRef .tc main_v5)
      = Cert.Stages.loss (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) :=
  (W7_of_ne m ρ c main_v5 (by decide)).trans ((keep6 m ρ c main_v5 (by decide)).trans ((keep5 m ρ c main_v5 (by decide)).trans
    ((W4_of_ne m ρ c main_v5 (by decide)).trans (loss_at3 m ρ c))))

/-- At region 2's exit its output holds the first layer's features. -/
theorem layer1_at7 (hrel : ∀ e : S1920000.Idx, ((m ((c : Thread nD τ).loc main_arg20) : IVec S1920000 32) e).toNat < 16) :
    W7 (F := Ideal) m ρ c (Proc.devRef .tc main_v38)
      = Cert.Stages.layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg10)) (m ((c : Thread nD τ).loc main_arg11)) (m ((c : Thread nD τ).loc main_arg12)) (m ((c : Thread nD τ).loc main_arg18)) (m ((c : Thread nD τ).loc main_arg19)) (m ((c : Thread nD τ).loc main_arg20)) := by
  refine (W7_arr m ρ c 4).trans ((RegionVal.arr2_lin (V6 (F := Ideal) m ρ) c).trans ?_)
  rw [show V6 (F := Ideal) m ρ c main_v1_0 = _ from enc_at6 m ρ c,
    show V6 (F := Ideal) m ρ c main_v37 = _ from agg_at6 m ρ c hrel,
    show V6 (F := Ideal) m ρ c main_arg11 = _ from at6 m ρ c main_arg11 (by decide),
    show V6 (F := Ideal) m ρ c main_arg12 = _ from at6 m ρ c main_arg12 (by decide)]
  rfl

end

/-- At the boundary after region 2 (the first convolution's linear layer): its output buffer holds the first layer's
    features of the launch arrays, the loss buffer the reconstruction error, and the arguments read later are as launched. -/
theorem upto7 (hrel : ∀ (c : Dev nD) (e : S1920000.Idx), ((m ((c : Thread nD τ).loc main_arg20) : IVec S1920000 32) e).toNat < 16) (c : Dev nD) :
    W7 (F := Ideal) m ρ c (Proc.devRef .tc main_v38)
        = Cert.Stages.layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
            (m ((c : Thread nD τ).loc main_arg10)) (m ((c : Thread nD τ).loc main_arg11)) (m ((c : Thread nD τ).loc main_arg12)) (m ((c : Thread nD τ).loc main_arg18)) (m ((c : Thread nD τ).loc main_arg19)) (m ((c : Thread nD τ).loc main_arg20))
    ∧ W7 (F := Ideal) m ρ c (Proc.devRef .tc main_v5)
        = Cert.Stages.loss (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8)) (m ((c : Thread nD τ).loc main_arg9))
    ∧ ArgsAt m (W7 (F := Ideal) m ρ) c :=
  ⟨layer1_at7 m ρ c (hrel c), loss_at7 m ρ c,
    at7 m ρ c main_arg13 (by decide), at7 m ρ c main_arg14 (by decide), at7 m ρ c main_arg15 (by decide),
    at7 m ρ c main_arg16 (by decide), at7 m ρ c main_arg17 (by decide), at7 m ρ c main_arg18 (by decide),
    at7 m ρ c main_arg19 (by decide), rel_at7 m ρ c⟩

end Cert.KernelIdeal.KChain

end
-- ==== Proof.RegionLin4.lean ====
/-
  Region 4 of the kernel's program: one leaky linear layer over 10 row blocks of 6000 rows. Each output row
  depends only on the same row of the two row-tiled inputs (laid side by side into 64 columns), on the whole
  weight matrix and on the whole bias, so the value the body leaves for a row block is the whole-array layer
  restricted to that block; the blocks tile the rows, hence the array after the region is the whole-array layer.
  The body selects on `y > 0` where the whole-array form selects on `y ≥ 0`: the two agree, since at `y = 0`
  the slope times `y` is `0`.
-/
import proofs.«429255_j2413771620669_3_alg».proof.Proof.Gen.KernelIdeal.Frame
import proofs.«429255_j2413771620669_3_alg».proof.Proof.Stages
import proofs.«429255_j2413771620669_3_alg».proof.Proof.KStages
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

set_option maxRecDepth 16384

noncomputable section

namespace Cert.KernelIdeal.RegionVal

open Cert.KernelIdeal Cert.KernelIdeal.Gen
open Idealize.ShloMosaic Idealize.ShloMosaic.TcCoe Idealize.SL.Sem
open Idealize.ShloMosaic.Pipeline (Dat)
open Idealize.ShloMosaic.ValueIdx

namespace Lin4

/-! ## The two products at an index -/

/-- The kernel's product reads its left operand's row coordinate from the output's. -/
theorem lhs_k16_0 (i : S6000x16.Idx) (q : dot_S6000x64_S64x16_S6000x16_1_0_0_1_n_n.contr.Idx) :
    (dot_S6000x64_S64x16_S6000x16_1_0_0_1_n_n.lhsIdx i q 0).val = (i 0).val := by
  unfold DotDims.lhsIdx
  rw [dif_neg (show ¬(0 : Fin S6000x64.rank) ∈ dot_S6000x64_S64x16_S6000x16_1_0_0_1_n_n.lhsBatch by decide), dif_pos (show (0 : Fin S6000x64.rank) ∈ dot_S6000x64_S64x16_S6000x16_1_0_0_1_n_n.lhsNonContracting by decide)]
  rfl
theorem lhs_k16_1 (i : S6000x16.Idx) (q : dot_S6000x64_S64x16_S6000x16_1_0_0_1_n_n.contr.Idx) :
    (dot_S6000x64_S64x16_S6000x16_1_0_0_1_n_n.lhsIdx i q 1).val = (q ⟨0, by decide⟩).val :=
  dot_S6000x64_S64x16_S6000x16_1_0_0_1_n_n.lhsIdx_val_of_single rfl i q
theorem rhs_k16_0 (i : S6000x16.Idx) (q : dot_S6000x64_S64x16_S6000x16_1_0_0_1_n_n.contr.Idx) :
    (dot_S6000x64_S64x16_S6000x16_1_0_0_1_n_n.rhsIdx i q 0).val = (q ⟨0, by decide⟩).val :=
  dot_S6000x64_S64x16_S6000x16_1_0_0_1_n_n.rhsIdx_val_of_single rfl i q
theorem rhs_k16_1 (i : S6000x16.Idx) (q : dot_S6000x64_S64x16_S6000x16_1_0_0_1_n_n.contr.Idx) :
    (dot_S6000x64_S64x16_S6000x16_1_0_0_1_n_n.rhsIdx i q 1).val = (i 1).val := by
  unfold DotDims.rhsIdx
  rw [dif_neg (show ¬(1 : Fin S64x16.rank) ∈ dot_S6000x64_S64x16_S6000x16_1_0_0_1_n_n.rhsBatch by decide), dif_pos (show (1 : Fin S64x16.rank) ∈ dot_S6000x64_S64x16_S6000x16_1_0_0_1_n_n.rhsNonContracting by decide)]
  rfl

/-- The kernel's matrix product into zero, at row `p` and column `q`: the sum over the 64 contracted positions. -/
theorem matmul_k16_apply (l : FVec Ideal S6000x64 .bf16) (r : FVec Ideal S64x16 .bf16) (p : Fin 6000) (q : Fin 16) :
    matmul dot_S6000x64_S64x16_S6000x16_1_0_0_1_n_n none l r (constant S6000x16 .f32 0x00000000#32) (ix2 p q)
      = ∑ k : Fin 64, l (ix2 p k) * r (ix2 k q) := by
  simp only [matmul]
  rw [Ideal.matmul_constant_zero_apply, ← Equiv.sum_comp (contrEquiv1 dot_S6000x64_S64x16_S6000x16_1_0_0_1_n_n 64 rfl rfl).symm]
  refine Finset.sum_congr rfl fun k _ => ?_
  have hk := contrEquiv1_symm_val dot_S6000x64_S64x16_S6000x16_1_0_0_1_n_n 64 rfl rfl k
  have el : dot_S6000x64_S64x16_S6000x16_1_0_0_1_n_n.lhsIdx (ix2 p q) ((contrEquiv1 dot_S6000x64_S64x16_S6000x16_1_0_0_1_n_n 64 rfl rfl).symm k) = ix2 p k := funext fun a => Fin.ext (by
    match a with
    | ⟨0, _⟩ => exact lhs_k16_0 _ _
    | ⟨1, _⟩ => exact (lhs_k16_1 _ _).trans hk)
  have er : dot_S6000x64_S64x16_S6000x16_1_0_0_1_n_n.rhsIdx (ix2 p q) ((contrEquiv1 dot_S6000x64_S64x16_S6000x16_1_0_0_1_n_n 64 rfl rfl).symm k) = ix2 k q := funext fun a => Fin.ext (by
    match a with
    | ⟨0, _⟩ => exact (rhs_k16_0 _ _).trans hk
    | ⟨1, _⟩ => exact rhs_k16_1 _ _)
  rw [el, er]

/-- The whole-array product reads its left operand's row coordinate from the output's. -/
theorem lhs_r16_0 (i : S60000x16.Idx) (q : Cert.ReferenceIdeal.dot_S60000x64_S64x16_S60000x16_1_0_0_1_n_n.contr.Idx) :
    (Cert.ReferenceIdeal.dot_S60000x64_S64x16_S60000x16_1_0_0_1_n_n.lhsIdx i q 0).val = (i 0).val := by
  unfold DotDims.lhsIdx
  rw [dif_neg (show ¬(0 : Fin S60000x64.rank) ∈ Cert.ReferenceIdeal.dot_S60000x64_S64x16_S60000x16_1_0_0_1_n_n.lhsBatch by decide), dif_pos (show (0 : Fin S60000x64.rank) ∈ Cert.ReferenceIdeal.dot_S60000x64_S64x16_S60000x16_1_0_0_1_n_n.lhsNonContracting by decide)]
  rfl
theorem lhs_r16_1 (i : S60000x16.Idx) (q : Cert.ReferenceIdeal.dot_S60000x64_S64x16_S60000x16_1_0_0_1_n_n.contr.Idx) :
    (Cert.ReferenceIdeal.dot_S60000x64_S64x16_S60000x16_1_0_0_1_n_n.lhsIdx i q 1).val = (q ⟨0, by decide⟩).val :=
  Cert.ReferenceIdeal.dot_S60000x64_S64x16_S60000x16_1_0_0_1_n_n.lhsIdx_val_of_single rfl i q
theorem rhs_r16_0 (i : S60000x16.Idx) (q : Cert.ReferenceIdeal.dot_S60000x64_S64x16_S60000x16_1_0_0_1_n_n.contr.Idx) :
    (Cert.ReferenceIdeal.dot_S60000x64_S64x16_S60000x16_1_0_0_1_n_n.rhsIdx i q 0).val = (q ⟨0, by decide⟩).val :=
  Cert.ReferenceIdeal.dot_S60000x64_S64x16_S60000x16_1_0_0_1_n_n.rhsIdx_val_of_single rfl i q
theorem rhs_r16_1 (i : S60000x16.Idx) (q : Cert.ReferenceIdeal.dot_S60000x64_S64x16_S60000x16_1_0_0_1_n_n.contr.Idx) :
    (Cert.ReferenceIdeal.dot_S60000x64_S64x16_S60000x16_1_0_0_1_n_n.rhsIdx i q 1).val = (i 1).val := by
  unfold DotDims.rhsIdx
  rw [dif_neg (show ¬(1 : Fin S64x16.rank) ∈ Cert.ReferenceIdeal.dot_S60000x64_S64x16_S60000x16_1_0_0_1_n_n.rhsBatch by decide), dif_pos (show (1 : Fin S64x16.rank) ∈ Cert.ReferenceIdeal.dot_S60000x64_S64x16_S60000x16_1_0_0_1_n_n.rhsNonContracting by decide)]
  rfl

/-- The whole-array product at row `r` and column `q`: the same sum. -/
theorem dot_r16_apply (l : FVec Ideal S60000x64 .f32) (w : FVec Ideal S64x16 .f32) (r : Fin 60000) (q : Fin 16) :
    Host.dotGeneral Cert.ReferenceIdeal.dot_S60000x64_S64x16_S60000x16_1_0_0_1_n_n none l w (ix2 r q)
      = ∑ k : Fin 64, l (ix2 r k) * w (ix2 k q) := by
  simp only [Host.dotGeneral]
  rw [Ideal.dotGeneral_apply, ← Equiv.sum_comp (contrEquiv1 Cert.ReferenceIdeal.dot_S60000x64_S64x16_S60000x16_1_0_0_1_n_n 64 rfl rfl).symm]
  refine Finset.sum_congr rfl fun k _ => ?_
  have hk := contrEquiv1_symm_val Cert.ReferenceIdeal.dot_S60000x64_S64x16_S60000x16_1_0_0_1_n_n 64 rfl rfl k
  have el : Cert.ReferenceIdeal.dot_S60000x64_S64x16_S60000x16_1_0_0_1_n_n.lhsIdx (ix2 r q) ((contrEquiv1 Cert.ReferenceIdeal.dot_S60000x64_S64x16_S60000x16_1_0_0_1_n_n 64 rfl rfl).symm k) = ix2 r k := funext fun a => Fin.ext (by
    match a with
    | ⟨0, _⟩ => exact lhs_r16_0 _ _
    | ⟨1, _⟩ => exact (lhs_r16_1 _ _).trans hk)
  have er : Cert.ReferenceIdeal.dot_S60000x64_S64x16_S60000x16_1_0_0_1_n_n.rhsIdx (ix2 r q) ((contrEquiv1 Cert.ReferenceIdeal.dot_S60000x64_S64x16_S60000x16_1_0_0_1_n_n 64 rfl rfl).symm k) = ix2 k q := funext fun a => Fin.ext (by
    match a with
    | ⟨0, _⟩ => exact (rhs_r16_0 _ _).trans hk
    | ⟨1, _⟩ => exact rhs_r16_1 _ _)
  rw [el, er]

/-! ## The bias at an index -/

/-- The kernel lays the bias along every row of a block. -/
theorem bias_k16_apply (b : FVec Ideal S16 .f32) (p : Fin 6000) (q : Fin 16) :
    broadcastTo S6000x16 (shapeCast S1x16 b shapeCasts_S16_S1x16) broadcasts_S1x16_S6000x16 (ix2 p q) = b (ix1 q) :=
  (broadcastTo_1b_ab_apply _ broadcasts_S1x16_S6000x16 p q).trans (shapeCast_a_1a_apply b shapeCasts_S16_S1x16 0 q)

/-- So does the whole-array form, by two broadcasts. -/
theorem bias_r16_apply (b : FVec Ideal S16 .f32) (r : Fin 60000) (q : Fin 16) :
    broadcastInDim S60000x16 ![0, 1] Cert.ReferenceIdeal.Facts₀.bcast_S1x16_S60000x16_0_1
      (broadcastInDim S1x16 ![1] Cert.ReferenceIdeal.Facts₀.bcast_S16_S1x16_1 b) (ix2 r q) = b (ix1 q) := by
  refine (broadcastInDim_oneRow_apply Cert.ReferenceIdeal.Facts₀.bcast_S1x16_S60000x16_0_1 _ r q).trans ?_
  refine broadcastInDim_apply ![1] Cert.ReferenceIdeal.Facts₀.bcast_S16_S1x16_1 b (ix2 (0 : Fin 1) q) (ix1 q) fun a => ?_
  match a with
  | ⟨0, _⟩ => rfl

/-! ## The two inputs side by side, a block against the whole array -/

/-- Row `p` of the blocks side by side is row `r` of the arrays side by side when the blocks' rows `p` are the arrays' rows `r`. -/
theorem cat32_blk (x0 x1 : FVec Ideal S6000x32 .f32) (X A : FVec Ideal S60000x32 .f32) (p : Fin 6000) (r : Fin 60000)
    (hx : ∀ s : Fin 32, x0 (ix2 p s) = X (ix2 r s)) (ha : ∀ s : Fin 32, x1 (ix2 p s) = A (ix2 r s)) (k : Fin 64) :
    concatenate S6000x64 1 [⟨S6000x32, x0⟩, ⟨S6000x32, x1⟩] concatenates_S6000x32_S6000x32_S6000x64_d1 (ix2 p k)
      = concatenate S60000x64 1 [⟨S60000x32, X⟩, ⟨S60000x32, A⟩] Cert.ReferenceIdeal.Facts₀.concatenates_S60000x32_S60000x32_S60000x64_d1 (ix2 r k) := by
  by_cases hk : k.val < 32
  · rw [concatenate_pair_apply_left (1 : Fin S6000x64.rank) x0 x1 concatenates_S6000x32_S6000x32_S6000x64_d1 (ix2 p k) rfl (ix2 p ⟨k.val, hk⟩)
        (fun b => by match b with | ⟨0, _⟩ => rfl | ⟨1, _⟩ => rfl),
      concatenate_pair_apply_left (1 : Fin S60000x64.rank) X A Cert.ReferenceIdeal.Facts₀.concatenates_S60000x32_S60000x32_S60000x64_d1 (ix2 r k) rfl (ix2 r ⟨k.val, hk⟩)
        (fun b => by match b with | ⟨0, _⟩ => rfl | ⟨1, _⟩ => rfl)]
    exact hx _
  · have hk' : k.val - 32 < 32 := by have := k.isLt; omega
    rw [concatenate_pair_apply_right (1 : Fin S6000x64.rank) x0 x1 concatenates_S6000x32_S6000x32_S6000x64_d1 (ix2 p k) rfl rfl (ix2 p ⟨k.val - 32, hk'⟩)
        (fun b hb => by match b with | ⟨0, _⟩ => rfl | ⟨1, _⟩ => exact absurd rfl hb)
        (by show k.val - 32 + 32 = k.val; omega),
      concatenate_pair_apply_right (1 : Fin S60000x64.rank) X A Cert.ReferenceIdeal.Facts₀.concatenates_S60000x32_S60000x32_S60000x64_d1 (ix2 r k) rfl rfl (ix2 r ⟨k.val - 32, hk'⟩)
        (fun b hb => by match b with | ⟨0, _⟩ => rfl | ⟨1, _⟩ => exact absurd rfl hb)
        (by show k.val - 32 + 32 = k.val; omega)]
    exact ha _

/-! ## The leaky rectifier -/

/-- `y` where it is positive, else the small slope times `y`. -/
def leaky (y : EReal) : EReal := if 0 < y then y else Ideal.ofBits .f32 0x3C23D70A#32 * y

/-- The kernel's select on `y > 0`. -/
theorem leaky_ogt (y : EReal) :
    Scalar.select (FloatOps.cmpf (F := Ideal) (φ := .f32) .ogt y (Ideal.ofBits .f32 0x00000000#32)) y (Ideal.ofBits .f32 0x3C23D70A#32 * y) = leaky y := by
  rw [Ideal.cmpf_def, Ideal.ofBits_zero_f32]
  unfold leaky Ideal.cmp Scalar.select
  by_cases h : (0 : EReal) < y
  · simp [h]
  · simp [h]

/-- The whole-array form selects on `y ≥ 0`; the two differ only at `y = 0`, where both give `0`. -/
theorem leaky_oge (y : EReal) :
    Scalar.select (FloatOps.cmpf (F := Ideal) (φ := .f32) .oge y (Ideal.ofBits .f32 0x00000000#32)) y (Ideal.ofBits .f32 0x3C23D70A#32 * y) = leaky y := by
  rw [Ideal.cmpf_def, Ideal.ofBits_zero_f32]
  unfold leaky Ideal.cmp Scalar.select
  by_cases h : (0 : EReal) < y
  · simp [h, le_of_lt h]
  · by_cases h0 : y = 0
    · subst h0; simp
    · have hn : ¬ (0 : EReal) ≤ y := fun hle => h (lt_of_le_of_ne hle (Ne.symm h0))
      simp [h, hn]

/-! ## Both forms of the layer at an index -/

/-- One row's affine image at column `q`. -/
def rowLin16 (u : Fin 64 → EReal) (w : FVec Ideal S64x16 .f32) (b : FVec Ideal S16 .f32) (q : Fin 16) : EReal :=
  (∑ k : Fin 64, u k * w (ix2 k q)) + b (ix1 q)

/-- The kernel's payload at row `p`, column `q` of a block. -/
theorem pay16_apply (x0 x1 : Vec Ideal S6000x32 .f32) (w : Vec Ideal S64x16 .f32) (b : Vec Ideal S16 .f32) (p : Fin 6000) (q : Fin 16) :
    k4_pay1 x0 x1 w b (ix2 p q)
      = leaky (rowLin16 (fun k => concatenate S6000x64 1 [⟨S6000x32, x0⟩, ⟨S6000x32, x1⟩] concatenates_S6000x32_S6000x32_S6000x64_d1 (ix2 p k)) w b q) := by
  unfold k4_pay1
  rw [shapeCast_self x0, shapeCast_self x1]
  rw [select_apply, cmpf_apply, mulf_apply, addf_apply, broadcast_apply, broadcast_apply, matmul_k16_apply, bias_k16_apply]
  simp only [truncf_apply]
  exact leaky_ogt _

/-- The whole-array layer at row `r`, column `q`. -/
theorem lin16_apply (X A : FVec Ideal S60000x32 .f32) (w : FVec Ideal S64x16 .f32) (b : FVec Ideal S16 .f32) (r : Fin 60000) (q : Fin 16) :
    Cert.Stages.linLeaky16 (F := Ideal) X A w b (ix2 r q)
      = leaky (rowLin16 (fun k => concatenate S60000x64 1 [⟨S60000x32, X⟩, ⟨S60000x32, A⟩] Cert.ReferenceIdeal.Facts₀.concatenates_S60000x32_S60000x32_S60000x64_d1 (ix2 r k)) w b q) := by
  unfold Cert.Stages.linLeaky16
  dsimp only
  rw [select_apply, cmpf_apply, mulf_apply, addf_apply, dot_r16_apply, bias_r16_apply]
  exact leaky_oge _

/-! ## From the row blocks to the array -/

/-- The payload of row blocks is the layer of the arrays the blocks are cut from: block row `y` against array row `T · 6000 + y`. -/
theorem point16 (x0 x1 : Vec Ideal S6000x32 .f32) (w : Vec Ideal S64x16 .f32) (b : Vec Ideal S16 .f32)
    (X A : Vec Ideal S60000x32 .f32) (T : Nat)
    (hx : ∀ (y : S6000x32.Idx) (z : S60000x32.Idx), (z 0).val = T * 6000 + (y 0).val → (z 1).val = (y 1).val → x0 y = X z)
    (ha : ∀ (y : S6000x32.Idx) (z : S60000x32.Idx), (z 0).val = T * 6000 + (y 0).val → (z 1).val = (y 1).val → x1 y = A z)
    (j : S6000x16.Idx) (i : S60000x16.Idx) (h0 : (i 0).val = T * 6000 + (j 0).val) (h1 : (i 1).val = (j 1).val) :
    k4_pay1 x0 x1 w b j = Cert.Stages.linLeaky16 (F := Ideal) X A w b i := by
  obtain ⟨p, q, rfl⟩ : ∃ (p : Fin 6000) (q : Fin 16), j = ix2 p q := ⟨j 0, j 1, eq_ix2 j⟩
  obtain ⟨r, q', rfl⟩ : ∃ (r : Fin 60000) (q' : Fin 16), i = ix2 r q' := ⟨i 0, i 1, eq_ix2 i⟩
  obtain rfl : q' = q := Fin.ext h1
  rw [pay16_apply, lin16_apply]
  exact congrArg (fun u => leaky (rowLin16 u w b q'))
    (funext fun k => cat32_blk x0 x1 X A p r (fun s => hx _ _ h0 rfl) (fun s => ha _ _ h0 rfl) k)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-tiled inputs and the output sit at row block `t`, the weights and the bias at their whole arrays. -/
theorem idx_lin4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- The first input's block at point `t` is rows `6000 t …` of its array. -/
theorem xblk4 (c : Dev nD) (t : Fin cfg4.N) (y : S6000x32.Idx) (z : S60000x32.Idx)
    (h0 : (z 0).val = t.val * 6000 + (y 0).val) (h1 : (z 1).val = (y 1).val) :
    (iblk4 V c 0 t : Vec Ideal S6000x32 .f32) y = (V c main_v38 : Vec Ideal S60000x32 .f32) z := by
  obtain ⟨e0, e1, -⟩ := idx_lin4 t
  unfold iblk4
  rw [View.read_apply]
  show V c main_v38 _ = V c main_v38 z
  congr 1
  funext a
  apply Fin.ext
  match a with
  | ⟨0, _⟩ => show win4_0.index t (0 : Fin 2) * 6000 + 1 * (y 0).val = (z 0).val; rw [e0, h0]; omega
  | ⟨1, _⟩ => show win4_0.index t (1 : Fin 2) * 32 + 1 * (y 1).val = (z 1).val; rw [e1, h1]; omega

/-- The second input's likewise. -/
theorem ablk4 (c : Dev nD) (t : Fin cfg4.N) (y : S6000x32.Idx) (z : S60000x32.Idx)
    (h0 : (z 0).val = t.val * 6000 + (y 0).val) (h1 : (z 1).val = (y 1).val) :
    (iblk4 V c 1 t : Vec Ideal S6000x32 .f32) y = (V c main_v70 : Vec Ideal S60000x32 .f32) z := by
  obtain ⟨-, -, e0, e1, -⟩ := idx_lin4 t
  unfold iblk4
  rw [View.read_apply]
  show V c main_v70 _ = V c main_v70 z
  congr 1
  funext a
  apply Fin.ext
  match a with
  | ⟨0, _⟩ => show win4_1.index t (0 : Fin 2) * 6000 + 1 * (y 0).val = (z 0).val; rw [e0, h0]; omega
  | ⟨1, _⟩ => show win4_1.index t (1 : Fin 2) * 32 + 1 * (y 1).val = (z 1).val; rw [e1, h1]; omega

/-- The weights' block is the whole array at every point. -/
theorem wblk4 (c : Dev nD) (t : Fin cfg4.N) :
    (iblk4 V c 2 t : Vec Ideal S64x16 .f32) = (V c main_arg14 : Vec Ideal S64x16 .f32) := by
  obtain ⟨-, -, -, -, e0, e1, -⟩ := idx_lin4 t
  funext y
  unfold iblk4
  rw [View.read_apply]
  show V c main_arg14 _ = V c main_arg14 y
  congr 1
  funext a
  apply Fin.ext
  match a with
  | ⟨0, _⟩ => show win4_2.index t (0 : Fin 2) * 64 + 1 * (y 0).val = (y 0).val; rw [e0]; omega
  | ⟨1, _⟩ => show win4_2.index t (1 : Fin 2) * 16 + 1 * (y 1).val = (y 1).val; rw [e1]; omega

/-- The bias's likewise. -/
theorem bblk4 (c : Dev nD) (t : Fin cfg4.N) :
    (iblk4 V c 3 t : Vec Ideal S16 .f32) = (V c main_arg15 : Vec Ideal S16 .f32) := by
  obtain ⟨-, -, -, -, -, -, e0, -⟩ := idx_lin4 t
  funext y
  unfold iblk4
  rw [View.read_apply]
  show V c main_arg15 _ = V c main_arg15 y
  congr 1
  funext a
  apply Fin.ext
  match a with
  | ⟨0, _⟩ => show win4_3.index t (0 : Fin 1) * 16 + 1 * (y 0).val = (y 0).val; rw [e0]; omega

/-- What point `t` writes back is block `t` of the layer of the whole arrays. -/
theorem flushed_lin4 (c : Dev nD) (t : Fin cfg4.N) :
    (dat4 (F := Ideal) V c).flushed 4 t = ((cfg4.win 4).blk t).view.read (Elt Ideal)
      (Cert.Stages.linLeaky16 (F := Ideal) (V c main_v38) (V c main_v70) (V c main_arg14) (V c main_arg15)) := by
  show (cfg4.win 4).cut (grid4.coords t) ((dat4 V c).after 4 t) = _
  rw [after4_4]
  unfold out4_4
  rw [View.canon_unit_zero hz2]
  simp only [View.ld_unit_zero (S := S6000x32) hz2, View.ld_unit_zero (S := S64x16) hz2, View.ld_unit_zero (S := S16) hz1]
  rw [wblk4 V c t, bblk4 V c t]
  obtain ⟨-, -, -, -, -, -, -, e0, e1⟩ := idx_lin4 t
  funext j
  show k4_pay1 (iblk4 V c 0 t) (iblk4 V c 1 t) (V c main_arg14) (V c main_arg15) j
    = Cert.Stages.linLeaky16 (F := Ideal) (V c main_v38) (V c main_v70) (V c main_arg14) (V c main_arg15) (((cfg4.win 4).blk t).view.emb j)
  refine point16 (iblk4 V c 0 t) (iblk4 V c 1 t) (V c main_arg14) (V c main_arg15) (V c main_v38) (V c main_v70) t.val
    (xblk4 V c t) (ablk4 V c t) j (((cfg4.win 4).blk t).view.emb j) ?_ ?_
  · show win4_4.index t (0 : Fin 2) * 6000 + 1 * (j 0).val = t.val * 6000 + (j 0).val
    rw [e0]; omega
  · show win4_4.index t (1 : Fin 2) * 16 + 1 * (j 1).val = (j 1).val
    rw [e1]; omega

/-- An index of the array is in point `t`'s block iff each coordinate is in the block's range on its axis. -/
theorem mem_blk_lin4 (t : Fin cfg4.N) (i : S60000x16.Idx) :
    i ∈ ((cfg4.win 4).blk t).view.set ↔ ∀ a : Fin 2, win4_4.index t a * S6000x16.size a ≤ (i a).val ∧ (i a).val < win4_4.index t a * S6000x16.size a + S6000x16.size a := by
  show i ∈ ((View.whole main_v71).slice (win4_4.rect t)).set ↔ _
  rw [View.set_slice_whole, Rect.mem_set_unit]
  exact Iff.rfl

/-- Row `r` lies in the block of point `r / 6000`. -/
theorem cover_lin4 (i : S60000x16.Idx) :
    ∃ t : Fin cfg4.N, (cfg4.win 4).flush t = true ∧ i ∈ ((cfg4.win 4).blk t).view.set := by
  have hN : cfg4.N = 10 := N_4
  have hi0 : (i 0).val < 60000 := (i 0).isLt
  have hi1 : (i 1).val < 16 := (i 1).isLt
  have ht : (i 0).val / 6000 < cfg4.N := by rw [hN]; omega
  refine ⟨⟨(i 0).val / 6000, ht⟩, flush4_4 _, ?_⟩
  rw [mem_blk_lin4]
  obtain ⟨-, -, -, -, -, -, -, e0, e1⟩ := idx_lin4 ⟨(i 0).val / 6000, ht⟩
  have e0' : win4_4.index ⟨(i 0).val / 6000, ht⟩ (0 : Fin 2) = (i 0).val / 6000 := e0
  intro a
  match a with
  | ⟨0, _⟩ =>
    show win4_4.index ⟨(i 0).val / 6000, ht⟩ (0 : Fin 2) * 6000 ≤ (i 0).val ∧ (i 0).val < win4_4.index ⟨(i 0).val / 6000, ht⟩ (0 : Fin 2) * 6000 + 6000
    rw [e0']; omega
  | ⟨1, _⟩ =>
    show win4_4.index ⟨(i 0).val / 6000, ht⟩ (1 : Fin 2) * 16 ≤ (i 1).val ∧ (i 1).val < win4_4.index ⟨(i 0).val / 6000, ht⟩ (1 : Fin 2) * 16 + 16
    rw [e1]; omega

end Lin4

variable (V : (c : Dev nD) → (b : Ref sig .tc) → Buf (Elt Ideal) ((c : Thread nD τ).loc b))

/-- After region 4 its output array is the leaky linear layer of its input arrays. -/
theorem arr4_lin (c : Dev nD) :
    (dat4 (F := Ideal) V c).arrAt 4 cfg4.N
      = Cert.Stages.linLeaky16 (F := Ideal) (V c main_v38) (V c main_v70) (V c main_arg14) (V c main_arg15) :=
  (dat4 (F := Ideal) V c).arrAt_eq_of_cover 4 _ (fun t _ => Lin4.flushed_lin4 V c t) Lin4.cover_lin4

end Cert.KernelIdeal.RegionVal

end
-- ==== Proof.RegionScore.lean ====
import proofs.«429255_j2413771620669_3_alg».proof.Proof.Gen.KernelIdeal.Frame
import proofs.«429255_j2413771620669_3_alg».proof.Proof.Stages
import proofs.«429255_j2413771620669_3_alg».proof.Proof.KStages
import Idealize.ShloMosaic.PureOps.Ideal
import Idealize.ShloMosaic.PureOps.Ideal.Laws
import Idealize.ShloMosaic.Lib.Pipeline.Value

set_option maxRecDepth 16384

noncomputable section

namespace Cert.KernelIdeal.RegionVal

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The lane sum of the products, as the kernel takes it, is the host's row sum from zero of the same products. -/
theorem pay5_eq (x0 x1 : Vec Ideal S4096x48 .f32) :
    k5_pay1 (F := Ideal) x0 x1 = Cert.KStages.rowDotCol (F := Ideal) x0 x1 := by
  unfold k5_pay1 Cert.KStages.rowDotCol Cert.Stages.rowDot
  simp only [shapeCast_self]
  congr 1
  funext j
  refine (Ideal.multiReduction_add_single (φ := .f32) (s := S4096x48) (t := S4096) (a := 1) (mulf x0 x1) _ reduces_S4096x48_S4096 _ _ j).trans ?_
  unfold Host.reduceAdd
  rw [Ideal.hostReduceAdd_def, Ideal.hostReduceAdd_single _ reduces_S4096x48_S4096]
  show _ = Ideal.ofBits .f32 0x00000000#32 + _
  rw [Ideal.ofBits_zero_f32, zero_add]

/-- The printed index maps at the one grid point: every window's block index is (0, 0). -/
theorem idx5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- What the one point writes back is the whole column of row dot products of the two input arrays. -/
theorem flushed5_eq (c : Dev nD) (t : Fin cfg5.N) :
    (dat5 (F := Ideal) V c).flushed 2 t = ((cfg5.win 2).blk t).view.read (Elt Ideal)
      (Cert.KStages.rowDotCol (F := Ideal) (V c main_v81) (V c main_v88)) := by
  show (cfg5.win 2).cut (grid5.coords t) ((dat5 (F := Ideal) V c).after 2 t) = _
  rw [after5_2]
  unfold out5_2
  rw [View.canon_unit_zero hz5]
  simp only [View.ld_unit_zero (S := S4096x48) hz5]
  rw [pay5_eq]
  obtain ⟨e0, e1, e2, e3, e4, e5⟩ := idx5 t
  have h0 : iblk5 V c 0 t = V c main_v81 := by
    funext k
    show V c main_v81 (((cfg5.win 0).blk t).view.emb k) = V c main_v81 k
    congr 1
    funext a; apply Fin.ext
    match a with
    | ⟨0, _⟩ => show win5_0.index t (0 : Fin 2) * 4096 + 1 * (k 0).val = (k 0).val; omega
    | ⟨1, _⟩ => show win5_0.index t (1 : Fin 2) * 48 + 1 * (k 1).val = (k 1).val; omega
  have h1 : iblk5 V c 1 t = V c main_v88 := by
    funext k
    show V c main_v88 (((cfg5.win 1).blk t).view.emb k) = V c main_v88 k
    congr 1
    funext a; apply Fin.ext
    match a with
    | ⟨0, _⟩ => show win5_1.index t (0 : Fin 2) * 4096 + 1 * (k 0).val = (k 0).val; omega
    | ⟨1, _⟩ => show win5_1.index t (1 : Fin 2) * 48 + 1 * (k 1).val = (k 1).val; omega
  rw [h0, h1]
  funext j
  show Cert.KStages.rowDotCol (F := Ideal) (V c main_v81) (V c main_v88) j
    = Cert.KStages.rowDotCol (F := Ideal) (V c main_v81) (V c main_v88) (((cfg5.win 2).blk t).view.emb j)
  congr 1
  funext a; apply Fin.ext
  match a with
  | ⟨0, _⟩ => show (j 0).val = win5_2.index t (0 : Fin 2) * 4096 + 1 * (j 0).val; omega
  | ⟨1, _⟩ => show (j 1).val = win5_2.index t (1 : Fin 2) * 1 + 1 * (j 1).val; omega

/-- After region 5 its output array is the column of row-by-row dot products of its two input arrays. -/
theorem arr5_score (c : Dev nD) :
    (dat5 (F := Ideal) V c).arrAt 2 cfg5.N
      = Cert.KStages.rowDotCol (F := Ideal) (V c main_v81) (V c main_v88) := by
  refine (dat5 (F := Ideal) V c).arrAt_eq_of_cover 2 _ (fun t _ => flushed5_eq V c t) (fun i => ?_)
  -- the one point's block is the whole array
  refine ⟨t5_0, flush5_2 _, ?_⟩
  show i ∈ ((View.whole main_v89).slice (win5_2.rect t5_0)).set
  rw [View.set_slice_whole, Rect.mem_set_unit]
  obtain ⟨e0, e1, e2, e3, e4, e5⟩ := idx5 t5_0
  intro a
  match a with
  | ⟨0, _⟩ =>
    show win5_2.index t5_0 (0 : Fin 2) * 4096 ≤ ((i : S4096x1.Idx) 0).val
      ∧ ((i : S4096x1.Idx) 0).val < win5_2.index t5_0 (0 : Fin 2) * 4096 + 4096
    have hi : ((i : S4096x1.Idx) 0).val < 4096 := ((i : S4096x1.Idx) 0).isLt
    omega
  | ⟨1, _⟩ =>
    show win5_2.index t5_0 (1 : Fin 2) * 1 ≤ ((i : S4096x1.Idx) 1).val
      ∧ ((i : S4096x1.Idx) 1).val < win5_2.index t5_0 (1 : Fin 2) * 1 + 1
    have hi : ((i : S4096x1.Idx) 1).val < 1 := ((i : S4096x1.Idx) 1).isLt
    omega

end Cert.KernelIdeal.RegionVal

end
-- ==== Proof.KChainB.lean ====
import proofs.«429255_j2413771620669_3_alg».proof.Proof.Gen.KernelIdeal.Frame
import proofs.«429255_j2413771620669_3_alg».proof.Proof.Stages
import proofs.«429255_j2413771620669_3_alg».proof.Proof.KStages
import proofs.«429255_j2413771620669_3_alg».proof.Proof.KChainDefs
import proofs.«429255_j2413771620669_3_alg».proof.Proof.RegionGate3
import proofs.«429255_j2413771620669_3_alg».proof.Proof.RegionLin4
import proofs.«429255_j2413771620669_3_alg».proof.Proof.RegionScore
import proofs.«429255_j2413771620669_3_alg».proof.Proof.Counts
import Idealize.ShloMosaic.PureOps.Ideal
import Idealize.ShloMosaic.Lib.StableHlo.Run
import Idealize.ShloMosaic.Lib.Pipeline.Value

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that none of a stretch's host operations writes holds after the stretch what it held before. -/
local macro "stretch_keeps" : tactic =>
  `(tactic| exact StableHlo.after_of_forall_not_mem _ _ (List.forall_iff_forall_mem.mp (by
      simp only [hostOps3, hostOps4, hostOps4_1, hostOps5, hostOps6, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

namespace Tail

/-! ## Buffers that pass the later stretches and regions unchanged -/

theorem rel_at8 (c : Dev nD) : W8 (F := Ideal) m ρ c (Proc.devRef .tc main_arg20) = W7 (F := Ideal) m ρ c (Proc.devRef .tc main_arg20) := by stretch_keeps

theorem v38_at9 (c : Dev nD) : W9 (F := Ideal) m ρ c (Proc.devRef .tc main_v38) = W7 (F := Ideal) m ρ c (Proc.devRef .tc main_v38) :=
  (W9_of_ne (F := Ideal) m ρ c main_v38 (by decide)).trans (by stretch_keeps)

theorem arg14_at9 (c : Dev nD) : W9 (F := Ideal) m ρ c (Proc.devRef .tc main_arg14) = W7 (F := Ideal) m ρ c (Proc.devRef .tc main_arg14) :=
  (W9_of_ne (F := Ideal) m ρ c main_arg14 (by decide)).trans (by stretch_keeps)

theorem arg15_at9 (c : Dev nD) : W9 (F := Ideal) m ρ c (Proc.devRef .tc main_arg15) = W7 (F := Ideal) m ρ c (Proc.devRef .tc main_arg15) :=
  (W9_of_ne (F := Ideal) m ρ c main_arg15 (by decide)).trans (by stretch_keeps)

theorem arg16_at9 (c : Dev nD) : W9 (F := Ideal) m ρ c (Proc.devRef .tc main_arg16) = W7 (F := Ideal) m ρ c (Proc.devRef .tc main_arg16) :=
  (W9_of_ne (F := Ideal) m ρ c main_arg16 (by decide)).trans (by stretch_keeps)

theorem arg17_at9 (c : Dev nD) : W9 (F := Ideal) m ρ c (Proc.devRef .tc main_arg17) = W7 (F := Ideal) m ρ c (Proc.devRef .tc main_arg17) :=
  (W9_of_ne (F := Ideal) m ρ c main_arg17 (by decide)).trans (by stretch_keeps)

theorem arg19_at9 (c : Dev nD) : W9 (F := Ideal) m ρ c (Proc.devRef .tc main_arg19) = W7 (F := Ideal) m ρ c (Proc.devRef .tc main_arg19) :=
  (W9_of_ne (F := Ideal) m ρ c main_arg19 (by decide)).trans (by stretch_keeps)

theorem v38_at11 (c : Dev nD) : W11 (F := Ideal) m ρ c (Proc.devRef .tc main_v38) = W7 (F := Ideal) m ρ c (Proc.devRef .tc main_v38) :=
  calc W11 (F := Ideal) m ρ c (Proc.devRef .tc main_v38)
    _ = W10 (F := Ideal) m ρ c (Proc.devRef .tc main_v38) := by stretch_keeps
    _ = W9 (F := Ideal) m ρ c (Proc.devRef .tc main_v38) := by stretch_keeps
    _ = W7 (F := Ideal) m ρ c (Proc.devRef .tc main_v38) := v38_at9 m ρ c

theorem arg14_at11 (c : Dev nD) : W11 (F := Ideal) m ρ c (Proc.devRef .tc main_arg14) = W7 (F := Ideal) m ρ c (Proc.devRef .tc main_arg14) :=
  calc W11 (F := Ideal) m ρ c (Proc.devRef .tc main_arg14)
    _ = W10 (F := Ideal) m ρ c (Proc.devRef .tc main_arg14) := by stretch_keeps
    _ = W9 (F := Ideal) m ρ c (Proc.devRef .tc main_arg14) := by stretch_keeps
    _ = W7 (F := Ideal) m ρ c (Proc.devRef .tc main_arg14) := arg14_at9 m ρ c

theorem arg15_at11 (c : Dev nD) : W11 (F := Ideal) m ρ c (Proc.devRef .tc main_arg15) = W7 (F := Ideal) m ρ c (Proc.devRef .tc main_arg15) :=
  calc W11 (F := Ideal) m ρ c (Proc.devRef .tc main_arg15)
    _ = W10 (F := Ideal) m ρ c (Proc.devRef .tc main_arg15) := by stretch_keeps
    _ = W9 (F := Ideal) m ρ c (Proc.devRef .tc main_arg15) := by stretch_keeps
    _ = W7 (F := Ideal) m ρ c (Proc.devRef .tc main_arg15) := arg15_at9 m ρ c

theorem arg16_at11 (c : Dev nD) : W11 (F := Ideal) m ρ c (Proc.devRef .tc main_arg16) = W7 (F := Ideal) m ρ c (Proc.devRef .tc main_arg16) :=
  calc W11 (F := Ideal) m ρ c (Proc.devRef .tc main_arg16)
    _ = W10 (F := Ideal) m ρ c (Proc.devRef .tc main_arg16) := by stretch_keeps
    _ = W9 (F := Ideal) m ρ c (Proc.devRef .tc main_arg16) := by stretch_keeps
    _ = W7 (F := Ideal) m ρ c (Proc.devRef .tc main_arg16) := arg16_at9 m ρ c

theorem arg17_at11 (c : Dev nD) : W11 (F := Ideal) m ρ c (Proc.devRef .tc main_arg17) = W7 (F := Ideal) m ρ c (Proc.devRef .tc main_arg17) :=
  calc W11 (F := Ideal) m ρ c (Proc.devRef .tc main_arg17)
    _ = W10 (F := Ideal) m ρ c (Proc.devRef .tc main_arg17) := by stretch_keeps
    _ = W9 (F := Ideal) m ρ c (Proc.devRef .tc main_arg17) := by stretch_keeps
    _ = W7 (F := Ideal) m ρ c (Proc.devRef .tc main_arg17) := arg17_at9 m ρ c

theorem arg16_at12 (c : Dev nD) : W12 (F := Ideal) m ρ c (Proc.devRef .tc main_arg16) = W7 (F := Ideal) m ρ c (Proc.devRef .tc main_arg16) :=
  (W12_of_ne (F := Ideal) m ρ c main_arg16 (by decide)).trans (arg16_at11 m ρ c)

theorem arg17_at12 (c : Dev nD) : W12 (F := Ideal) m ρ c (Proc.devRef .tc main_arg17) = W7 (F := Ideal) m ρ c (Proc.devRef .tc main_arg17) :=
  (W12_of_ne (F := Ideal) m ρ c main_arg17 (by decide)).trans (arg17_at11 m ρ c)

/-- Region 4 only reads the first layer's features (its input window 0). -/
theorem v38_at12 (c : Dev nD) : W12 (F := Ideal) m ρ c (Proc.devRef .tc main_v38) = W7 (F := Ideal) m ρ c (Proc.devRef .tc main_v38) :=
  (W12_arr (F := Ideal) m ρ c 0).trans ((((dat4 (F := Ideal) (V11 (F := Ideal) m ρ) c).arrAt_in 0 rfl _).trans
    (A_eq4 (F := Ideal) (V11 (F := Ideal) m ρ) c 0)).trans (v38_at11 m ρ c))

/-! ## The stretch before region 3: the relation sums and the rows at the edges' end points -/

theorem relSum_at8 (c : Dev nD) :
    W8 (F := Ideal) m ρ c (Proc.devRef .tc main_v39)
      = Cert.Stages.relSum (F := Ideal) (W7 (F := Ideal) m ρ c (Proc.devRef .tc main_arg13)) := by
  show StableHlo.after hostOps3 (W7 (F := Ideal) m ρ c) (Proc.devRef .tc main_v39) = _
  after_results
  rfl

theorem dstRows_at8 (c : Dev nD) :
    W8 (F := Ideal) m ρ c (Proc.devRef .tc main_v46)
      = Cert.Stages.rowsAt (F := Ideal) (W7 (F := Ideal) m ρ c (Proc.devRef .tc main_v38)) (W7 (F := Ideal) m ρ c (Proc.devRef .tc main_arg19)) := by
  show StableHlo.after hostOps3 (W7 (F := Ideal) m ρ c) (Proc.devRef .tc main_v46) = _
  after_results
  rfl

theorem srcRows_at8 (c : Dev nD) :
    W8 (F := Ideal) m ρ c (Proc.devRef .tc main_v53)
      = Cert.Stages.rowsAt (F := Ideal) (W7 (F := Ideal) m ρ c (Proc.devRef .tc main_v38)) (W7 (F := Ideal) m ρ c (Proc.devRef .tc main_arg18)) := by
  show StableHlo.after hostOps3 (W7 (F := Ideal) m ρ c) (Proc.devRef .tc main_v53) = _
  after_results_simp
  rfl

/-! ## Region 3: the gated source rows -/

theorem gated_at9 (c : Dev nD)
    (hrel : ∀ e : S1920000.Idx, ((W8 (F := Ideal) m ρ c (Proc.devRef .tc main_arg20) : IVec S1920000 32) e).toNat < 16) :
    W9 (F := Ideal) m ρ c (Proc.devRef .tc main_v54)
      = Cert.Stages.gated (F := Ideal) (W8 (F := Ideal) m ρ c (Proc.devRef .tc main_v46)) (W8 (F := Ideal) m ρ c (Proc.devRef .tc main_v53))
          (W8 (F := Ideal) m ρ c (Proc.devRef .tc main_arg20)) (W8 (F := Ideal) m ρ c (Proc.devRef .tc main_v39)) :=
  (W9_arr (F := Ideal) m ρ c 4).trans (Cert.KernelIdeal.RegionVal.arr3_gated (V8 (F := Ideal) m ρ) c hrel)

/-! ## The stretch before region 4: the gated rows averaged per destination node

The last step of the mean is a module-local function of the program; its operations move contents between a
buffer's own type and the tensor type of the value it holds, which are the same type: the transports are the
identity. -/

theorem ofBuf_toBuf_id {T : BufTy} (x : StableHlo.TRef sig T) (v : T.Contents (Elt Ideal)) : x.ofBuf (x.toBuf v) = v := by
  simp only [StableHlo.TRef.ofBuf, StableHlo.TRef.toBuf, cast_cast, cast_eq]

theorem ofBuf_posMask (h1 h2 h3) (v : (⟨S60000x1, .i1⟩ : BufTy).Contents (Elt Ideal)) :
    (StableHlo.TRef.of main_v64 h1 h2 h3 : StableHlo.TRef sig ⟨S60000x1, .i1⟩).ofBuf v = v := rfl
theorem ofBuf_quot (h1 h2 h3) (v : (⟨S60000x32, .f32⟩ : BufTy).Contents (Elt Ideal)) :
    (StableHlo.TRef.of main_v69 h1 h2 h3 : StableHlo.TRef sig ⟨S60000x32, .f32⟩).ofBuf v = v := rfl
theorem ofBuf_zero (h1 h2 h3) (v : (⟨S_, .f32⟩ : BufTy).Contents (Elt Ideal)) :
    (StableHlo.TRef.of main_cst_21 h1 h2 h3 : StableHlo.TRef sig ⟨S_, .f32⟩).ofBuf v = v := rfl
theorem toBuf_mean (h1 h2 h3) (v : (⟨S60000x32, .f32⟩ : BufTy).Contents (Elt Ideal)) :
    (StableHlo.TRef.of main_v70 h1 h2 h3 : StableHlo.TRef sig ⟨S60000x32, .f32⟩).toBuf v = v := rfl

/-- The mean with the in-degrees counted the kernel's way: into a vector, read as a column. -/
theorem segMeanK_at11 (c : Dev nD) :
    W11 (F := Ideal) m ρ c (Proc.devRef .tc main_v70)
      = Cert.Stages.meanOf (F := Ideal)
          (Cert.Stages.segSum (F := Ideal) (W9 (F := Ideal) m ρ c (Proc.devRef .tc main_v54)) (W9 (F := Ideal) m ρ c (Proc.devRef .tc main_arg19)))
          (Cert.KStages.colN (F := Ideal) (Cert.KStages.inDegreeK (F := Ideal) (W9 (F := Ideal) m ρ c (Proc.devRef .tc main_arg19)))) := by
  show StableHlo.after hostOps4_1 (StableHlo.after hostOps4 (W9 (F := Ideal) m ρ c)) (Proc.devRef .tc main_v70) = _
  after_results_simp
  rw [toBuf_mean, ofBuf_toBuf_id, ofBuf_toBuf_id, ofBuf_toBuf_id, ofBuf_posMask, ofBuf_quot, ofBuf_zero]
  rfl

theorem segMean_at11 (c : Dev nD) :
    W11 (F := Ideal) m ρ c (Proc.devRef .tc main_v70)
      = Cert.Stages.segMean (F := Ideal) (W9 (F := Ideal) m ρ c (Proc.devRef .tc main_v54)) (W9 (F := Ideal) m ρ c (Proc.devRef .tc main_arg19)) := by
  rw [segMeanK_at11, Cert.Counts.inDegree_eq]; rfl

/-! ## Region 4: the second layer's linear map and leaky ReLU -/

theorem layer2_at12 (c : Dev nD) :
    W12 (F := Ideal) m ρ c (Proc.devRef .tc main_v71)
      = Cert.Stages.linLeaky16 (F := Ideal) (W11 (F := Ideal) m ρ c (Proc.devRef .tc main_v38)) (W11 (F := Ideal) m ρ c (Proc.devRef .tc main_v70))
          (W11 (F := Ideal) m ρ c (Proc.devRef .tc main_arg14)) (W11 (F := Ideal) m ρ c (Proc.devRef .tc main_arg15)) :=
  (W12_arr (F := Ideal) m ρ c 4).trans (Cert.KernelIdeal.RegionVal.arr4_lin (V11 (F := Ideal) m ρ) c)

/-! ## The stretch before region 5: both layers' features side by side, and their rows for the batch's users and items -/

theorem userRows_at13 (c : Dev nD) :
    W13 (F := Ideal) m ρ c (Proc.devRef .tc main_v81)
      = Cert.Stages.userRows (F := Ideal) (Cert.Stages.feats (F := Ideal) (W12 (F := Ideal) m ρ c (Proc.devRef .tc main_v38)) (W12 (F := Ideal) m ρ c (Proc.devRef .tc main_v71)))
          (W12 (F := Ideal) m ρ c (Proc.devRef .tc main_arg16)) := by
  show StableHlo.after hostOps5 (W12 (F := Ideal) m ρ c) (Proc.devRef .tc main_v81) = _
  after_results_simp
  rfl

theorem itemRows_at13 (c : Dev nD) :
    W13 (F := Ideal) m ρ c (Proc.devRef .tc main_v88)
      = Cert.Stages.itemRows (F := Ideal) (Cert.Stages.feats (F := Ideal) (W12 (F := Ideal) m ρ c (Proc.devRef .tc main_v38)) (W12 (F := Ideal) m ρ c (Proc.devRef .tc main_v71)))
          (W12 (F := Ideal) m ρ c (Proc.devRef .tc main_arg17)) := by
  show StableHlo.after hostOps5 (W12 (F := Ideal) m ρ c) (Proc.devRef .tc main_v88) = _
  after_results_simp
  rfl

/-! ## Region 5 and the final reshape: the scores as a column, then flattened -/

theorem scoreCol_at14 (c : Dev nD) :
    W14 (F := Ideal) m ρ c (Proc.devRef .tc main_v89)
      = Cert.KStages.rowDotCol (F := Ideal) (W13 (F := Ideal) m ρ c (Proc.devRef .tc main_v81)) (W13 (F := Ideal) m ρ c (Proc.devRef .tc main_v88)) :=
  (W14_arr (F := Ideal) m ρ c 2).trans (Cert.KernelIdeal.RegionVal.arr5_score (V13 (F := Ideal) m ρ) c)

theorem scores_at15 (c : Dev nD) :
    W15 (F := Ideal) m ρ c (Proc.devRef .tc main_v90)
      = Cert.Stages.rowDot (F := Ideal) (W13 (F := Ideal) m ρ c (Proc.devRef .tc main_v81)) (W13 (F := Ideal) m ρ c (Proc.devRef .tc main_v88)) := by
  have e : W15 (F := Ideal) m ρ c (Proc.devRef .tc main_v90)
      = shapeCast S4096 (W14 (F := Ideal) m ρ c (Proc.devRef .tc main_v89)) shapeCasts_S4096x1_S4096 := by
    show StableHlo.after hostOps6 (W14 (F := Ideal) m ρ c) (Proc.devRef .tc main_v90) = _
    after_results
    rfl
  rw [e, scoreCol_at14]
  exact shapeCast_shapeCast _ _ _

end Tail

open Tail

/-- From the boundary after region 2 to the end: if the first layer's buffer holds `x1` and the arguments are as launched,
    the first result buffer ends at the scores computed from `x1`. -/
theorem from7 (hrel : ∀ (c : Dev nD) (e : S1920000.Idx), ((m ((c : Thread nD τ).loc main_arg20) : IVec S1920000 32) e).toNat < 16) (c : Dev nD)
    (x1 : FVec Ideal Cert.ReferenceIdeal.S60000x32 .f32)
    (h38 : W7 (F := Ideal) m ρ c (Proc.devRef .tc main_v38) = x1) (hargs : ArgsAt m (W7 (F := Ideal) m ρ) c) :
    W15 (F := Ideal) m ρ c (Proc.devRef .tc main_v90)
      = Cert.Stages.scoresOf (F := Ideal) x1 (m ((c : Thread nD τ).loc main_arg13)) (m ((c : Thread nD τ).loc main_arg14)) (m ((c : Thread nD τ).loc main_arg15)) (m ((c : Thread nD τ).loc main_arg16)) (m ((c : Thread nD τ).loc main_arg17))
          (m ((c : Thread nD τ).loc main_arg18)) (m ((c : Thread nD τ).loc main_arg19)) (m ((c : Thread nD τ).loc main_arg20)) := by
  obtain ⟨h13, h14, h15, h16, h17, h18, h19, h20⟩ := hargs
  have hrel8 : ∀ e : S1920000.Idx, ((W8 (F := Ideal) m ρ c (Proc.devRef .tc main_arg20) : IVec S1920000 32) e).toNat < 16 := by
    rw [rel_at8, h20]; exact hrel c
  rw [scores_at15, userRows_at13, itemRows_at13, v38_at12, layer2_at12, arg16_at12, arg17_at12, segMean_at11, v38_at11,
    arg14_at11, arg15_at11, gated_at9 m ρ c hrel8, arg19_at9, dstRows_at8, srcRows_at8, relSum_at8, rel_at8,
    h38, h13, h14, h15, h16, h17, h18, h19, h20]
  rfl

/-! ## The loss buffer: no later stretch or region writes it -/

/-- Nothing after region 2 writes the loss buffer. -/
theorem v5_kept (c : Dev nD) :
    W15 (F := Ideal) m ρ c (Proc.devRef .tc main_v5) = W7 (F := Ideal) m ρ c (Proc.devRef .tc main_v5) :=
  calc W15 (F := Ideal) m ρ c (Proc.devRef .tc main_v5)
    _ = W14 (F := Ideal) m ρ c (Proc.devRef .tc main_v5) := by stretch_keeps
    _ = W13 (F := Ideal) m ρ c (Proc.devRef .tc main_v5) := W14_of_ne m ρ c main_v5 (by decide)
    _ = W12 (F := Ideal) m ρ c (Proc.devRef .tc main_v5) := by stretch_keeps
    _ = W11 (F := Ideal) m ρ c (Proc.devRef .tc main_v5) := W12_of_ne m ρ c main_v5 (by decide)
    _ = W10 (F := Ideal) m ρ c (Proc.devRef .tc main_v5) := by stretch_keeps
    _ = W9 (F := Ideal) m ρ c (Proc.devRef .tc main_v5) := by stretch_keeps
    _ = W8 (F := Ideal) m ρ c (Proc.devRef .tc main_v5) := W9_of_ne m ρ c main_v5 (by decide)
    _ = W7 (F := Ideal) m ρ c (Proc.devRef .tc main_v5) := by stretch_keeps

end Cert.KernelIdeal.KChain

end
-- ==== Proof.RefOpsAD.lean ====
import proofs.«429255_j2413771620669_3_alg».proof.Proof.Gen.ReferenceIdeal
import proofs.«429255_j2413771620669_3_alg».proof.Proof.Stages
import Idealize.ShloMosaic.Lib.StableHlo.Run
import Idealize.ShloMosaic.PureOps.Ideal

noncomputable section

namespace Cert.ReferenceIdeal.RefOps

open Cert.ReferenceIdeal Cert.ReferenceIdeal.Gen
open Idealize.ShloMosaic Idealize.ShloMosaic.TcCoe Idealize.SL.Sem Idealize.ShloMosaic.StableHlo

variable {F : FTy → Type} [FloatOps F]

/-- The first stretch of @main: the node embeddings stacked, the autoencoder (its two ReLU calls unfolded at
    their call sites) and the mean squared reconstruction error. -/
abbrev opsA : List (HloOp τ sig (Elt F)) :=
  [
    binary main_arg0 main_arg1 main_v0 ((fun a b => concatenate S60000x64 0 [⟨S50000x64, a⟩, ⟨S10000x64, b⟩] concatenates_S50000x64_S10000x64_S60000x64_d0) : (⟨S50000x64, .f32⟩ : BufTy).Contents (Elt F) → (⟨S10000x64, .f32⟩ : BufTy).Contents (Elt F) → (⟨S60000x64, .f32⟩ : BufTy).Contents (Elt F)),
    binary main_v0 main_arg2 main_v1 ((fun l r => Host.dotGeneral dot_S60000x64_S64x128_S60000x128_1_0_0_1_n_n none l r) : (⟨S60000x64, .f32⟩ : BufTy).Contents (Elt F) → (⟨S64x128, .f32⟩ : BufTy).Contents (Elt F) → (⟨S60000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S60000x128 ![0, 1] bcast_S1x128_S60000x128_0_1 : (⟨S1x128, .f32⟩ : BufTy).Contents (Elt F) → (⟨S60000x128, .f32⟩ : BufTy).Contents (Elt F)),
    binary main_v1 main_v3 main_v4 (addf : (⟨S60000x128, .f32⟩ : BufTy).Contents (Elt F) → (⟨S60000x128, .f32⟩ : BufTy).Contents (Elt F) → (⟨S60000x128, .f32⟩ : BufTy).Contents (Elt F)),
    TRef.nullary main_call0.cst (constant S_ .f32 0x00000000#32),
    TRef.unary main_call0.cst main_call0.v0 (broadcastInDim S60000x128 ![] bcast_S_S60000x128),
    TRef.binary (.of main_v4) main_call0.v0 main_call0.v1 maximumf,
    binary main_v5 main_arg4 main_v6 ((fun l r => Host.dotGeneral dot_S60000x128_S128x32_S60000x32_1_0_0_1_n_n none l r) : (⟨S60000x128, .f32⟩ : BufTy).Contents (Elt F) → (⟨S128x32, .f32⟩ : BufTy).Contents (Elt F) → (⟨S60000x32, .f32⟩ : BufTy).Contents (Elt F)),
    unary main_arg5 main_v7 (broadcastInDim S1x32 ![1] bcast_S32_S1x32_1 : (⟨S32, .f32⟩ : BufTy).Contents (Elt F) → (⟨S1x32, .f32⟩ : BufTy).Contents (Elt F)),
    unary main_v7 main_v8 (broadcastInDim S60000x32 ![0, 1] bcast_S1x32_S60000x32_0_1 : (⟨S1x32, .f32⟩ : BufTy).Contents (Elt F) → (⟨S60000x32, .f32⟩ : BufTy).Contents (Elt F)),
    binary main_v6 main_v8 main_v9 (addf : (⟨S60000x32, .f32⟩ : BufTy).Contents (Elt F) → (⟨S60000x32, .f32⟩ : BufTy).Contents (Elt F) → (⟨S60000x32, .f32⟩ : BufTy).Contents (Elt F)),
    binary main_v9 main_arg6 main_v10 ((fun l r => Host.dotGeneral dot_S60000x32_S32x128_S60000x128_1_0_0_1_n_n none l r) : (⟨S60000x32, .f32⟩ : BufTy).Contents (Elt F) → (⟨S32x128, .f32⟩ : BufTy).Contents (Elt F) → (⟨S60000x128, .f32⟩ : BufTy).Contents (Elt F)),
    unary main_arg7 main_v11 (broadcastInDim S1x128 ![1] bcast_S128_S1x128_1 : (⟨S128, .f32⟩ : BufTy).Contents (Elt F) → (⟨S1x128, .f32⟩ : BufTy).Contents (Elt F)),
    unary main_v11 main_v12 (broadcastInDim S60000x128 ![0, 1] bcast_S1x128_S60000x128_0_1 : (⟨S1x128, .f32⟩ : BufTy).Contents (Elt F) → (⟨S60000x128, .f32⟩ : BufTy).Contents (Elt F)),
    binary main_v10 main_v12 main_v13 (addf : (⟨S60000x128, .f32⟩ : BufTy).Contents (Elt F) → (⟨S60000x128, .f32⟩ : BufTy).Contents (Elt F) → (⟨S60000x128, .f32⟩ : BufTy).Contents (Elt F)),
    TRef.nullary main_call1.cst (constant S_ .f32 0x00000000#32),
    TRef.unary main_call1.cst main_call1.v0 (broadcastInDim S60000x128 ![] bcast_S_S60000x128),
    TRef.binary (.of main_v13) main_call1.v0 main_call1.v1 maximumf,
    binary main_v14 main_arg8 main_v15 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg9 main_v16 (broadcastInDim S1x64 ![1] bcast_S64_S1x64_1 : (⟨S64, .f32⟩ : BufTy).Contents (Elt F) → (⟨S1x64, .f32⟩ : BufTy).Contents (Elt F)),
    unary main_v16 main_v17 (broadcastInDim S60000x64 ![0, 1] bcast_S1x64_S60000x64_0_1 : (⟨S1x64, .f32⟩ : BufTy).Contents (Elt F) → (⟨S60000x64, .f32⟩ : BufTy).Contents (Elt F)),
    binary main_v15 main_v17 main_v18 (addf : (⟨S60000x64, .f32⟩ : BufTy).Contents (Elt F) → (⟨S60000x64, .f32⟩ : BufTy).Contents (Elt F) → (⟨S60000x64, .f32⟩ : BufTy).Contents (Elt F)),
    binary main_v18 main_v0 main_v19 (subf : (⟨S60000x64, .f32⟩ : BufTy).Contents (Elt F) → (⟨S60000x64, .f32⟩ : BufTy).Contents (Elt F) → (⟨S60000x64, .f32⟩ : BufTy).Contents (Elt F)),
    binary main_v19 main_v19 main_v20 (mulf : (⟨S60000x64, .f32⟩ : BufTy).Contents (Elt F) → (⟨S60000x64, .f32⟩ : BufTy).Contents (Elt F) → (⟨S60000x64, .f32⟩ : BufTy).Contents (Elt F)),
    nullary main_cst (constant S_ .f32 0x00000000#32),
    binary main_v20 main_cst main_v21 ((fun x v => Host.reduceAdd x v reducesTo_S60000x64_S_d0_1 h_S_) : (⟨S60000x64, .f32⟩ : BufTy).Contents (Elt F) → (⟨S_, .f32⟩ : BufTy).Contents (Elt F) → (⟨S_, .f32⟩ : BufTy).Contents (Elt F)),
    nullary main_cst_0 (constant S_ .f32 0x4A6A6000#32),
    binary main_v21 main_cst_0 main_v22 (Host.divf : (⟨S_, .f32⟩ : BufTy).Contents (Elt F) → (⟨S_, .f32⟩ : BufTy).Contents (Elt F) → (⟨S_, .f32⟩ : BufTy).Contents (Elt F)) ]

/-- The last stretch of @main: the two layers' features side by side, the user and item rows gathered at the
    wrapped batch indices, and their row-by-row dot product. -/
abbrev opsD : List (HloOp τ sig (Elt F)) :=
  [
    binary main_v76 main_v130 main_v131 ((fun a b => concatenate S60000x48 1 [⟨S60000x32, a⟩, ⟨S60000x16, b⟩] concatenates_S60000x32_S60000x16_S60000x48_d1) : (⟨S60000x32, .f32⟩ : BufTy).Contents (Elt F) → (⟨S60000x16, .f32⟩ : BufTy).Contents (Elt F) → (⟨S60000x48, .f32⟩ : BufTy).Contents (Elt F)),
    nullary main_c_34 (constantI S_ 32 50000#32),
    unary main_c_34 main_v132 (broadcastInDim S4096 ![] bcast_S_S4096 : (⟨S_, .i32⟩ : BufTy).Contents (Elt F) → (⟨S4096, .i32⟩ : BufTy).Contents (Elt F)),
    binary main_v132 main_arg16 main_v133 (addi : (⟨S4096, .i32⟩ : BufTy).Contents (Elt F) → (⟨S4096, .i32⟩ : BufTy).Contents (Elt F) → (⟨S4096, .i32⟩ : BufTy).Contents (Elt F)),
    nullary main_c_35 (constantI S_ 32 0#32),
    unary main_c_35 main_v134 (broadcastInDim S4096 ![] bcast_S_S4096 : (⟨S_, .i32⟩ : BufTy).Contents (Elt F) → (⟨S4096, .i32⟩ : BufTy).Contents (Elt F)),
    binary main_v133 main_v134 main_v135 (cmpi .slt : (⟨S4096, .i32⟩ : BufTy).Contents (Elt F) → (⟨S4096, .i32⟩ : BufTy).Contents (Elt F) → (⟨S4096, .i1⟩ : BufTy).Contents (Elt F)),
    nullary main_c_36 (constantI S_ 32 60000#32),
    unary main_c_36 main_v136 (broadcastInDim S4096 ![] bcast_S_S4096 : (⟨S_, .i32⟩ : BufTy).Contents (Elt F) → (⟨S4096, .i32⟩ : BufTy).Contents (Elt F)),
    binary main_v133 main_v136 main_v137 (addi : (⟨S4096, .i32⟩ : BufTy).Contents (Elt F) → (⟨S4096, .i32⟩ : BufTy).Contents (Elt F) → (⟨S4096, .i32⟩ : BufTy).Contents (Elt F)),
    ternary main_v135 main_v137 main_v133 main_v138 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v138 main_v139 (broadcastInDim S4096x1 ![0] bcast_S4096_S4096x1_0 : (⟨S4096, .i32⟩ : BufTy).Contents (Elt F) → (⟨S4096x1, .i32⟩ : BufTy).Contents (Elt F)),
    binary main_v131 main_v139 main_v140 ((fun x i => Host.gather gather_S60000x48_S4096x1_S4096x48_1_0_n_n_0_1_148 x i) : (⟨S60000x48, .f32⟩ : BufTy).Contents (Elt F) → (⟨S4096x1, .i32⟩ : BufTy).Contents (Elt F) → (⟨S4096x48, .f32⟩ : BufTy).Contents (Elt F)),
    nullary main_c_37 (constantI S_ 32 0#32),
    unary main_c_37 main_v141 (broadcastInDim S4096 ![] bcast_S_S4096 : (⟨S_, .i32⟩ : BufTy).Contents (Elt F) → (⟨S4096, .i32⟩ : BufTy).Contents (Elt F)),
    binary main_arg17 main_v141 main_v142 (cmpi .slt : (⟨S4096, .i32⟩ : BufTy).Contents (Elt F) → (⟨S4096, .i32⟩ : BufTy).Contents (Elt F) → (⟨S4096, .i1⟩ : BufTy).Contents (Elt F)),
    nullary main_c_38 (constantI S_ 32 60000#32),
    unary main_c_38 main_v143 (broadcastInDim S4096 ![] bcast_S_S4096 : (⟨S_, .i32⟩ : BufTy).Contents (Elt F) → (⟨S4096, .i32⟩ : BufTy).Contents (Elt F)),
    binary main_arg17 main_v143 main_v144 (addi : (⟨S4096, .i32⟩ : BufTy).Contents (Elt F) → (⟨S4096, .i32⟩ : BufTy).Contents (Elt F) → (⟨S4096, .i32⟩ : BufTy).Contents (Elt F)),
    ternary main_v142 main_v144 main_arg17 main_v145 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v145 main_v146 (broadcastInDim S4096x1 ![0] bcast_S4096_S4096x1_0 : (⟨S4096, .i32⟩ : BufTy).Contents (Elt F) → (⟨S4096x1, .i32⟩ : BufTy).Contents (Elt F)),
    binary main_v131 main_v146 main_v147 ((fun x i => Host.gather gather_S60000x48_S4096x1_S4096x48_1_0_n_n_0_1_148 x i) : (⟨S60000x48, .f32⟩ : BufTy).Contents (Elt F) → (⟨S4096x1, .i32⟩ : BufTy).Contents (Elt F) → (⟨S4096x48, .f32⟩ : BufTy).Contents (Elt F)),
    binary main_v140 main_v147 main_v148 (mulf : (⟨S4096x48, .f32⟩ : BufTy).Contents (Elt F) → (⟨S4096x48, .f32⟩ : BufTy).Contents (Elt F) → (⟨S4096x48, .f32⟩ : BufTy).Contents (Elt F)),
    nullary main_cst_39 (constant S_ .f32 0x00000000#32),
    binary main_v148 main_cst_39 main_v149 ((fun x v => Host.reduceAdd x v reducesTo_S4096x48_S4096_d1 h_S_) : (⟨S4096x48, .f32⟩ : BufTy).Contents (Elt F) → (⟨S_, .f32⟩ : BufTy).Contents (Elt F) → (⟨S4096, .f32⟩ : BufTy).Contents (Elt F)) ]

/-! ## Every operation touches TensorCore buffers only -/

theorem opsA_sub : (opsA : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., binary_bufs_sub ..,
    binary_bufs_sub .., nullary_bufs_sub .., binary_bufs_sub .., nullary_bufs_sub .., binary_bufs_sub ..⟩

theorem opsD_sub : (opsD : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub ..⟩

/-! ## What each stretch writes, and what it therefore keeps -/

/-- A member of a list of references, as a device reference, is among the list's device references. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- The buffers the first stretch writes: one per operation, its result. -/
def writesA : List (Ref sig .tc) :=
  [main_v0, main_v1, main_v2, main_v3, main_v4, main_call0_cst, main_call0_v0, main_v5, main_v6, main_v7,
    main_v8, main_v9, main_v10, main_v11, main_v12, main_v13, main_call1_cst, main_call1_v0, main_v14, main_v15,
    main_v16, main_v17, main_v18, main_v19, main_v20, main_cst, main_v21, main_cst_0, main_v22]

/-- The buffers the last stretch writes. -/
def writesD : List (Ref sig .tc) :=
  [main_v131, main_c_34, main_v132, main_v133, main_c_35, main_v134, main_v135, main_c_36, main_v136, main_v137,
    main_v138, main_v139, main_v140, main_c_37, main_v141, main_v142, main_c_38, main_v143, main_v144, main_v145,
    main_v146, main_v147, main_v148, main_cst_39, main_v149]

theorem opsA_writes : (opsA : List (HloOp τ sig (Elt F))).Forall fun op =>
    op.writes ⊆ (writesA.map (Proc.devRef (τ := τ) .tc)).toFinset := by
  simp only [opsA, List.Forall, nullary_writes, unary_writes, binary_writes, ternary_writes]
  repeat' apply And.intro
  all_goals exact single_sub_of_mem (by decide)

theorem opsD_writes : (opsD : List (HloOp τ sig (Elt F))).Forall fun op =>
    op.writes ⊆ (writesD.map (Proc.devRef (τ := τ) .tc)).toFinset := by
  simp only [opsD, List.Forall, nullary_writes, unary_writes, binary_writes, ternary_writes]
  repeat' apply And.intro
  all_goals exact single_sub_of_mem (by decide)

/-- A buffer the first stretch does not write holds after it what it held before. -/
theorem keepA (V : Valuation τ sig (Elt F)) {r : Ref sig .tc} (hr : r ∉ writesA) :
    after opsA V (Proc.devRef .tc r) = V (Proc.devRef .tc r) :=
  after_of_writes_sub opsA V opsA_writes hr

/-- A buffer the last stretch does not write holds after it what it held before. -/
theorem keepD (V : Valuation τ sig (Elt F)) {r : Ref sig .tc} (hr : r ∉ writesD) :
    after opsD V (Proc.devRef .tc r) = V (Proc.devRef .tc r) :=
  after_of_writes_sub opsD V opsD_writes hr

/-! ## The stretches read as stages: the fold at a result buffer is the stages' composition of the buffers read -/

set_option maxRecDepth 8192 in
/-- After the first stretch the encoder's output buffer holds the encoder applied to the stacked embeddings. -/
theorem readA_enc (V : Valuation τ sig (Elt Ideal)) :
    after opsA V (main_v9 : DevRef τ sig)
      = Cert.Stages.encode (F := Ideal) (Cert.Stages.allEmb (F := Ideal) (V main_arg0) (V main_arg1))
          (V main_arg2) (V main_arg3) (V main_arg4) (V main_arg5) := by
  after_results
  rfl

set_option maxRecDepth 8192 in
/-- After the first stretch the loss buffer holds the mean squared reconstruction error of the arguments. -/
theorem readA_loss (V : Valuation τ sig (Elt Ideal)) :
    after opsA V (main_v22 : DevRef τ sig)
      = Cert.Stages.loss (F := Ideal) (V main_arg0) (V main_arg1) (V main_arg2) (V main_arg3) (V main_arg4) (V main_arg5)
          (V main_arg6) (V main_arg7) (V main_arg8) (V main_arg9) := by
  after_results_simp
  rfl

set_option maxRecDepth 8192 in
/-- After the last stretch the score buffer holds the row-by-row dot product of the user rows and the item rows of
    the two layers' features side by side. -/
theorem readD (V : Valuation τ sig (Elt Ideal)) :
    after opsD V (main_v149 : DevRef τ sig)
      = Cert.Stages.rowDot (F := Ideal)
          (Cert.Stages.userRows (F := Ideal) (Cert.Stages.feats (F := Ideal) (V main_v76) (V main_v130)) (V main_arg16))
          (Cert.Stages.itemRows (F := Ideal) (Cert.Stages.feats (F := Ideal) (V main_v76) (V main_v130)) (V main_arg17)) := by
  after_results_simp
  rfl

end Cert.ReferenceIdeal.RefOps

end
-- ==== Proof.RefOpsBC.lean ====
import proofs.«429255_j2413771620669_3_alg».proof.Proof.Gen.ReferenceIdeal
import proofs.«429255_j2413771620669_3_alg».proof.Proof.Stages
import Idealize.ShloMosaic.Lib.StableHlo.Run
import Idealize.ShloMosaic.PureOps.Ideal

noncomputable section

namespace Cert.ReferenceIdeal.RefOps

open Cert.ReferenceIdeal Cert.ReferenceIdeal.Gen
open Idealize.ShloMosaic Idealize.ShloMosaic.TcCoe Idealize.SL.Sem Idealize.ShloMosaic.StableHlo

variable {F : FTy → Type} [FloatOps F]

/-- The second stretch of @main, the first graph convolution (80 operations): the relation weights summed, the
    encoder's rows gathered at the wrapped destination and source indices and the summed weights at the wrapped
    relation indices, the sigmoid gate, the gated source rows and the ones scattered per destination, the mean where
    the in-degree is positive (the select call unfolded at its call site), the affine map of each node's own row beside
    that mean, and the leaky ReLU (its call, and the select call inside it, unfolded). -/
abbrev opsB : List (HloOp τ sig (Elt F)) :=
  [ StableHlo.nullary main_cst_1 (constant S_ .f32 0x00000000#32),
    StableHlo.binary main_arg10 main_cst_1 main_v23 ((fun x v => Host.reduceAdd x v reducesTo_S16x64x32_S16x64_d2 h_S_) : (⟨S16x64x32, .f32⟩ : BufTy).Contents (Elt F) → (⟨S_, .f32⟩ : BufTy).Contents (Elt F) → (⟨S16x64, .f32⟩ : BufTy).Contents (Elt F)),
    StableHlo.nullary main_c (constantI S_ 32 0#32),
    StableHlo.unary main_c main_v24 (broadcastInDim S1920000 ![] bcast_S_S1920000 : (⟨S_, .i32⟩ : BufTy).Contents (Elt F) → (⟨S1920000, .i32⟩ : BufTy).Contents (Elt F)),
    StableHlo.binary main_arg19 main_v24 main_v25 (cmpi .slt : (⟨S1920000, .i32⟩ : BufTy).Contents (Elt F) → (⟨S1920000, .i32⟩ : BufTy).Contents (Elt F) → (⟨S1920000, .i1⟩ : BufTy).Contents (Elt F)),
    StableHlo.nullary main_c_2 (constantI S_ 32 60000#32),
    StableHlo.unary main_c_2 main_v26 (broadcastInDim S1920000 ![] bcast_S_S1920000 : (⟨S_, .i32⟩ : BufTy).Contents (Elt F) → (⟨S1920000, .i32⟩ : BufTy).Contents (Elt F)),
    StableHlo.binary main_arg19 main_v26 main_v27 (addi : (⟨S1920000, .i32⟩ : BufTy).Contents (Elt F) → (⟨S1920000, .i32⟩ : BufTy).Contents (Elt F) → (⟨S1920000, .i32⟩ : BufTy).Contents (Elt F)),
    StableHlo.ternary main_v25 main_v27 main_arg19 main_v28 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v28 main_v29 (broadcastInDim S1920000x1 ![0] bcast_S1920000_S1920000x1_0 : (⟨S1920000, .i32⟩ : BufTy).Contents (Elt F) → (⟨S1920000x1, .i32⟩ : BufTy).Contents (Elt F)),
    StableHlo.binary main_v9 main_v29 main_v30 ((fun x i => Host.gather gather_S60000x32_S1920000x1_S1920000x32_1_0_n_n_0_1_132 x i) : (⟨S60000x32, .f32⟩ : BufTy).Contents (Elt F) → (⟨S1920000x1, .i32⟩ : BufTy).Contents (Elt F) → (⟨S1920000x32, .f32⟩ : BufTy).Contents (Elt F)),
    StableHlo.nullary main_c_3 (constantI S_ 32 0#32),
    StableHlo.unary main_c_3 main_v31 (broadcastInDim S1920000 ![] bcast_S_S1920000 : (⟨S_, .i32⟩ : BufTy).Contents (Elt F) → (⟨S1920000, .i32⟩ : BufTy).Contents (Elt F)),
    StableHlo.binary main_arg18 main_v31 main_v32 (cmpi .slt : (⟨S1920000, .i32⟩ : BufTy).Contents (Elt F) → (⟨S1920000, .i32⟩ : BufTy).Contents (Elt F) → (⟨S1920000, .i1⟩ : BufTy).Contents (Elt F)),
    StableHlo.nullary main_c_4 (constantI S_ 32 60000#32),
    StableHlo.unary main_c_4 main_v33 (broadcastInDim S1920000 ![] bcast_S_S1920000 : (⟨S_, .i32⟩ : BufTy).Contents (Elt F) → (⟨S1920000, .i32⟩ : BufTy).Contents (Elt F)),
    StableHlo.binary main_arg18 main_v33 main_v34 (addi : (⟨S1920000, .i32⟩ : BufTy).Contents (Elt F) → (⟨S1920000, .i32⟩ : BufTy).Contents (Elt F) → (⟨S1920000, .i32⟩ : BufTy).Contents (Elt F)),
    StableHlo.ternary main_v32 main_v34 main_arg18 main_v35 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v35 main_v36 (broadcastInDim S1920000x1 ![0] bcast_S1920000_S1920000x1_0 : (⟨S1920000, .i32⟩ : BufTy).Contents (Elt F) → (⟨S1920000x1, .i32⟩ : BufTy).Contents (Elt F)),
    StableHlo.binary main_v9 main_v36 main_v37 ((fun x i => Host.gather gather_S60000x32_S1920000x1_S1920000x32_1_0_n_n_0_1_132 x i) : (⟨S60000x32, .f32⟩ : BufTy).Contents (Elt F) → (⟨S1920000x1, .i32⟩ : BufTy).Contents (Elt F) → (⟨S1920000x32, .f32⟩ : BufTy).Contents (Elt F)),
    StableHlo.binary main_v30 main_v37 main_v38 ((fun a b => concatenate S1920000x64 1 [⟨S1920000x32, a⟩, ⟨S1920000x32, b⟩] concatenates_S1920000x32_S1920000x32_S1920000x64_d1) : (⟨S1920000x32, .f32⟩ : BufTy).Contents (Elt F) → (⟨S1920000x32, .f32⟩ : BufTy).Contents (Elt F) → (⟨S1920000x64, .f32⟩ : BufTy).Contents (Elt F)),
    StableHlo.nullary main_c_5 (constantI S_ 32 0#32),
    StableHlo.unary main_c_5 main_v39 (broadcastInDim S1920000 ![] bcast_S_S1920000 : (⟨S_, .i32⟩ : BufTy).Contents (Elt F) → (⟨S1920000, .i32⟩ : BufTy).Contents (Elt F)),
    StableHlo.binary main_arg20 main_v39 main_v40 (cmpi .slt : (⟨S1920000, .i32⟩ : BufTy).Contents (Elt F) → (⟨S1920000, .i32⟩ : BufTy).Contents (Elt F) → (⟨S1920000, .i1⟩ : BufTy).Contents (Elt F)),
    StableHlo.nullary main_c_6 (constantI S_ 32 16#32),
    StableHlo.unary main_c_6 main_v41 (broadcastInDim S1920000 ![] bcast_S_S1920000 : (⟨S_, .i32⟩ : BufTy).Contents (Elt F) → (⟨S1920000, .i32⟩ : BufTy).Contents (Elt F)),
    StableHlo.binary main_arg20 main_v41 main_v42 (addi : (⟨S1920000, .i32⟩ : BufTy).Contents (Elt F) → (⟨S1920000, .i32⟩ : BufTy).Contents (Elt F) → (⟨S1920000, .i32⟩ : BufTy).Contents (Elt F)),
    StableHlo.ternary main_v40 main_v42 main_arg20 main_v43 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v43 main_v44 (broadcastInDim S1920000x1 ![0] bcast_S1920000_S1920000x1_0 : (⟨S1920000, .i32⟩ : BufTy).Contents (Elt F) → (⟨S1920000x1, .i32⟩ : BufTy).Contents (Elt F)),
    StableHlo.binary main_v23 main_v44 main_v45 ((fun x i => Host.gather gather_S16x64_S1920000x1_S1920000x64_1_0_n_n_0_1_164 x i) : (⟨S16x64, .f32⟩ : BufTy).Contents (Elt F) → (⟨S1920000x1, .i32⟩ : BufTy).Contents (Elt F) → (⟨S1920000x64, .f32⟩ : BufTy).Contents (Elt F)),
    StableHlo.binary main_v38 main_v45 main_v46 (mulf : (⟨S1920000x64, .f32⟩ : BufTy).Contents (Elt F) → (⟨S1920000x64, .f32⟩ : BufTy).Contents (Elt F) → (⟨S1920000x64, .f32⟩ : BufTy).Contents (Elt F)),
    StableHlo.nullary main_cst_7 (constant S_ .f32 0x00000000#32),
    StableHlo.binary main_v46 main_cst_7 main_v47 ((fun x v => Host.reduceAdd x v reducesTo_S1920000x64_S1920000_d1 h_S_) : (⟨S1920000x64, .f32⟩ : BufTy).Contents (Elt F) → (⟨S_, .f32⟩ : BufTy).Contents (Elt F) → (⟨S1920000, .f32⟩ : BufTy).Contents (Elt F)),
    StableHlo.unary main_v47 main_v48 (broadcastInDim S1920000x1 ![0] bcast_S1920000_S1920000x1_0 : (⟨S1920000, .f32⟩ : BufTy).Contents (Elt F) → (⟨S1920000x1, .f32⟩ : BufTy).Contents (Elt F)),
    StableHlo.unary main_v48 main_v49 (Host.negf : (⟨S1920000x1, .f32⟩ : BufTy).Contents (Elt F) → (⟨S1920000x1, .f32⟩ : BufTy).Contents (Elt F)),
    StableHlo.unary main_v49 main_v50 (Host.exp : (⟨S1920000x1, .f32⟩ : BufTy).Contents (Elt F) → (⟨S1920000x1, .f32⟩ : BufTy).Contents (Elt F)),
    StableHlo.nullary main_cst_8 (constant S_ .f32 0x3F800000#32),
    StableHlo.unary main_cst_8 main_v51 (broadcastInDim S1920000x1 ![] bcast_S_S1920000x1 : (⟨S_, .f32⟩ : BufTy).Contents (Elt F) → (⟨S1920000x1, .f32⟩ : BufTy).Contents (Elt F)),
    StableHlo.binary main_v51 main_v50 main_v52 (addf : (⟨S1920000x1, .f32⟩ : BufTy).Contents (Elt F) → (⟨S1920000x1, .f32⟩ : BufTy).Contents (Elt F) → (⟨S1920000x1, .f32⟩ : BufTy).Contents (Elt F)),
    StableHlo.nullary main_cst_9 (constant S_ .f32 0x3F800000#32),
    StableHlo.unary main_cst_9 main_v53 (broadcastInDim S1920000x1 ![] bcast_S_S1920000x1 : (⟨S_, .f32⟩ : BufTy).Contents (Elt F) → (⟨S1920000x1, .f32⟩ : BufTy).Contents (Elt F)),
    StableHlo.binary main_v53 main_v52 main_v54 (Host.divf : (⟨S1920000x1, .f32⟩ : BufTy).Contents (Elt F) → (⟨S1920000x1, .f32⟩ : BufTy).Contents (Elt F) → (⟨S1920000x1, .f32⟩ : BufTy).Contents (Elt F)),
    StableHlo.unary main_v54 main_v55 (broadcastInDim S1920000x32 ![0, 1] bcast_S1920000x1_S1920000x32_0_1 : (⟨S1920000x1, .f32⟩ : BufTy).Contents (Elt F) → (⟨S1920000x32, .f32⟩ : BufTy).Contents (Elt F)),
    StableHlo.binary main_v37 main_v55 main_v56 (mulf : (⟨S1920000x32, .f32⟩ : BufTy).Contents (Elt F) → (⟨S1920000x32, .f32⟩ : BufTy).Contents (Elt F) → (⟨S1920000x32, .f32⟩ : BufTy).Contents (Elt F)),
    StableHlo.nullary main_cst_10 (constant S_ .f32 0x00000000#32),
    StableHlo.unary main_cst_10 main_v57 (broadcastInDim S60000x32 ![] bcast_S_S60000x32 : (⟨S_, .f32⟩ : BufTy).Contents (Elt F) → (⟨S60000x32, .f32⟩ : BufTy).Contents (Elt F)),
    StableHlo.unary main_arg19 main_v58 (broadcastInDim S1920000x1 ![0] bcast_S1920000_S1920000x1_0 : (⟨S1920000, .i32⟩ : BufTy).Contents (Elt F) → (⟨S1920000x1, .i32⟩ : BufTy).Contents (Elt F)),
    StableHlo.ternary main_v57 main_v58 main_v56 main_v59 ((fun x i u => Host.scatterAdd scatter_S60000x32_S1920000x1_S1920000x32_1_0_0_1 x i u) : (⟨S60000x32, .f32⟩ : BufTy).Contents (Elt F) → (⟨S1920000x1, .i32⟩ : BufTy).Contents (Elt F) → (⟨S1920000x32, .f32⟩ : BufTy).Contents (Elt F) → (⟨S60000x32, .f32⟩ : BufTy).Contents (Elt F)),
    StableHlo.nullary main_cst_11 (constant S_ .f32 0x3F800000#32),
    StableHlo.unary main_cst_11 main_v60 (broadcastInDim S1920000x1 ![] bcast_S_S1920000x1 : (⟨S_, .f32⟩ : BufTy).Contents (Elt F) → (⟨S1920000x1, .f32⟩ : BufTy).Contents (Elt F)),
    StableHlo.nullary main_cst_12 (constant S_ .f32 0x00000000#32),
    StableHlo.unary main_cst_12 main_v61 (broadcastInDim S60000x1 ![] bcast_S_S60000x1 : (⟨S_, .f32⟩ : BufTy).Contents (Elt F) → (⟨S60000x1, .f32⟩ : BufTy).Contents (Elt F)),
    StableHlo.unary main_arg19 main_v62 (broadcastInDim S1920000x1 ![0] bcast_S1920000_S1920000x1_0 : (⟨S1920000, .i32⟩ : BufTy).Contents (Elt F) → (⟨S1920000x1, .i32⟩ : BufTy).Contents (Elt F)),
    StableHlo.ternary main_v61 main_v62 main_v60 main_v63 ((fun x i u => Host.scatterAdd scatter_S60000x1_S1920000x1_S1920000x1_1_0_0_1 x i u) : (⟨S60000x1, .f32⟩ : BufTy).Contents (Elt F) → (⟨S1920000x1, .i32⟩ : BufTy).Contents (Elt F) → (⟨S1920000x1, .f32⟩ : BufTy).Contents (Elt F) → (⟨S60000x1, .f32⟩ : BufTy).Contents (Elt F)),
    StableHlo.nullary main_cst_13 (constant S_ .f32 0x00000000#32),
    StableHlo.unary main_cst_13 main_v64 (broadcastInDim S60000x1 ![] bcast_S_S60000x1 : (⟨S_, .f32⟩ : BufTy).Contents (Elt F) → (⟨S60000x1, .f32⟩ : BufTy).Contents (Elt F)),
    StableHlo.binary main_v63 main_v64 main_v65 (cmpf .ogt : (⟨S60000x1, .f32⟩ : BufTy).Contents (Elt F) → (⟨S60000x1, .f32⟩ : BufTy).Contents (Elt F) → (⟨S60000x1, .i1⟩ : BufTy).Contents (Elt F)),
    StableHlo.nullary main_cst_14 (constant S_ .f32 0x3F800000#32),
    StableHlo.unary main_cst_14 main_v66 (broadcastInDim S60000x1 ![] bcast_S_S60000x1 : (⟨S_, .f32⟩ : BufTy).Contents (Elt F) → (⟨S60000x1, .f32⟩ : BufTy).Contents (Elt F)),
    StableHlo.binary main_v63 main_v66 main_v67 (maximumf : (⟨S60000x1, .f32⟩ : BufTy).Contents (Elt F) → (⟨S60000x1, .f32⟩ : BufTy).Contents (Elt F) → (⟨S60000x1, .f32⟩ : BufTy).Contents (Elt F)),
    StableHlo.unary main_v67 main_v68 (broadcastInDim S60000x32 ![0, 1] bcast_S60000x1_S60000x32_0_1 : (⟨S60000x1, .f32⟩ : BufTy).Contents (Elt F) → (⟨S60000x32, .f32⟩ : BufTy).Contents (Elt F)),
    StableHlo.binary main_v59 main_v68 main_v69 (Host.divf : (⟨S60000x32, .f32⟩ : BufTy).Contents (Elt F) → (⟨S60000x32, .f32⟩ : BufTy).Contents (Elt F) → (⟨S60000x32, .f32⟩ : BufTy).Contents (Elt F)),
    StableHlo.nullary main_cst_15 (constant S_ .f32 0x00000000#32),
    StableHlo.TRef.unary (.of main_cst_15 : StableHlo.TRef sig ⟨S_, .f32⟩) main_call2.v0 id,
    StableHlo.TRef.unary (.of main_v65 : StableHlo.TRef sig ⟨S60000x1, .i1⟩) main_call2.v1 (broadcastInDim S60000x32 ![0, 1] bcast_S60000x1_S60000x32_0_1),
    StableHlo.TRef.unary main_call2.v0 main_call2.v2 (broadcastInDim S60000x32 ![] bcast_S_S60000x32),
    StableHlo.TRef.ternary main_call2.v1 (.of main_v69 : StableHlo.TRef sig ⟨S60000x32, .f32⟩) main_call2.v2 main_call2.v3 select,
    StableHlo.binary main_v9 main_v70 main_v71 ((fun a b => concatenate S60000x64 1 [⟨S60000x32, a⟩, ⟨S60000x32, b⟩] concatenates_S60000x32_S60000x32_S60000x64_d1) : (⟨S60000x32, .f32⟩ : BufTy).Contents (Elt F) → (⟨S60000x32, .f32⟩ : BufTy).Contents (Elt F) → (⟨S60000x64, .f32⟩ : BufTy).Contents (Elt F)),
    StableHlo.binary main_v71 main_arg11 main_v72 ((fun l r => Host.dotGeneral dot_S60000x64_S64x32_S60000x32_1_0_0_1_n_n none l r) : (⟨S60000x64, .f32⟩ : BufTy).Contents (Elt F) → (⟨S64x32, .f32⟩ : BufTy).Contents (Elt F) → (⟨S60000x32, .f32⟩ : BufTy).Contents (Elt F)),
    StableHlo.unary main_arg12 main_v73 (broadcastInDim S1x32 ![1] bcast_S32_S1x32_1 : (⟨S32, .f32⟩ : BufTy).Contents (Elt F) → (⟨S1x32, .f32⟩ : BufTy).Contents (Elt F)),
    StableHlo.unary main_v73 main_v74 (broadcastInDim S60000x32 ![0, 1] bcast_S1x32_S60000x32_0_1 : (⟨S1x32, .f32⟩ : BufTy).Contents (Elt F) → (⟨S60000x32, .f32⟩ : BufTy).Contents (Elt F)),
    StableHlo.binary main_v72 main_v74 main_v75 (addf : (⟨S60000x32, .f32⟩ : BufTy).Contents (Elt F) → (⟨S60000x32, .f32⟩ : BufTy).Contents (Elt F) → (⟨S60000x32, .f32⟩ : BufTy).Contents (Elt F)),
    StableHlo.nullary main_cst_16 (constant S_ .f32 0x3C23D70A#32),
    StableHlo.TRef.nullary main_call3.cst (constant S_ .f32 0x00000000#32),
    StableHlo.TRef.unary main_call3.cst main_call3.v0 (broadcastInDim S60000x32 ![] bcast_S_S60000x32),
    StableHlo.TRef.binary (.of main_v75 : StableHlo.TRef sig ⟨S60000x32, .f32⟩) main_call3.v0 main_call3.v1 (cmpf .oge),
    StableHlo.TRef.unary (.of main_cst_16 : StableHlo.TRef sig ⟨S_, .f32⟩) main_call3.v2 id,
    StableHlo.TRef.unary main_call3.v2 main_call3.v3 (broadcastInDim S60000x32 ![] bcast_S_S60000x32),
    StableHlo.TRef.binary main_call3.v3 (.of main_v75 : StableHlo.TRef sig ⟨S60000x32, .f32⟩) main_call3.v4 mulf,
    StableHlo.TRef.ternary main_call3.v1 (.of main_v75 : StableHlo.TRef sig ⟨S60000x32, .f32⟩) main_call3.v4 main_call3.call0.v0 select ]

/-- The third stretch of @main, the second graph convolution (80 operations): the same over the first layer's
    features, to 16 columns. -/
abbrev opsC : List (HloOp τ sig (Elt F)) :=
  [ StableHlo.nullary main_cst_17 (constant S_ .f32 0x00000000#32),
    StableHlo.binary main_arg13 main_cst_17 main_v77 ((fun x v => Host.reduceAdd x v reducesTo_S16x64x32_S16x64_d2 h_S_) : (⟨S16x64x32, .f32⟩ : BufTy).Contents (Elt F) → (⟨S_, .f32⟩ : BufTy).Contents (Elt F) → (⟨S16x64, .f32⟩ : BufTy).Contents (Elt F)),
    StableHlo.nullary main_c_18 (constantI S_ 32 0#32),
    StableHlo.unary main_c_18 main_v78 (broadcastInDim S1920000 ![] bcast_S_S1920000 : (⟨S_, .i32⟩ : BufTy).Contents (Elt F) → (⟨S1920000, .i32⟩ : BufTy).Contents (Elt F)),
    StableHlo.binary main_arg19 main_v78 main_v79 (cmpi .slt : (⟨S1920000, .i32⟩ : BufTy).Contents (Elt F) → (⟨S1920000, .i32⟩ : BufTy).Contents (Elt F) → (⟨S1920000, .i1⟩ : BufTy).Contents (Elt F)),
    StableHlo.nullary main_c_19 (constantI S_ 32 60000#32),
    StableHlo.unary main_c_19 main_v80 (broadcastInDim S1920000 ![] bcast_S_S1920000 : (⟨S_, .i32⟩ : BufTy).Contents (Elt F) → (⟨S1920000, .i32⟩ : BufTy).Contents (Elt F)),
    StableHlo.binary main_arg19 main_v80 main_v81 (addi : (⟨S1920000, .i32⟩ : BufTy).Contents (Elt F) → (⟨S1920000, .i32⟩ : BufTy).Contents (Elt F) → (⟨S1920000, .i32⟩ : BufTy).Contents (Elt F)),
    StableHlo.ternary main_v79 main_v81 main_arg19 main_v82 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v82 main_v83 (broadcastInDim S1920000x1 ![0] bcast_S1920000_S1920000x1_0 : (⟨S1920000, .i32⟩ : BufTy).Contents (Elt F) → (⟨S1920000x1, .i32⟩ : BufTy).Contents (Elt F)),
    StableHlo.binary main_v76 main_v83 main_v84 ((fun x i => Host.gather gather_S60000x32_S1920000x1_S1920000x32_1_0_n_n_0_1_132 x i) : (⟨S60000x32, .f32⟩ : BufTy).Contents (Elt F) → (⟨S1920000x1, .i32⟩ : BufTy).Contents (Elt F) → (⟨S1920000x32, .f32⟩ : BufTy).Contents (Elt F)),
    StableHlo.nullary main_c_20 (constantI S_ 32 0#32),
    StableHlo.unary main_c_20 main_v85 (broadcastInDim S1920000 ![] bcast_S_S1920000 : (⟨S_, .i32⟩ : BufTy).Contents (Elt F) → (⟨S1920000, .i32⟩ : BufTy).Contents (Elt F)),
    StableHlo.binary main_arg18 main_v85 main_v86 (cmpi .slt : (⟨S1920000, .i32⟩ : BufTy).Contents (Elt F) → (⟨S1920000, .i32⟩ : BufTy).Contents (Elt F) → (⟨S1920000, .i1⟩ : BufTy).Contents (Elt F)),
    StableHlo.nullary main_c_21 (constantI S_ 32 60000#32),
    StableHlo.unary main_c_21 main_v87 (broadcastInDim S1920000 ![] bcast_S_S1920000 : (⟨S_, .i32⟩ : BufTy).Contents (Elt F) → (⟨S1920000, .i32⟩ : BufTy).Contents (Elt F)),
    StableHlo.binary main_arg18 main_v87 main_v88 (addi : (⟨S1920000, .i32⟩ : BufTy).Contents (Elt F) → (⟨S1920000, .i32⟩ : BufTy).Contents (Elt F) → (⟨S1920000, .i32⟩ : BufTy).Contents (Elt F)),
    StableHlo.ternary main_v86 main_v88 main_arg18 main_v89 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v89 main_v90 (broadcastInDim S1920000x1 ![0] bcast_S1920000_S1920000x1_0 : (⟨S1920000, .i32⟩ : BufTy).Contents (Elt F) → (⟨S1920000x1, .i32⟩ : BufTy).Contents (Elt F)),
    StableHlo.binary main_v76 main_v90 main_v91 ((fun x i => Host.gather gather_S60000x32_S1920000x1_S1920000x32_1_0_n_n_0_1_132 x i) : (⟨S60000x32, .f32⟩ : BufTy).Contents (Elt F) → (⟨S1920000x1, .i32⟩ : BufTy).Contents (Elt F) → (⟨S1920000x32, .f32⟩ : BufTy).Contents (Elt F)),
    StableHlo.binary main_v84 main_v91 main_v92 ((fun a b => concatenate S1920000x64 1 [⟨S1920000x32, a⟩, ⟨S1920000x32, b⟩] concatenates_S1920000x32_S1920000x32_S1920000x64_d1) : (⟨S1920000x32, .f32⟩ : BufTy).Contents (Elt F) → (⟨S1920000x32, .f32⟩ : BufTy).Contents (Elt F) → (⟨S1920000x64, .f32⟩ : BufTy).Contents (Elt F)),
    StableHlo.nullary main_c_22 (constantI S_ 32 0#32),
    StableHlo.unary main_c_22 main_v93 (broadcastInDim S1920000 ![] bcast_S_S1920000 : (⟨S_, .i32⟩ : BufTy).Contents (Elt F) → (⟨S1920000, .i32⟩ : BufTy).Contents (Elt F)),
    StableHlo.binary main_arg20 main_v93 main_v94 (cmpi .slt : (⟨S1920000, .i32⟩ : BufTy).Contents (Elt F) → (⟨S1920000, .i32⟩ : BufTy).Contents (Elt F) → (⟨S1920000, .i1⟩ : BufTy).Contents (Elt F)),
    StableHlo.nullary main_c_23 (constantI S_ 32 16#32),
    StableHlo.unary main_c_23 main_v95 (broadcastInDim S1920000 ![] bcast_S_S1920000 : (⟨S_, .i32⟩ : BufTy).Contents (Elt F) → (⟨S1920000, .i32⟩ : BufTy).Contents (Elt F)),
    StableHlo.binary main_arg20 main_v95 main_v96 (addi : (⟨S1920000, .i32⟩ : BufTy).Contents (Elt F) → (⟨S1920000, .i32⟩ : BufTy).Contents (Elt F) → (⟨S1920000, .i32⟩ : BufTy).Contents (Elt F)),
    StableHlo.ternary main_v94 main_v96 main_arg20 main_v97 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v97 main_v98 (broadcastInDim S1920000x1 ![0] bcast_S1920000_S1920000x1_0 : (⟨S1920000, .i32⟩ : BufTy).Contents (Elt F) → (⟨S1920000x1, .i32⟩ : BufTy).Contents (Elt F)),
    StableHlo.binary main_v77 main_v98 main_v99 ((fun x i => Host.gather gather_S16x64_S1920000x1_S1920000x64_1_0_n_n_0_1_164 x i) : (⟨S16x64, .f32⟩ : BufTy).Contents (Elt F) → (⟨S1920000x1, .i32⟩ : BufTy).Contents (Elt F) → (⟨S1920000x64, .f32⟩ : BufTy).Contents (Elt F)),
    StableHlo.binary main_v92 main_v99 main_v100 (mulf : (⟨S1920000x64, .f32⟩ : BufTy).Contents (Elt F) → (⟨S1920000x64, .f32⟩ : BufTy).Contents (Elt F) → (⟨S1920000x64, .f32⟩ : BufTy).Contents (Elt F)),
    StableHlo.nullary main_cst_24 (constant S_ .f32 0x00000000#32),
    StableHlo.binary main_v100 main_cst_24 main_v101 ((fun x v => Host.reduceAdd x v reducesTo_S1920000x64_S1920000_d1 h_S_) : (⟨S1920000x64, .f32⟩ : BufTy).Contents (Elt F) → (⟨S_, .f32⟩ : BufTy).Contents (Elt F) → (⟨S1920000, .f32⟩ : BufTy).Contents (Elt F)),
    StableHlo.unary main_v101 main_v102 (broadcastInDim S1920000x1 ![0] bcast_S1920000_S1920000x1_0 : (⟨S1920000, .f32⟩ : BufTy).Contents (Elt F) → (⟨S1920000x1, .f32⟩ : BufTy).Contents (Elt F)),
    StableHlo.unary main_v102 main_v103 (Host.negf : (⟨S1920000x1, .f32⟩ : BufTy).Contents (Elt F) → (⟨S1920000x1, .f32⟩ : BufTy).Contents (Elt F)),
    StableHlo.unary main_v103 main_v104 (Host.exp : (⟨S1920000x1, .f32⟩ : BufTy).Contents (Elt F) → (⟨S1920000x1, .f32⟩ : BufTy).Contents (Elt F)),
    StableHlo.nullary main_cst_25 (constant S_ .f32 0x3F800000#32),
    StableHlo.unary main_cst_25 main_v105 (broadcastInDim S1920000x1 ![] bcast_S_S1920000x1 : (⟨S_, .f32⟩ : BufTy).Contents (Elt F) → (⟨S1920000x1, .f32⟩ : BufTy).Contents (Elt F)),
    StableHlo.binary main_v105 main_v104 main_v106 (addf : (⟨S1920000x1, .f32⟩ : BufTy).Contents (Elt F) → (⟨S1920000x1, .f32⟩ : BufTy).Contents (Elt F) → (⟨S1920000x1, .f32⟩ : BufTy).Contents (Elt F)),
    StableHlo.nullary main_cst_26 (constant S_ .f32 0x3F800000#32),
    StableHlo.unary main_cst_26 main_v107 (broadcastInDim S1920000x1 ![] bcast_S_S1920000x1 : (⟨S_, .f32⟩ : BufTy).Contents (Elt F) → (⟨S1920000x1, .f32⟩ : BufTy).Contents (Elt F)),
    StableHlo.binary main_v107 main_v106 main_v108 (Host.divf : (⟨S1920000x1, .f32⟩ : BufTy).Contents (Elt F) → (⟨S1920000x1, .f32⟩ : BufTy).Contents (Elt F) → (⟨S1920000x1, .f32⟩ : BufTy).Contents (Elt F)),
    StableHlo.unary main_v108 main_v109 (broadcastInDim S1920000x32 ![0, 1] bcast_S1920000x1_S1920000x32_0_1 : (⟨S1920000x1, .f32⟩ : BufTy).Contents (Elt F) → (⟨S1920000x32, .f32⟩ : BufTy).Contents (Elt F)),
    StableHlo.binary main_v91 main_v109 main_v110 (mulf : (⟨S1920000x32, .f32⟩ : BufTy).Contents (Elt F) → (⟨S1920000x32, .f32⟩ : BufTy).Contents (Elt F) → (⟨S1920000x32, .f32⟩ : BufTy).Contents (Elt F)),
    StableHlo.nullary main_cst_27 (constant S_ .f32 0x00000000#32),
    StableHlo.unary main_cst_27 main_v111 (broadcastInDim S60000x32 ![] bcast_S_S60000x32 : (⟨S_, .f32⟩ : BufTy).Contents (Elt F) → (⟨S60000x32, .f32⟩ : BufTy).Contents (Elt F)),
    StableHlo.unary main_arg19 main_v112 (broadcastInDim S1920000x1 ![0] bcast_S1920000_S1920000x1_0 : (⟨S1920000, .i32⟩ : BufTy).Contents (Elt F) → (⟨S1920000x1, .i32⟩ : BufTy).Contents (Elt F)),
    StableHlo.ternary main_v111 main_v112 main_v110 main_v113 ((fun x i u => Host.scatterAdd scatter_S60000x32_S1920000x1_S1920000x32_1_0_0_1 x i u) : (⟨S60000x32, .f32⟩ : BufTy).Contents (Elt F) → (⟨S1920000x1, .i32⟩ : BufTy).Contents (Elt F) → (⟨S1920000x32, .f32⟩ : BufTy).Contents (Elt F) → (⟨S60000x32, .f32⟩ : BufTy).Contents (Elt F)),
    StableHlo.nullary main_cst_28 (constant S_ .f32 0x3F800000#32),
    StableHlo.unary main_cst_28 main_v114 (broadcastInDim S1920000x1 ![] bcast_S_S1920000x1 : (⟨S_, .f32⟩ : BufTy).Contents (Elt F) → (⟨S1920000x1, .f32⟩ : BufTy).Contents (Elt F)),
    StableHlo.nullary main_cst_29 (constant S_ .f32 0x00000000#32),
    StableHlo.unary main_cst_29 main_v115 (broadcastInDim S60000x1 ![] bcast_S_S60000x1 : (⟨S_, .f32⟩ : BufTy).Contents (Elt F) → (⟨S60000x1, .f32⟩ : BufTy).Contents (Elt F)),
    StableHlo.unary main_arg19 main_v116 (broadcastInDim S1920000x1 ![0] bcast_S1920000_S1920000x1_0 : (⟨S1920000, .i32⟩ : BufTy).Contents (Elt F) → (⟨S1920000x1, .i32⟩ : BufTy).Contents (Elt F)),
    StableHlo.ternary main_v115 main_v116 main_v114 main_v117 ((fun x i u => Host.scatterAdd scatter_S60000x1_S1920000x1_S1920000x1_1_0_0_1 x i u) : (⟨S60000x1, .f32⟩ : BufTy).Contents (Elt F) → (⟨S1920000x1, .i32⟩ : BufTy).Contents (Elt F) → (⟨S1920000x1, .f32⟩ : BufTy).Contents (Elt F) → (⟨S60000x1, .f32⟩ : BufTy).Contents (Elt F)),
    StableHlo.nullary main_cst_30 (constant S_ .f32 0x00000000#32),
    StableHlo.unary main_cst_30 main_v118 (broadcastInDim S60000x1 ![] bcast_S_S60000x1 : (⟨S_, .f32⟩ : BufTy).Contents (Elt F) → (⟨S60000x1, .f32⟩ : BufTy).Contents (Elt F)),
    StableHlo.binary main_v117 main_v118 main_v119 (cmpf .ogt : (⟨S60000x1, .f32⟩ : BufTy).Contents (Elt F) → (⟨S60000x1, .f32⟩ : BufTy).Contents (Elt F) → (⟨S60000x1, .i1⟩ : BufTy).Contents (Elt F)),
    StableHlo.nullary main_cst_31 (constant S_ .f32 0x3F800000#32),
    StableHlo.unary main_cst_31 main_v120 (broadcastInDim S60000x1 ![] bcast_S_S60000x1 : (⟨S_, .f32⟩ : BufTy).Contents (Elt F) → (⟨S60000x1, .f32⟩ : BufTy).Contents (Elt F)),
    StableHlo.binary main_v117 main_v120 main_v121 (maximumf : (⟨S60000x1, .f32⟩ : BufTy).Contents (Elt F) → (⟨S60000x1, .f32⟩ : BufTy).Contents (Elt F) → (⟨S60000x1, .f32⟩ : BufTy).Contents (Elt F)),
    StableHlo.unary main_v121 main_v122 (broadcastInDim S60000x32 ![0, 1] bcast_S60000x1_S60000x32_0_1 : (⟨S60000x1, .f32⟩ : BufTy).Contents (Elt F) → (⟨S60000x32, .f32⟩ : BufTy).Contents (Elt F)),
    StableHlo.binary main_v113 main_v122 main_v123 (Host.divf : (⟨S60000x32, .f32⟩ : BufTy).Contents (Elt F) → (⟨S60000x32, .f32⟩ : BufTy).Contents (Elt F) → (⟨S60000x32, .f32⟩ : BufTy).Contents (Elt F)),
    StableHlo.nullary main_cst_32 (constant S_ .f32 0x00000000#32),
    StableHlo.TRef.unary (.of main_cst_32 : StableHlo.TRef sig ⟨S_, .f32⟩) main_call4.v0 id,
    StableHlo.TRef.unary (.of main_v119 : StableHlo.TRef sig ⟨S60000x1, .i1⟩) main_call4.v1 (broadcastInDim S60000x32 ![0, 1] bcast_S60000x1_S60000x32_0_1),
    StableHlo.TRef.unary main_call4.v0 main_call4.v2 (broadcastInDim S60000x32 ![] bcast_S_S60000x32),
    StableHlo.TRef.ternary main_call4.v1 (.of main_v123 : StableHlo.TRef sig ⟨S60000x32, .f32⟩) main_call4.v2 main_call4.v3 select,
    StableHlo.binary main_v76 main_v124 main_v125 ((fun a b => concatenate S60000x64 1 [⟨S60000x32, a⟩, ⟨S60000x32, b⟩] concatenates_S60000x32_S60000x32_S60000x64_d1) : (⟨S60000x32, .f32⟩ : BufTy).Contents (Elt F) → (⟨S60000x32, .f32⟩ : BufTy).Contents (Elt F) → (⟨S60000x64, .f32⟩ : BufTy).Contents (Elt F)),
    StableHlo.binary main_v125 main_arg14 main_v126 ((fun l r => Host.dotGeneral dot_S60000x64_S64x16_S60000x16_1_0_0_1_n_n none l r) : (⟨S60000x64, .f32⟩ : BufTy).Contents (Elt F) → (⟨S64x16, .f32⟩ : BufTy).Contents (Elt F) → (⟨S60000x16, .f32⟩ : BufTy).Contents (Elt F)),
    StableHlo.unary main_arg15 main_v127 (broadcastInDim S1x16 ![1] bcast_S16_S1x16_1 : (⟨S16, .f32⟩ : BufTy).Contents (Elt F) → (⟨S1x16, .f32⟩ : BufTy).Contents (Elt F)),
    StableHlo.unary main_v127 main_v128 (broadcastInDim S60000x16 ![0, 1] bcast_S1x16_S60000x16_0_1 : (⟨S1x16, .f32⟩ : BufTy).Contents (Elt F) → (⟨S60000x16, .f32⟩ : BufTy).Contents (Elt F)),
    StableHlo.binary main_v126 main_v128 main_v129 (addf : (⟨S60000x16, .f32⟩ : BufTy).Contents (Elt F) → (⟨S60000x16, .f32⟩ : BufTy).Contents (Elt F) → (⟨S60000x16, .f32⟩ : BufTy).Contents (Elt F)),
    StableHlo.nullary main_cst_33 (constant S_ .f32 0x3C23D70A#32),
    StableHlo.TRef.nullary main_call5.cst (constant S_ .f32 0x00000000#32),
    StableHlo.TRef.unary main_call5.cst main_call5.v0 (broadcastInDim S60000x16 ![] bcast_S_S60000x16),
    StableHlo.TRef.binary (.of main_v129 : StableHlo.TRef sig ⟨S60000x16, .f32⟩) main_call5.v0 main_call5.v1 (cmpf .oge),
    StableHlo.TRef.unary (.of main_cst_33 : StableHlo.TRef sig ⟨S_, .f32⟩) main_call5.v2 id,
    StableHlo.TRef.unary main_call5.v2 main_call5.v3 (broadcastInDim S60000x16 ![] bcast_S_S60000x16),
    StableHlo.TRef.binary main_call5.v3 (.of main_v129 : StableHlo.TRef sig ⟨S60000x16, .f32⟩) main_call5.v4 mulf,
    StableHlo.TRef.ternary main_call5.v1 (.of main_v129 : StableHlo.TRef sig ⟨S60000x16, .f32⟩) main_call5.v4 main_call5.call0.v0 select ]

/-- The buffers the second stretch writes, one per operation. -/
def writesB : List (Ref sig .tc) :=
  [main_cst_1, main_v23, main_c, main_v24, main_v25, main_c_2, main_v26, main_v27, main_v28, main_v29, main_v30, main_c_3, main_v31, main_v32, main_c_4, main_v33, main_v34, main_v35, main_v36, main_v37, main_v38, main_c_5, main_v39, main_v40, main_c_6, main_v41, main_v42, main_v43, main_v44, main_v45, main_v46, main_cst_7, main_v47, main_v48, main_v49, main_v50, main_cst_8, main_v51, main_v52, main_cst_9, main_v53, main_v54, main_v55, main_v56, main_cst_10, main_v57, main_v58, main_v59, main_cst_11, main_v60, main_cst_12, main_v61, main_v62, main_v63, main_cst_13, main_v64, main_v65, main_cst_14, main_v66, main_v67, main_v68, main_v69, main_cst_15, main_call2.v0.ref, main_call2.v1.ref, main_call2.v2.ref, main_call2.v3.ref, main_v71, main_v72, main_v73, main_v74, main_v75, main_cst_16, main_call3.cst.ref, main_call3.v0.ref, main_call3.v1.ref, main_call3.v2.ref, main_call3.v3.ref, main_call3.v4.ref, main_call3.call0.v0.ref]

/-- The buffers the third stretch writes, one per operation. -/
def writesC : List (Ref sig .tc) :=
  [main_cst_17, main_v77, main_c_18, main_v78, main_v79, main_c_19, main_v80, main_v81, main_v82, main_v83, main_v84, main_c_20, main_v85, main_v86, main_c_21, main_v87, main_v88, main_v89, main_v90, main_v91, main_v92, main_c_22, main_v93, main_v94, main_c_23, main_v95, main_v96, main_v97, main_v98, main_v99, main_v100, main_cst_24, main_v101, main_v102, main_v103, main_v104, main_cst_25, main_v105, main_v106, main_cst_26, main_v107, main_v108, main_v109, main_v110, main_cst_27, main_v111, main_v112, main_v113, main_cst_28, main_v114, main_cst_29, main_v115, main_v116, main_v117, main_cst_30, main_v118, main_v119, main_cst_31, main_v120, main_v121, main_v122, main_v123, main_cst_32, main_call4.v0.ref, main_call4.v1.ref, main_call4.v2.ref, main_call4.v3.ref, main_v125, main_v126, main_v127, main_v128, main_v129, main_cst_33, main_call5.cst.ref, main_call5.v0.ref, main_call5.v1.ref, main_call5.v2.ref, main_call5.v3.ref, main_call5.v4.ref, main_call5.call0.v0.ref]

theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Every operation of the second stretch writes a buffer of writesB. -/
theorem writesB_sub : (opsB : List (HloOp τ sig (Elt F))).Forall fun op =>
    op.writes ⊆ ((writesB.map (Proc.devRef (τ := τ) .tc)).toFinset : Finset (DevRef τ sig)) := by
  simp only [opsB, List.Forall, nullary_writes, unary_writes, binary_writes, ternary_writes,
    Finset.singleton_subset_iff, List.mem_toFinset]
  repeat' apply And.intro
  all_goals exact List.mem_map_of_mem (by decide)

/-- Every operation of the third stretch writes a buffer of writesC. -/
theorem writesC_sub : (opsC : List (HloOp τ sig (Elt F))).Forall fun op =>
    op.writes ⊆ ((writesC.map (Proc.devRef (τ := τ) .tc)).toFinset : Finset (DevRef τ sig)) := by
  simp only [opsC, List.Forall, nullary_writes, unary_writes, binary_writes, ternary_writes,
    Finset.singleton_subset_iff, List.mem_toFinset]
  repeat' apply And.intro
  all_goals exact List.mem_map_of_mem (by decide)

/-- A buffer the second stretch does not write keeps its contents across it. -/
theorem keepB (V : Valuation τ sig (Elt F)) {r : Ref sig .tc} (hr : r ∉ writesB) :
    after opsB V (Proc.devRef .tc r) = V (Proc.devRef .tc r) :=
  after_of_writes_sub opsB V writesB_sub hr

/-- A buffer the third stretch does not write keeps its contents across it. -/
theorem keepC (V : Valuation τ sig (Elt F)) {r : Ref sig .tc} (hr : r ∉ writesC) :
    after opsC V (Proc.devRef .tc r) = V (Proc.devRef .tc r) :=
  after_of_writes_sub opsC V writesC_sub hr

/-- The second stretch in four pieces: the summed relation weights and the two row gathers; the gate and the gated
    rows; the two scatters and the mean; the affine map and the leaky ReLU. -/
def opsB1 : List (HloOp τ sig (Elt F)) :=
  [ StableHlo.nullary main_cst_1 (constant S_ .f32 0x00000000#32),
    StableHlo.binary main_arg10 main_cst_1 main_v23 ((fun x v => Host.reduceAdd x v reducesTo_S16x64x32_S16x64_d2 h_S_) : (⟨S16x64x32, .f32⟩ : BufTy).Contents (Elt F) → (⟨S_, .f32⟩ : BufTy).Contents (Elt F) → (⟨S16x64, .f32⟩ : BufTy).Contents (Elt F)),
    StableHlo.nullary main_c (constantI S_ 32 0#32),
    StableHlo.unary main_c main_v24 (broadcastInDim S1920000 ![] bcast_S_S1920000 : (⟨S_, .i32⟩ : BufTy).Contents (Elt F) → (⟨S1920000, .i32⟩ : BufTy).Contents (Elt F)),
    StableHlo.binary main_arg19 main_v24 main_v25 (cmpi .slt : (⟨S1920000, .i32⟩ : BufTy).Contents (Elt F) → (⟨S1920000, .i32⟩ : BufTy).Contents (Elt F) → (⟨S1920000, .i1⟩ : BufTy).Contents (Elt F)),
    StableHlo.nullary main_c_2 (constantI S_ 32 60000#32),
    StableHlo.unary main_c_2 main_v26 (broadcastInDim S1920000 ![] bcast_S_S1920000 : (⟨S_, .i32⟩ : BufTy).Contents (Elt F) → (⟨S1920000, .i32⟩ : BufTy).Contents (Elt F)),
    StableHlo.binary main_arg19 main_v26 main_v27 (addi : (⟨S1920000, .i32⟩ : BufTy).Contents (Elt F) → (⟨S1920000, .i32⟩ : BufTy).Contents (Elt F) → (⟨S1920000, .i32⟩ : BufTy).Contents (Elt F)),
    StableHlo.ternary main_v25 main_v27 main_arg19 main_v28 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v28 main_v29 (broadcastInDim S1920000x1 ![0] bcast_S1920000_S1920000x1_0 : (⟨S1920000, .i32⟩ : BufTy).Contents (Elt F) → (⟨S1920000x1, .i32⟩ : BufTy).Contents (Elt F)),
    StableHlo.binary main_v9 main_v29 main_v30 ((fun x i => Host.gather gather_S60000x32_S1920000x1_S1920000x32_1_0_n_n_0_1_132 x i) : (⟨S60000x32, .f32⟩ : BufTy).Contents (Elt F) → (⟨S1920000x1, .i32⟩ : BufTy).Contents (Elt F) → (⟨S1920000x32, .f32⟩ : BufTy).Contents (Elt F)),
    StableHlo.nullary main_c_3 (constantI S_ 32 0#32),
    StableHlo.unary main_c_3 main_v31 (broadcastInDim S1920000 ![] bcast_S_S1920000 : (⟨S_, .i32⟩ : BufTy).Contents (Elt F) → (⟨S1920000, .i32⟩ : BufTy).Contents (Elt F)),
    StableHlo.binary main_arg18 main_v31 main_v32 (cmpi .slt : (⟨S1920000, .i32⟩ : BufTy).Contents (Elt F) → (⟨S1920000, .i32⟩ : BufTy).Contents (Elt F) → (⟨S1920000, .i1⟩ : BufTy).Contents (Elt F)),
    StableHlo.nullary main_c_4 (constantI S_ 32 60000#32),
    StableHlo.unary main_c_4 main_v33 (broadcastInDim S1920000 ![] bcast_S_S1920000 : (⟨S_, .i32⟩ : BufTy).Contents (Elt F) → (⟨S1920000, .i32⟩ : BufTy).Contents (Elt F)),
    StableHlo.binary main_arg18 main_v33 main_v34 (addi : (⟨S1920000, .i32⟩ : BufTy).Contents (Elt F) → (⟨S1920000, .i32⟩ : BufTy).Contents (Elt F) → (⟨S1920000, .i32⟩ : BufTy).Contents (Elt F)),
    StableHlo.ternary main_v32 main_v34 main_arg18 main_v35 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v35 main_v36 (broadcastInDim S1920000x1 ![0] bcast_S1920000_S1920000x1_0 : (⟨S1920000, .i32⟩ : BufTy).Contents (Elt F) → (⟨S1920000x1, .i32⟩ : BufTy).Contents (Elt F)),
    StableHlo.binary main_v9 main_v36 main_v37 ((fun x i => Host.gather gather_S60000x32_S1920000x1_S1920000x32_1_0_n_n_0_1_132 x i) : (⟨S60000x32, .f32⟩ : BufTy).Contents (Elt F) → (⟨S1920000x1, .i32⟩ : BufTy).Contents (Elt F) → (⟨S1920000x32, .f32⟩ : BufTy).Contents (Elt F)) ]

@[inherit_doc opsB1]
def opsB2 : List (HloOp τ sig (Elt F)) :=
  [ StableHlo.binary main_v30 main_v37 main_v38 ((fun a b => concatenate S1920000x64 1 [⟨S1920000x32, a⟩, ⟨S1920000x32, b⟩] concatenates_S1920000x32_S1920000x32_S1920000x64_d1) : (⟨S1920000x32, .f32⟩ : BufTy).Contents (Elt F) → (⟨S1920000x32, .f32⟩ : BufTy).Contents (Elt F) → (⟨S1920000x64, .f32⟩ : BufTy).Contents (Elt F)),
    StableHlo.nullary main_c_5 (constantI S_ 32 0#32),
    StableHlo.unary main_c_5 main_v39 (broadcastInDim S1920000 ![] bcast_S_S1920000 : (⟨S_, .i32⟩ : BufTy).Contents (Elt F) → (⟨S1920000, .i32⟩ : BufTy).Contents (Elt F)),
    StableHlo.binary main_arg20 main_v39 main_v40 (cmpi .slt : (⟨S1920000, .i32⟩ : BufTy).Contents (Elt F) → (⟨S1920000, .i32⟩ : BufTy).Contents (Elt F) → (⟨S1920000, .i1⟩ : BufTy).Contents (Elt F)),
    StableHlo.nullary main_c_6 (constantI S_ 32 16#32),
    StableHlo.unary main_c_6 main_v41 (broadcastInDim S1920000 ![] bcast_S_S1920000 : (⟨S_, .i32⟩ : BufTy).Contents (Elt F) → (⟨S1920000, .i32⟩ : BufTy).Contents (Elt F)),
    StableHlo.binary main_arg20 main_v41 main_v42 (addi : (⟨S1920000, .i32⟩ : BufTy).Contents (Elt F) → (⟨S1920000, .i32⟩ : BufTy).Contents (Elt F) → (⟨S1920000, .i32⟩ : BufTy).Contents (Elt F)),
    StableHlo.ternary main_v40 main_v42 main_arg20 main_v43 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v43 main_v44 (broadcastInDim S1920000x1 ![0] bcast_S1920000_S1920000x1_0 : (⟨S1920000, .i32⟩ : BufTy).Contents (Elt F) → (⟨S1920000x1, .i32⟩ : BufTy).Contents (Elt F)),
    StableHlo.binary main_v23 main_v44 main_v45 ((fun x i => Host.gather gather_S16x64_S1920000x1_S1920000x64_1_0_n_n_0_1_164 x i) : (⟨S16x64, .f32⟩ : BufTy).Contents (Elt F) → (⟨S1920000x1, .i32⟩ : BufTy).Contents (Elt F) → (⟨S1920000x64, .f32⟩ : BufTy).Contents (Elt F)),
    StableHlo.binary main_v38 main_v45 main_v46 (mulf : (⟨S1920000x64, .f32⟩ : BufTy).Contents (Elt F) → (⟨S1920000x64, .f32⟩ : BufTy).Contents (Elt F) → (⟨S1920000x64, .f32⟩ : BufTy).Contents (Elt F)),
    StableHlo.nullary main_cst_7 (constant S_ .f32 0x00000000#32),
    StableHlo.binary main_v46 main_cst_7 main_v47 ((fun x v => Host.reduceAdd x v reducesTo_S1920000x64_S1920000_d1 h_S_) : (⟨S1920000x64, .f32⟩ : BufTy).Contents (Elt F) → (⟨S_, .f32⟩ : BufTy).Contents (Elt F) → (⟨S1920000, .f32⟩ : BufTy).Contents (Elt F)),
    StableHlo.unary main_v47 main_v48 (broadcastInDim S1920000x1 ![0] bcast_S1920000_S1920000x1_0 : (⟨S1920000, .f32⟩ : BufTy).Contents (Elt F) → (⟨S1920000x1, .f32⟩ : BufTy).Contents (Elt F)),
    StableHlo.unary main_v48 main_v49 (Host.negf : (⟨S1920000x1, .f32⟩ : BufTy).Contents (Elt F) → (⟨S1920000x1, .f32⟩ : BufTy).Contents (Elt F)),
    StableHlo.unary main_v49 main_v50 (Host.exp : (⟨S1920000x1, .f32⟩ : BufTy).Contents (Elt F) → (⟨S1920000x1, .f32⟩ : BufTy).Contents (Elt F)),
    StableHlo.nullary main_cst_8 (constant S_ .f32 0x3F800000#32),
    StableHlo.unary main_cst_8 main_v51 (broadcastInDim S1920000x1 ![] bcast_S_S1920000x1 : (⟨S_, .f32⟩ : BufTy).Contents (Elt F) → (⟨S1920000x1, .f32⟩ : BufTy).Contents (Elt F)),
    StableHlo.binary main_v51 main_v50 main_v52 (addf : (⟨S1920000x1, .f32⟩ : BufTy).Contents (Elt F) → (⟨S1920000x1, .f32⟩ : BufTy).Contents (Elt F) → (⟨S1920000x1, .f32⟩ : BufTy).Contents (Elt F)),
    StableHlo.nullary main_cst_9 (constant S_ .f32 0x3F800000#32),
    StableHlo.unary main_cst_9 main_v53 (broadcastInDim S1920000x1 ![] bcast_S_S1920000x1 : (⟨S_, .f32⟩ : BufTy).Contents (Elt F) → (⟨S1920000x1, .f32⟩ : BufTy).Contents (Elt F)),
    StableHlo.binary main_v53 main_v52 main_v54 (Host.divf : (⟨S1920000x1, .f32⟩ : BufTy).Contents (Elt F) → (⟨S1920000x1, .f32⟩ : BufTy).Contents (Elt F) → (⟨S1920000x1, .f32⟩ : BufTy).Contents (Elt F)),
    StableHlo.unary main_v54 main_v55 (broadcastInDim S1920000x32 ![0, 1] bcast_S1920000x1_S1920000x32_0_1 : (⟨S1920000x1, .f32⟩ : BufTy).Contents (Elt F) → (⟨S1920000x32, .f32⟩ : BufTy).Contents (Elt F)),
    StableHlo.binary main_v37 main_v55 main_v56 (mulf : (⟨S1920000x32, .f32⟩ : BufTy).Contents (Elt F) → (⟨S1920000x32, .f32⟩ : BufTy).Contents (Elt F) → (⟨S1920000x32, .f32⟩ : BufTy).Contents (Elt F)) ]

@[inherit_doc opsB1]
def opsB3 : List (HloOp τ sig (Elt F)) :=
  [ StableHlo.nullary main_cst_10 (constant S_ .f32 0x00000000#32),
    StableHlo.unary main_cst_10 main_v57 (broadcastInDim S60000x32 ![] bcast_S_S60000x32 : (⟨S_, .f32⟩ : BufTy).Contents (Elt F) → (⟨S60000x32, .f32⟩ : BufTy).Contents (Elt F)),
    StableHlo.unary main_arg19 main_v58 (broadcastInDim S1920000x1 ![0] bcast_S1920000_S1920000x1_0 : (⟨S1920000, .i32⟩ : BufTy).Contents (Elt F) → (⟨S1920000x1, .i32⟩ : BufTy).Contents (Elt F)),
    StableHlo.ternary main_v57 main_v58 main_v56 main_v59 ((fun x i u => Host.scatterAdd scatter_S60000x32_S1920000x1_S1920000x32_1_0_0_1 x i u) : (⟨S60000x32, .f32⟩ : BufTy).Contents (Elt F) → (⟨S1920000x1, .i32⟩ : BufTy).Contents (Elt F) → (⟨S1920000x32, .f32⟩ : BufTy).Contents (Elt F) → (⟨S60000x32, .f32⟩ : BufTy).Contents (Elt F)),
    StableHlo.nullary main_cst_11 (constant S_ .f32 0x3F800000#32),
    StableHlo.unary main_cst_11 main_v60 (broadcastInDim S1920000x1 ![] bcast_S_S1920000x1 : (⟨S_, .f32⟩ : BufTy).Contents (Elt F) → (⟨S1920000x1, .f32⟩ : BufTy).Contents (Elt F)),
    StableHlo.nullary main_cst_12 (constant S_ .f32 0x00000000#32),
    StableHlo.unary main_cst_12 main_v61 (broadcastInDim S60000x1 ![] bcast_S_S60000x1 : (⟨S_, .f32⟩ : BufTy).Contents (Elt F) → (⟨S60000x1, .f32⟩ : BufTy).Contents (Elt F)),
    StableHlo.unary main_arg19 main_v62 (broadcastInDim S1920000x1 ![0] bcast_S1920000_S1920000x1_0 : (⟨S1920000, .i32⟩ : BufTy).Contents (Elt F) → (⟨S1920000x1, .i32⟩ : BufTy).Contents (Elt F)),
    StableHlo.ternary main_v61 main_v62 main_v60 main_v63 ((fun x i u => Host.scatterAdd scatter_S60000x1_S1920000x1_S1920000x1_1_0_0_1 x i u) : (⟨S60000x1, .f32⟩ : BufTy).Contents (Elt F) → (⟨S1920000x1, .i32⟩ : BufTy).Contents (Elt F) → (⟨S1920000x1, .f32⟩ : BufTy).Contents (Elt F) → (⟨S60000x1, .f32⟩ : BufTy).Contents (Elt F)),
    StableHlo.nullary main_cst_13 (constant S_ .f32 0x00000000#32),
    StableHlo.unary main_cst_13 main_v64 (broadcastInDim S60000x1 ![] bcast_S_S60000x1 : (⟨S_, .f32⟩ : BufTy).Contents (Elt F) → (⟨S60000x1, .f32⟩ : BufTy).Contents (Elt F)),
    StableHlo.binary main_v63 main_v64 main_v65 (cmpf .ogt : (⟨S60000x1, .f32⟩ : BufTy).Contents (Elt F) → (⟨S60000x1, .f32⟩ : BufTy).Contents (Elt F) → (⟨S60000x1, .i1⟩ : BufTy).Contents (Elt F)),
    StableHlo.nullary main_cst_14 (constant S_ .f32 0x3F800000#32),
    StableHlo.unary main_cst_14 main_v66 (broadcastInDim S60000x1 ![] bcast_S_S60000x1 : (⟨S_, .f32⟩ : BufTy).Contents (Elt F) → (⟨S60000x1, .f32⟩ : BufTy).Contents (Elt F)),
    StableHlo.binary main_v63 main_v66 main_v67 (maximumf : (⟨S60000x1, .f32⟩ : BufTy).Contents (Elt F) → (⟨S60000x1, .f32⟩ : BufTy).Contents (Elt F) → (⟨S60000x1, .f32⟩ : BufTy).Contents (Elt F)),
    StableHlo.unary main_v67 main_v68 (broadcastInDim S60000x32 ![0, 1] bcast_S60000x1_S60000x32_0_1 : (⟨S60000x1, .f32⟩ : BufTy).Contents (Elt F) → (⟨S60000x32, .f32⟩ : BufTy).Contents (Elt F)),
    StableHlo.binary main_v59 main_v68 main_v69 (Host.divf : (⟨S60000x32, .f32⟩ : BufTy).Contents (Elt F) → (⟨S60000x32, .f32⟩ : BufTy).Contents (Elt F) → (⟨S60000x32, .f32⟩ : BufTy).Contents (Elt F)),
    StableHlo.nullary main_cst_15 (constant S_ .f32 0x00000000#32),
    StableHlo.TRef.unary (.of main_cst_15 : StableHlo.TRef sig ⟨S_, .f32⟩) main_call2.v0 id,
    StableHlo.TRef.unary (.of main_v65 : StableHlo.TRef sig ⟨S60000x1, .i1⟩) main_call2.v1 (broadcastInDim S60000x32 ![0, 1] bcast_S60000x1_S60000x32_0_1),
    StableHlo.TRef.unary main_call2.v0 main_call2.v2 (broadcastInDim S60000x32 ![] bcast_S_S60000x32),
    StableHlo.TRef.ternary main_call2.v1 (.of main_v69 : StableHlo.TRef sig ⟨S60000x32, .f32⟩) main_call2.v2 main_call2.v3 select ]

@[inherit_doc opsB1]
def opsB4 : List (HloOp τ sig (Elt F)) :=
  [ StableHlo.binary main_v9 main_v70 main_v71 ((fun a b => concatenate S60000x64 1 [⟨S60000x32, a⟩, ⟨S60000x32, b⟩] concatenates_S60000x32_S60000x32_S60000x64_d1) : (⟨S60000x32, .f32⟩ : BufTy).Contents (Elt F) → (⟨S60000x32, .f32⟩ : BufTy).Contents (Elt F) → (⟨S60000x64, .f32⟩ : BufTy).Contents (Elt F)),
    StableHlo.binary main_v71 main_arg11 main_v72 ((fun l r => Host.dotGeneral dot_S60000x64_S64x32_S60000x32_1_0_0_1_n_n none l r) : (⟨S60000x64, .f32⟩ : BufTy).Contents (Elt F) → (⟨S64x32, .f32⟩ : BufTy).Contents (Elt F) → (⟨S60000x32, .f32⟩ : BufTy).Contents (Elt F)),
    StableHlo.unary main_arg12 main_v73 (broadcastInDim S1x32 ![1] bcast_S32_S1x32_1 : (⟨S32, .f32⟩ : BufTy).Contents (Elt F) → (⟨S1x32, .f32⟩ : BufTy).Contents (Elt F)),
    StableHlo.unary main_v73 main_v74 (broadcastInDim S60000x32 ![0, 1] bcast_S1x32_S60000x32_0_1 : (⟨S1x32, .f32⟩ : BufTy).Contents (Elt F) → (⟨S60000x32, .f32⟩ : BufTy).Contents (Elt F)),
    StableHlo.binary main_v72 main_v74 main_v75 (addf : (⟨S60000x32, .f32⟩ : BufTy).Contents (Elt F) → (⟨S60000x32, .f32⟩ : BufTy).Contents (Elt F) → (⟨S60000x32, .f32⟩ : BufTy).Contents (Elt F)),
    StableHlo.nullary main_cst_16 (constant S_ .f32 0x3C23D70A#32),
    StableHlo.TRef.nullary main_call3.cst (constant S_ .f32 0x00000000#32),
    StableHlo.TRef.unary main_call3.cst main_call3.v0 (broadcastInDim S60000x32 ![] bcast_S_S60000x32),
    StableHlo.TRef.binary (.of main_v75 : StableHlo.TRef sig ⟨S60000x32, .f32⟩) main_call3.v0 main_call3.v1 (cmpf .oge),
    StableHlo.TRef.unary (.of main_cst_16 : StableHlo.TRef sig ⟨S_, .f32⟩) main_call3.v2 id,
    StableHlo.TRef.unary main_call3.v2 main_call3.v3 (broadcastInDim S60000x32 ![] bcast_S_S60000x32),
    StableHlo.TRef.binary main_call3.v3 (.of main_v75 : StableHlo.TRef sig ⟨S60000x32, .f32⟩) main_call3.v4 mulf,
    StableHlo.TRef.ternary main_call3.v1 (.of main_v75 : StableHlo.TRef sig ⟨S60000x32, .f32⟩) main_call3.v4 main_call3.call0.v0 select ]

/-- The stretch is its four pieces in order. -/
theorem opsB_pieces : (opsB : List (HloOp τ sig (Elt F))) = opsB1 ++ (opsB2 ++ (opsB3 ++ opsB4)) := rfl

/-- The buffers each piece writes. -/
def writesB1 : List (Ref sig .tc) :=
  [main_cst_1, main_v23, main_c, main_v24, main_v25, main_c_2, main_v26, main_v27, main_v28, main_v29, main_v30, main_c_3, main_v31, main_v32, main_c_4, main_v33, main_v34, main_v35, main_v36, main_v37]
@[inherit_doc writesB1]
def writesB2 : List (Ref sig .tc) :=
  [main_v38, main_c_5, main_v39, main_v40, main_c_6, main_v41, main_v42, main_v43, main_v44, main_v45, main_v46, main_cst_7, main_v47, main_v48, main_v49, main_v50, main_cst_8, main_v51, main_v52, main_cst_9, main_v53, main_v54, main_v55, main_v56]
@[inherit_doc writesB1]
def writesB3 : List (Ref sig .tc) :=
  [main_cst_10, main_v57, main_v58, main_v59, main_cst_11, main_v60, main_cst_12, main_v61, main_v62, main_v63, main_cst_13, main_v64, main_v65, main_cst_14, main_v66, main_v67, main_v68, main_v69, main_cst_15, main_call2.v0.ref, main_call2.v1.ref, main_call2.v2.ref, main_call2.v3.ref]

theorem keepB1 (V : Valuation τ sig (Elt F)) {r : Ref sig .tc} (hr : r ∉ writesB1) :
    after opsB1 V (Proc.devRef .tc r) = V (Proc.devRef .tc r) :=
  after_of_writes_sub opsB1 V (by
    simp only [opsB1, List.Forall, nullary_writes, unary_writes, binary_writes, ternary_writes,
      Finset.singleton_subset_iff, List.mem_toFinset]
    repeat' apply And.intro
    all_goals exact List.mem_map_of_mem (by decide)) hr

theorem keepB2 (V : Valuation τ sig (Elt F)) {r : Ref sig .tc} (hr : r ∉ writesB2) :
    after opsB2 V (Proc.devRef .tc r) = V (Proc.devRef .tc r) :=
  after_of_writes_sub opsB2 V (by
    simp only [opsB2, List.Forall, nullary_writes, unary_writes, binary_writes, ternary_writes,
      Finset.singleton_subset_iff, List.mem_toFinset]
    repeat' apply And.intro
    all_goals exact List.mem_map_of_mem (by decide)) hr

theorem keepB3 (V : Valuation τ sig (Elt F)) {r : Ref sig .tc} (hr : r ∉ writesB3) :
    after opsB3 V (Proc.devRef .tc r) = V (Proc.devRef .tc r) :=
  after_of_writes_sub opsB3 V (by
    simp only [opsB3, List.Forall, nullary_writes, unary_writes, binary_writes, ternary_writes,
      Finset.singleton_subset_iff, List.mem_toFinset]
    repeat' apply And.intro
    all_goals exact List.mem_map_of_mem (by decide)) hr

/-- The first piece at its three results: the relation's summed weights, and the rows of the node features at the
    edges' destinations and sources. -/
theorem readB1_ws (V : Valuation τ sig (Elt F)) :
    after opsB1 V (main_v23 : DevRef τ sig) = Cert.Stages.relSum (F := F) (V main_arg10) := by
  unfold opsB1
  after_results_simp
  rfl

@[inherit_doc readB1_ws]
theorem readB1_hd (V : Valuation τ sig (Elt F)) :
    after opsB1 V (main_v30 : DevRef τ sig) = Cert.Stages.rowsAt (F := F) (V main_v9) (V main_arg19) := by
  unfold opsB1
  after_results_simp
  rfl

@[inherit_doc readB1_ws]
theorem readB1_hs (V : Valuation τ sig (Elt F)) :
    after opsB1 V (main_v37 : DevRef τ sig) = Cert.Stages.rowsAt (F := F) (V main_v9) (V main_arg18) := by
  unfold opsB1
  after_results_simp
  rfl

/-- The second piece at its last buffer: the gated source rows. -/
theorem readB2 (V : Valuation τ sig (Elt F)) :
    after opsB2 V (main_v56 : DevRef τ sig)
      = Cert.Stages.gated (F := F) (V main_v30) (V main_v37) (V main_arg20) (V main_v23) := by
  unfold opsB2
  after_results_simp
  rfl

/-- The third piece at its last buffer: the gated rows averaged per destination. -/
theorem readB3 (V : Valuation τ sig (Elt F)) :
    after opsB3 V (main_v70 : DevRef τ sig) = Cert.Stages.segMean (F := F) (V main_v56) (V main_arg19) := by
  unfold opsB3
  after_results_simp
  rfl

/-- The fourth piece at its last buffer: the leaky affine map of each node's own row beside the mean. -/
theorem readB4 (V : Valuation τ sig (Elt F)) :
    after opsB4 V (main_v76 : DevRef τ sig)
      = Cert.Stages.linLeaky32 (F := F) (V main_v9) (V main_v70) (V main_arg11) (V main_arg12) := by
  unfold opsB4
  after_results_simp
  rfl

/-- The fold over a list run in two parts. -/
theorem after_appB (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The whole stretch at its last buffer, the pieces composed: each piece reads what the ones before it left, and the
    buffers a piece does not write come through it unchanged. -/
theorem readB_gen (V : Valuation τ sig (Elt F)) :
    after opsB V (main_v76 : DevRef τ sig)
      = Cert.Stages.linLeaky32 (F := F) (V main_v9)
          (Cert.Stages.aggOf (F := F) (V main_v9) (V main_arg18) (V main_arg19) (V main_arg20) (V main_arg10))
          (V main_arg11) (V main_arg12) := by
  rw [opsB_pieces, after_appB, after_appB, after_appB, readB4, readB3, readB2, readB1_ws, readB1_hd,
    readB1_hs]
  simp only [keepB3 _ (r := main_v9) (by decide), keepB3 _ (r := main_arg11) (by decide), keepB3 _ (r := main_arg12) (by decide),
    keepB2 _ (r := main_v9) (by decide), keepB2 _ (r := main_arg11) (by decide), keepB2 _ (r := main_arg12) (by decide),
    keepB2 _ (r := main_arg19) (by decide),
    keepB1 _ (r := main_v9) (by decide), keepB1 _ (r := main_arg11) (by decide), keepB1 _ (r := main_arg12) (by decide),
    keepB1 _ (r := main_arg19) (by decide), keepB1 _ (r := main_arg20) (by decide)]
  rfl

/-- The first convolution read back: the fold of the second stretch at its last buffer is the leaky affine map of
    the encoder's rows beside their gated neighbourhood mean. -/
theorem readB (V : Valuation τ sig (Elt Ideal)) :
    after opsB V (main_v76 : DevRef τ sig)
      = Cert.Stages.linLeaky32 (F := Ideal) (V main_v9)
          (Cert.Stages.aggOf (F := Ideal) (V main_v9) (V main_arg18) (V main_arg19) (V main_arg20) (V main_arg10))
          (V main_arg11) (V main_arg12) :=
  readB_gen V

/-- The third stretch in four pieces: the summed relation weights and the two row gathers; the gate and the gated
    rows; the two scatters and the mean; the affine map and the leaky ReLU. -/
def opsC1 : List (HloOp τ sig (Elt F)) :=
  [ StableHlo.nullary main_cst_17 (constant S_ .f32 0x00000000#32),
    StableHlo.binary main_arg13 main_cst_17 main_v77 ((fun x v => Host.reduceAdd x v reducesTo_S16x64x32_S16x64_d2 h_S_) : (⟨S16x64x32, .f32⟩ : BufTy).Contents (Elt F) → (⟨S_, .f32⟩ : BufTy).Contents (Elt F) → (⟨S16x64, .f32⟩ : BufTy).Contents (Elt F)),
    StableHlo.nullary main_c_18 (constantI S_ 32 0#32),
    StableHlo.unary main_c_18 main_v78 (broadcastInDim S1920000 ![] bcast_S_S1920000 : (⟨S_, .i32⟩ : BufTy).Contents (Elt F) → (⟨S1920000, .i32⟩ : BufTy).Contents (Elt F)),
    StableHlo.binary main_arg19 main_v78 main_v79 (cmpi .slt : (⟨S1920000, .i32⟩ : BufTy).Contents (Elt F) → (⟨S1920000, .i32⟩ : BufTy).Contents (Elt F) → (⟨S1920000, .i1⟩ : BufTy).Contents (Elt F)),
    StableHlo.nullary main_c_19 (constantI S_ 32 60000#32),
    StableHlo.unary main_c_19 main_v80 (broadcastInDim S1920000 ![] bcast_S_S1920000 : (⟨S_, .i32⟩ : BufTy).Contents (Elt F) → (⟨S1920000, .i32⟩ : BufTy).Contents (Elt F)),
    StableHlo.binary main_arg19 main_v80 main_v81 (addi : (⟨S1920000, .i32⟩ : BufTy).Contents (Elt F) → (⟨S1920000, .i32⟩ : BufTy).Contents (Elt F) → (⟨S1920000, .i32⟩ : BufTy).Contents (Elt F)),
    StableHlo.ternary main_v79 main_v81 main_arg19 main_v82 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v82 main_v83 (broadcastInDim S1920000x1 ![0] bcast_S1920000_S1920000x1_0 : (⟨S1920000, .i32⟩ : BufTy).Contents (Elt F) → (⟨S1920000x1, .i32⟩ : BufTy).Contents (Elt F)),
    StableHlo.binary main_v76 main_v83 main_v84 ((fun x i => Host.gather gather_S60000x32_S1920000x1_S1920000x32_1_0_n_n_0_1_132 x i) : (⟨S60000x32, .f32⟩ : BufTy).Contents (Elt F) → (⟨S1920000x1, .i32⟩ : BufTy).Contents (Elt F) → (⟨S1920000x32, .f32⟩ : BufTy).Contents (Elt F)),
    StableHlo.nullary main_c_20 (constantI S_ 32 0#32),
    StableHlo.unary main_c_20 main_v85 (broadcastInDim S1920000 ![] bcast_S_S1920000 : (⟨S_, .i32⟩ : BufTy).Contents (Elt F) → (⟨S1920000, .i32⟩ : BufTy).Contents (Elt F)),
    StableHlo.binary main_arg18 main_v85 main_v86 (cmpi .slt : (⟨S1920000, .i32⟩ : BufTy).Contents (Elt F) → (⟨S1920000, .i32⟩ : BufTy).Contents (Elt F) → (⟨S1920000, .i1⟩ : BufTy).Contents (Elt F)),
    StableHlo.nullary main_c_21 (constantI S_ 32 60000#32),
    StableHlo.unary main_c_21 main_v87 (broadcastInDim S1920000 ![] bcast_S_S1920000 : (⟨S_, .i32⟩ : BufTy).Contents (Elt F) → (⟨S1920000, .i32⟩ : BufTy).Contents (Elt F)),
    StableHlo.binary main_arg18 main_v87 main_v88 (addi : (⟨S1920000, .i32⟩ : BufTy).Contents (Elt F) → (⟨S1920000, .i32⟩ : BufTy).Contents (Elt F) → (⟨S1920000, .i32⟩ : BufTy).Contents (Elt F)),
    StableHlo.ternary main_v86 main_v88 main_arg18 main_v89 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v89 main_v90 (broadcastInDim S1920000x1 ![0] bcast_S1920000_S1920000x1_0 : (⟨S1920000, .i32⟩ : BufTy).Contents (Elt F) → (⟨S1920000x1, .i32⟩ : BufTy).Contents (Elt F)),
    StableHlo.binary main_v76 main_v90 main_v91 ((fun x i => Host.gather gather_S60000x32_S1920000x1_S1920000x32_1_0_n_n_0_1_132 x i) : (⟨S60000x32, .f32⟩ : BufTy).Contents (Elt F) → (⟨S1920000x1, .i32⟩ : BufTy).Contents (Elt F) → (⟨S1920000x32, .f32⟩ : BufTy).Contents (Elt F)) ]

@[inherit_doc opsC1]
def opsC2 : List (HloOp τ sig (Elt F)) :=
  [ StableHlo.binary main_v84 main_v91 main_v92 ((fun a b => concatenate S1920000x64 1 [⟨S1920000x32, a⟩, ⟨S1920000x32, b⟩] concatenates_S1920000x32_S1920000x32_S1920000x64_d1) : (⟨S1920000x32, .f32⟩ : BufTy).Contents (Elt F) → (⟨S1920000x32, .f32⟩ : BufTy).Contents (Elt F) → (⟨S1920000x64, .f32⟩ : BufTy).Contents (Elt F)),
    StableHlo.nullary main_c_22 (constantI S_ 32 0#32),
    StableHlo.unary main_c_22 main_v93 (broadcastInDim S1920000 ![] bcast_S_S1920000 : (⟨S_, .i32⟩ : BufTy).Contents (Elt F) → (⟨S1920000, .i32⟩ : BufTy).Contents (Elt F)),
    StableHlo.binary main_arg20 main_v93 main_v94 (cmpi .slt : (⟨S1920000, .i32⟩ : BufTy).Contents (Elt F) → (⟨S1920000, .i32⟩ : BufTy).Contents (Elt F) → (⟨S1920000, .i1⟩ : BufTy).Contents (Elt F)),
    StableHlo.nullary main_c_23 (constantI S_ 32 16#32),
    StableHlo.unary main_c_23 main_v95 (broadcastInDim S1920000 ![] bcast_S_S1920000 : (⟨S_, .i32⟩ : BufTy).Contents (Elt F) → (⟨S1920000, .i32⟩ : BufTy).Contents (Elt F)),
    StableHlo.binary main_arg20 main_v95 main_v96 (addi : (⟨S1920000, .i32⟩ : BufTy).Contents (Elt F) → (⟨S1920000, .i32⟩ : BufTy).Contents (Elt F) → (⟨S1920000, .i32⟩ : BufTy).Contents (Elt F)),
    StableHlo.ternary main_v94 main_v96 main_arg20 main_v97 (select : (⟨S1920000, .i1⟩ : BufTy).Contents (Elt F) → (⟨S1920000, .i32⟩ : BufTy).Contents (Elt F) → (⟨S1920000, .i32⟩ : BufTy).Contents (Elt F) → (⟨S1920000, .i32⟩ : BufTy).Contents (Elt F)),
    StableHlo.unary main_v97 main_v98 (broadcastInDim S1920000x1 ![0] bcast_S1920000_S1920000x1_0 : (⟨S1920000, .i32⟩ : BufTy).Contents (Elt F) → (⟨S1920000x1, .i32⟩ : BufTy).Contents (Elt F)),
    StableHlo.binary main_v77 main_v98 main_v99 ((fun x i => Host.gather gather_S16x64_S1920000x1_S1920000x64_1_0_n_n_0_1_164 x i) : (⟨S16x64, .f32⟩ : BufTy).Contents (Elt F) → (⟨S1920000x1, .i32⟩ : BufTy).Contents (Elt F) → (⟨S1920000x64, .f32⟩ : BufTy).Contents (Elt F)),
    StableHlo.binary main_v92 main_v99 main_v100 (mulf : (⟨S1920000x64, .f32⟩ : BufTy).Contents (Elt F) → (⟨S1920000x64, .f32⟩ : BufTy).Contents (Elt F) → (⟨S1920000x64, .f32⟩ : BufTy).Contents (Elt F)),
    StableHlo.nullary main_cst_24 (constant S_ .f32 0x00000000#32),
    StableHlo.binary main_v100 main_cst_24 main_v101 ((fun x v => Host.reduceAdd x v reducesTo_S1920000x64_S1920000_d1 h_S_) : (⟨S1920000x64, .f32⟩ : BufTy).Contents (Elt F) → (⟨S_, .f32⟩ : BufTy).Contents (Elt F) → (⟨S1920000, .f32⟩ : BufTy).Contents (Elt F)),
    StableHlo.unary main_v101 main_v102 (broadcastInDim S1920000x1 ![0] bcast_S1920000_S1920000x1_0 : (⟨S1920000, .f32⟩ : BufTy).Contents (Elt F) → (⟨S1920000x1, .f32⟩ : BufTy).Contents (Elt F)),
    StableHlo.unary main_v102 main_v103 (Host.negf : (⟨S1920000x1, .f32⟩ : BufTy).Contents (Elt F) → (⟨S1920000x1, .f32⟩ : BufTy).Contents (Elt F)),
    StableHlo.unary main_v103 main_v104 (Host.exp : (⟨S1920000x1, .f32⟩ : BufTy).Contents (Elt F) → (⟨S1920000x1, .f32⟩ : BufTy).Contents (Elt F)),
    StableHlo.nullary main_cst_25 (constant S_ .f32 0x3F800000#32),
    StableHlo.unary main_cst_25 main_v105 (broadcastInDim S1920000x1 ![] bcast_S_S1920000x1 : (⟨S_, .f32⟩ : BufTy).Contents (Elt F) → (⟨S1920000x1, .f32⟩ : BufTy).Contents (Elt F)),
    StableHlo.binary main_v105 main_v104 main_v106 (addf : (⟨S1920000x1, .f32⟩ : BufTy).Contents (Elt F) → (⟨S1920000x1, .f32⟩ : BufTy).Contents (Elt F) → (⟨S1920000x1, .f32⟩ : BufTy).Contents (Elt F)),
    StableHlo.nullary main_cst_26 (constant S_ .f32 0x3F800000#32),
    StableHlo.unary main_cst_26 main_v107 (broadcastInDim S1920000x1 ![] bcast_S_S1920000x1 : (⟨S_, .f32⟩ : BufTy).Contents (Elt F) → (⟨S1920000x1, .f32⟩ : BufTy).Contents (Elt F)),
    StableHlo.binary main_v107 main_v106 main_v108 (Host.divf : (⟨S1920000x1, .f32⟩ : BufTy).Contents (Elt F) → (⟨S1920000x1, .f32⟩ : BufTy).Contents (Elt F) → (⟨S1920000x1, .f32⟩ : BufTy).Contents (Elt F)),
    StableHlo.unary main_v108 main_v109 (broadcastInDim S1920000x32 ![0, 1] bcast_S1920000x1_S1920000x32_0_1 : (⟨S1920000x1, .f32⟩ : BufTy).Contents (Elt F) → (⟨S1920000x32, .f32⟩ : BufTy).Contents (Elt F)),
    StableHlo.binary main_v91 main_v109 main_v110 (mulf : (⟨S1920000x32, .f32⟩ : BufTy).Contents (Elt F) → (⟨S1920000x32, .f32⟩ : BufTy).Contents (Elt F) → (⟨S1920000x32, .f32⟩ : BufTy).Contents (Elt F)) ]

@[inherit_doc opsC1]
def opsC3 : List (HloOp τ sig (Elt F)) :=
  [ StableHlo.nullary main_cst_27 (constant S_ .f32 0x00000000#32),
    StableHlo.unary main_cst_27 main_v111 (broadcastInDim S60000x32 ![] bcast_S_S60000x32 : (⟨S_, .f32⟩ : BufTy).Contents (Elt F) → (⟨S60000x32, .f32⟩ : BufTy).Contents (Elt F)),
    StableHlo.unary main_arg19 main_v112 (broadcastInDim S1920000x1 ![0] bcast_S1920000_S1920000x1_0 : (⟨S1920000, .i32⟩ : BufTy).Contents (Elt F) → (⟨S1920000x1, .i32⟩ : BufTy).Contents (Elt F)),
    StableHlo.ternary main_v111 main_v112 main_v110 main_v113 ((fun x i u => Host.scatterAdd scatter_S60000x32_S1920000x1_S1920000x32_1_0_0_1 x i u) : (⟨S60000x32, .f32⟩ : BufTy).Contents (Elt F) → (⟨S1920000x1, .i32⟩ : BufTy).Contents (Elt F) → (⟨S1920000x32, .f32⟩ : BufTy).Contents (Elt F) → (⟨S60000x32, .f32⟩ : BufTy).Contents (Elt F)),
    StableHlo.nullary main_cst_28 (constant S_ .f32 0x3F800000#32),
    StableHlo.unary main_cst_28 main_v114 (broadcastInDim S1920000x1 ![] bcast_S_S1920000x1 : (⟨S_, .f32⟩ : BufTy).Contents (Elt F) → (⟨S1920000x1, .f32⟩ : BufTy).Contents (Elt F)),
    StableHlo.nullary main_cst_29 (constant S_ .f32 0x00000000#32),
    StableHlo.unary main_cst_29 main_v115 (broadcastInDim S60000x1 ![] bcast_S_S60000x1 : (⟨S_, .f32⟩ : BufTy).Contents (Elt F) → (⟨S60000x1, .f32⟩ : BufTy).Contents (Elt F)),
    StableHlo.unary main_arg19 main_v116 (broadcastInDim S1920000x1 ![0] bcast_S1920000_S1920000x1_0 : (⟨S1920000, .i32⟩ : BufTy).Contents (Elt F) → (⟨S1920000x1, .i32⟩ : BufTy).Contents (Elt F)),
    StableHlo.ternary main_v115 main_v116 main_v114 main_v117 ((fun x i u => Host.scatterAdd scatter_S60000x1_S1920000x1_S1920000x1_1_0_0_1 x i u) : (⟨S60000x1, .f32⟩ : BufTy).Contents (Elt F) → (⟨S1920000x1, .i32⟩ : BufTy).Contents (Elt F) → (⟨S1920000x1, .f32⟩ : BufTy).Contents (Elt F) → (⟨S60000x1, .f32⟩ : BufTy).Contents (Elt F)),
    StableHlo.nullary main_cst_30 (constant S_ .f32 0x00000000#32),
    StableHlo.unary main_cst_30 main_v118 (broadcastInDim S60000x1 ![] bcast_S_S60000x1 : (⟨S_, .f32⟩ : BufTy).Contents (Elt F) → (⟨S60000x1, .f32⟩ : BufTy).Contents (Elt F)),
    StableHlo.binary main_v117 main_v118 main_v119 (cmpf .ogt : (⟨S60000x1, .f32⟩ : BufTy).Contents (Elt F) → (⟨S60000x1, .f32⟩ : BufTy).Contents (Elt F) → (⟨S60000x1, .i1⟩ : BufTy).Contents (Elt F)),
    StableHlo.nullary main_cst_31 (constant S_ .f32 0x3F800000#32),
    StableHlo.unary main_cst_31 main_v120 (broadcastInDim S60000x1 ![] bcast_S_S60000x1 : (⟨S_, .f32⟩ : BufTy).Contents (Elt F) → (⟨S60000x1, .f32⟩ : BufTy).Contents (Elt F)),
    StableHlo.binary main_v117 main_v120 main_v121 (maximumf : (⟨S60000x1, .f32⟩ : BufTy).Contents (Elt F) → (⟨S60000x1, .f32⟩ : BufTy).Contents (Elt F) → (⟨S60000x1, .f32⟩ : BufTy).Contents (Elt F)),
    StableHlo.unary main_v121 main_v122 (broadcastInDim S60000x32 ![0, 1] bcast_S60000x1_S60000x32_0_1 : (⟨S60000x1, .f32⟩ : BufTy).Contents (Elt F) → (⟨S60000x32, .f32⟩ : BufTy).Contents (Elt F)),
    StableHlo.binary main_v113 main_v122 main_v123 (Host.divf : (⟨S60000x32, .f32⟩ : BufTy).Contents (Elt F) → (⟨S60000x32, .f32⟩ : BufTy).Contents (Elt F) → (⟨S60000x32, .f32⟩ : BufTy).Contents (Elt F)),
    StableHlo.nullary main_cst_32 (constant S_ .f32 0x00000000#32),
    StableHlo.TRef.unary (.of main_cst_32 : StableHlo.TRef sig ⟨S_, .f32⟩) main_call4.v0 id,
    StableHlo.TRef.unary (.of main_v119 : StableHlo.TRef sig ⟨S60000x1, .i1⟩) main_call4.v1 (broadcastInDim S60000x32 ![0, 1] bcast_S60000x1_S60000x32_0_1),
    StableHlo.TRef.unary main_call4.v0 main_call4.v2 (broadcastInDim S60000x32 ![] bcast_S_S60000x32),
    StableHlo.TRef.ternary main_call4.v1 (.of main_v123 : StableHlo.TRef sig ⟨S60000x32, .f32⟩) main_call4.v2 main_call4.v3 select ]

@[inherit_doc opsC1]
def opsC4 : List (HloOp τ sig (Elt F)) :=
  [ StableHlo.binary main_v76 main_v124 main_v125 ((fun a b => concatenate S60000x64 1 [⟨S60000x32, a⟩, ⟨S60000x32, b⟩] concatenates_S60000x32_S60000x32_S60000x64_d1) : (⟨S60000x32, .f32⟩ : BufTy).Contents (Elt F) → (⟨S60000x32, .f32⟩ : BufTy).Contents (Elt F) → (⟨S60000x64, .f32⟩ : BufTy).Contents (Elt F)),
    StableHlo.binary main_v125 main_arg14 main_v126 ((fun l r => Host.dotGeneral dot_S60000x64_S64x16_S60000x16_1_0_0_1_n_n none l r) : (⟨S60000x64, .f32⟩ : BufTy).Contents (Elt F) → (⟨S64x16, .f32⟩ : BufTy).Contents (Elt F) → (⟨S60000x16, .f32⟩ : BufTy).Contents (Elt F)),
    StableHlo.unary main_arg15 main_v127 (broadcastInDim S1x16 ![1] bcast_S16_S1x16_1 : (⟨S16, .f32⟩ : BufTy).Contents (Elt F) → (⟨S1x16, .f32⟩ : BufTy).Contents (Elt F)),
    StableHlo.unary main_v127 main_v128 (broadcastInDim S60000x16 ![0, 1] bcast_S1x16_S60000x16_0_1 : (⟨S1x16, .f32⟩ : BufTy).Contents (Elt F) → (⟨S60000x16, .f32⟩ : BufTy).Contents (Elt F)),
    StableHlo.binary main_v126 main_v128 main_v129 (addf : (⟨S60000x16, .f32⟩ : BufTy).Contents (Elt F) → (⟨S60000x16, .f32⟩ : BufTy).Contents (Elt F) → (⟨S60000x16, .f32⟩ : BufTy).Contents (Elt F)),
    StableHlo.nullary main_cst_33 (constant S_ .f32 0x3C23D70A#32),
    StableHlo.TRef.nullary main_call5.cst (constant S_ .f32 0x00000000#32),
    StableHlo.TRef.unary main_call5.cst main_call5.v0 (broadcastInDim S60000x16 ![] bcast_S_S60000x16),
    StableHlo.TRef.binary (.of main_v129 : StableHlo.TRef sig ⟨S60000x16, .f32⟩) main_call5.v0 main_call5.v1 (cmpf .oge),
    StableHlo.TRef.unary (.of main_cst_33 : StableHlo.TRef sig ⟨S_, .f32⟩) main_call5.v2 id,
    StableHlo.TRef.unary main_call5.v2 main_call5.v3 (broadcastInDim S60000x16 ![] bcast_S_S60000x16),
    StableHlo.TRef.binary main_call5.v3 (.of main_v129 : StableHlo.TRef sig ⟨S60000x16, .f32⟩) main_call5.v4 mulf,
    StableHlo.TRef.ternary main_call5.v1 (.of main_v129 : StableHlo.TRef sig ⟨S60000x16, .f32⟩) main_call5.v4 main_call5.call0.v0 select ]

/-- The stretch is its four pieces in order. -/
theorem opsC_pieces : (opsC : List (HloOp τ sig (Elt F))) = opsC1 ++ (opsC2 ++ (opsC3 ++ opsC4)) := rfl

/-- The buffers each piece writes. -/
def writesC1 : List (Ref sig .tc) :=
  [main_cst_17, main_v77, main_c_18, main_v78, main_v79, main_c_19, main_v80, main_v81, main_v82, main_v83, main_v84, main_c_20, main_v85, main_v86, main_c_21, main_v87, main_v88, main_v89, main_v90, main_v91]
@[inherit_doc writesC1]
def writesC2 : List (Ref sig .tc) :=
  [main_v92, main_c_22, main_v93, main_v94, main_c_23, main_v95, main_v96, main_v97, main_v98, main_v99, main_v100, main_cst_24, main_v101, main_v102, main_v103, main_v104, main_cst_25, main_v105, main_v106, main_cst_26, main_v107, main_v108, main_v109, main_v110]
@[inherit_doc writesC1]
def writesC3 : List (Ref sig .tc) :=
  [main_cst_27, main_v111, main_v112, main_v113, main_cst_28, main_v114, main_cst_29, main_v115, main_v116, main_v117, main_cst_30, main_v118, main_v119, main_cst_31, main_v120, main_v121, main_v122, main_v123, main_cst_32, main_call4.v0.ref, main_call4.v1.ref, main_call4.v2.ref, main_call4.v3.ref]

theorem keepC1 (V : Valuation τ sig (Elt F)) {r : Ref sig .tc} (hr : r ∉ writesC1) :
    after opsC1 V (Proc.devRef .tc r) = V (Proc.devRef .tc r) :=
  after_of_writes_sub opsC1 V (by
    simp only [opsC1, List.Forall, nullary_writes, unary_writes, binary_writes, ternary_writes,
      Finset.singleton_subset_iff, List.mem_toFinset]
    repeat' apply And.intro
    all_goals exact List.mem_map_of_mem (by decide)) hr

theorem keepC2 (V : Valuation τ sig (Elt F)) {r : Ref sig .tc} (hr : r ∉ writesC2) :
    after opsC2 V (Proc.devRef .tc r) = V (Proc.devRef .tc r) :=
  after_of_writes_sub opsC2 V (by
    simp only [opsC2, List.Forall, nullary_writes, unary_writes, binary_writes, ternary_writes,
      Finset.singleton_subset_iff, List.mem_toFinset]
    repeat' apply And.intro
    all_goals exact List.mem_map_of_mem (by decide)) hr

theorem keepC3 (V : Valuation τ sig (Elt F)) {r : Ref sig .tc} (hr : r ∉ writesC3) :
    after opsC3 V (Proc.devRef .tc r) = V (Proc.devRef .tc r) :=
  after_of_writes_sub opsC3 V (by
    simp only [opsC3, List.Forall, nullary_writes, unary_writes, binary_writes, ternary_writes,
      Finset.singleton_subset_iff, List.mem_toFinset]
    repeat' apply And.intro
    all_goals exact List.mem_map_of_mem (by decide)) hr

/-- The first piece at its three results: the relation's summed weights, and the rows of the node features at the
    edges' destinations and sources. -/
theorem readC1_ws (V : Valuation τ sig (Elt F)) :
    after opsC1 V (main_v77 : DevRef τ sig) = Cert.Stages.relSum (F := F) (V main_arg13) := by
  unfold opsC1
  after_results_simp
  rfl

@[inherit_doc readC1_ws]
theorem readC1_hd (V : Valuation τ sig (Elt F)) :
    after opsC1 V (main_v84 : DevRef τ sig) = Cert.Stages.rowsAt (F := F) (V main_v76) (V main_arg19) := by
  unfold opsC1
  after_results_simp
  rfl

@[inherit_doc readC1_ws]
theorem readC1_hs (V : Valuation τ sig (Elt F)) :
    after opsC1 V (main_v91 : DevRef τ sig) = Cert.Stages.rowsAt (F := F) (V main_v76) (V main_arg18) := by
  unfold opsC1
  after_results_simp
  rfl

/-- The second piece at its last buffer: the gated source rows. -/
theorem readC2 (V : Valuation τ sig (Elt F)) :
    after opsC2 V (main_v110 : DevRef τ sig)
      = Cert.Stages.gated (F := F) (V main_v84) (V main_v91) (V main_arg20) (V main_v77) := by
  unfold opsC2
  after_results_simp
  rfl

/-- The third piece at its last buffer: the gated rows averaged per destination. -/
theorem readC3 (V : Valuation τ sig (Elt F)) :
    after opsC3 V (main_v124 : DevRef τ sig) = Cert.Stages.segMean (F := F) (V main_v110) (V main_arg19) := by
  unfold opsC3
  after_results_simp
  rfl

/-- The fourth piece at its last buffer: the leaky affine map of each node's own row beside the mean. -/
theorem readC4 (V : Valuation τ sig (Elt F)) :
    after opsC4 V (main_v130 : DevRef τ sig)
      = Cert.Stages.linLeaky16 (F := F) (V main_v76) (V main_v124) (V main_arg14) (V main_arg15) := by
  unfold opsC4
  after_results_simp
  rfl

/-- The fold over a list run in two parts. -/
theorem after_appC (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The whole stretch at its last buffer, the pieces composed: each piece reads what the ones before it left, and the
    buffers a piece does not write come through it unchanged. -/
theorem readC_gen (V : Valuation τ sig (Elt F)) :
    after opsC V (main_v130 : DevRef τ sig)
      = Cert.Stages.linLeaky16 (F := F) (V main_v76)
          (Cert.Stages.aggOf (F := F) (V main_v76) (V main_arg18) (V main_arg19) (V main_arg20) (V main_arg13))
          (V main_arg14) (V main_arg15) := by
  rw [opsC_pieces, after_appC, after_appC, after_appC, readC4, readC3, readC2, readC1_ws, readC1_hd,
    readC1_hs]
  simp only [keepC3 _ (r := main_v76) (by decide), keepC3 _ (r := main_arg14) (by decide), keepC3 _ (r := main_arg15) (by decide),
    keepC2 _ (r := main_v76) (by decide), keepC2 _ (r := main_arg14) (by decide), keepC2 _ (r := main_arg15) (by decide),
    keepC2 _ (r := main_arg19) (by decide),
    keepC1 _ (r := main_v76) (by decide), keepC1 _ (r := main_arg14) (by decide), keepC1 _ (r := main_arg15) (by decide),
    keepC1 _ (r := main_arg19) (by decide), keepC1 _ (r := main_arg20) (by decide)]
  rfl

/-- The second convolution read back: the fold of the third stretch at its last buffer is the leaky affine map, to
    16 columns, of the first layer's rows beside their gated neighbourhood mean. -/
theorem readC (V : Valuation τ sig (Elt Ideal)) :
    after opsC V (main_v130 : DevRef τ sig)
      = Cert.Stages.linLeaky16 (F := Ideal) (V main_v76)
          (Cert.Stages.aggOf (F := Ideal) (V main_v76) (V main_arg18) (V main_arg19) (V main_arg20) (V main_arg13))
          (V main_arg14) (V main_arg15) :=
  readC_gen V

end Cert.ReferenceIdeal.RefOps

end
-- ==== Proof.RefRun.lean ====
import proofs.«429255_j2413771620669_3_alg».proof.Proof.Gen.ReferenceIdeal
import proofs.«429255_j2413771620669_3_alg».proof.Proof.Stages
import proofs.«429255_j2413771620669_3_alg».proof.Proof.RefOpsAD
import proofs.«429255_j2413771620669_3_alg».proof.Proof.RefOpsBC
import Idealize.ShloMosaic.PureOps.Ideal
import Idealize.ShloMosaic.Lib.StableHlo.Run

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

section Generic

variable {F : FTy → Type} [FloatOps F]

set_option maxRecDepth 65536 in
set_option maxHeartbeats 4000000 in
/-- @main is the four stretches in a row: the functions' definitions unfolded at their calls and the records at
    their fields, both sides are one chain of host steps once sequencing is reassociated. -/
theorem main_eq (c : Dev nD) : main (F := F) c = seq (opsA ++ opsB ++ opsC ++ opsD) := by
  simp only [main, main_part0, main_part1, main_part2, main_part3, fn_relu.body, fn_where.body, fn_where_0.body,
    fn_where_2.body, fn_leaky_relu.body, fn_leaky_relu_1.body, opsA, opsB, opsC, opsD, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the four stretches touches TensorCore buffers only. -/
theorem ops_sub : (opsA ++ opsB ++ opsC ++ opsD : List (HloOp τ sig (Elt F))).Forall fun op => op.bufs ⊆ tcRefs τ sig :=
  List.forall_iff_forall_mem.mpr fun op h => by
    simp only [List.mem_append] at h
    rcases h with ((h | h) | h) | h
    · exact List.forall_iff_forall_mem.mp opsA_sub op h
    · exact List.forall_iff_forall_mem.mp opsB_sub op h
    · exact List.forall_iff_forall_mem.mp opsC_sub op h
    · exact List.forall_iff_forall_mem.mp opsD_sub op h

/-- Every weakly fair execution of @main on the TensorCores terminates, and every final state has each TensorCore
    buffer at the four stretches' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (opsA ++ opsB ++ opsC ++ opsD) (launchContents m c) (b : DevRef τ sig) :=
  run_seq scopedRefs_eq scopedSems_eq defs main (fun _ => opsA ++ opsB ++ opsC ++ opsD) main_eq (fun _ => ops_sub) m ρ

/-- The fold over two stretches in a row is the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The fold over the four stretches, one stretch at a time. -/
theorem after_four (V : Valuation τ sig (Elt F)) :
    after (opsA ++ opsB ++ opsC ++ opsD) V = after opsD (after opsC (after opsB (after opsA V))) := by
  rw [after_app, after_app, after_app]

/-- A buffer none of the four stretches writes ends as it began. -/
theorem keepAll (V : Valuation τ sig (Elt F)) {r : Ref sig .tc} (hA : r ∉ writesA) (hB : r ∉ writesB) (hC : r ∉ writesC)
    (hD : r ∉ writesD) :
    after opsD (after opsC (after opsB (after opsA V))) (Proc.devRef .tc r) = V (Proc.devRef .tc r) := by
  rw [keepD _ hD, keepC _ hC, keepB _ hB, keepA _ hA]

end Generic

/-- The loss buffer after the four stretches: written by the first, kept by the others. -/
theorem loss_eq (V : Valuation τ sig (Elt Ideal)) :
    after opsD (after opsC (after opsB (after opsA V))) (Proc.devRef .tc main_v22)
      = Cert.Stages.loss (F := Ideal) (V main_arg0) (V main_arg1) (V main_arg2) (V main_arg3) (V main_arg4) (V main_arg5)
          (V main_arg6) (V main_arg7) (V main_arg8) (V main_arg9) := by
  rw [keepD (r := main_v22) _ (by decide), keepC (r := main_v22) _ (by decide), keepB (r := main_v22) _ (by decide)]
  exact readA_loss V

/-- The score buffer after the four stretches: the last stretch's dot product of the rows gathered from the two
    layers' features, the second layer read off the third stretch, the first off the second, the encoder's output off
    the first; every argument read along the way is as launched. -/
theorem scores_eq (V : Valuation τ sig (Elt Ideal)) :
    after opsD (after opsC (after opsB (after opsA V))) (Proc.devRef .tc main_v149)
      = Cert.Stages.scores (F := Ideal) (V main_arg0) (V main_arg1) (V main_arg2) (V main_arg3) (V main_arg4) (V main_arg5)
          (V main_arg10) (V main_arg11) (V main_arg12) (V main_arg13) (V main_arg14) (V main_arg15)
          (V main_arg16) (V main_arg17) (V main_arg18) (V main_arg19) (V main_arg20) := by
  rw [readD, keepC (r := main_v76) _ (by decide), readC, readB, readA_enc,
    keepC (r := main_arg16) _ (by decide), keepC (r := main_arg17) _ (by decide),
    keepB (r := main_arg16) _ (by decide), keepB (r := main_arg17) _ (by decide),
    keepB (r := main_arg18) _ (by decide), keepB (r := main_arg19) _ (by decide), keepB (r := main_arg20) _ (by decide),
    keepB (r := main_arg13) _ (by decide), keepB (r := main_arg14) _ (by decide), keepB (r := main_arg15) _ (by decide),
    keepA (r := main_arg16) _ (by decide), keepA (r := main_arg17) _ (by decide),
    keepA (r := main_arg18) _ (by decide), keepA (r := main_arg19) _ (by decide), keepA (r := main_arg20) _ (by decide),
    keepA (r := main_arg13) _ (by decide), keepA (r := main_arg14) _ (by decide), keepA (r := main_arg15) _ (by decide),
    keepA (r := main_arg10) _ (by decide), keepA (r := main_arg11) _ (by decide), keepA (r := main_arg12) _ (by decide)]
  rfl

/-- The reference's run: every weakly fair execution of its @main terminates, nothing faulting, with the two result
    buffers at the stages' composition of the launch arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v149)
          = Cert.Stages.scores (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
              (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v22)
          = Cert.Stages.loss (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c =>
    have e : ∀ b : Ref sig .tc, r.2.mem ((c.tc : Thread nD τ).loc b)
        = after opsD (after opsC (after opsB (after opsA (launchContents m c)))) (Proc.devRef .tc b) :=
      fun b => (h c b).trans (congrFun (after_four (launchContents m c)) _)
    ⟨(e main_v149).trans (scores_eq (launchContents m c)),
      (e main_v22).trans (loss_eq (launchContents m c)),
      (e main_arg0).trans (keepAll (launchContents m c) (by decide) (by decide) (by decide) (by decide)),
      (e main_arg1).trans (keepAll (launchContents m c) (by decide) (by decide) (by decide) (by decide)),
      (e main_arg2).trans (keepAll (launchContents m c) (by decide) (by decide) (by decide) (by decide)),
      (e main_arg3).trans (keepAll (launchContents m c) (by decide) (by decide) (by decide) (by decide)),
      (e main_arg4).trans (keepAll (launchContents m c) (by decide) (by decide) (by decide) (by decide)),
      (e main_arg5).trans (keepAll (launchContents m c) (by decide) (by decide) (by decide) (by decide)),
      (e main_arg6).trans (keepAll (launchContents m c) (by decide) (by decide) (by decide) (by decide)),
      (e main_arg7).trans (keepAll (launchContents m c) (by decide) (by decide) (by decide) (by decide)),
      (e main_arg8).trans (keepAll (launchContents m c) (by decide) (by decide) (by decide) (by decide)),
      (e main_arg9).trans (keepAll (launchContents m c) (by decide) (by decide) (by decide) (by decide)),
      (e main_arg10).trans (keepAll (launchContents m c) (by decide) (by decide) (by decide) (by decide)),
      (e main_arg11).trans (keepAll (launchContents m c) (by decide) (by decide) (by decide) (by decide)),
      (e main_arg12).trans (keepAll (launchContents m c) (by decide) (by decide) (by decide) (by decide)),
      (e main_arg13).trans (keepAll (launchContents m c) (by decide) (by decide) (by decide) (by decide)),
      (e main_arg14).trans (keepAll (launchContents m c) (by decide) (by decide) (by decide) (by decide)),
      (e main_arg15).trans (keepAll (launchContents m c) (by decide) (by decide) (by decide) (by decide)),
      (e main_arg16).trans (keepAll (launchContents m c) (by decide) (by decide) (by decide) (by decide)),
      (e main_arg17).trans (keepAll (launchContents m c) (by decide) (by decide) (by decide) (by decide)),
      (e main_arg18).trans (keepAll (launchContents m c) (by decide) (by decide) (by decide) (by decide)),
      (e main_arg19).trans (keepAll (launchContents m c) (by decide) (by decide) (by decide) (by decide)),
      (e main_arg20).trans (keepAll (launchContents m c) (by decide) (by decide) (by decide) (by decide))⟩)
    (run_main (F := Ideal) m ρ)

end Cert.ReferenceIdeal.RefRun

end
-- ==== Proof.PreRel.lean ====
import proofs.«429255_j2413771620669_3_alg».proof.Defs
import proofs.«429255_j2413771620669_3_alg».proof.Proof.Gen.KernelIdeal
import proofs.«429255_j2413771620669_3_alg».proof.Proof.Gen.Pre_finite_inputs
import Idealize.ShloMosaic.Lib.ReduceAll

noncomputable section

namespace Cert.PreRel

open Idealize.ShloMosaic Idealize.ShloMosaic.TcCoe Idealize.SL.Sem

/-- A rank-0 array has exactly one index. -/
instance : Subsingleton Cert.Pre_finite_inputs.S_.Idx := ⟨fun a b => funext fun d => d.elim0⟩

/-- A 32-bit word that is at least 0 and below 16 as a signed integer is below 16 as a natural number. -/
theorem toNat_lt_16 (w : BitVec 32) (h0 : IntOp.cmpi .sge w 0#32 = 1#1) (h1 : IntOp.cmpi .slt w 16#32 = 1#1) :
    w.toNat < 16 := by
  rw [IntOp.cmpi_sge] at h0
  rw [IntOp.cmpi_slt] at h1
  have a : (0#32 : BitVec 32).toInt = 0 := by decide
  have b : (16#32 : BitVec 32).toInt = 16 := by decide
  rw [a] at h0
  rw [b] at h1
  have hw := w.isLt
  rw [BitVec.toInt_eq_toNat_cond] at h0 h1
  split at h0 <;> omega

section
variable [Cert.Pre_finite_inputs.Facts]
open Cert.Pre_finite_inputs Cert.Pre_finite_inputs.Facts

/-- The last part of the predicate is the conjunction of what came before with "every element of the last
    one-bit array is 1". -/
theorem part5_one (v82 : IVec S_ 1) (v84 : IVec S1920000 1) (i : S_.Idx)
    (h : fn_part5 (F := Ideal) v82 v84 i = 1#1) : v82 i = 1#1 ∧ ∀ e, v84 e = 1#1 := by
  unfold fn_part5 at h
  have h' : IntOp.andi (v82 i)
      (Host.reduce IntOp.andi v84 (constantI S_ 1 1#1) reducesTo_S1920000_S_d0 h_S_ i) = 1#1 := h
  obtain ⟨h1, h2⟩ := IntOp.andi_eq_one.1 h'
  exact ⟨h1, fun e => Host.reduce_andi_all _ _ _ _ i h2 e⟩

/-- The fourth part of the predicate holds only if every relation word is at least 0 and below 16 (signed):
    these are its last two conjuncts. -/
theorem part4_rel (a14 : FVec Ideal S64x16 .f32) (a15 : FVec Ideal S16 .f32) (a20 : IVec S1920000 32)
    (v63 v67 : IVec S_ 1) (i : S_.Idx)
    (h : fn_part4 (F := Ideal) a14 a15 a20 v63 v67 i = 1#1) (e : S1920000.Idx) :
    IntOp.cmpi .sge (a20 e) 0#32 = 1#1 ∧ IntOp.cmpi .slt (a20 e) 16#32 = 1#1 := by
  unfold fn_part4 at h
  obtain ⟨h82, h84⟩ := part5_one _ _ i h
  have h84e := h84 e
  obtain ⟨-, h81⟩ := IntOp.andi_eq_one.1 h82
  have h80e := Host.reduce_andi_all _ _ _ _ i h81 e
  exact ⟨h80e, h84e⟩

end

/-- The precondition says every relation id is one of the 16 relations. -/
theorem rel_lt_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (e : Cert.KernelIdeal.S1920000.Idx) :
    ((m ((c.tc : Thread Cert.KernelIdeal.nD Cert.KernelIdeal.τ).loc Cert.KernelIdeal.main_arg20) : IVec Cert.KernelIdeal.S1920000 32) e).toNat < 16 := by
  haveI : Cert.Pre_finite_inputs.Facts := Cert.Pre_finite_inputs.Gen.facts
  have e0 := congrFun (h c) (fun d => d.elim0)
  unfold Cert.Pre_finite_inputs.fn Cert.Pre_finite_inputs.fn_part1 Cert.Pre_finite_inputs.fn_part2
    Cert.Pre_finite_inputs.fn_part3 at e0
  obtain ⟨h0, h1⟩ := part4_rel _ _ _ _ _ _ e0 e
  exact toNat_lt_16 _ h0 h1

end Cert.PreRel

end
-- ==== Proof.lean ====
/-
  The certificate of the graph-network kernel against its jnp reference, over the extended reals.

  Both programs compute, from the node embeddings and the edge lists: an autoencoder's encoding and decoding of the
  embeddings (two affine maps with a ReLU between, each way) and the mean squared reconstruction error; two
  relation-gated graph convolutions (at every edge the gate sigmoid(Σ_j [h_dst, h_src]_j · Σ_k W_r[rel]_{jk}) scales the
  source node's row, the scaled rows are averaged per destination node, and a leaky-ReLU linear layer maps the node's
  own row beside that average); and for each user-item pair the dot product of the two layers' features. The kernel
  runs the dense parts as six tiled regions (rows of nodes, or of edges, blocked) with the gathers and the scatter-sums
  on the host between them; the reference is host operations throughout. At the ideal instance a tiled matrix product
  into a zero accumulator, the host's dot_general, a lane sum and the host's reduce are the same finite sums, a change
  of float format is the identity, and the kernel's logistic is the reference's 1 / (1 + exp(-x)); so stage by stage
  the two programs are one function of the argument arrays (Proof/Stages.lean), and no law used needs finiteness.

  One difference in how the relation id indexes the 16 summed relation weights is what the added precondition
  removes: the reference wraps a negative id (numpy indexing) where the kernel clamps it to 0; for ids in [0, 16),
  the relation labels' range, both read row `rel`.

  The kernel's run with its result buffers named is the generated launch called with the results kept in the post
  (Proof/KRun.lean); the buffers are then read back through @main's segments (Proof/KChainA.lean, KChainB.lean), each
  region's output array being a whole-array stage of its input arrays (Proof/Region*.lean). The reference's run is its
  list of host operations read back (Proof/RefOps*.lean, RefRun.lean).
-/
import proofs.«429255_j2413771620669_3_alg».proof.Defs
import proofs.«429255_j2413771620669_3_alg».proof.Proof.Gen.Kernel
import proofs.«429255_j2413771620669_3_alg».proof.Proof.Gen.Kernel.Skeleton
import proofs.«429255_j2413771620669_3_alg».proof.Proof.Gen.Kernel.Launch
import proofs.«429255_j2413771620669_3_alg».proof.Proof.Gen.Kernel.Points
import proofs.«429255_j2413771620669_3_alg».proof.Proof.Gen.Kernel.Frame
import proofs.«429255_j2413771620669_3_alg».proof.Proof.Gen.KernelIdeal
import proofs.«429255_j2413771620669_3_alg».proof.Proof.Gen.KernelIdeal.Skeleton
import proofs.«429255_j2413771620669_3_alg».proof.Proof.Gen.KernelIdeal.Launch
import proofs.«429255_j2413771620669_3_alg».proof.Proof.Gen.KernelIdeal.Points
import proofs.«429255_j2413771620669_3_alg».proof.Proof.Gen.KernelIdeal.Frame
import proofs.«429255_j2413771620669_3_alg».proof.Proof.Gen.ReferenceIdeal
import proofs.«429255_j2413771620669_3_alg».proof.Proof.Gen.Pre_finite_inputs
import proofs.«429255_j2413771620669_3_alg».proof.Proof.Stages
import proofs.«429255_j2413771620669_3_alg».proof.Proof.KRun
import proofs.«429255_j2413771620669_3_alg».proof.Proof.KChainA
import proofs.«429255_j2413771620669_3_alg».proof.Proof.KChainB
import proofs.«429255_j2413771620669_3_alg».proof.Proof.RefRun
import proofs.«429255_j2413771620669_3_alg».proof.Proof.PreRel
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.RefRun.run m ρ)

/-- The ideal pass rewrote nothing. -/
theorem preserves : Cert.preserves_Kernel_KernelIdeal := trivial

/-- From memories agreeing on the arguments, with every relation id in [0, 16), both programs end with the scores and
    the reconstruction error at the same functions of the argument arrays. -/
theorem algebraic : Cert.algebraic_KernelIdeal_ReferenceIdeal := by
  intro m ρ m' ρ' hpre hagree
  have hrel := fun c e => Cert.PreRel.rel_lt_of_pre m hpre c e
  refine ⟨fun c => Cert.Stages.scores (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => Cert.Stages.loss (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.KRun.run_W15 (F := Ideal) m ρ)
    obtain ⟨h90, h5, hargs⟩ := h c
    obtain ⟨e38, e5, eargs⟩ := Cert.KernelIdeal.KChain.upto7 m ρ hrel c
    refine ⟨h90.trans ?_, h5.trans ?_, hargs⟩
    · exact Cert.KernelIdeal.KChain.from7 m ρ hrel c _ e38 eargs
    · exact (Cert.KernelIdeal.KChain.v5_kept m ρ c).trans e5
  · refine (θ_run Cert.ReferenceIdeal.defs _ _).mono (fun r h c => ?_) (Cert.ReferenceIdeal.RefRun.run m' ρ')
    obtain ⟨h149, h22, hargs⟩ := h c
    obtain ⟨a0, a1, a2, a3, a4, a5, a6, a7, a8, a9, a10, a11, a12, a13, a14, a15, a16, a17, a18, a19, a20⟩ := hagree c
    refine ⟨h149.trans ?_, h22.trans ?_, hargs⟩
    · rw [a0, a1, a2, a3, a4, a5, a10, a11, a12, a13, a14, a15, a16, a17, a18, a19, a20]
    · rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
